-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![256]⟩ ⟨1, ![2048]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S512x256 .f32) (main_arg1 : FVec F S256 .f32) (main_arg2 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Pre_finite_inputs_ReferenceIdeal.lean ====
abbrev S512x2048 : Shape := ⟨2, ![512, 2048]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S512x2048 .f32) (main_arg1 : FVec F S2048 .f32) (main_arg2 : FVec F S2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S512x256 : Shape := ⟨2, ![512, 256]⟩
abbrev S256 : Shape := ⟨1, ![256]⟩
abbrev S8x2x512 : Shape := ⟨3, ![8, 2, 512]⟩
abbrev S7 : Shape := ⟨1, ![7]⟩
abbrev S8 : Shape := ⟨1, ![8]⟩
abbrev S_ : Shape := ⟨0, ![]⟩
abbrev S512 : Shape := ⟨1, ![512]⟩
abbrev S1x1x512 : Shape := ⟨3, ![1, 1, 512]⟩
abbrev S1 : Shape := ⟨1, ![1]⟩
abbrev S1x2x512 : Shape := ⟨3, ![1, 2, 512]⟩
abbrev S2x512 : Shape := ⟨2, ![2, 512]⟩
abbrev S1x256 : Shape := ⟨2, ![1, 256]⟩
abbrev S1x512 : Shape := ⟨2, ![1, 512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S256, .f32⟩
  | .hbm, ⟨3, _⟩ => ⟨S512x256, .f32⟩
  | .local _ .vmem, ⟨0, _⟩ => ⟨S512x256, .f32⟩
  | .local _ .vmem, ⟨1, _⟩ => ⟨S256, .f32⟩
  | .local _ .vmem, ⟨2, _⟩ => ⟨S256, .f32⟩
  | .local _ .vmem, ⟨3, _⟩ => ⟨S512x256, .f32⟩
  | .local _ .vmem, ⟨4, _⟩ => ⟨S8x2x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : Index := Scalar.indexCast v2
  let c0_30 : Index := 0#32
  let c0_31 : Index := 0#32
  ![v37.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v41 : Index := Scalar.indexCast v2
  let c1 : Index := 1#32
  let c0_32 : Index := 0#32
  ![v41.toNat, 1, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_39 : BitVec 32 := 0#32
  let c0_i32_40 : BitVec 32 := 0#32
  ![v2.toNat, 0, 0]
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_34 : BitVec 32 := 4#32
  let v45 : BitVec 32 := Scalar.addi v2 c4_i32_34
  let c8_i32_35 : BitVec 32 := 8#32
  let v46 : BitVec 32 := Scalar.remsi v45 c8_i32_35
  let c1_i32_37 : BitVec 32 := 1#32
  let v47 : BitVec 32 := Scalar.muli v46 c1_i32_37
  let v48 : BitVec 32 := Scalar.addi c0_i32_38 v47
  v48.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_43 : BitVec 32 := 3#32
  let v57 : BitVec 32 := Scalar.addi v2 c3_i32_43
  let c8_i32_44 : BitVec 32 := 8#32
  let v58 : BitVec 32 := Scalar.remsi v57 c8_i32_44
  let c1_i32_46 : BitVec 32 := 1#32
  let v59 : BitVec 32 := Scalar.muli v58 c1_i32_46
  let v60 : BitVec 32 := Scalar.addi c0_i32_47 v59
  v60.toNat
def k0_dev10 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_52 : BitVec 32 := 5#32
  let v69 : BitVec 32 := Scalar.addi v2 c5_i32_52
  let c8_i32_53 : BitVec 32 := 8#32
  let v70 : BitVec 32 := Scalar.remsi v69 c8_i32_53
  let c1_i32_55 : BitVec 32 := 1#32
  let v71 : BitVec 32 := Scalar.muli v70 c1_i32_55
  let v72 : BitVec 32 := Scalar.addi c0_i32_56 v71
  v72.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v81 : BitVec 32 := Scalar.addi v2 c2_i32_61
  let c8_i32_62 : BitVec 32 := 8#32
  let v82 : BitVec 32 := Scalar.remsi v81 c8_i32_62
  let c1_i32_64 : BitVec 32 := 1#32
  let v83 : BitVec 32 := Scalar.muli v82 c1_i32_64
  let v84 : BitVec 32 := Scalar.addi c0_i32_65 v83
  v84.toNat
def k0_dev12 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_70 : BitVec 32 := 6#32
  let v93 : BitVec 32 := Scalar.addi v2 c6_i32_70
  let c8_i32_71 : BitVec 32 := 8#32
  let v94 : BitVec 32 := Scalar.remsi v93 c8_i32_71
  let c1_i32_73 : BitVec 32 := 1#32
  let v95 : BitVec 32 := Scalar.muli v94 c1_i32_73
  let v96 : BitVec 32 := Scalar.addi c0_i32_74 v95
  v96.toNat
def k0_dev13 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let v105 : BitVec 32 := Scalar.addi v2 c1_i32_79
  let c8_i32_80 : BitVec 32 := 8#32
  let v106 : BitVec 32 := Scalar.remsi v105 c8_i32_80
  let c1_i32_82 : BitVec 32 := 1#32
  let v107 : BitVec 32 := Scalar.muli v106 c1_i32_82
  let v108 : BitVec 32 := Scalar.addi c0_i32_83 v107
  v108.toNat
def k0_dev14 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_88 : BitVec 32 := 7#32
  let v117 : BitVec 32 := Scalar.addi v2 c7_i32_88
  let c8_i32_89 : BitVec 32 := 8#32
  let v118 : BitVec 32 := Scalar.remsi v117 c8_i32_89
  let c1_i32_91 : BitVec 32 := 1#32
  let v119 : BitVec 32 := Scalar.muli v118 c1_i32_91
  let v120 : BitVec 32 := Scalar.addi c0_i32_92 v119
  v120.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v136 : Index := Scalar.indexCast v2
  let c0_99 : Index := 0#32
  let c0_100 : Index := 0#32
  ![v136.toNat, 0, 0]
def k0_off6 (d0 : Dev nD) (c1_i32_101 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v139 : BitVec 32 := Scalar.addi v2 c1_i32_101
  let c8_i32_102 : BitVec 32 := 8#32
  let v140 : BitVec 32 := Scalar.remsi v139 c8_i32_102
  ![v140.toNat]
def k0_off7 (d0 : Dev nD) (c1_i32_101 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v139 : BitVec 32 := Scalar.addi v2 c1_i32_101
  let c8_i32_102 : BitVec 32 := 8#32
  let v140 : BitVec 32 := Scalar.remsi v139 c8_i32_102
  let c0_i32_106 : BitVec 32 := 0#32
  let c0_i32_107 : BitVec 32 := 0#32
  ![v140.toNat, 0, 0]
def k0_off8 (d0 : Dev nD) (c1_i32_101 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v139 : BitVec 32 := Scalar.addi v2 c1_i32_101
  let c8_i32_102 : BitVec 32 := 8#32
  let v140 : BitVec 32 := Scalar.remsi v139 c8_i32_102
  let v149 : Index := Scalar.indexCast v140
  let c0_110 : Index := 0#32
  let c0_111 : Index := 0#32
  ![v149.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  h_S1x1x512 : 0 < S1x1x512.numel
  shapeCasts_S1x1x512_S512 : S1x1x512.ShapeCasts S512
  shapeCasts_S512_S1x1x512 : S512.ShapeCasts S1x1x512
  hamt_7 : (7#32 : BitVec 32).msb = false
  inb_S7_S1_3 : ∀ a, (![3] : Fin 1 → Nat) a + S1.size a ≤ S7.size a
  squeezes_S1_S_ : S1.Squeezes S_
  squeezes_S1x2x512_S2x512 : S1x2x512.Squeezes S2x512
  inb_S7_S1_2 : ∀ a, (![2] : Fin 1 → Nat) a + S1.size a ≤ S7.size a
  inb_S7_S1_4 : ∀ a, (![4] : Fin 1 → Nat) a + S1.size a ≤ S7.size a
  inb_S7_S1_1 : ∀ a, (![1] : Fin 1 → Nat) a + S1.size a ≤ S7.size a
  inb_S7_S1_5 : ∀ a, (![5] : Fin 1 → Nat) a + S1.size a ≤ S7.size a
  inb_S7_S1_0 : ∀ a, (![0] : Fin 1 → Nat) a + S1.size a ≤ S7.size a
  inb_S7_S1_6 : ∀ a, (![6] : Fin 1 → Nat) a + S1.size a ≤ S7.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  h_S1x2x512 : 0 < S1x2x512.numel
  shapeCasts_S1x2x512_S2x512 : S1x2x512.ShapeCasts S2x512
  slices_S2x512_o0_0_S1x512 : S2x512.Slices ![0, 0] S1x512
  shapeCasts_S1x512_S512 : S1x512.ShapeCasts S512
  slices_S2x512_o1_0_S1x512 : S2x512.Slices ![1, 0] S1x512
  shapeCasts_S512_S512x1 : S512.ShapeCasts S512x1
  broadcasts_S512x1_S512x256 : S512x1.Broadcasts S512x256
  hcc0_scratch1 : 4 + S7.numel ≤ 19
  hcc0_scratch2 : 11 + S8.numel ≤ 19
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x1x512.size a ≤ S8x2x512.size a
  k0_off2_inb : ∀ d0 : Dev nD, ∀ a, (k0_off2 d0) a + S1x1x512.size a ≤ S8x2x512.size a
  k0_off3_inb : ∀ d0 : Dev nD, ∀ a, (k0_off3 d0) a + S1.size a ≤ S8.size a
  k0_off4_inb : ∀ d0 : Dev nD, ∀ a, (k0_off4 d0) a + S1x2x512.size a ≤ S8x2x512.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off5_inb : ∀ d0 : Dev nD, ∀ a, (k0_off5 d0) a + S1x2x512.size a ≤ S8x2x512.size a
  k0_off6_inb : ∀ d0 : Dev nD, ∀ (r : Fin 7), ∀ a, (k0_off6 d0 (BitVec.ofNat 32 (1 + r.val))) a + S1.size a ≤ S8.size a
  k0_off7_inb : ∀ d0 : Dev nD, ∀ (r : Fin 7), ∀ a, (k0_off7 d0 (BitVec.ofNat 32 (1 + r.val))) a + S1x2x512.size a ≤ S8x2x512.size a
  k0_off8_inb : ∀ d0 : Dev nD, ∀ (r : Fin 7), ∀ a, (k0_off8 d0 (BitVec.ofNat 32 (1 + r.val))) a + S1x2x512.size a ≤ S8x2x512.size a
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch1 : DmaSems sig S7 := SemArray.consecutive 4 S7 hcc0_scratch1
abbrev cc0_scratch2 : DmaSems sig S8 := SemArray.consecutive 11 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x2048 : Shape := ⟨2, ![512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .i32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S512, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S512x1, .f32⟩
  | .hbm, ⟨32, _⟩ => ⟨S512x1, .f32⟩
  | .hbm, ⟨33, _⟩ => ⟨S512x2048, .f32⟩
  | .hbm, ⟨34, _⟩ => ⟨S512x2048, .f32⟩
  | .hbm, ⟨35, _⟩ => ⟨S1x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x2048, .f32⟩
  | .hbm, ⟨43, _⟩ => ⟨S512x2048, .f32⟩
  | .hbm, ⟨44, _⟩ => ⟨S1x2048, .f32⟩
  | .hbm, ⟨45, _⟩ => ⟨S512x2048, .f32⟩
  | .hbm, ⟨46, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]

class Facts₀ : Prop where
  reducesTo_S512x2048_S512_d1 : S512x2048.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x2048_0_1 : S512x1.BroadcastsInDim S512x2048 (![0, 1] : Fin 2 → Fin S512x2048.rank)
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)

variable [Facts₀]

class Facts : Prop extends Facts₀ where

variable [Facts]
-- ==== Proof.ProtoBase.lean ====
/-
  Layer normalisation over columns cut across eight devices: the exchange of the per-device row sums.

  Every device holds 256 of the 2048 columns. It computes, for each of the 512 rows, the sum of its columns and the sum of
  their squares (two rows of 512 numbers, "its statistics"), stores them in slot `c` of an 8-slot scratch array, and sends
  that slot to slot `c` of the scratch array of each of the seven other devices. A device adds the eight slots it ends up
  holding. Before any copy is sent, every device tells each of the seven others, on the barrier semaphore, that it has
  entered the kernel; that signal is also what hands the sender the right to write the slot it will fill.

  This file fixes the vocabulary of that exchange: the ring arithmetic, the semaphore cells, the slot regions of the scratch
  array and what they hold, and the schedule of duties: per barrier cell seven unit signals, one from each peer, each carrying
  the peer's slot for this device; per send cell and per receive cell one copy of a slot's credit.
-/
import proofs.«900544_g7700000000000545_dist_layernorm_colshard_i_m512_n256_v7x_i8_f32_1_alg».proof.Proof.Gen.KernelIdeal
import proofs.«900544_g7700000000000545_dist_layernorm_colshard_i_m512_n256_v7x_i8_f32_1_alg».proof.Proof.Gen.KernelIdeal.Skeleton
import proofs.«900544_g7700000000000545_dist_layernorm_colshard_i_m512_n256_v7x_i8_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra (one duty per round) and the exchange's (seven) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

/-- The device at ring distance `d` after `c`. -/
def nb (c : Dev nD) (d : ℕ) : Dev nD := ⟨(c.val + d) % 8, Nat.mod_lt _ (by decide)⟩

theorem nb_nb (c : Dev nD) : ∀ j : Fin 7, nb (nb c (j.val + 1)) (7 - j.val) = c := by revert c; decide
theorem nb_nb' (c : Dev nD) : ∀ j : Fin 7, nb (nb c (7 - j.val)) (j.val + 1) = c := by revert c; decide
theorem nb_ne (c : Dev nD) : ∀ j : Fin 7, nb c (j.val + 1) ≠ c := by revert c; decide
theorem nb_inj (c : Dev nD) : ∀ i j : Fin 7, nb c (i.val + 1) = nb c (j.val + 1) → i = j := by revert c; decide

/-- Going `d` steps round the ring is a bijection of the devices. -/
def ring (j : Fin 7) : Dev nD ≃ Dev nD :=
  ⟨fun c => nb c (j.val + 1), fun c => nb c (7 - j.val), fun c => nb_nb c j, fun c => nb_nb' c j⟩

/-- The kernel's device chains: the seven signals go to distances 1 … 7, the seven copies to distances 4, 3, 5, 2, 6, 1, 7. -/
theorem dev1_eq (c : Dev nD) : (⟨k0_dev1 c, k0_dev1_lt c⟩ : Dev nD) = nb c 1 := Fin.ext (k0_dev1_eq c)
theorem dev2_eq (c : Dev nD) : (⟨k0_dev2 c, k0_dev2_lt c⟩ : Dev nD) = nb c 2 := Fin.ext (k0_dev2_eq c)
theorem dev3_eq (c : Dev nD) : (⟨k0_dev3 c, k0_dev3_lt c⟩ : Dev nD) = nb c 3 := Fin.ext (k0_dev3_eq c)
theorem dev4_eq (c : Dev nD) : (⟨k0_dev4 c, k0_dev4_lt c⟩ : Dev nD) = nb c 4 := Fin.ext (k0_dev4_eq c)
theorem dev5_eq (c : Dev nD) : (⟨k0_dev5 c, k0_dev5_lt c⟩ : Dev nD) = nb c 5 := Fin.ext (k0_dev5_eq c)
theorem dev6_eq (c : Dev nD) : (⟨k0_dev6 c, k0_dev6_lt c⟩ : Dev nD) = nb c 6 := Fin.ext (k0_dev6_eq c)
theorem dev7_eq (c : Dev nD) : (⟨k0_dev7 c, k0_dev7_lt c⟩ : Dev nD) = nb c 7 := Fin.ext (k0_dev7_eq c)
theorem dev8_eq (c : Dev nD) : (⟨k0_dev8 c, k0_dev8_lt c⟩ : Dev nD) = nb c 4 := Fin.ext (k0_dev8_eq c)
theorem dev9_eq (c : Dev nD) : (⟨k0_dev9 c, k0_dev9_lt c⟩ : Dev nD) = nb c 3 := Fin.ext (k0_dev9_eq c)
theorem dev10_eq (c : Dev nD) : (⟨k0_dev10 c, k0_dev10_lt c⟩ : Dev nD) = nb c 5 := Fin.ext (k0_dev10_eq c)
theorem dev11_eq (c : Dev nD) : (⟨k0_dev11 c, k0_dev11_lt c⟩ : Dev nD) = nb c 2 := Fin.ext (k0_dev11_eq c)
theorem dev12_eq (c : Dev nD) : (⟨k0_dev12 c, k0_dev12_lt c⟩ : Dev nD) = nb c 6 := Fin.ext (k0_dev12_eq c)
theorem dev13_eq (c : Dev nD) : (⟨k0_dev13 c, k0_dev13_lt c⟩ : Dev nD) = nb c 1 := Fin.ext (k0_dev13_eq c)
theorem dev14_eq (c : Dev nD) : (⟨k0_dev14 c, k0_dev14_lt c⟩ : Dev nD) = nb c 7 := Fin.ext (k0_dev14_eq c)

/-! ## The semaphores and their cells -/

/-- The runtime's barrier semaphore of collective id 0. -/
abbrev barS : Sem sig := (SemArray.scalar (sig.barrier 0 rfl) : Sems sig S_).sem
/-- The send semaphore of the copy to distance `j + 1`, and the receive semaphore for the copy from device `s`. -/
def sendS (j : Fin 7) : DmaSem sig := ⟨4 + j.val, by have := j.isLt; show 4 + j.val < 19; omega⟩
def recvS (s : Dev nD) : DmaSem sig := ⟨11 + s.val, by have h := s.isLt; show 11 + s.val < 19; change s.val < 8 at h; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (s : Dev nD) : GSem nD τ sig := ((c : Thread nD τ), .dma (recvS s))

/-- The semaphore views the body names are these cells' semaphores. -/
theorem send_sem_0 : ((cc0_scratch1.slice (Rect.unit (s := S7) ![0] S1.size inb_S7_S1_0)).squeeze S_ squeezes_S1_S_).sem = sendS 0 := by decide
theorem send_sem_1 : ((cc0_scratch1.slice (Rect.unit (s := S7) ![1] S1.size inb_S7_S1_1)).squeeze S_ squeezes_S1_S_).sem = sendS 1 := by decide
theorem send_sem_2 : ((cc0_scratch1.slice (Rect.unit (s := S7) ![2] S1.size inb_S7_S1_2)).squeeze S_ squeezes_S1_S_).sem = sendS 2 := by decide
theorem send_sem_3 : ((cc0_scratch1.slice (Rect.unit (s := S7) ![3] S1.size inb_S7_S1_3)).squeeze S_ squeezes_S1_S_).sem = sendS 3 := by decide
theorem send_sem_4 : ((cc0_scratch1.slice (Rect.unit (s := S7) ![4] S1.size inb_S7_S1_4)).squeeze S_ squeezes_S1_S_).sem = sendS 4 := by decide
theorem send_sem_5 : ((cc0_scratch1.slice (Rect.unit (s := S7) ![5] S1.size inb_S7_S1_5)).squeeze S_ squeezes_S1_S_).sem = sendS 5 := by decide
theorem send_sem_6 : ((cc0_scratch1.slice (Rect.unit (s := S7) ![6] S1.size inb_S7_S1_6)).squeeze S_ squeezes_S1_S_).sem = sendS 6 := by decide
theorem recv_sem_own : ∀ c : Dev nD, ((cc0_scratch2.slice (Rect.unit (s := S8) (k0_off3 c) S1.size (k0_off3_inb c))).squeeze S_ squeezes_S1_S_).sem = recvS c := by decide
theorem recv_sem_nb : ∀ (c : Dev nD) (r : Fin 7), ((cc0_scratch2.slice (Rect.unit (s := S8) (k0_off6 c (BitVec.ofNat 32 (1 + r.val))) S1.size (k0_off6_inb c r))).squeeze S_ squeezes_S1_S_).sem = recvS (nb c (r.val + 1)) := by decide

/-- The kernel's OWN (scoped) semaphores as the launch indexes them: the seven send semaphores, then the eight receive ones; -/
def osem : Fin 15 → SemLoc sig := fun i => if h : i.val < 7 then .dma (sendS ⟨i.val, h⟩) else .dma (recvS ⟨i.val - 7, by have := i.isLt; show i.val - 7 < 8; omega⟩)
/-- all sixteen cells of a device as this proof indexes them: the barrier, then the own ones. -/
def csem : Fin 16 → SemLoc sig := fun i => if h : i.val = 0 then .reg barS else osem ⟨i.val - 1, by have := i.isLt; omega⟩
abbrev kcell (ck : Dev nD × Fin 16) : GSem nD τ sig := ((ck.1 : Thread nD τ), csem ck.2)

/-! ## The scratch array, its slots, and what they hold -/

abbrev scrM : Memref sig .tc .vmem S8x2x512 .f32 := Memref.whole cc0_scratch0
abbrev xM : Memref sig .tc .vmem S512x256 .f32 := Memref.whole cc0_stg0_0
abbrev gM : Memref sig .tc .vmem S256 .f32 := Memref.whole cc0_stg1_0
abbrev bM : Memref sig .tc .vmem S256 .f32 := Memref.whole cc0_stg2_0
abbrev oM : Memref sig .tc .vmem S512x256 .f32 := Memref.whole cc0_stg3_0

/-- Slot `s` of the scratch array as the copies address it: a 2 × 512 view. -/
abbrev slotM (s : Dev nD) : Memref sig .tc .vmem S2x512 .f32 :=
  (scrM.slice (Rect.unit (s := S8x2x512) (k0_off4 s) S1x2x512.size (k0_off4_inb s)) (fun _ => rfl)).squeeze S2x512 squeezes_S1x2x512_S2x512

/-- The credit of one slot's copy. -/
abbrev N : ℕ := (slotM (0 : Dev nD)).view.dmaCredit

/-- Device `c`'s block of `x`, and of the scale and the shift, as the pipeline stages them. -/
def xstg (c : Dev nD) : (cc0_stg0_0 : Ref sig .tc).ty.Contents (Elt F) :=
  (win0_0.blk (0 : Fin 1)).view.read (Elt F) (m ((c : Thread nD τ).loc main_arg0))
def gstg (c : Dev nD) : (cc0_stg1_0 : Ref sig .tc).ty.Contents (Elt F) :=
  (win0_1.blk (0 : Fin 1)).view.read (Elt F) (m ((c : Thread nD τ).loc main_arg1))
def bstg (c : Dev nD) : (cc0_stg2_0 : Ref sig .tc).ty.Contents (Elt F) :=
  (win0_2.blk (0 : Fin 1)).view.read (Elt F) (m ((c : Thread nD τ).loc main_arg2))

/-! ## What the slots hold -/

/-- The whole-block rectangles of the staged operands. -/
abbrev rX : Rect S512x256 := Rect.unit (s := S512x256) ![0, 0] S512x256.size inb_S512x256_S512x256_0_0
abbrev rV : Rect S256 := Rect.unit (s := S256) ![0] S256.size inb_S256_S256_0
/-- The two rows of slot `s`: the row sums, the row sums of squares. -/
abbrev r1 (s : Dev nD) : Rect S8x2x512 := Rect.unit (s := S8x2x512) (k0_off1 s) S1x1x512.size (k0_off1_inb s)
abbrev r2 (s : Dev nD) : Rect S8x2x512 := Rect.unit (s := S8x2x512) (k0_off2 s) S1x1x512.size (k0_off2_inb s)
/-- Slot `s` whole, as the loads address it: a device's own slot, and the slot of the peer at distance `r + 1`. -/
abbrev rOwn (s : Dev nD) : Rect S8x2x512 := Rect.unit (s := S8x2x512) (k0_off5 s) S1x2x512.size (k0_off5_inb s)
abbrev rPeer (c : Dev nD) (r : Fin 7) : Rect S8x2x512 :=
  Rect.unit (s := S8x2x512) (k0_off8 c (BitVec.ofNat 32 (1 + r.val))) S1x2x512.size (k0_off8_inb c r)

/-- Device `s`'s block of `x` as its load returns it. -/
def xv (s : Dev nD) : Vec F S512x256 .f32 := (xM : Memref sig .tc .vmem S512x256 .f32).view.readAt (Elt F) rX.toLoadRect (xstg m s)

/-- The scratch array after device `s` has stored its two rows of statistics over contents `f`. -/
def ownStats (s : Dev nD) (f : (cc0_scratch0 : Ref sig .tc).ty.Contents (Elt F)) : (cc0_scratch0 : Ref sig .tc).ty.Contents (Elt F) :=
  ((scrM : Memref sig .tc .vmem S8x2x512 .f32).access (r2 s) : View sig .tc _ _ _).write (Elt F)
    (((scrM : Memref sig .tc .vmem S8x2x512 .f32).access (r1 s) : View sig .tc _ _ _).write (Elt F) f (k0_pay2 (xv m s)) Finset.univ)
    (k0_pay3 (xv m s)) Finset.univ

/-- The scratch array every device ends up holding: slot `s` holds device `s`'s two rows of statistics. The same function
    on every device. (Over any contents: a slot's two rows cover it.) -/
def allStats [∀ e, Nonempty (Elt F e)] : (cc0_scratch0 : Ref sig .tc).ty.Contents (Elt F) :=
  fun i => ownStats m (⟨(i (0 : Fin 3)).val, (i (0 : Fin 3)).isLt⟩ : Dev nD) (fun _ => Classical.arbitrary _) i

/-- Device `c` holds the elements of slot `s` of its scratch array, at share `q` and contents `f`. -/
def slotPts (c s : Dev nD) (q : PosShare TreeShare) (f : Buf (Elt F) ((slotM s).view.loc (c : Thread nD τ))) : sProp 𝕄 :=
  (slotM s).view.loc (c : Thread nD τ) ↦[(slotM s).view.set]{q} f

/-! ## The kernel's result on a device, as one pure term of the launch memory -/

section Result
variable [∀ e, Nonempty (Elt F e)]

/-- What device `c`'s loads of its scale and shift return. -/
def gv (c : Dev nD) : Vec F S256 .f32 := (gM : Memref sig .tc .vmem S256 .f32).view.readAt (Elt F) rV.toLoadRect (gstg m c)
def bv (c : Dev nD) : Vec F S256 .f32 := (bM : Memref sig .tc .vmem S256 .f32).view.readAt (Elt F) rV.toLoadRect (bstg m c)
/-- What its loads of its own slot and of the slot of the peer at distance `r + 1` return, once all slots are in. -/
def ownRows (c : Dev nD) : Vec F S1x2x512 .f32 :=
  (scrM : Memref sig .tc .vmem S8x2x512 .f32).view.readAt (Elt F) (rOwn c).toLoadRect (allStats m)
def peerRows (c : Dev nD) (r : Fin 7) : Vec F S1x2x512 .f32 :=
  (scrM : Memref sig .tc .vmem S8x2x512 .f32).view.readAt (Elt F) (rPeer c r).toLoadRect (allStats m)

/-- The eight slots added in the kernel's order: own, then the peers at distances 1, 7, 2, 6, 3, 5 (4 is added inside the
    last payload). -/
def tot6 (c : Dev nD) : FVec F S2x512 .f32 :=
  k0_pay9 (k0_pay8 (k0_pay7 (ownRows m c) (peerRows m c 0)) (peerRows m c 6) (peerRows m c 1)) (peerRows m c 5) (peerRows m c 2)

/-- The block device `c` stores as its result. -/
def outAt (c : Dev nD) : (cc0_stg3_0 : Ref sig .tc).ty.Contents (Elt F) :=
  k0_pay12 (k0_pay10 (k0_pay4 (gv m c)) (k0_pay6 (k0_pay1 (xv m c)) (gv m c)) (tot6 m c) (peerRows m c 4) (peerRows m c 3))
    (k0_pay11 (k0_pay5 (bv m c)))

end Result

end Cert.KernelIdeal.Proto

end
-- ==== Proof.ProtoSched.lean ====
/-
  The schedule of the statistics exchange among the eight devices, and what each device holds and owes at the kernel's entry.

  Cells. Device `c` owns sixteen semaphore cells: its barrier cell, seven send cells (one per copy it issues, to the peers at
  ring distances 1 … 7) and eight receive cells (one per possible sender; the one numbered `c` is never used).
  Duties, all in round 0. The barrier cell has seven unit duties: duty `j` is paid by the peer `p` with `c` at distance
  `j + 1` after it, and hands `c` slot `c` of `p`'s scratch array — the slot `c` will copy its statistics into. A send
  cell has one duty, the copy's credit, returning the read share of the source slot lent to that copy. The receive cell for
  sender `s` has one duty, the copy's credit, handing `c` slot `s` of its own array filled with `s`'s statistics.
  Levels: staging and send cells 0, barrier cells 1, receive cells 2; a device waits on its barrier cell while it still owes
  the seven copies, and on everything else owing nothing.
-/
import proofs.«900544_g7700000000000545_dist_layernorm_colshard_i_m512_n256_v7x_i8_f32_1_alg».proof.Proof.ProtoBase

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## Payloads -/

/-- The read share of its own slot a device lends to its copy number `j`. -/
abbrev sendShare (j : Fin 7) : PosShare TreeShare := Transfers.shareTok fullShare 7 j
/-- What it keeps for its own load. -/
abbrev keptShare : PosShare TreeShare := Transfers.shareDrop fullShare 7

/-- Duty `j` of `t`'s barrier cell: the payer is the device `t` lies `j + 1` after; it hands over its slot `t`. -/
def barPay (t : Dev nD) (j : Fin 7) : sProp 𝕄 := iprop(∃ f, slotPts (nb t (7 - j.val)) t fullShare f)
/-- The landing of `s`'s copy on `c`: slot `s` of `c`'s array holds `s`'s statistics. -/
def recvPay (c s : Dev nD) : sProp 𝕄 := slotPts c s fullShare (allStats m)
/-- The completion of `c`'s copy number `j`: the read share of its own slot comes back. -/
def sendPay (c : Dev nD) (j : Fin 7) : sProp 𝕄 := slotPts c c (sendShare j) (allStats m)

/-! ## The schedule -/

def rdDuties (g : GSem nD τ sig) (r : ℕ) : Finset (Fin 7) :=
  if r = 0 ∧ g.1.2 = .tc then
    (match g.2 with
      | .reg s => if s = barS then Finset.univ else ∅
      | .dma q => if 4 ≤ q.val ∧ (q.val < 11 ∨ q.val ≠ 11 + g.1.1.val) then {0} else ∅)
  else ∅

def rdAmount (g : GSem nD τ sig) : ℕ := match g.2 with | .reg _ => 1 | .dma _ => N

def rdPayload (g : GSem nD τ sig) (d : Fin 7) : sProp 𝕄 :=
  match g.2 with
  | .reg _ => barPay g.1.1 d
  | .dma q =>
    if h : q.val < 11 then (if h4 : 4 ≤ q.val then sendPay m g.1.1 ⟨q.val - 4, by omega⟩ else iprop(emp))
    else recvPay m g.1.1 (⟨q.val - 11, by have := q.isLt; show q.val - 11 < 8; change q.val < 19 at this; omega⟩ : Dev nD)

theorem N_pos : 0 < N := View.dmaCredit_pos _ (by decide)

def Rd : Rounds.Schedule (GSem nD τ sig) (Fin 7) 𝕄 where
  duties := rdDuties
  unitless _ := False
  amount g _ _ := rdAmount g
  payload g _ d := rdPayload m g d
  amount_pos g _ _ _ := by
    unfold rdAmount
    split
    · exact Nat.one_pos
    · exact N_pos

instance Rd_payload_storable (g : GSem nD τ sig) (r : ℕ) (d : Fin 7) :
    BI.Storable (upEmb : UEmb _ 𝕄) ((Rd (F := F) m).payload g r d) := by
  show BI.Storable upEmb (rdPayload m g d)
  unfold rdPayload barPay recvPay sendPay slotPts
  (repeat' split) <;> infer_instance

/-! ## The tables, cell by cell -/

section Sched
variable (c : Dev nD)

theorem kcell_bar : kcell (c, (0 : Fin 16)) = barCell c := rfl
theorem kcell_send (j : Fin 7) : kcell (c, (⟨j.val + 1, by omega⟩ : Fin 16)) = sendCell c j := by
  show ((c : Thread nD τ), csem (⟨j.val + 1, _⟩ : Fin 16)) = ((c : Thread nD τ), SemLoc.dma (sendS j))
  refine congrArg (Prod.mk (c : Thread nD τ)) ?_
  unfold csem osem
  rw [dif_neg (Nat.succ_ne_zero j.val), dif_pos (show j.val + 1 - 1 < 7 from by have := j.isLt; omega)]
  exact congrArg SemLoc.dma (congrArg sendS (Fin.ext (show j.val + 1 - 1 = j.val from by omega)))
theorem kcell_recv (s : Dev nD) : kcell (c, (⟨s.val + 8, by have h := s.isLt; change s.val < 8 at h; omega⟩ : Fin 16)) = recvCell c s := by
  have hs : s.val < 8 := s.isLt
  show ((c : Thread nD τ), csem (⟨s.val + 8, _⟩ : Fin 16)) = ((c : Thread nD τ), SemLoc.dma (recvS s))
  refine congrArg (Prod.mk (c : Thread nD τ)) ?_
  unfold csem osem
  rw [dif_neg (show ¬ s.val + 8 = 0 from by omega), dif_neg (show ¬ s.val + 8 - 1 < 7 from by omega)]
  exact congrArg SemLoc.dma (congrArg recvS (Fin.ext (show s.val + 8 - 1 - 7 = s.val from by omega)))
theorem osem_send (j : Fin 7) : osem (⟨j.val, by omega⟩ : Fin 15) = .dma (sendS j) := by
  unfold osem
  rw [dif_pos (show j.val < 7 from j.isLt)]
theorem osem_recv (s : Dev nD) : osem (⟨s.val + 7, by have h := s.isLt; change s.val < 8 at h; omega⟩ : Fin 15) = .dma (recvS s) := by
  unfold osem
  rw [dif_neg (show ¬ s.val + 7 < 7 from by omega)]
  exact congrArg SemLoc.dma (congrArg recvS (Fin.ext (show s.val + 7 - 7 = s.val from by omega)))

theorem duties_bar : (Rd (F := F) m).duties (barCell c) 0 = Finset.univ := by
  show rdDuties (barCell c) 0 = Finset.univ
  unfold rdDuties
  rw [if_pos ⟨rfl, rfl⟩]
  exact if_pos rfl
theorem duties_send (j : Fin 7) : (Rd (F := F) m).duties (sendCell c j) 0 = {0} := by
  show rdDuties (sendCell c j) 0 = {0}
  unfold rdDuties
  rw [if_pos ⟨rfl, rfl⟩]
  exact if_pos ⟨show 4 ≤ 4 + j.val from Nat.le_add_right 4 _, Or.inl (show 4 + j.val < 11 from by have := j.isLt; omega)⟩
theorem duties_recv (s : Dev nD) (h : s ≠ c) : (Rd (F := F) m).duties (recvCell c s) 0 = {0} := by
  show rdDuties (recvCell c s) 0 = {0}
  unfold rdDuties
  rw [if_pos ⟨rfl, rfl⟩]
  exact if_pos ⟨show 4 ≤ 11 + s.val from by omega,
    Or.inr (show 11 + s.val ≠ 11 + c.val from fun h' => h (Fin.ext (Nat.add_left_cancel h')))⟩
theorem duties_recv_self : ∀ r, (Rd (F := F) m).duties (recvCell c c) r = ∅ := by
  intro r
  show rdDuties (recvCell c c) r = ∅
  unfold rdDuties
  by_cases hr : r = 0 ∧ (recvCell c c).1.2 = .tc
  · rw [if_pos hr]
    exact if_neg (show ¬ (4 ≤ 11 + c.val ∧ (11 + c.val < 11 ∨ 11 + c.val ≠ 11 + c.val)) from
      fun h => h.2.elim (fun h1 => absurd h1 (by omega)) (fun h2 => h2 rfl))
  · exact if_neg hr
theorem duties_later (g : GSem nD τ sig) : ∀ r, 1 ≤ r → (Rd (F := F) m).duties g r = ∅ := by
  intro r hr
  show rdDuties g r = ∅
  unfold rdDuties
  exact if_neg (fun h => by have := h.1; omega)

theorem amount_bar (d : Fin 7) : (Rd (F := F) m).amount (barCell c) 0 d = 1 := rfl
theorem amount_send (j : Fin 7) (d : Fin 7) : (Rd (F := F) m).amount (sendCell c j) 0 d = N := rfl
theorem amount_recv (s : Dev nD) (d : Fin 7) : (Rd (F := F) m).amount (recvCell c s) 0 d = N := rfl

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send (j : Fin 7) : (Rd (F := F) m).expect (sendCell c j) 0 = N := by
  unfold Schedule.expect Schedule.amountOf
  rw [duties_send, Finset.sum_singleton, amount_send]
theorem expect_recv (s : Dev nD) (h : s ≠ c) : (Rd (F := F) m).expect (recvCell c s) 0 = N := by
  unfold Schedule.expect Schedule.amountOf
  rw [duties_recv m c s h, Finset.sum_singleton, amount_recv]

theorem payload_bar (j : Fin 7) : (Rd (F := F) m).payload (barCell c) 0 j = barPay c j := rfl
theorem payload_send (j : Fin 7) (d : Fin 7) : (Rd (F := F) m).payload (sendCell c j) 0 d = sendPay m c j := by
  show rdPayload m (sendCell c j) d = sendPay m c j
  unfold rdPayload
  show (if h : (sendS j).val < 11 then (if h4 : 4 ≤ (sendS j).val then sendPay m c ⟨(sendS j).val - 4, by omega⟩ else iprop(emp))
    else recvPay m c _) = sendPay m c j
  rw [dif_pos (show (sendS j).val < 11 from (show 4 + j.val < 11 from by have := j.isLt; omega)),
    dif_pos (show 4 ≤ (sendS j).val from (show 4 ≤ 4 + j.val from Nat.le_add_right 4 _))]
  exact congrArg (sendPay m c) (Fin.ext (show 4 + j.val - 4 = j.val from by omega))
theorem payload_recv (s : Dev nD) (d : Fin 7) : (Rd (F := F) m).payload (recvCell c s) 0 d = recvPay m c s := by
  show rdPayload m (recvCell c s) d = recvPay m c s
  unfold rdPayload
  show (if h : (recvS s).val < 11 then (if h4 : 4 ≤ (recvS s).val then sendPay m c ⟨(recvS s).val - 4, by omega⟩ else iprop(emp))
    else recvPay m c _) = recvPay m c s
  rw [dif_neg (show ¬ (recvS s).val < 11 from (show ¬ 11 + s.val < 11 from by omega))]
  exact congrArg (recvPay m c) (Fin.ext (show 11 + s.val - 11 = s.val from by omega))

/-- The rest of the barrier cell's round, no duty taken: the seven peers' slots. -/
theorem rest_bar : bigSep ((Rd (F := F) m).duties (barCell c) 0 \ ∅) (fun d => (Rd (F := F) m).payload (barCell c) 0 d)
    = bigSep Finset.univ (fun j : Fin 7 => barPay (F := F) c j) := by
  rw [Finset.sdiff_empty, duties_bar]
  rfl
theorem rest_send (j : Fin 7) : bigSep ((Rd (F := F) m).duties (sendCell c j) 0 \ ∅) (fun d => (Rd (F := F) m).payload (sendCell c j) 0 d) = sendPay m c j := by
  rw [Finset.sdiff_empty, duties_send, bigSep_singleton, payload_send]
theorem rest_recv (s : Dev nD) (h : s ≠ c) : bigSep ((Rd (F := F) m).duties (recvCell c s) 0 \ ∅) (fun d => (Rd (F := F) m).payload (recvCell c s) 0 d) = recvPay m c s := by
  rw [Finset.sdiff_empty, duties_recv m c s h, bigSep_singleton, payload_recv]

end Sched

/-! ## What each device owes at launch; the levels -/

/-- The copy to distance `j + 1` credits that peer's receive cell for sender `c`; the signal to it, its barrier cell. -/
def owedCopy (c : Dev nD) (j : Fin 7) : CellTallies nD τ sig Unit := tallyAt (recvCell (nb c (j.val + 1)) c) () N
def owedSig (c : Dev nD) (j : Fin 7) : CellTallies nD τ sig Unit := tallyAt (barCell (nb c (j.val + 1))) () 1

/-- After the seven signals: the seven copies, summed so that the copies peel the last summand in the order the kernel
    issues them (distances 4, 3, 5, 2, 6, 1, 7). -/
def O₇ (c : Dev nD) : CellTallies nD τ sig Unit :=
  owedCopy c 6 + owedCopy c 0 + owedCopy c 5 + owedCopy c 1 + owedCopy c 4 + owedCopy c 2 + owedCopy c 3
/-- At launch: those and the seven signals, the first signal (distance 1) the last summand. -/
def O₀ (c : Dev nD) : CellTallies nD τ sig Unit :=
  O₇ c + owedSig c 6 + owedSig c 5 + owedSig c 4 + owedSig c 3 + owedSig c 2 + owedSig c 1 + owedSig c 0

def L (g : GSem nD τ sig) : Finset Unit := if g.1.2 = .tc then {()} else ∅
/-- barrier cells at 1, receive cells at 2, everything else (staging, send) at 0. -/
def lv (g : GSem nD τ sig) (_ : Unit) : ℕ := match g.2 with | .reg _ => 1 | .dma q => if 11 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- The seven copies, and the dues at launch, as sums over the ring distances (addition of tallies is commutative). -/
theorem O₇_eq_sum (c : Dev nD) : O₇ c = ∑ j : Fin 7, owedCopy c j := by
  rw [Fin.sum_univ_seven]; unfold O₇; ac_rfl

theorem O₀_eq_sum (c : Dev nD) : O₀ c = (∑ j : Fin 7, owedCopy c j) + ∑ j : Fin 7, owedSig c j := by
  rw [← O₇_eq_sum, Fin.sum_univ_seven]; unfold O₀; ac_rfl

/-- A positive entry of the seven copies' dues is one summand's: the receive cell, for sender `c`, of a peer. -/
theorem O₇_pos {c : Dev nD} {g : GSem nD τ sig} {u : Unit} (h : 0 < O₇ c g u) :
    ∃ j : Fin 7, g = recvCell (nb c (j.val + 1)) c := by
  rw [O₇_eq_sum] at h
  obtain ⟨j, _, hj⟩ := Pipeline.sum_pos_exists h
  exact ⟨j, (Pipeline.tallyAt_pos hj).1⟩

/-- A positive entry of the dues at launch is a copy's (a peer's receive cell) or a signal's (a peer's barrier cell). -/
theorem O₀_pos {c : Dev nD} {g : GSem nD τ sig} {u : Unit} (h : 0 < O₀ c g u) :
    (∃ j : Fin 7, g = recvCell (nb c (j.val + 1)) c) ∨ ∃ j : Fin 7, g = barCell (nb c (j.val + 1)) := by
  rw [O₀_eq_sum] at h
  rcases Pipeline.add_pos_cases h with h | h
  · obtain ⟨j, _, hj⟩ := Pipeline.sum_pos_exists h
    exact Or.inl ⟨j, (Pipeline.tallyAt_pos hj).1⟩
  · obtain ⟨j, _, hj⟩ := Pipeline.sum_pos_exists h
    exact Or.inr ⟨j, (Pipeline.tallyAt_pos hj).1⟩

/-- The levels of the three kinds of cell: a receive semaphore is numbered 11 or more, a send or staging one below 11. -/
theorem lv_bar (c : Dev nD) (u : Unit) : lv (barCell c) u = 1 := rfl
theorem lv_recv (c s : Dev nD) (u : Unit) : lv (recvCell c s) u = 2 := by
  unfold lv; exact if_pos (show 11 ≤ 11 + s.val from Nat.le_add_right 11 _)
theorem lv_low (c : Dev nD) (q : DmaSem sig) (hq : q.val < 11) (u : Unit) : lv ((c : Thread nD τ), .dma q) u = 0 := by
  unfold lv; exact if_neg (Nat.not_le.mpr hq)
theorem L_mem (c : Dev nD) (sm : SemLoc sig) (u : Unit) : u ∈ L ((c : Thread nD τ), sm) := by
  rw [L_tc]; exact Finset.mem_singleton_self _

/-- A wait on a staging or send cell (level 0) while owing everything or nothing. -/
theorem mayWait_low (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L_mem c _ _) (fun g u hg => ?_)
    rw [lv_low c q hq]
    rcases O₀_pos hg with ⟨j, rfl⟩ | ⟨j, rfl⟩
    · exact ⟨L_mem _ _ _, by rw [lv_recv]; decide⟩
    · exact ⟨L_mem _ _ _, by rw [lv_bar]; decide⟩
  · rw [MayWait_zero]; iintro -; iempintro
/-- At its barrier wait a device owes the seven copies only: receive cells, above its barrier cell. -/
theorem mayWait_bar (c : Dev nD) : (levAts L lv : sProp 𝕄) ⊢ MayWait (c : Thread nD τ) (.reg barS) () (O₇ c) := by
  refine Pipeline.mayWait_of_levAts (L_mem c _ _) (fun g u hg => ?_)
  obtain ⟨j, rfl⟩ := O₇_pos hg
  exact ⟨L_mem _ _ _, by rw [lv_recv]; exact (by decide : (1 : ℕ) < 2)⟩

/-! ### The launch credit: the dues summed over the payers -/

/-- What the dues of all devices come to on device `c`'s cells: seven units on its barrier cell (one signal from each peer)
    and one copy's credit on the receive cell of each peer. -/
def dealt (c : Dev nD) : CellTallies nD τ sig Unit :=
  tallyAt (barCell c) () 7 + ∑ j : Fin 7, tallyAt (recvCell c (nb c (j.val + 1))) () N

/-- Those tallies sit on `c`'s own cells only. -/
theorem dealt_own (d : Dev nD) (g : GSem nD τ sig) (h : dealt d g ≠ 0) : g.1 = (d : Thread nD τ) := by
  by_contra hne
  apply h
  unfold dealt
  rw [Pi.add_apply, Finset.sum_apply, tallyAt_ne_cell (fun e => hne (by rw [e])), zero_add]
  exact Finset.sum_eq_zero fun j _ => tallyAt_ne_cell (fun e => hne (by rw [e])) _ _

/-- Seven unit tallies on one cell are one tally of seven. -/
theorem seven_units (g : GSem nD τ sig) : (7 • tallyAt g () 1 : CellTallies nD τ sig Unit) = tallyAt g () 7 := by
  funext g'
  refine Finsupp.ext fun u => ?_
  rw [Pi.smul_apply, Finsupp.smul_apply, tallyAt_apply, tallyAt_apply, smul_eq_mul]
  by_cases hc : g' = g ∧ u = ()
  · rw [if_pos hc, if_pos hc]
  · rw [if_neg hc, if_neg hc]

/-- The signals at distance `j + 1`, summed over the senders: going `j + 1` round the ring is a bijection, so every device's
    barrier cell gets exactly one. -/
theorem sum_sig (j : Fin 7) :
    (∑ d : Dev nD, owedSig d j) = ∑ d : Dev nD, (tallyAt (barCell d) () 1 : CellTallies nD τ sig Unit) :=
  Equiv.sum_comp (ring j) (fun d => (tallyAt (barCell d) () 1 : CellTallies nD τ sig Unit))

/-- The copies to distance `j + 1`, summed over the senders: device `d` gets the one from the peer `7 - j` after it (that
    peer's distance-`j + 1` neighbour is `d`), on the receive cell numbered by that peer. -/
theorem sum_copy (j : Fin 7) :
    (∑ d : Dev nD, owedCopy d j)
      = ∑ d : Dev nD, (tallyAt (recvCell d (nb d (7 - j.val))) () N : CellTallies nD τ sig Unit) := by
  rw [← Equiv.sum_comp (ring j) (fun d => (tallyAt (recvCell d (nb d (7 - j.val))) () N : CellTallies nD τ sig Unit))]
  refine Finset.sum_congr rfl fun d _ => ?_
  show tallyAt (recvCell (nb d (j.val + 1)) d) () N
    = tallyAt (recvCell (nb d (j.val + 1)) (nb (nb d (j.val + 1)) (7 - j.val))) () N
  rw [nb_nb]

/-- All dues of all devices are, device by device, what each is dealt. -/
theorem sum_O₀ : (∑ d : Dev nD, O₀ d) = ∑ d : Dev nD, dealt d := by
  have hsig : (∑ d : Dev nD, ∑ j : Fin 7, owedSig d j)
      = ∑ d : Dev nD, (tallyAt (barCell d) () 7 : CellTallies nD τ sig Unit) := by
    rw [Finset.sum_comm, Finset.sum_congr rfl fun j _ => sum_sig j, Finset.sum_comm]
    refine Finset.sum_congr rfl fun d _ => ?_
    rw [Finset.sum_const, Finset.card_univ, Fintype.card_fin]
    exact seven_units _
  have hcopy : (∑ d : Dev nD, ∑ j : Fin 7, owedCopy d j)
      = ∑ d : Dev nD, ∑ j : Fin 7, (tallyAt (recvCell d (nb d (j.val + 1))) () N : CellTallies nD τ sig Unit) := by
    rw [Finset.sum_comm, Finset.sum_congr rfl fun j _ => sum_copy j, Finset.sum_comm]
    refine Finset.sum_congr rfl fun d _ => ?_
    -- the distances 7 - j, j = 0 … 6, are the distances j' + 1 in the opposite order
    rw [← Equiv.sum_comp Fin.revPerm (fun j : Fin 7 => (tallyAt (recvCell d (nb d (j.val + 1))) () N : CellTallies nD τ sig Unit))]
    refine Finset.sum_congr rfl fun j _ => ?_
    have hj : (Fin.revPerm j).val + 1 = 7 - j.val := by
      rw [Fin.revPerm_apply, Fin.val_rev]; have := j.isLt; omega
    rw [hj]
  rw [Finset.sum_congr rfl fun d _ => O₀_eq_sum d, Finset.sum_add_distrib, hsig, hcopy]
  unfold dealt
  rw [Finset.sum_add_distrib, add_comm]

/-- The launch deals device `c` the credit of the waits others pay: seven units on its barrier cell and one copy's credit
    on each receive cell a peer fills. -/
theorem creds (c : Dev nD) :
    (Pipeline.launchCred O₀ c : sProp 𝕄) ⊢ iprop(cred (tallyAt (barCell c) () 7)
      ∗ bigSep Finset.univ (fun j : Fin 7 => cred (tallyAt (recvCell c (nb c (j.val + 1))) () N))) := by
  rw [Pipeline.launchCred_of_sum O₀ dealt sum_O₀ dealt_own c]
  unfold dealt
  refine (cred_add _ _).1.trans (Entails.of_eq ?_)
  rw [Pipeline.cred_finsetSum]

/-! ## The ghost state of a device; the pipeline's proof data -/

/-- Every cell's invariant, under the names the launch allocated them at, and that round 0 of every cell is reached. -/
def records (K : Dev nD × Fin 16 → ℕ) : sProp 𝕄 :=
  iprop((bigSep Finset.univ fun ck : Dev nD × Fin 16 => cellInv ER (Rd m) (K ck) (kcell ck))
    ∗ bigSep Finset.univ fun ck : Dev nD × Fin 16 => reached ER (kcell ck) 0)

instance records_persistent (K : Dev nD × Fin 16 → ℕ) : BI.Persistent (records (F := F) m K) := by unfold records; infer_instance

/-- The tokens of the duties device `c` pays: a barrier duty and a receive duty of each peer, its own seven send duties. -/
def payToks (c : Dev nD) : sProp 𝕄 :=
  iprop((bigSep Finset.univ fun j : Fin 7 => dutyTok ER (barCell (nb c (j.val + 1))) 0 j)
    ∗ (bigSep Finset.univ fun j : Fin 7 => dutyTok ER (recvCell (nb c (j.val + 1)) c) 0 (0 : Fin 7))
    ∗ (bigSep Finset.univ fun j : Fin 7 => dutyTok ER (sendCell c j) 0 (0 : Fin 7)))
/-- What stays with device `c`: its positions on its sixteen cells, and those tokens. -/
def linear (c : Dev nD) : sProp 𝕄 :=
  iprop((bigSep Finset.univ fun k : Fin 16 => atPos ER (kcell (c, k)) 0 ∅ 0) ∗ payToks c)

def ghost (K : Dev nD × Fin 16 → ℕ) (c : Dev nD) : sProp 𝕄 := iprop(records m K ∗ linear c)

/-- The credit the launch deals device `c`. -/
def launchCreds (c : Dev nD) : sProp 𝕄 :=
  iprop(cred (tallyAt (barCell c) () 7) ∗ bigSep Finset.univ (fun j : Fin 7 => cred (tallyAt (recvCell c (nb c (j.val + 1))) () N)))

def start (c : Dev nD) : sProp 𝕄 := iprop((∃ K, ghost m K c) ∗ launchCreds c ∗ levAts L lv)

def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrAny c)
/-- After the point: the scratch array whole, the fifteen own semaphores at zero (the barrier cell is the runtime's). -/
def Φ₁ (c : Dev nD) : sProp 𝕄 := iprop(scrAny c ∗ bigSep Finset.univ fun i : Fin 15 => semVal ((c : Thread nD τ), osem i) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => bstg m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre- and postcondition on device `c` -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 16 → ℕ) (c : Dev nD) : sProp 𝕄 :=
  iprop((ghost m K c ∗ launchCreds c ∗ levAts L lv ∗ scrAny c)
    ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

def bodyPost (c : Dev nD) : sProp 𝕄 :=
  iprop(Φ₁ c ∗ (dats m 0 c).owesAt () t₀.succ ∗ stg c cc0_stg0_0 (xstg m c) ∗ stg c cc0_stg1_0 (gstg m c)
    ∗ stg c cc0_stg2_0 (bstg m c) ∗ stg c cc0_stg3_0 (outAt m c))

/-- info: 'Cert.KernelIdeal.Proto.mayWait_low' depends on axioms: [propext, Classical.choice, Quot.sound] -/
#guard_msgs in #print axioms mayWait_low

/-- info: 'Cert.KernelIdeal.Proto.mayWait_bar' depends on axioms: [propext, Classical.choice, Quot.sound] -/
#guard_msgs in #print axioms mayWait_bar

/-- info: 'Cert.KernelIdeal.Proto.creds' depends on axioms: [propext, Classical.choice, Quot.sound] -/
#guard_msgs in #print axioms creds

end Cert.KernelIdeal.Proto

end
-- ==== Proof.Geom.lean ====
/-
  The geometry of the 8-slot scratch array: an 8 × 2 × 512 array whose slot `s` is the 2 × 512 elements of first
  coordinate `s`.

  * An element belongs to slot `s` exactly when its first coordinate is `s`; so different slots are disjoint, and the eight
    slots — a device's own and those of the seven peers round the ring — are the whole array.
  * Every access of the body to the scratch array (the two row loads and stores, the load of a whole slot) goes through a
    unit-stride rectangle whose first coordinate is pinned to one slot index, hence stays inside that slot.
  * A store leaves its payload at every element it touches, whatever was there before: the two row stores of device `s`
    cover slot `s`, so after them the slot holds device `s`'s statistics; and a copy of slot `s` onto slot `s` of another
    array leaves there what the source held there.
  * Ownership of the whole array splits into ownership of the eight slots and joins back from it.
-/
import proofs.«900544_g7700000000000545_dist_layernorm_colshard_i_m512_n256_v7x_i8_f32_1_alg».proof.Proof.ProtoBase
import Idealize.ShloMosaic.Lib.Pipeline.Value
import Idealize.ShloMosaic.Rules.PointsTo

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A slot as a set of elements -/

/-- The elements under slot `s`'s view are those of the rectangle it is cut by: squeezing the unit axis away re-indexes
    the same elements, and a rectangle of the whole array sits at itself. -/
theorem slot_set (s : Dev nD) :
    (slotM s).view.set = (Rect.unit (s := S8x2x512) (k0_off4 s) S1x2x512.size (k0_off4_inb s)).set := by
  show (((View.whole cc0_scratch0 : View sig .tc _ _ _).slice
      (Rect.unit (s := S8x2x512) (k0_off4 s) S1x2x512.size (k0_off4_inb s))).reshape S2x512 _).set = _
  rw [View.set_reshape, View.set_slice_whole]

/-- The second coordinate of an index of the scratch array is 0 or 1. -/
theorem idx_lt1 (i : S8x2x512.Idx) : (i 1).val < 2 := (i 1).isLt
/-- The third coordinate is below 512. -/
theorem idx_lt2 (i : S8x2x512.Idx) : (i 2).val < 512 := (i 2).isLt

/-- Membership in a unit-stride rectangle of the scratch array, one coordinate at a time. -/
theorem mem_unit3 {off size : Fin 3 → ℕ} {inb : ∀ a, off a + size a ≤ S8x2x512.size a} (i : S8x2x512.Idx) :
    i ∈ (Rect.unit (s := S8x2x512) off size inb).set ↔
      (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

/-- slot s is the elements whose first coordinate is s -/
theorem mem_slot (s : Dev nD) (i : S8x2x512.Idx) : i ∈ (slotM s).view.set ↔ (i 0).val = s.val := by
  rw [slot_set, mem_unit3, k0_off4_eq]
  have h1 := idx_lt1 i
  have h2 := idx_lt2 i
  show (s.val ≤ (i 0).val ∧ (i 0).val < s.val + 1) ∧ (0 ≤ (i 1).val ∧ (i 1).val < 0 + 2) ∧ (0 ≤ (i 2).val ∧ (i 2).val < 0 + 512) ↔ _
  omega

/-- Two different slots share no element: an element's first coordinate names its slot. -/
theorem slot_disjoint (s s' : Dev nD) (h : s ≠ s') : Disjoint (slotM s).view.set (slotM s').view.set :=
  Finset.disjoint_left.mpr fun i h1 h2 => h (Fin.ext (((mem_slot s i).1 h1).symm.trans ((mem_slot s' i).1 h2)))

/-! ## The footprints of the body's accesses -/

/-- A unit-stride rectangle whose first coordinate is pinned to `s` lies in slot `s`. -/
theorem unit_sub_slot (s : Dev nD) {off size : Fin 3 → ℕ} (inb : ∀ a, off a + size a ≤ S8x2x512.size a)
    (h0 : off 0 = s.val) (h1 : size 0 = 1) :
    (Rect.unit (s := S8x2x512) off size inb).set ⊆ (slotM s).view.set := by
  intro i hi
  have := ((mem_unit3 i).1 hi).1
  rw [mem_slot]; omega

/-- Through the whole array an index set sits at itself. -/
theorem setOn_scr (M : Finset S8x2x512.Idx) : (scrM : Memref sig .tc .vmem S8x2x512 .f32).view.setOn M = M :=
  Finset.map_refl

/-- A store through a rectangle of the whole array touches the rectangle's elements. -/
theorem setOn_access_scr (r : Rect S8x2x512) :
    ((scrM : Memref sig .tc .vmem S8x2x512 .f32).access r).setOn Finset.univ = r.set :=
  View.set_slice_whole cc0_scratch0 r

/-- the footprints of the body's loads and stores of the scratch array lie in one slot -/
theorem load_r1_sub (s : Dev nD) : (scrM : Memref sig .tc .vmem S8x2x512 .f32).view.setOn (r1 s).toLoadRect.set ⊆ (slotM s).view.set := by
  rw [setOn_scr]; exact unit_sub_slot s _ (congrFun (k0_off1_eq s) 0) rfl
theorem load_r2_sub (s : Dev nD) : scrM.view.setOn (r2 s).toLoadRect.set ⊆ (slotM s).view.set := by
  rw [setOn_scr]; exact unit_sub_slot s _ (congrFun (k0_off2_eq s) 0) rfl
theorem store_r1_sub (s : Dev nD) : ((scrM : Memref sig .tc .vmem S8x2x512 .f32).access (r1 s)).setOn Finset.univ ⊆ (slotM s).view.set := by
  rw [setOn_access_scr]; exact unit_sub_slot s _ (congrFun (k0_off1_eq s) 0) rfl
theorem store_r2_sub (s : Dev nD) : (scrM.access (r2 s)).setOn Finset.univ ⊆ (slotM s).view.set := by
  rw [setOn_access_scr]; exact unit_sub_slot s _ (congrFun (k0_off2_eq s) 0) rfl
theorem load_own_sub (s : Dev nD) : scrM.view.setOn (rOwn s).toLoadRect.set ⊆ (slotM s).view.set := by
  rw [setOn_scr]; exact unit_sub_slot s _ (congrFun (k0_off5_eq s) 0) rfl
theorem load_peer_sub (c : Dev nD) (r : Fin 7) : scrM.view.setOn (rPeer c r).toLoadRect.set ⊆ (by exact (slotM (nb c (r.val + 1))).view.set : Finset S8x2x512.Idx) := by
  rw [setOn_scr]
  refine unit_sub_slot (nb c (r.val + 1)) _ ((congrFun (k0_off8_eq c r) 0).trans ?_) rfl
  show (c.val + r.val + 1) % 8 = (c.val + (r.val + 1)) % 8
  rw [Nat.add_assoc]

/-! ## What a copy lands, and what the two row stores leave -/

/-- a copy of slot s into slot s of another array leaves there what the source held there -/
theorem landing_eq (s : Dev nD) (fd fs : (cc0_scratch0 : Ref sig .tc).ty.Contents (Elt F)) : ∀ i ∈ (slotM s).view.set, (slotM s).view.write (Elt F) fd ((slotM s).view.read (Elt F) fs) Finset.univ i = fs i := by
  intro i hi
  obtain ⟨y, rfl⟩ := View.exists_emb_of_mem_set _ hi
  rw [View.write_emb_of_mem _ _ (Finset.mem_univ y), View.read_apply, cast_cast, cast_eq]

/-- The first row store of device `s` touches the elements `(s, 0, ·)`. -/
theorem mem_row1 (s : Dev nD) (i : S8x2x512.Idx) :
    i ∈ ((scrM : Memref sig .tc .vmem S8x2x512 .f32).access (r1 s)).setOn Finset.univ ↔ (i 0).val = s.val ∧ (i 1).val = 0 := by
  rw [setOn_access_scr, mem_unit3, k0_off1_eq]
  have h2 := idx_lt2 i
  show (s.val ≤ (i 0).val ∧ (i 0).val < s.val + 1) ∧ (0 ≤ (i 1).val ∧ (i 1).val < 0 + 1) ∧ (0 ≤ (i 2).val ∧ (i 2).val < 0 + 512) ↔ _
  omega

/-- The second row store touches the elements `(s, 1, ·)`. -/
theorem mem_row2 (s : Dev nD) (i : S8x2x512.Idx) :
    i ∈ ((scrM : Memref sig .tc .vmem S8x2x512 .f32).access (r2 s)).setOn Finset.univ ↔ (i 0).val = s.val ∧ (i 1).val = 1 := by
  rw [setOn_access_scr, mem_unit3, k0_off2_eq]
  have h2 := idx_lt2 i
  show (s.val ≤ (i 0).val ∧ (i 0).val < s.val + 1) ∧ (1 ≤ (i 1).val ∧ (i 1).val < 1 + 1) ∧ (0 ≤ (i 2).val ∧ (i 2).val < 0 + 512) ↔ _
  omega

/-- On slot `s` the array after device `s`'s two row stores does not depend on what it held before: the two rows
    cover the slot, and a store leaves its payload at every element it touches. -/
theorem ownStats_indep (s : Dev nD) (f f' : (cc0_scratch0 : Ref sig .tc).ty.Contents (Elt F)) :
    ∀ i ∈ (slotM s).view.set, ownStats m s f i = ownStats m s f' i := by
  intro i hi
  have h0 := (mem_slot s i).1 hi
  unfold ownStats
  by_cases hr2 : i ∈ ((scrM : Memref sig .tc .vmem S8x2x512 .f32).access (r2 s)).setOn Finset.univ
  · obtain ⟨y, -, rfl⟩ := Finset.mem_map.mp hr2
    rw [View.write_emb_of_mem _ _ (Finset.mem_univ y), View.write_emb_of_mem _ _ (Finset.mem_univ y)]
  · rw [View.write_of_not_mem _ _ _ hr2, View.write_of_not_mem _ _ _ hr2]
    have hr1 : i ∈ ((scrM : Memref sig .tc .vmem S8x2x512 .f32).access (r1 s)).setOn Finset.univ := by
      rw [mem_row1]
      rw [mem_row2] at hr2
      have := idx_lt1 i
      omega
    obtain ⟨y, -, rfl⟩ := Finset.mem_map.mp hr1
    rw [View.write_emb_of_mem _ _ (Finset.mem_univ y), View.write_emb_of_mem _ _ (Finset.mem_univ y)]

/-- after its two row stores device s's slot holds its statistics, whatever the array held before -/
theorem ownStats_eq [∀ e, Nonempty (Elt F e)] (s : Dev nD) (f : (cc0_scratch0 : Ref sig .tc).ty.Contents (Elt F)) : ∀ i ∈ (slotM s).view.set, ownStats m s f i = allStats m i := by
  intro i hi
  have hs : (⟨(i (0 : Fin 3)).val, (i (0 : Fin 3)).isLt⟩ : Dev nD) = s := Fin.ext ((mem_slot s i).1 hi)
  show ownStats m s f i = ownStats m (⟨(i (0 : Fin 3)).val, (i (0 : Fin 3)).isLt⟩ : Dev nD) (fun _ => Classical.arbitrary _) i
  rw [hs]
  exact ownStats_indep m s f _ i hi

/-! ## The array whole is its eight slots -/

/-- Slot `s` as a set of indices of the scratch array. -/
abbrev slotSet (s : Dev nD) : Finset S8x2x512.Idx := (slotM s).view.set

/-- Every device is `c` itself or one of its seven peers round the ring. -/
theorem dev_cases (c s : Dev nD) : s = c ∨ ∃ j : Fin 7, s = nb c (j.val + 1) := by revert c s; decide

/-- The eight slots cover the array: an element's first coordinate is a device, `c` or one of its peers. -/
theorem scr_cover (c : Dev nD) :
    (Finset.univ : Finset S8x2x512.Idx) = slotSet c ∪ Finset.univ.biUnion (fun j : Fin 7 => slotSet (nb c (j.val + 1))) := by
  ext i
  simp only [Finset.mem_univ, Finset.mem_union, Finset.mem_biUnion, true_and, true_iff]
  rcases dev_cases c (⟨(i (0 : Fin 3)).val, (i (0 : Fin 3)).isLt⟩ : Dev nD) with h | ⟨j, h⟩
  · left; exact (mem_slot c i).2 (congrArg Fin.val h)
  · right; exact ⟨j, (mem_slot _ i).2 (congrArg Fin.val h)⟩

/-- A device's own slot is disjoint from its peers' slots, -/
theorem own_disjoint_peers (c : Dev nD) :
    Disjoint (slotSet c) (Finset.univ.biUnion fun j : Fin 7 => slotSet (nb c (j.val + 1))) :=
  (Finset.disjoint_biUnion_right _ _ _).mpr fun j _ => slot_disjoint _ _ (nb_ne c j).symm

/-- and the peers' slots from one another: different ring distances name different devices. -/
theorem peers_disjoint (c : Dev nD) : ∀ j ∈ (Finset.univ : Finset (Fin 7)), ∀ j' ∈ (Finset.univ : Finset (Fin 7)), j ≠ j' →
    Disjoint (slotSet (nb c (j.val + 1))) (slotSet (nb c (j'.val + 1))) :=
  fun j _ j' _ hne => slot_disjoint _ _ fun e => hne (nb_inj c j j' e)

/-- Ownership of all elements is ownership of the union of the eight slots. -/
theorem whole_eq_union (c : Dev nD) (f : Buf (Elt F) ((c : Thread nD τ).loc cc0_scratch0)) :
    ((((c : Thread nD τ).loc cc0_scratch0) ↦{fullShare} f : sProp 𝕄))
      = (((c : Thread nD τ).loc cc0_scratch0) ↦[slotSet c ∪ Finset.univ.biUnion fun j : Fin 7 => slotSet (nb c (j.val + 1))]{fullShare} f) :=
  congrArg (fun I => ((((c : Thread nD τ).loc cc0_scratch0) ↦[I]{fullShare} f : sProp 𝕄))) (scr_cover c)

/-- the array whole is its eight slots: device c's own and the seven peers' -/
theorem scr_split (c : Dev nD) (f : Buf (Elt F) ((c : Thread nD τ).loc cc0_scratch0)) :
    ((((c : Thread nD τ).loc cc0_scratch0) ↦{fullShare} f : sProp 𝕄)) ⊢ iprop(slotPts c c fullShare f ∗ bigSep Finset.univ (fun j : Fin 7 => slotPts c (nb c (j.val + 1)) fullShare f)) := by
  rw [whole_eq_union]
  refine (pointsTo_union (own_disjoint_peers c)).1.trans (sep_mono_right (Entails.of_eq ?_))
  exact pointsTo_biUnion Finset.univ _ (peers_disjoint c)

/-- A device's own slot at one contents and its peers' slots, together, at another: the whole array at some contents. -/
theorem join_own_peers (c : Dev nD) (f0 g : Buf (Elt F) ((c : Thread nD τ).loc cc0_scratch0)) :
    iprop((((c : Thread nD τ).loc cc0_scratch0) ↦[slotSet c]{fullShare} f0)
        ∗ (((c : Thread nD τ).loc cc0_scratch0) ↦[Finset.univ.biUnion fun j : Fin 7 => slotSet (nb c (j.val + 1))]{fullShare} g))
      ⊢ (∃ f, (((c : Thread nD τ).loc cc0_scratch0) ↦{fullShare} f) : sProp 𝕄) :=
  (pointsTo_join (own_disjoint_peers c)).trans
    ((Entails.of_eq (whole_eq_union c _).symm).trans (exists_intro (Φ := fun f => ((((c : Thread nD τ).loc cc0_scratch0) ↦{fullShare} f : sProp 𝕄))) _))

/-- The seven peers' slots, each at its own contents, are their union at some contents. -/
theorem join_peers (c : Dev nD) (f0 : Buf (Elt F) ((c : Thread nD τ).loc cc0_scratch0)) (fs : Fin 7 → Buf (Elt F) ((c : Thread nD τ).loc cc0_scratch0)) :
    bigSep Finset.univ (fun j : Fin 7 => (((c : Thread nD τ).loc cc0_scratch0) ↦[slotSet (nb c (j.val + 1))]{fullShare} fs j : sProp 𝕄))
      ⊢ (∃ g, (((c : Thread nD τ).loc cc0_scratch0) ↦[Finset.univ.biUnion fun j : Fin 7 => slotSet (nb c (j.val + 1))]{fullShare} g) : sProp 𝕄) := by
  iintro H
  ihave H' := (pointsTo_biUnion_join Finset.univ (fun j : Fin 7 => slotSet (nb c (j.val + 1))) fs f0 (peers_disjoint c)) $$ H
  icases H' with ⟨%g, %hg, HS⟩
  iexists g
  iexact HS

/-- Conversely the eight slots, each at its own contents, join to the array whole at some contents. -/
theorem scr_join (c : Dev nD) (f0 : Buf (Elt F) ((c : Thread nD τ).loc cc0_scratch0)) (fs : Fin 7 → Buf (Elt F) ((c : Thread nD τ).loc cc0_scratch0)) :
    iprop(slotPts c c fullShare f0 ∗ bigSep Finset.univ (fun j : Fin 7 => slotPts c (nb c (j.val + 1)) fullShare (fs j))) ⊢ (∃ f, (((c : Thread nD τ).loc cc0_scratch0) ↦{fullShare} f) : sProp 𝕄) := by
  unfold slotPts
  refine (sep_mono_right (join_peers c f0 fs)).trans ?_
  exact sep_exists_left.1.trans (exists_elim fun g => join_own_peers c f0 g)

/-- info: 'Cert.KernelIdeal.Proto.mem_slot' depends on axioms: [propext, Classical.choice, Quot.sound] -/
#guard_msgs in #print axioms mem_slot

/-- info: 'Cert.KernelIdeal.Proto.slot_disjoint' depends on axioms: [propext, Classical.choice, Quot.sound] -/
#guard_msgs in #print axioms slot_disjoint

/-- info: 'Cert.KernelIdeal.Proto.load_r1_sub' depends on axioms: [propext, Classical.choice, Quot.sound] -/
#guard_msgs in #print axioms load_r1_sub

/-- info: 'Cert.KernelIdeal.Proto.load_r2_sub' depends on axioms: [propext, Classical.choice, Quot.sound] -/
#guard_msgs in #print axioms load_r2_sub

/-- info: 'Cert.KernelIdeal.Proto.store_r1_sub' depends on axioms: [propext, Classical.choice, Quot.sound] -/
#guard_msgs in #print axioms store_r1_sub

/-- info: 'Cert.KernelIdeal.Proto.store_r2_sub' depends on axioms: [propext, Classical.choice, Quot.sound] -/
#guard_msgs in #print axioms store_r2_sub

/-- info: 'Cert.KernelIdeal.Proto.load_own_sub' depends on axioms: [propext, Classical.choice, Quot.sound] -/
#guard_msgs in #print axioms load_own_sub

/-- info: 'Cert.KernelIdeal.Proto.load_peer_sub' depends on axioms: [propext, Classical.choice, Quot.sound] -/
#guard_msgs in #print axioms load_peer_sub

/-- info: 'Cert.KernelIdeal.Proto.ownStats_eq' depends on axioms: [propext, Classical.choice, Quot.sound] -/
#guard_msgs in #print axioms ownStats_eq

/-- info: 'Cert.KernelIdeal.Proto.landing_eq' depends on axioms: [propext, Classical.choice, Quot.sound] -/
#guard_msgs in #print axioms landing_eq

/-- info: 'Cert.KernelIdeal.Proto.scr_split' depends on axioms: [propext, Classical.choice, Quot.sound] -/
#guard_msgs in #print axioms scr_split

/-- info: 'Cert.KernelIdeal.Proto.scr_join' depends on axioms: [propext, Classical.choice, Quot.sound] -/
#guard_msgs in #print axioms scr_join

end Cert.KernelIdeal.Proto

end
-- ==== Proof.Steps.lean ====
/-
  The remote steps of one device's run of the kernel body, one lemma per kind of step, at a symbolic device and ring distance.

  A signal pays one unit duty of a peer's barrier cell and hands over a slot; the barrier wait takes the seven slots the
  peers handed over; a copy of the own slot pays the send cell's duty with the read share lent to it and the peer's receive
  duty with the slot written; a receive wait brings a slot filled with its sender's statistics; a send wait brings a read
  share back; a cell whose one round is spent is closed and its counter is the device's again.
-/
import proofs.«900544_g7700000000000545_dist_layernorm_colshard_i_m512_n256_v7x_i8_f32_1_alg».proof.Proof.ProtoSched
import proofs.«900544_g7700000000000545_dist_layernorm_colshard_i_m512_n256_v7x_i8_f32_1_alg».proof.Proof.Geom

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## Opening the iterated conjunctions -/

omit [FloatOps F] [∀ e, Nonempty (Elt F e)] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] [∀ e, Nonempty (Elt F e)] in
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem inv_at (K : Dev nD × Fin 16 → ℕ) (ck : Dev nD × Fin 16) :
    (bigSep Finset.univ fun ck : Dev nD × Fin 16 => (cellInv ER (Rd m) (K ck) (kcell ck) : sProp 𝕄)) ⊢ cellInv ER (Rd m) (K ck) (kcell ck) :=
  bigSep_elim (Finset.mem_univ ck)
omit [FloatOps F] [∀ e, Nonempty (Elt F e)] in
theorem reached_at (ck : Dev nD × Fin 16) :
    (bigSep Finset.univ fun ck : Dev nD × Fin 16 => (reached ER (kcell ck) 0 : sProp 𝕄)) ⊢ reached ER (kcell ck) 0 :=
  bigSep_elim (Finset.mem_univ ck)

/-! ## The steps -/

/-- The entry signal to the peer `t` at distance `j + 1`: it pays duty `j` of `t`'s barrier cell and hands over slot `t`. -/
theorem signal_step (K : Dev nD × Fin 16 → ℕ) (c : Dev nD) (j : Fin 7) (t : Dev nD) (ht : t = nb c (j.val + 1))
    (O₁ O : CellTallies nD τ sig Unit) (hO : O₁ = O + tallyAt (barCell t) () 1) (W : Waits sig Unit)
    {α : Type} {k : PUnit → Prog (TpuEff nD τ sig (Elt F) Λ₀ .tc) α} {Q : α → sProp 𝕄} :
    iprop(records m K ∗ owes (c : Thread nD τ) O₁ W ∗ dutyTok ER (barCell t) 0 j ∗ (∃ f, slotPts (F := F) c t fullShare f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (t : Thread nD τ) barS 1) k) Q) := by
  subst ht
  unfold records
  iintro ⟨⟨#HI, #HR⟩, HO, Htok, Hpay⟩
  iapply (Rounds.wp_signal 𝒱₀ ER (Rd m) (c : Thread nD τ) none (dst := (nb c (j.val + 1) : Thread nD τ)) (κ := K (nb c (j.val + 1), 0))
      (d := j) (by rw [duties_bar]; exact Finset.mem_univ _) (amount_bar m (nb c (j.val + 1)) j) () O hO)
  isplitr; · iapply (inv_at m K (nb c (j.val + 1), 0)); iexact HI
  isplitl [HO]; · iexact HO
  isplitl [Htok]; · iexact Htok
  isplitl [Hpay]
  · rw [payload_bar]; unfold barPay; rw [nb_nb c j]; iexact Hpay
  · iapply (reached_at (F := F) (nb c (j.val + 1), 0)); iexact HR

/-- The wait for the seven peers' signals, owing the seven copies: the seven destination slots come with it. -/
theorem bar_wait_step (K : Dev nD × Fin 16 → ℕ) (c : Dev nD) (W : Waits sig Unit)
    {α : Type} {k : PUnit → Prog (TpuEff nD τ sig (Elt F) Λ₀ .tc) α} {Q : α → sProp 𝕄} :
    iprop(records m K ∗ levAts L lv ∗ cred (tallyAt (barCell c) () 7) ∗ owes (c : Thread nD τ) (O₇ c) W ∗ atPos ER (barCell c) 0 ∅ 0)
      ⊢ iprop(((owes (c : Thread nD τ) (O₇ c) (insert (SemLoc.reg barS, ()) W) ∗ atPos ER (barCell c) 1 ∅ 0
              ∗ bigSep Finset.univ (fun j : Fin 7 => barPay (F := F) c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold records
  iintro ⟨⟨#HI, #HR⟩, #Hlev, Hc, HO, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := O₇ c) (W := W) (R := 0) (m := 0) (T := ∅)
      (by rw [expect_bar])) $$ [Hc HO Hat]
  · isplitr; · iapply (inv_at m K (c, 0)); iexact HI
    isplitl [Hc]; · iexact Hc
    isplitl [HO]; · iexact HO
    isplitr; · iapply (mayWait_bar (F := F) c); iexact Hlev
    iexact Hat
  iintro ⟨HO, Hat, -, Hpay⟩
  iapply Hk
  isplitl [HO]; · iexact HO
  isplitl [Hat]; · iexact Hat
  iapply (Entails.of_eq (rest_bar m c)); iexact Hpay

/-- The copy of the own slot to the peer at distance `j + 1` (`n` as the program computes it): the read share `j` of the own slot
    is lent until the send wait, the peer's slot `c` is written and handed to the peer with its receive cell's credit. -/
theorem send_step (K : Dev nD × Fin 16 → ℕ) (c : Dev nD) (j : Fin 7) (n : Dev nD) (hn : n = nb c (j.val + 1))
    {sS sR : DmaSem sig} (hsS : sS = sendS j) (hsR : sR = recvS c)
    {hsc : (slotM c : Memref sig (Dev.tc n : Thread nD τ).2.kind .vmem S2x512 .f32).view.ref.isScScratch = false}
    {hsrc : (slotM c : Memref sig .tc .vmem S2x512 .f32).view.WordExact} {hdst : (slotM c : Memref sig .tc .vmem S2x512 .f32).view.WordExact}
    {hsem : DmaTarget.Typed .vmem (.dma sR) (.remote (Dev.tc n : Thread nD τ) (slotM c : Memref sig .tc .vmem S2x512 .f32) (.dma sS) hsc)}
    {α : Type} {Q : α → sProp 𝕄} {k : PUnit → Prog (TpuEff nD τ sig (Elt F) Λ₀ .tc) α}
    (fd : Buf (Elt F) ((slotM c : Memref sig .tc .vmem S2x512 .f32).view.loc (nb c (j.val + 1) : Thread nD τ)))
    (O₁ O : CellTallies nD τ sig Unit) (hO : O₁ = O + tallyAt (recvCell (nb c (j.val + 1)) c) () N) (W : Waits sig Unit) :
    iprop(records m K ∗ slotPts c c (sendShare j) (allStats m) ∗ slotPts (nb c (j.val + 1)) c fullShare fd
        ∗ owes (c : Thread nD τ) O₁ W ∗ dutyTok ER (sendCell c j) 0 (0 : Fin 7) ∗ dutyTok ER (recvCell (nb c (j.val + 1)) c) 0 (0 : Fin 7))
      ⊢ iprop(((cred (tallyAt (sendCell c j) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma sS) hsc) (.dma sR) hsrc hdst hsem) k) Q) := by
  subst hn hsS hsR
  unfold records slotPts
  iintro ⟨⟨#HI, #HR⟩, Hsrc, Hdst, HO, Ht1, Ht2⟩
  iapply (Rounds.wp_send_pointsTo 𝒱₀ ER (Rd m) (c : Thread nD τ) none (c' := (nb c (j.val + 1) : Thread nD τ))
    (src := slotM c) (dst := slotM c) (q := sendShare j) (fs := allStats m)
    (κ₁ := K (c, ⟨j.val + 1, by omega⟩)) (κ₂ := K (nb c (j.val + 1), ⟨c.val + 8, by have h := c.isLt; change c.val < 8 at h; omega⟩))
    (r₁ := 0) (r₂ := 0) (d₁ := (0 : Fin 7)) (d₂ := (0 : Fin 7)) (fd := fd)
    (by rw [duties_send]; exact Finset.mem_singleton_self _)
    (by rw [duties_recv m (nb c (j.val + 1)) c (nb_ne c j).symm]; exact Finset.mem_singleton_self _)
    () () N rfl (amount_send m c j 0) (amount_recv m (nb c (j.val + 1)) c 0) O hO (W := W)
    (by rw [payload_send]; unfold sendPay slotPts; exact BI.Entails.refl _)
    (by rw [payload_recv]; unfold recvPay slotPts
        exact Entails.of_eq (pointsTo_congr (landing_eq c fd (allStats m)))))
  isplitr; · (ihave H := (inv_at m K (c, ⟨j.val + 1, by omega⟩)) $$ HI); rw [kcell_send]; iexact H
  isplitr; · (ihave H := (inv_at m K (nb c (j.val + 1), ⟨c.val + 8, by have h := c.isLt; change c.val < 8 at h; omega⟩)) $$ HI); rw [kcell_recv]; iexact H
  isplitl [Hsrc]; · iexact Hsrc
  isplitl [Hdst]; · iexact Hdst
  isplitl [HO]; · iexact HO
  isplitl [Ht1]; · iexact Ht1
  isplitr; · (ihave H := (reached_at (F := F) (c, ⟨j.val + 1, by omega⟩)) $$ HR); rw [kcell_send]; iexact H
  isplitl [Ht2]; · iexact Ht2
  (ihave H := (reached_at (F := F) (nb c (j.val + 1), ⟨c.val + 8, by have h := c.isLt; change c.val < 8 at h; omega⟩)) $$ HR); rw [kcell_recv]; iexact H

/-- The wait for the copy from the peer `s`: slot `s` comes filled with `s`'s statistics. -/
theorem recv_step (K : Dev nD × Fin 16 → ℕ) (c s : Dev nD) (hs : s ≠ c) (W : Waits sig Unit)
    {sR : DmaSem sig} (hsR : sR = recvS s)
    {sp sp' : Space} {sh sh' : Shape} {e e' : EltTy} {κ' : Kind}
    {src : Memref sig (c : Thread nD τ).2.kind sp' sh' e'} {dst : Memref sig κ' sp sh e} {hsrc : src.view.WordExact} {hdst : dst.view.WordExact}
    (hN : dst.view.dmaCredit = N)
    {α : Type} {k : PUnit → Prog (TpuEff nD τ sig (Elt F) Λ₀ .tc) α} {Q : α → sProp 𝕄} :
    iprop(records m K ∗ cred (tallyAt (recvCell c s) () N) ∗ owes (c : Thread nD τ) 0 W ∗ atPos ER (recvCell c s) 0 ∅ 0)
      ⊢ iprop(((owes (c : Thread nD τ) 0 (insert (SemLoc.dma (recvS s), ()) W) ∗ atPos ER (recvCell c s) 1 ∅ 0
              ∗ slotPts c s fullShare (allStats m))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hsR
  unfold records
  iintro ⟨⟨#HI, #HR⟩, Hc, HO, Hat⟩ Hk
  iapply (Rounds.wp_wait_rest_token 𝒱₀ ER (Rd m) (c : Thread nD τ) none
      (κ := K (c, ⟨s.val + 8, by have h := s.isLt; change s.val < 8 at h; omega⟩))
      (wpE_waitDma2_eq 𝒱₀ (c : Thread nD τ) none Set.univ) (Set.mem_univ _) () (O := 0) (W := W) (R := 0) (m := 0) (T := ∅)
      (by rw [Nat.zero_add, hN, expect_recv m c s hs])) $$ [Hc HO Hat]
  · isplitr
    · (ihave H := (inv_at m K (c, ⟨s.val + 8, by have h := s.isLt; change s.val < 8 at h; omega⟩)) $$ HI); rw [kcell_recv]; iexact H
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_recv m c s hs)) $$ Hpay
  unfold recvPay
  iexact Hp

/-- The wait for the completion of the copy number `j`: the read share lent to it comes back. -/
theorem wsend_step (K : Dev nD × Fin 16 → ℕ) (c : Dev nD) (j : Fin 7) (W : Waits sig Unit)
    {sS : DmaSem sig} (hsS : sS = sendS j)
    {sp sp' : Space} {sh sh' : Shape} {e e' : EltTy} {κ' : Kind}
    {src : Memref sig (c : Thread nD τ).2.kind sp' sh' e'} {dst : Memref sig κ' sp sh e} {hsrc : src.view.WordExact} {hdst : dst.view.WordExact}
    (hN : dst.view.dmaCredit = N)
    {α : Type} {k : PUnit → Prog (TpuEff nD τ sig (Elt F) Λ₀ .tc) α} {Q : α → sProp 𝕄} :
    iprop(records m K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0
              ∗ slotPts c c (sendShare j) (allStats m))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  unfold records
  iintro ⟨⟨#HI, #HR⟩, Hc, HO, Hat⟩ Hk
  iapply (Rounds.wp_wait_rest_token 𝒱₀ ER (Rd m) (c : Thread nD τ) none (κ := K (c, ⟨j.val + 1, by omega⟩))
      (wpE_waitDma2_eq 𝒱₀ (c : Thread nD τ) none Set.univ) (Set.mem_univ _) () (O := 0) (W := W) (R := 0) (m := 0) (T := ∅)
      (by rw [Nat.zero_add, hN, expect_send m c j])) $$ [Hc HO Hat]
  · isplitr
    · (ihave H := (inv_at m K (c, ⟨j.val + 1, by omega⟩)) $$ HI); rw [kcell_send]; iexact H
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_send m c j)) $$ Hpay
  unfold sendPay
  iexact Hp

/-- A send cell, and a receive cell a peer filled, after their one round: closed, the counter at zero the device's again. -/
theorem close_send (K : Dev nD × Fin 16 → ℕ) (c : Dev nD) (j : Fin 7) :
    iprop(records m K ∗ atPos ER (sendCell c j) 1 ∅ 0) ⊢ (|={Set.univ}=> semVal (sendCell c j) 0 : sProp 𝕄) := by
  unfold records
  iintro ⟨⟨#HI, -⟩, Hat⟩
  iapply (Rounds.cell_close ER (Rd m) (Set.mem_univ (K (c, ⟨j.val + 1, by omega⟩))) (fun h => h) (R := 0 + 1) (duties_later m (sendCell c j)))
  isplitr
  · (ihave H := (inv_at m K (c, ⟨j.val + 1, by omega⟩)) $$ HI); rw [kcell_send]; iexact H
  iexact Hat
theorem close_recv (K : Dev nD × Fin 16 → ℕ) (c s : Dev nD) :
    iprop(records m K ∗ atPos ER (recvCell c s) 1 ∅ 0) ⊢ (|={Set.univ}=> semVal (recvCell c s) 0 : sProp 𝕄) := by
  unfold records
  iintro ⟨⟨#HI, -⟩, Hat⟩
  iapply (Rounds.cell_close ER (Rd m) (Set.mem_univ (K (c, ⟨s.val + 8, by have h := s.isLt; change s.val < 8 at h; omega⟩))) (fun h => h) (R := 0 + 1) (duties_later m (recvCell c s)))
  isplitr
  · (ihave H := (inv_at m K (c, ⟨s.val + 8, by have h := s.isLt; change s.val < 8 at h; omega⟩)) $$ HI); rw [kcell_recv]; iexact H
  iexact Hat
/-- The receive cell numbered by the device itself has no duty at all: it closes where it stands. -/
theorem close_recv_self (K : Dev nD × Fin 16 → ℕ) (c : Dev nD) :
    iprop(records m K ∗ atPos ER (recvCell c c) 0 ∅ 0) ⊢ (|={Set.univ}=> semVal (recvCell c c) 0 : sProp 𝕄) := by
  unfold records
  iintro ⟨⟨#HI, -⟩, Hat⟩
  iapply (Rounds.cell_close ER (Rd m) (Set.mem_univ (K (c, ⟨c.val + 8, by have h := c.isLt; change c.val < 8 at h; omega⟩))) (fun h => h) (R := 0) (fun r _ => duties_recv_self m c r))
  isplitr
  · (ihave H := (inv_at m K (c, ⟨c.val + 8, by have h := c.isLt; change c.val < 8 at h; omega⟩)) $$ HI); rw [kcell_recv]; iexact H
  iexact Hat

end Cert.KernelIdeal.Proto

end
-- ==== Proof.BodyAux.lean ====
/-
  Small facts the two ends of the body lemma need.

  What the pipeline leaves in the input windows' staging buffers; what a whole-block store leaves; and the bookkeeping of a
  device's sixteen semaphore cells: the barrier cell, the seven send cells, and the eight receive cells, which are the one
  numbered by the device itself (never used) and those of its seven peers, each peer being at exactly one ring distance 1 … 7.
  With that, the positions the launch hands a device are named cell by cell, and at the end the fifteen own cells are closed
  together: each send cell and each peer's receive cell after its one round, the device's own receive cell where it stands.
-/
import proofs.«900544_g7700000000000545_dist_layernorm_colshard_i_m512_n256_v7x_i8_f32_1_alg».proof.Proof.Steps
import proofs.«900544_g7700000000000545_dist_layernorm_colshard_i_m512_n256_v7x_i8_f32_1_alg».proof.Proof.Gen.KernelIdeal.Points

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## The staged inputs and the stored result -/

/-- What the pipeline leaves in the three input windows' staging buffers before the one point: the device's blocks (every
    input window is fetched at every point, and a fetch fills the buffer with the array's block). -/
theorem before_x (c : Dev nD) (d) : (dats m 0 c).before (0 : Fin 4) t₀ d = xstg m c := by
  unfold Dat.before; rw [if_pos (fetch0_0 t₀)]; rfl
theorem before_g (c : Dev nD) (d) : (dats m 0 c).before (1 : Fin 4) t₀ d = gstg m c := by
  unfold Dat.before; rw [if_pos (fetch0_1 t₀)]; rfl
theorem before_b (c : Dev nD) (d) : (dats m 0 c).before (2 : Fin 4) t₀ d = bstg m c := by
  unfold Dat.before; rw [if_pos (fetch0_2 t₀)]; rfl

theorem off00 : (![0, 0] : Fin 2 → Nat) = fun _ => 0 := funext fun a => by fin_cases a <;> rfl

/-- A store of a whole block through the whole-block rectangle leaves exactly the stored value. -/
theorem write_out (f w : (cc0_stg3_0 : Ref sig .tc).ty.Contents (Elt F)) :
    ((oM : Memref sig .tc .vmem S512x256 .f32).access rX : View sig .tc _ _ _).write (Elt F) f w Finset.univ = w :=
  Memref.write_access_unit_zero_univ (Elt F) cc0_stg3_0 off00 _ f w

/-! ## Sixteen cells: one, seven and eight; eight devices: one and seven -/

/-- Every device other than `c` is at exactly one ring distance 1 … 7 from it. -/
theorem peers_iff : ∀ c s : Dev nD, s ≠ c ↔ ∃ j : Fin 7, nb c (j.val + 1) = s := by decide

/-- The peer at distance `j + 1`, as an embedding of the distances into the devices. -/
def peerEmb (c : Dev nD) : Fin 7 ↪ Dev nD := ⟨fun j => nb c (j.val + 1), fun i j h => nb_inj c i j h⟩

/-- The devices other than `c` are its seven peers. -/
theorem erase_eq_peers (c : Dev nD) : (Finset.univ : Finset (Dev nD)).erase c = Finset.univ.map (peerEmb c) := by
  ext s
  rw [Finset.mem_erase, Finset.mem_map]
  constructor
  · rintro ⟨hs, -⟩
    obtain ⟨j, hj⟩ := (peers_iff c s).mp hs
    exact ⟨j, Finset.mem_univ _, hj⟩
  · rintro ⟨j, -, rfl⟩
    exact ⟨nb_ne c j, Finset.mem_univ _⟩

omit [FloatOps F] [∀ e, Nonempty (Elt F e)] in
/-- A conjunction over the eight devices is device `c`'s conjunct and its seven peers'. -/
theorem bigSep_dev (c : Dev nD) (Ψ : Dev nD → sProp 𝕄) :
    bigSep Finset.univ Ψ = iprop(Ψ c ∗ bigSep Finset.univ fun j : Fin 7 => Ψ (nb c (j.val + 1))) := by
  rw [bigSep_univ_at Ψ c, erase_eq_peers, bigSep_map]
  rfl

/-- The fifteen own semaphores, numbered as the seven send ones followed by the eight receive ones. -/
abbrev e15 : Fin 7 ⊕ Fin 8 ≃ Fin 15 := finSumFinEquiv
/-- The sixteen cells, numbered as the barrier cell followed by the fifteen own ones. -/
abbrev e16 : Fin 1 ⊕ Fin 15 ≃ Fin 16 := finSumFinEquiv

theorem osem_inl (j : Fin 7) : osem (e15 (.inl j)) = .dma (sendS j) :=
  (congrArg osem (Fin.ext rfl)).trans (osem_send j)
theorem osem_inr (s : Dev nD) : osem (e15 (.inr s)) = .dma (recvS s) :=
  (congrArg osem (Fin.ext (Nat.add_comm 7 s.val))).trans (osem_recv s)

/-- Cell `i + 1` of a device is its own semaphore `i`. -/
theorem csem_inr (i : Fin 15) : csem (e16 (.inr i)) = osem i := by
  unfold csem
  rw [dif_neg (show ¬ (e16 (.inr i)).val = 0 from fun h => by
    have h' : 1 + i.val = 0 := h
    omega)]
  exact congrArg osem (Fin.ext (show 1 + i.val - 1 = i.val from by omega))

omit [FloatOps F] [∀ e, Nonempty (Elt F e)] in
/-- A conjunction over the fifteen own semaphores: over the seven send ones and over the eight receive ones. -/
theorem own15 (Ψ : SemLoc sig → sProp 𝕄) :
    (bigSep Finset.univ fun i : Fin 15 => Ψ (osem i))
      = iprop((bigSep Finset.univ fun j : Fin 7 => Ψ (.dma (sendS j))) ∗ bigSep Finset.univ fun s : Dev nD => Ψ (.dma (recvS s))) := by
  rw [bigSep_univ_equiv e15 (fun i : Fin 15 => Ψ (osem i)), bigSep_univ_sum]
  exact congrArg₂ BI.sep (bigSep_congr fun j _ => congrArg Ψ (osem_inl j)) (bigSep_congr fun s _ => congrArg Ψ (osem_inr s))

omit [FloatOps F] [∀ e, Nonempty (Elt F e)] in
/-- A conjunction over a device's sixteen cells: the barrier cell, the seven send cells, the eight receive cells. -/
theorem all16 (c : Dev nD) (Ψ : GSem nD τ sig → sProp 𝕄) :
    (bigSep Finset.univ fun k : Fin 16 => Ψ (kcell (c, k)))
      = iprop(Ψ (barCell c) ∗ (bigSep Finset.univ fun j : Fin 7 => Ψ (sendCell c j)) ∗ bigSep Finset.univ fun s : Dev nD => Ψ (recvCell c s)) := by
  rw [bigSep_univ_equiv e16 (fun k : Fin 16 => Ψ (kcell (c, k))), bigSep_univ_sum, bigSep_univ_of_subsingleton (0 : Fin 1)]
  refine congrArg₂ BI.sep rfl ?_
  refine Eq.trans (bigSep_congr fun i _ => ?_) (own15 fun sm => Ψ ((c : Thread nD τ), sm))
  exact congrArg (fun sm => Ψ ((c : Thread nD τ), sm)) (csem_inr i)

/-! ## The positions at the start, the closing at the end -/

/-- The device's positions on its sixteen cells, named: the barrier cell, the seven send cells, the eight receive cells as
    its own and its peers'. -/
theorem atPos_cells (c : Dev nD) :
    (bigSep Finset.univ fun k : Fin 16 => (atPos ER (kcell (c, k)) 0 ∅ 0 : sProp 𝕄))
      ⊢ iprop(atPos ER (barCell c) 0 ∅ 0 ∗ (bigSep Finset.univ fun j : Fin 7 => atPos ER (sendCell c j) 0 ∅ 0)
          ∗ (bigSep Finset.univ fun j : Fin 7 => atPos ER (recvCell c (nb c (j.val + 1))) 0 ∅ 0) ∗ atPos ER (recvCell c c) 0 ∅ 0) := by
  rw [all16 c (fun g => (atPos ER g 0 ∅ 0 : sProp 𝕄)), bigSep_dev c (fun s => (atPos ER (recvCell c s) 0 ∅ 0 : sProp 𝕄))]
  iintro ⟨Hb, HS, Hself, HR⟩
  isplitl [Hb]; · iexact Hb
  isplitl [HS]; · iexact HS
  isplitl [HR]; · iexact HR
  iexact Hself

/-- The fifteen own cells closed at once: seven send cells and the seven receive cells the peers filled after their round,
    the receive cell numbered `c` where it stands. The record of the cells' invariants is persistent, so it serves every
    cell; the fifteen updates are at the same mask and combine into one. -/
theorem close_all (K : Dev nD × Fin 16 → ℕ) (c : Dev nD) :
    iprop(records m K ∗ (bigSep Finset.univ fun j : Fin 7 => atPos ER (sendCell c j) 1 ∅ 0)
        ∗ (bigSep Finset.univ fun j : Fin 7 => atPos ER (recvCell c (nb c (j.val + 1))) 1 ∅ 0) ∗ atPos ER (recvCell c c) 0 ∅ 0)
      ⊢ (|={Set.univ}=> bigSep Finset.univ fun i : Fin 15 => semVal ((c : Thread nD τ), osem i) 0 : sProp 𝕄) := by
  rw [own15 (fun sm => (semVal ((c : Thread nD τ), sm) 0 : sProp 𝕄)), bigSep_dev c (fun s => (semVal (recvCell c s) 0 : sProp 𝕄))]
  have hS : iprop(records m K ∗ bigSep Finset.univ fun j : Fin 7 => atPos ER (sendCell c j) 1 ∅ 0)
      ⊢ (|={Set.univ}=> bigSep Finset.univ fun j : Fin 7 => semVal (sendCell c j) 0 : sProp 𝕄) :=
    (bigSep_with_persistent fun j _ => close_send m K c j).trans (bigSep_fupd _ _)
  have hR : iprop(records m K ∗ bigSep Finset.univ fun j : Fin 7 => atPos ER (recvCell c (nb c (j.val + 1))) 1 ∅ 0)
      ⊢ (|={Set.univ}=> bigSep Finset.univ fun j : Fin 7 => semVal (recvCell c (nb c (j.val + 1))) 0 : sProp 𝕄) :=
    (bigSep_with_persistent fun j _ => close_recv m K c (nb c (j.val + 1))).trans (bigSep_fupd _ _)
  iintro ⟨#Hrec, HS, HR, Hself⟩
  iapply fupd_sep
  isplitl [HS]
  · iapply hS; isplitr; · iexact Hrec
    iexact HS
  iapply fupd_sep
  isplitl [Hself]
  · iapply (close_recv_self m K c); isplitr; · iexact Hrec
    iexact Hself
  · iapply hR; isplitr; · iexact Hrec
    iexact HR

/-- info: 'Cert.KernelIdeal.Proto.before_x' depends on axioms: [propext, Classical.choice, Quot.sound] -/
#guard_msgs in #print axioms before_x

/-- info: 'Cert.KernelIdeal.Proto.write_out' depends on axioms: [propext, Classical.choice, Quot.sound] -/
#guard_msgs in #print axioms write_out

/-- info: 'Cert.KernelIdeal.Proto.atPos_cells' depends on axioms: [propext, Classical.choice, Quot.sound] -/
#guard_msgs in #print axioms atPos_cells

/-- info: 'Cert.KernelIdeal.Proto.close_all' depends on axioms: [propext, Classical.choice, Quot.sound] -/
#guard_msgs in #print axioms close_all

end Cert.KernelIdeal.Proto

end
-- ==== Proof.BodyFront.lean ====
/-
  The front of one device's run of the kernel body: from the launch state to the barrier wait.

  The device tells each of its seven peers, on the peer's barrier cell, that it has entered; each signal also hands the peer
  the slot of this device's scratch array that the peer will fill. It then reads its block of x and stores the two rows of
  statistics of that block — the row sums and the row sums of squares — into its own slot: the two rows cover the slot, so
  afterwards the slot holds the device's statistics whatever the array held before. Last it waits for the seven peers'
  signals, which bring, from each peer, slot `c` of that peer's array: the destinations of the seven copies to come.
  The barrier cell's seven duties are numbered by the payer's distance counted backwards, so they arrive in the order of
  distances 7, 6, …, 1; listed by distance 1, …, 7 they are the same seven slots in the opposite order.
-/
import proofs.«900544_g7700000000000545_dist_layernorm_colshard_i_m512_n256_v7x_i8_f32_1_alg».proof.Proof.Steps
import proofs.«900544_g7700000000000545_dist_layernorm_colshard_i_m512_n256_v7x_i8_f32_1_alg».proof.Proof.BodyAux

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## Opening and closing a conjunction over the seven ring distances -/

omit [FloatOps F] [∀ e, Nonempty (Elt F e)] in
theorem bigSep7_elim (Φ : Fin 7 → sProp 𝕄) : bigSep Finset.univ Φ ⊢ iprop(Φ 0 ∗ Φ 1 ∗ Φ 2 ∗ Φ 3 ∗ Φ 4 ∗ Φ 5 ∗ Φ 6) := Entails.of_eq (bigSep_fin7 Φ)
omit [FloatOps F] [∀ e, Nonempty (Elt F e)] in
theorem bigSep7_intro (Φ : Fin 7 → sProp 𝕄) : iprop(Φ 0 ∗ Φ 1 ∗ Φ 2 ∗ Φ 3 ∗ Φ 4 ∗ Φ 5 ∗ Φ 6) ⊢ bigSep Finset.univ Φ := Entails.of_eq (bigSep_fin7 Φ).symm

/-- What the barrier wait brings, listed by the payer's ring distance: duty `j` of the barrier cell is paid by the peer at
    distance `7 - j`, so the seven duties in order are the peers at distances 7, 6, …, 1; the same seven slots in the
    opposite order. -/
theorem peers_rev (c : Dev nD) : bigSep Finset.univ (fun j : Fin 7 => barPay (F := F) c j)
    ⊢ bigSep Finset.univ fun j : Fin 7 => iprop(∃ f, slotPts (F := F) (nb c (j.val + 1)) c fullShare f) := by
  rw [bigSep_fin7, bigSep_fin7]
  unfold barPay
  show iprop((∃ f, slotPts (F := F) (nb c ((6 : Fin 7).val + 1)) c fullShare f) ∗ (∃ f, slotPts (F := F) (nb c ((5 : Fin 7).val + 1)) c fullShare f) ∗ (∃ f, slotPts (F := F) (nb c ((4 : Fin 7).val + 1)) c fullShare f) ∗ (∃ f, slotPts (F := F) (nb c ((3 : Fin 7).val + 1)) c fullShare f) ∗ (∃ f, slotPts (F := F) (nb c ((2 : Fin 7).val + 1)) c fullShare f) ∗ (∃ f, slotPts (F := F) (nb c ((1 : Fin 7).val + 1)) c fullShare f) ∗ (∃ f, slotPts (F := F) (nb c ((0 : Fin 7).val + 1)) c fullShare f))
    ⊢ iprop((∃ f, slotPts (F := F) (nb c ((0 : Fin 7).val + 1)) c fullShare f) ∗ (∃ f, slotPts (F := F) (nb c ((1 : Fin 7).val + 1)) c fullShare f) ∗ (∃ f, slotPts (F := F) (nb c ((2 : Fin 7).val + 1)) c fullShare f) ∗ (∃ f, slotPts (F := F) (nb c ((3 : Fin 7).val + 1)) c fullShare f) ∗ (∃ f, slotPts (F := F) (nb c ((4 : Fin 7).val + 1)) c fullShare f) ∗ (∃ f, slotPts (F := F) (nb c ((5 : Fin 7).val + 1)) c fullShare f) ∗ (∃ f, slotPts (F := F) (nb c ((6 : Fin 7).val + 1)) c fullShare f))
  iintro ⟨H6, H5, H4, H3, H2, H1, H0⟩
  isplitl [H0]; · iexact H0
  isplitl [H1]; · iexact H1
  isplitl [H2]; · iexact H2
  isplitl [H3]; · iexact H3
  isplitl [H4]; · iexact H4
  isplitl [H5]; · iexact H5
  iexact H6

/-- After the two row stores the device's own slot holds its statistics, whatever the array held before. -/
theorem own_after_stores (c : Dev nD) (f0 : (cc0_scratch0 : Ref sig .tc).ty.Contents (Elt F)) :
    ((((scrM : Memref sig .tc .vmem S8x2x512 .f32).access (r2 c) : View sig .tc _ _ _).loc (c : Thread nD τ) ↦[(slotM c).view.set]{fullShare}
        ((scrM.access (r2 c) : View sig .tc _ _ _).write (Elt F) ((scrM.access (r1 c) : View sig .tc _ _ _).write (Elt F) f0
            (k0_pay2 ((xM : Memref sig .tc .vmem S512x256 .f32).view.readAt (Elt F) rX.toLoadRect (xstg m c))) Finset.univ)
          (k0_pay3 ((xM : Memref sig .tc .vmem S512x256 .f32).view.readAt (Elt F) rX.toLoadRect (xstg m c))) Finset.univ)) : sProp 𝕄)
      ⊢ slotPts c c fullShare (allStats m) := by
  unfold slotPts; exact Entails.of_eq (pointsTo_congr (ownStats_eq m c f0))

/-- The seven entry signals; the load of the device's block of x; for each of the two rows of statistics a load of the
    slot's row and the store of the row; the barrier wait; then any continuation of the loaded block. -/
theorem front_steps (K : Dev nD × Fin 16 → ℕ) (c : Dev nD) (W : Waits sig Unit) (f0 : Buf (Elt F) ((c : Thread nD τ).loc cc0_scratch0))
    {hlx : (xM : Memref sig .tc .vmem S512x256 .f32).view.LoadsAt rX.toLoadRect}
    {hl1 : (scrM : Memref sig .tc .vmem S8x2x512 .f32).view.LoadsAt (r1 c).toLoadRect} {hl2 : scrM.view.LoadsAt (r2 c).toLoadRect}
    {hx1 : (scrM.access (r1 c)).Stores Finset.univ} {hm1 : (Finset.univ : Finset (r1 c).shape.Idx) = Finset.univ ∨ ∀ a, (r1 c).stride a = 1}
    {hx2 : (scrM.access (r2 c)).Stores Finset.univ} {hm2 : (Finset.univ : Finset (r2 c).shape.Idx) = Finset.univ ∨ ∀ a, (r2 c).stride a = 1}
    {α : Type} {k : Vec F S512x256 .f32 → Prog (TpuEff nD τ sig (Elt F) Λ₀ .tc) α} {Q : α → sProp 𝕄} :
    iprop(records m K ∗ levAts L lv
      ∗ owes (c : Thread nD τ) (O₀ c) W
      ∗ (bigSep Finset.univ fun j : Fin 7 => dutyTok ER (barCell (nb c (j.val + 1))) 0 j)
      ∗ cred (tallyAt (barCell c) () 7) ∗ atPos ER (barCell c) 0 ∅ 0
      ∗ (((c : Thread nD τ).loc cc0_scratch0) ↦{fullShare} f0)
      ∗ stg c cc0_stg0_0 (xstg m c)
      ∗ ((owes (c : Thread nD τ) (O₇ c) (insert (SemLoc.reg barS, ()) W) ∗ atPos ER (barCell c) 1 ∅ 0
            ∗ slotPts c c fullShare (allStats m)
            ∗ (bigSep Finset.univ fun j : Fin 7 => iprop(∃ f, slotPts (F := F) (nb c (j.val + 1)) c fullShare f))
            ∗ stg c cc0_stg0_0 (xstg m c))
          -∗ wp frame (wpE (defs₀ (F := F)) 𝒱₀ (c : Thread nD τ) none) Set.univ (k (xv m c)) Q))
    ⊢ wp frame (wpE (defs₀ (F := F)) 𝒱₀ (c : Thread nD τ) none) Set.univ
        (.op (.semSignal (nb c 1 : Thread nD τ) barS 1) fun _ => .op (.semSignal (nb c 2 : Thread nD τ) barS 1) fun _ =>
         .op (.semSignal (nb c 3 : Thread nD τ) barS 1) fun _ => .op (.semSignal (nb c 4 : Thread nD τ) barS 1) fun _ =>
         .op (.semSignal (nb c 5 : Thread nD τ) barS 1) fun _ => .op (.semSignal (nb c 6 : Thread nD τ) barS 1) fun _ =>
         .op (.semSignal (nb c 7 : Thread nD τ) barS 1) fun _ =>
         .op (.load xM rX.toLoadRect hlx) fun x =>
         .op (.load scrM (r1 c).toLoadRect hl1) fun _ => .op (.store scrM (r1 c) (k0_pay2 x) Finset.univ hx1 hm1) fun _ =>
         .op (.load scrM (r2 c).toLoadRect hl2) fun _ => .op (.store scrM (r2 c) (k0_pay3 x) Finset.univ hx2 hm2) fun _ =>
         .op (.semWait barS 7) fun _ => k x) Q := by
  unfold xv
  iintro ⟨#Hrec, #Hlev, HO, HtB, HcB, HatB, Hscr, Hx, Hk⟩
  ihave HtB' := (bigSep7_elim _) $$ HtB
  icases HtB' with ⟨HtB0, HtB1, HtB2, HtB3, HtB4, HtB5, HtB6⟩
  -- the scratch array whole as the own slot and the seven peers' slots
  ihave Hs := (scr_split c f0) $$ Hscr
  icases Hs with ⟨Hown, Hs⟩
  ihave Hs' := (bigSep7_elim _) $$ Hs
  icases Hs' with ⟨Hs0, Hs1, Hs2, Hs3, Hs4, Hs5, Hs6⟩
  icases Hx with ⟨%g0, %hg0, Hx⟩; subst hg0
  -- the seven entry signals, each handing the peer the slot it will fill
  iapply (signal_step m K c 0 (nb c 1) rfl (O₀ c) _ rfl W) $$ [HO HtB0 Hs0]
  · isplitr; · iexact Hrec
    isplitl [HO]; · iexact HO
    isplitl [HtB0]; · iexact HtB0
    iexists f0; iexact Hs0
  iintro HO
  iapply (signal_step m K c 1 (nb c 2) rfl _ _ rfl W) $$ [HO HtB1 Hs1]
  · isplitr; · iexact Hrec
    isplitl [HO]; · iexact HO
    isplitl [HtB1]; · iexact HtB1
    iexists f0; iexact Hs1
  iintro HO
  iapply (signal_step m K c 2 (nb c 3) rfl _ _ rfl W) $$ [HO HtB2 Hs2]
  · isplitr; · iexact Hrec
    isplitl [HO]; · iexact HO
    isplitl [HtB2]; · iexact HtB2
    iexists f0; iexact Hs2
  iintro HO
  iapply (signal_step m K c 3 (nb c 4) rfl _ _ rfl W) $$ [HO HtB3 Hs3]
  · isplitr; · iexact Hrec
    isplitl [HO]; · iexact HO
    isplitl [HtB3]; · iexact HtB3
    iexists f0; iexact Hs3
  iintro HO
  iapply (signal_step m K c 4 (nb c 5) rfl _ _ rfl W) $$ [HO HtB4 Hs4]
  · isplitr; · iexact Hrec
    isplitl [HO]; · iexact HO
    isplitl [HtB4]; · iexact HtB4
    iexists f0; iexact Hs4
  iintro HO
  iapply (signal_step m K c 5 (nb c 6) rfl _ _ rfl W) $$ [HO HtB5 Hs5]
  · isplitr; · iexact Hrec
    isplitl [HO]; · iexact HO
    isplitl [HtB5]; · iexact HtB5
    iexists f0; iexact Hs5
  iintro HO
  iapply (signal_step m K c 6 (nb c 7) rfl _ _ rfl W) $$ [HO HtB6 Hs6]
  · isplitr; · iexact Hrec
    isplitl [HO]; · iexact HO
    isplitl [HtB6]; · iexact HtB6
    iexists f0; iexact Hs6
  iintro HO
  -- the device's block of x; its two rows of statistics stored in its own slot
  iapply (wp_load 𝒱₀ (c : Thread nD τ) none Set.univ (m := xM) (Finset.subset_univ _)) $$ Hx; iintro Hx
  unfold slotPts
  iapply (wp_load 𝒱₀ (c : Thread nD τ) none Set.univ (m := scrM) (load_r1_sub c)) $$ Hown; iintro Hown
  iapply (wp_store 𝒱₀ (c : Thread nD τ) none Set.univ (m := scrM) (r := r1 c) (Mk := Finset.univ) (store_r1_sub c)) $$ Hown; iintro Hown
  iapply (wp_load 𝒱₀ (c : Thread nD τ) none Set.univ (m := scrM) (load_r2_sub c)) $$ Hown; iintro Hown
  iapply (wp_store 𝒱₀ (c : Thread nD τ) none Set.univ (m := scrM) (r := r2 c) (Mk := Finset.univ) (store_r2_sub c)) $$ Hown; iintro Hown
  ihave Hown := (own_after_stores m c f0) $$ Hown
  -- the wait for the seven peers: their slots for this device's statistics come with it
  iapply (bar_wait_step m K c W) $$ [HcB HO HatB]
  · isplitr; · iexact Hrec
    isplitr; · iexact Hlev
    isplitl [HcB]; · iexact HcB
    isplitl [HO]; · iexact HO
    iexact HatB
  iintro ⟨HO, HatB, Hd⟩
  ihave Hd := (peers_rev c) $$ Hd
  iapply Hk
  isplitl [HO]; · iexact HO
  isplitl [HatB]; · iexact HatB
  isplitl [Hown]; · unfold slotPts; iexact Hown
  isplitl [Hd]; · unfold slotPts; iexact Hd
  iexists _; isplitr; · (ipureintro; rfl)
  iexact Hx

/-- info: 'Cert.KernelIdeal.Proto.front_steps' depends on axioms: [propext, Classical.choice, Quot.sound] -/
#guard_msgs in #print axioms front_steps

/-- info: 'Cert.KernelIdeal.Proto.peers_rev' depends on axioms: [propext, Classical.choice, Quot.sound] -/
#guard_msgs in #print axioms peers_rev

/-- info: 'Cert.KernelIdeal.Proto.own_after_stores' depends on axioms: [propext, Classical.choice, Quot.sound] -/
#guard_msgs in #print axioms own_after_stores

end Cert.KernelIdeal.Proto

end
-- ==== Proof.BodySend.lean ====
/-
  The seven copies of a device's own slot of statistics to its seven peers.

  The device holds its own slot in full, filled with its statistics, and — handed over by the peers at the barrier —
  slot `c` of each peer's exchange array. It owes the seven copies. It splits the full share of its own slot into a share
  it keeps for its own later load and seven read shares, one lent to each copy until that copy's completion is waited
  for. The copy to the peer at ring distance `j + 1` pays the one duty of send cell `j` with read share `j`, and the one
  duty of that peer's receive cell for sender `c` with the peer's slot `c` now holding `c`'s statistics; it leaves the
  credit of send cell `j` for the later wait and takes that copy off what is owed. The copies go out to distances
  4, 3, 5, 2, 6, 1, 7 in that order, and what is owed is the sum written so that each copy removes the last summand;
  after the seventh nothing is owed.
-/
import proofs.«900544_g7700000000000545_dist_layernorm_colshard_i_m512_n256_v7x_i8_f32_1_alg».proof.Proof.Steps

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## The own slot split for the seven copies -/

/-- The full share of the own slot is the share kept for the own load and the seven read shares lent to the copies. -/
theorem ownSlot_split (c : Dev nD) :
    (slotPts c c fullShare (allStats m) : sProp 𝕄)
      ⊢ iprop(slotPts c c keptShare (allStats m)
        ∗ slotPts c c (sendShare 0) (allStats m) ∗ slotPts c c (sendShare 1) (allStats m) ∗ slotPts c c (sendShare 2) (allStats m)
        ∗ slotPts c c (sendShare 3) (allStats m) ∗ slotPts c c (sendShare 4) (allStats m) ∗ slotPts c c (sendShare 5) (allStats m)
        ∗ slotPts c c (sendShare 6) (allStats m)) := by
  unfold slotPts
  rw [← bigSep_fin7 (fun j : Fin 7 =>
    ((slotM c).view.loc (c : Thread nD τ) ↦[(slotM c).view.set]{sendShare j} allStats m : sProp 𝕄))]
  exact Transfers.pointsTo_toks_split fullShare 7

/-! ## The seven copies -/

theorem sends_steps (K : Dev nD × Fin 16 → ℕ) (c : Dev nD) (W : Waits sig Unit)
    {n4 n3 n5 n2 n6 n1 n7 : Dev nD} (e4 : n4 = nb c 4) (e3 : n3 = nb c 3) (e5 : n5 = nb c 5) (e2 : n2 = nb c 2) (e6 : n6 = nb c 6) (e1 : n1 = nb c 1) (e7 : n7 = nb c 7)
    {sS3 sS2 sS4 sS1 sS5 sS0 sS6 : DmaSem sig} (hS3 : sS3 = sendS 3) (hS2 : sS2 = sendS 2) (hS4 : sS4 = sendS 4) (hS1 : sS1 = sendS 1) (hS5 : sS5 = sendS 5) (hS0 : sS0 = sendS 0) (hS6 : sS6 = sendS 6)
    {sR3 sR2 sR4 sR1 sR5 sR0 sR6 : DmaSem sig} (hR3 : sR3 = recvS c) (hR2 : sR2 = recvS c) (hR4 : sR4 = recvS c) (hR1 : sR1 = recvS c) (hR5 : sR5 = recvS c) (hR0 : sR0 = recvS c) (hR6 : sR6 = recvS c)
    {hc3 : (slotM c : Memref sig (Dev.tc n4 : Thread nD τ).2.kind .vmem S2x512 .f32).view.ref.isScScratch = false}
    {hc2 : (slotM c : Memref sig (Dev.tc n3 : Thread nD τ).2.kind .vmem S2x512 .f32).view.ref.isScScratch = false}
    {hc4 : (slotM c : Memref sig (Dev.tc n5 : Thread nD τ).2.kind .vmem S2x512 .f32).view.ref.isScScratch = false}
    {hc1 : (slotM c : Memref sig (Dev.tc n2 : Thread nD τ).2.kind .vmem S2x512 .f32).view.ref.isScScratch = false}
    {hc5 : (slotM c : Memref sig (Dev.tc n6 : Thread nD τ).2.kind .vmem S2x512 .f32).view.ref.isScScratch = false}
    {hc0 : (slotM c : Memref sig (Dev.tc n1 : Thread nD τ).2.kind .vmem S2x512 .f32).view.ref.isScScratch = false}
    {hc6 : (slotM c : Memref sig (Dev.tc n7 : Thread nD τ).2.kind .vmem S2x512 .f32).view.ref.isScScratch = false}
    {hs3 hd3 hs2 hd2 hs4 hd4 hs1 hd1 hs5 hd5 hs0 hd0 hs6 hd6 : (slotM c : Memref sig .tc .vmem S2x512 .f32).view.WordExact}
    {ht3 : DmaTarget.Typed .vmem (.dma sR3) (.remote (Dev.tc n4 : Thread nD τ) (slotM c : Memref sig .tc .vmem S2x512 .f32) (.dma sS3) hc3)}
    {ht2 : DmaTarget.Typed .vmem (.dma sR2) (.remote (Dev.tc n3 : Thread nD τ) (slotM c : Memref sig .tc .vmem S2x512 .f32) (.dma sS2) hc2)}
    {ht4 : DmaTarget.Typed .vmem (.dma sR4) (.remote (Dev.tc n5 : Thread nD τ) (slotM c : Memref sig .tc .vmem S2x512 .f32) (.dma sS4) hc4)}
    {ht1 : DmaTarget.Typed .vmem (.dma sR1) (.remote (Dev.tc n2 : Thread nD τ) (slotM c : Memref sig .tc .vmem S2x512 .f32) (.dma sS1) hc1)}
    {ht5 : DmaTarget.Typed .vmem (.dma sR5) (.remote (Dev.tc n6 : Thread nD τ) (slotM c : Memref sig .tc .vmem S2x512 .f32) (.dma sS5) hc5)}
    {ht0 : DmaTarget.Typed .vmem (.dma sR0) (.remote (Dev.tc n1 : Thread nD τ) (slotM c : Memref sig .tc .vmem S2x512 .f32) (.dma sS0) hc0)}
    {ht6 : DmaTarget.Typed .vmem (.dma sR6) (.remote (Dev.tc n7 : Thread nD τ) (slotM c : Memref sig .tc .vmem S2x512 .f32) (.dma sS6) hc6)}
    {α : Type} {k : PUnit → Prog (TpuEff nD τ sig (Elt F) Λ₀ .tc) α} {Q : α → sProp 𝕄} :
    iprop(records m K
      ∗ owes (c : Thread nD τ) (O₇ c) W
      ∗ slotPts c c fullShare (allStats m)
      ∗ (bigSep Finset.univ fun j : Fin 7 => iprop(∃ f, slotPts (F := F) (nb c (j.val + 1)) c fullShare f))
      ∗ (bigSep Finset.univ fun j : Fin 7 => dutyTok ER (sendCell c j) 0 (0 : Fin 7))
      ∗ (bigSep Finset.univ fun j : Fin 7 => dutyTok ER (recvCell (nb c (j.val + 1)) c) 0 (0 : Fin 7))
      ∗ ((owes (c : Thread nD τ) 0 W ∗ (bigSep Finset.univ fun j : Fin 7 => cred (tallyAt (sendCell c j) () N)) ∗ slotPts c c keptShare (allStats m))
          -∗ wp frame (wpE (defs₀ (F := F)) 𝒱₀ (c : Thread nD τ) none) Set.univ (k ⟨⟩) Q))
    ⊢ wp frame (wpE (defs₀ (F := F)) 𝒱₀ (c : Thread nD τ) none) Set.univ
        (.op (.enqueueDma (slotM c) (.remote (Dev.tc n4 : Thread nD τ) (slotM c) (.dma sS3) hc3) (.dma sR3) hs3 hd3 ht3) fun _ =>
         .op (.enqueueDma (slotM c) (.remote (Dev.tc n3 : Thread nD τ) (slotM c) (.dma sS2) hc2) (.dma sR2) hs2 hd2 ht2) fun _ =>
         .op (.enqueueDma (slotM c) (.remote (Dev.tc n5 : Thread nD τ) (slotM c) (.dma sS4) hc4) (.dma sR4) hs4 hd4 ht4) fun _ =>
         .op (.enqueueDma (slotM c) (.remote (Dev.tc n2 : Thread nD τ) (slotM c) (.dma sS1) hc1) (.dma sR1) hs1 hd1 ht1) fun _ =>
         .op (.enqueueDma (slotM c) (.remote (Dev.tc n6 : Thread nD τ) (slotM c) (.dma sS5) hc5) (.dma sR5) hs5 hd5 ht5) fun _ =>
         .op (.enqueueDma (slotM c) (.remote (Dev.tc n1 : Thread nD τ) (slotM c) (.dma sS0) hc0) (.dma sR0) hs0 hd0 ht0) fun _ =>
         .op (.enqueueDma (slotM c) (.remote (Dev.tc n7 : Thread nD τ) (slotM c) (.dma sS6) hc6) (.dma sR6) hs6 hd6 ht6) k) Q := by
  rw [bigSep_fin7 (fun j : Fin 7 => (iprop(∃ f, slotPts (F := F) (nb c (j.val + 1)) c fullShare f) : sProp 𝕄)),
    bigSep_fin7 (fun j : Fin 7 => (dutyTok ER (sendCell c j) 0 (0 : Fin 7) : sProp 𝕄)),
    bigSep_fin7 (fun j : Fin 7 => (dutyTok ER (recvCell (nb c (j.val + 1)) c) 0 (0 : Fin 7) : sProp 𝕄)),
    bigSep_fin7 (fun j : Fin 7 => (cred (tallyAt (sendCell c j) () N) : sProp 𝕄))]
  iintro ⟨#Hrec, HO, Hown, ⟨⟨%fd0, Hd0⟩, ⟨%fd1, Hd1⟩, ⟨%fd2, Hd2⟩, ⟨%fd3, Hd3⟩, ⟨%fd4, Hd4⟩, ⟨%fd5, Hd5⟩, ⟨%fd6, Hd6⟩⟩,
    ⟨HtS0, HtS1, HtS2, HtS3, HtS4, HtS5, HtS6⟩, ⟨HtR0, HtR1, HtR2, HtR3, HtR4, HtR5, HtR6⟩, Hk⟩
  -- the share kept, and the seven read shares
  ihave Hsh := (ownSlot_split m c) $$ Hown
  icases Hsh with ⟨Hkept, Hsh0, Hsh1, Hsh2, Hsh3, Hsh4, Hsh5, Hsh6⟩
  -- the copy to ring distance 4 (send cell 3)
  iapply (send_step m K c 3 n4 e4 hS3 hR3 fd3 (O₇ c) (owedCopy c 6 + owedCopy c 0 + owedCopy c 5 + owedCopy c 1 + owedCopy c 4 + owedCopy c 2) rfl W) $$ [Hsh3 Hd3 HO HtS3 HtR3]
  · isplitr; · iexact Hrec
    isplitl [Hsh3]; · iexact Hsh3
    isplitl [Hd3]; · iexact Hd3
    isplitl [HO]; · iexact HO
    isplitl [HtS3]; · iexact HtS3
    iexact HtR3
  iintro ⟨HcS3, HO⟩
  -- the copy to ring distance 3 (send cell 2)
  iapply (send_step m K c 2 n3 e3 hS2 hR2 fd2 (owedCopy c 6 + owedCopy c 0 + owedCopy c 5 + owedCopy c 1 + owedCopy c 4 + owedCopy c 2) (owedCopy c 6 + owedCopy c 0 + owedCopy c 5 + owedCopy c 1 + owedCopy c 4) rfl W) $$ [Hsh2 Hd2 HO HtS2 HtR2]
  · isplitr; · iexact Hrec
    isplitl [Hsh2]; · iexact Hsh2
    isplitl [Hd2]; · iexact Hd2
    isplitl [HO]; · iexact HO
    isplitl [HtS2]; · iexact HtS2
    iexact HtR2
  iintro ⟨HcS2, HO⟩
  -- the copy to ring distance 5 (send cell 4)
  iapply (send_step m K c 4 n5 e5 hS4 hR4 fd4 (owedCopy c 6 + owedCopy c 0 + owedCopy c 5 + owedCopy c 1 + owedCopy c 4) (owedCopy c 6 + owedCopy c 0 + owedCopy c 5 + owedCopy c 1) rfl W) $$ [Hsh4 Hd4 HO HtS4 HtR4]
  · isplitr; · iexact Hrec
    isplitl [Hsh4]; · iexact Hsh4
    isplitl [Hd4]; · iexact Hd4
    isplitl [HO]; · iexact HO
    isplitl [HtS4]; · iexact HtS4
    iexact HtR4
  iintro ⟨HcS4, HO⟩
  -- the copy to ring distance 2 (send cell 1)
  iapply (send_step m K c 1 n2 e2 hS1 hR1 fd1 (owedCopy c 6 + owedCopy c 0 + owedCopy c 5 + owedCopy c 1) (owedCopy c 6 + owedCopy c 0 + owedCopy c 5) rfl W) $$ [Hsh1 Hd1 HO HtS1 HtR1]
  · isplitr; · iexact Hrec
    isplitl [Hsh1]; · iexact Hsh1
    isplitl [Hd1]; · iexact Hd1
    isplitl [HO]; · iexact HO
    isplitl [HtS1]; · iexact HtS1
    iexact HtR1
  iintro ⟨HcS1, HO⟩
  -- the copy to ring distance 6 (send cell 5)
  iapply (send_step m K c 5 n6 e6 hS5 hR5 fd5 (owedCopy c 6 + owedCopy c 0 + owedCopy c 5) (owedCopy c 6 + owedCopy c 0) rfl W) $$ [Hsh5 Hd5 HO HtS5 HtR5]
  · isplitr; · iexact Hrec
    isplitl [Hsh5]; · iexact Hsh5
    isplitl [Hd5]; · iexact Hd5
    isplitl [HO]; · iexact HO
    isplitl [HtS5]; · iexact HtS5
    iexact HtR5
  iintro ⟨HcS5, HO⟩
  -- the copy to ring distance 1 (send cell 0)
  iapply (send_step m K c 0 n1 e1 hS0 hR0 fd0 (owedCopy c 6 + owedCopy c 0) (owedCopy c 6) rfl W) $$ [Hsh0 Hd0 HO HtS0 HtR0]
  · isplitr; · iexact Hrec
    isplitl [Hsh0]; · iexact Hsh0
    isplitl [Hd0]; · iexact Hd0
    isplitl [HO]; · iexact HO
    isplitl [HtS0]; · iexact HtS0
    iexact HtR0
  iintro ⟨HcS0, HO⟩
  -- the copy to ring distance 7 (send cell 6)
  iapply (send_step m K c 6 n7 e7 hS6 hR6 fd6 (owedCopy c 6) 0 (zero_add _).symm W) $$ [Hsh6 Hd6 HO HtS6 HtR6]
  · isplitr; · iexact Hrec
    isplitl [Hsh6]; · iexact Hsh6
    isplitl [Hd6]; · iexact Hd6
    isplitl [HO]; · iexact HO
    isplitl [HtS6]; · iexact HtS6
    iexact HtR6
  iintro ⟨HcS6, HO⟩
  -- nothing is owed; the seven send credits and the kept share go on
  iapply Hk
  isplitl [HO]; · iexact HO
  isplitr [Hkept]
  · isplitl [HcS0]; · iexact HcS0
    isplitl [HcS1]; · iexact HcS1
    isplitl [HcS2]; · iexact HcS2
    isplitl [HcS3]; · iexact HcS3
    isplitl [HcS4]; · iexact HcS4
    isplitl [HcS5]; · iexact HcS5
    iexact HcS6
  iexact Hkept

/-- info: 'Cert.KernelIdeal.Proto.sends_steps' depends on axioms: [propext, Classical.choice, Quot.sound] -/
#guard_msgs in #print axioms sends_steps

end Cert.KernelIdeal.Proto

end
-- ==== Proof.BodyMid.lean ====
/-
  The middle of one device's run of the kernel body: from the staged scale and shift to the stored result.

  The device reads its block of the scale and of the shift and its own slot of statistics; then, for the peers at ring
  distances 1, 7, 2, 6, 3, 5, 4 in turn, it waits for that peer's copy — which brings the peer's slot, filled with the
  peer's statistics — and reads the slot; finally it stores the normalised block over its result staging buffer.
  Every value read is, by definition, the one the closed form of the result names (the scale and shift as staged, the
  eight slots of the array every device ends up holding), so what is stored is that closed form. The receive cells advance
  one round each, the wait set grows by the seven receive semaphores, and every share held on entry is held on exit,
  together with the seven peers' slots.
-/
import proofs.«900544_g7700000000000545_dist_layernorm_colshard_i_m512_n256_v7x_i8_f32_1_alg».proof.Proof.Steps
import proofs.«900544_g7700000000000545_dist_layernorm_colshard_i_m512_n256_v7x_i8_f32_1_alg».proof.Proof.BodyAux

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-- A load of the scratch array at coordinates inside slot `s`, by a device holding any share of that slot: the program
    continues at what the coordinates read off the slot's contents, the share kept. -/
theorem load_slot_step (c s : Dev nD) (q : PosShare TreeShare) (f : Buf (Elt F) ((slotM s).view.loc (c : Thread nD τ)))
    {r : LoadRect S8x2x512} (hsub : (scrM : Memref sig .tc .vmem S8x2x512 .f32).view.setOn r.set ⊆ (slotM s).view.set)
    {hl : (scrM : Memref sig .tc .vmem S8x2x512 .f32).view.LoadsAt r}
    {α : Type} {k : (r.shape.Idx → Elt F .f32) → Prog (TpuEff nD τ sig (Elt F) Λ₀ .tc) α} {Q : α → sProp 𝕄} :
    slotPts c s q f
      ⊢ iprop((slotPts c s q f -∗ wp frame (wpE (defs₀ (F := F)) 𝒱₀ (c : Thread nD τ) none) Set.univ
            (k ((scrM : Memref sig .tc .vmem S8x2x512 .f32).view.readAt (Elt F) r f)) Q)
          -∗ wp frame (wpE (defs₀ (F := F)) 𝒱₀ (c : Thread nD τ) none) Set.univ (.op (.load scrM r hl) k) Q) := by
  unfold slotPts
  exact wp_load 𝒱₀ (c : Thread nD τ) none Set.univ (m := scrM) hsub

/-- The loads of the scale, the shift and the own slot; seven times a receive wait and the load of the slot it brings;
    the store of the result; then any continuation. -/
theorem mid_steps (K : Dev nD × Fin 16 → ℕ) (c : Dev nD) (W : Waits sig Unit) (v33 : FVec F S512x256 .f32) (hv : v33 = k0_pay1 (xv m c))
    {q1 q7 q2 q6 q3 q5 q4 : DmaSem sig}
    (hq1 : q1 = recvS (nb c 1)) (hq7 : q7 = recvS (nb c 7)) (hq2 : q2 = recvS (nb c 2)) (hq6 : q6 = recvS (nb c 6))
    (hq3 : q3 = recvS (nb c 3)) (hq5 : q5 = recvS (nb c 5)) (hq4 : q4 = recvS (nb c 4))
    {a1 b1 a7 b7 a2 b2 a6 b6 a3 b3 a5 b5 a4 b4 : Memref sig .tc .vmem S2x512 .f32}
    {ha1 : a1.view.WordExact} {hb1 : b1.view.WordExact} {ha7 : a7.view.WordExact} {hb7 : b7.view.WordExact}
    {ha2 : a2.view.WordExact} {hb2 : b2.view.WordExact} {ha6 : a6.view.WordExact} {hb6 : b6.view.WordExact}
    {ha3 : a3.view.WordExact} {hb3 : b3.view.WordExact} {ha5 : a5.view.WordExact} {hb5 : b5.view.WordExact}
    {ha4 : a4.view.WordExact} {hb4 : b4.view.WordExact}
    (h1 : b1.view.dmaCredit = N) (h7 : b7.view.dmaCredit = N) (h2 : b2.view.dmaCredit = N) (h6 : b6.view.dmaCredit = N)
    (h3 : b3.view.dmaCredit = N) (h5 : b5.view.dmaCredit = N) (h4 : b4.view.dmaCredit = N)
    {hlg : (gM : Memref sig .tc .vmem S256 .f32).view.LoadsAt rV.toLoadRect} {hlb : (bM : Memref sig .tc .vmem S256 .f32).view.LoadsAt rV.toLoadRect}
    {hlo : (scrM : Memref sig .tc .vmem S8x2x512 .f32).view.LoadsAt (rOwn c).toLoadRect}
    {hl0 : scrM.view.LoadsAt (rPeer c 0).toLoadRect} {hl6 : scrM.view.LoadsAt (rPeer c 6).toLoadRect} {hl1 : scrM.view.LoadsAt (rPeer c 1).toLoadRect}
    {hl5 : scrM.view.LoadsAt (rPeer c 5).toLoadRect} {hl2 : scrM.view.LoadsAt (rPeer c 2).toLoadRect} {hl4 : scrM.view.LoadsAt (rPeer c 4).toLoadRect}
    {hl3 : scrM.view.LoadsAt (rPeer c 3).toLoadRect}
    {hlout : (oM : Memref sig .tc .vmem S512x256 .f32).view.LoadsAt rX.toLoadRect}
    {hx : (oM.access rX).Stores Finset.univ} {hm : (Finset.univ : Finset rX.shape.Idx) = Finset.univ ∨ ∀ a, rX.stride a = 1}
    {α : Type} {k : PUnit → Prog (TpuEff nD τ sig (Elt F) Λ₀ .tc) α} {Q : α → sProp 𝕄} :
    iprop(records m K
      ∗ owes (c : Thread nD τ) 0 W
      ∗ (bigSep Finset.univ fun j : Fin 7 => cred (tallyAt (recvCell c (nb c (j.val + 1))) () N))
      ∗ (bigSep Finset.univ fun j : Fin 7 => atPos ER (recvCell c (nb c (j.val + 1))) 0 ∅ 0)
      ∗ slotPts c c keptShare (allStats m)
      ∗ stg c cc0_stg1_0 (gstg m c) ∗ stg c cc0_stg2_0 (bstg m c)
      ∗ (∃ f : Buf (Elt F) ((c : Thread nD τ).loc cc0_stg3_0), ((c : Thread nD τ).loc cc0_stg3_0) ↦{fullShare} f)
      ∗ (∀ W' : Waits sig Unit, iprop(owes (c : Thread nD τ) 0 W'
            ∗ (bigSep Finset.univ fun j : Fin 7 => atPos ER (recvCell c (nb c (j.val + 1))) 1 ∅ 0)
            ∗ slotPts c c keptShare (allStats m)
            ∗ (bigSep Finset.univ fun j : Fin 7 => slotPts c (nb c (j.val + 1)) fullShare (allStats m))
            ∗ stg c cc0_stg1_0 (gstg m c) ∗ stg c cc0_stg2_0 (bstg m c) ∗ stg c cc0_stg3_0 (outAt m c))
          -∗ wp frame (wpE (defs₀ (F := F)) 𝒱₀ (c : Thread nD τ) none) Set.univ (k ⟨⟩) Q))
    ⊢ wp frame (wpE (defs₀ (F := F)) 𝒱₀ (c : Thread nD τ) none) Set.univ
        (.op (.load gM rV.toLoadRect hlg) fun xg => .op (.load bM rV.toLoadRect hlb) fun xb =>
         .op (.load scrM (rOwn c).toLoadRect hlo) fun x14 =>
         .op (.waitDma2 q1 a1 b1 ha1 hb1) fun _ => .op (.load scrM (rPeer c 0).toLoadRect hl0) fun x16 =>
         .op (.waitDma2 q7 a7 b7 ha7 hb7) fun _ => .op (.load scrM (rPeer c 6).toLoadRect hl6) fun x18 =>
         .op (.waitDma2 q2 a2 b2 ha2 hb2) fun _ => .op (.load scrM (rPeer c 1).toLoadRect hl1) fun x20 =>
         .op (.waitDma2 q6 a6 b6 ha6 hb6) fun _ => .op (.load scrM (rPeer c 5).toLoadRect hl5) fun x22 =>
         .op (.waitDma2 q3 a3 b3 ha3 hb3) fun _ => .op (.load scrM (rPeer c 2).toLoadRect hl2) fun x24 =>
         .op (.waitDma2 q5 a5 b5 ha5 hb5) fun _ => .op (.load scrM (rPeer c 4).toLoadRect hl4) fun x26 =>
         .op (.waitDma2 q4 a4 b4 ha4 hb4) fun _ => .op (.load scrM (rPeer c 3).toLoadRect hl3) fun x28 =>
         .op (.load oM rX.toLoadRect hlout) fun _ =>
         .op (.store oM rX (k0_pay12 (k0_pay10 (k0_pay4 xg) (k0_pay6 v33 xg) (k0_pay9 (k0_pay8 (k0_pay7 x14 x16) x18 x20) x22 x24) x26 x28)
                (k0_pay11 (k0_pay5 xb))) Finset.univ hx hm) k) Q := by
  subst hv
  rw [bigSep_fin7 (fun j : Fin 7 => (cred (tallyAt (recvCell c (nb c (j.val + 1))) () N) : sProp 𝕄)),
    bigSep_fin7 (fun j : Fin 7 => (atPos ER (recvCell c (nb c (j.val + 1))) 0 ∅ 0 : sProp 𝕄))]
  iintro ⟨#Hrec, HO, ⟨Hc1, Hc2, Hc3, Hc4, Hc5, Hc6, Hc7⟩, ⟨Ha1, Ha2, Ha3, Ha4, Ha5, Ha6, Ha7⟩, Hown, Hg, Hb, ⟨%fo, Hout⟩, Hk⟩
  icases Hg with ⟨%g1, %hg1, Hg⟩; subst hg1
  icases Hb with ⟨%b1, %hb1, Hb⟩; subst hb1
  -- the scale, the shift, the own slot
  iapply (wp_load 𝒱₀ (c : Thread nD τ) none Set.univ (m := gM) (Finset.subset_univ _)) $$ Hg; iintro Hg
  iapply (wp_load 𝒱₀ (c : Thread nD τ) none Set.univ (m := bM) (Finset.subset_univ _)) $$ Hb; iintro Hb
  iapply (load_slot_step c c keptShare (allStats m) (load_own_sub c)) $$ Hown; iintro Hown
  -- the copy from the peer at distance 1: the wait brings its slot, the load reads it
  iapply (recv_step m K c (nb c 1) (nb_ne c 0) W hq1 h1) $$ [Hc1 HO Ha1]
  · isplitr; · iexact Hrec
    isplitl [Hc1]; · iexact Hc1
    isplitl [HO]; · iexact HO
    iexact Ha1
  iintro ⟨HO, Ha1, Hs1⟩
  iapply (load_slot_step c (nb c 1) fullShare (allStats m) (load_peer_sub c 0)) $$ Hs1; iintro Hs1
  -- the copy from the peer at distance 7: the wait brings its slot, the load reads it
  iapply (recv_step m K c (nb c 7) (nb_ne c 6) (insert (SemLoc.dma (recvS (nb c 1)), ()) W) hq7 h7) $$ [Hc7 HO Ha7]
  · isplitr; · iexact Hrec
    isplitl [Hc7]; · iexact Hc7
    isplitl [HO]; · iexact HO
    iexact Ha7
  iintro ⟨HO, Ha7, Hs7⟩
  iapply (load_slot_step c (nb c 7) fullShare (allStats m) (load_peer_sub c 6)) $$ Hs7; iintro Hs7
  -- the copy from the peer at distance 2: the wait brings its slot, the load reads it
  iapply (recv_step m K c (nb c 2) (nb_ne c 1) (insert (SemLoc.dma (recvS (nb c 7)), ()) (insert (SemLoc.dma (recvS (nb c 1)), ()) W)) hq2 h2) $$ [Hc2 HO Ha2]
  · isplitr; · iexact Hrec
    isplitl [Hc2]; · iexact Hc2
    isplitl [HO]; · iexact HO
    iexact Ha2
  iintro ⟨HO, Ha2, Hs2⟩
  iapply (load_slot_step c (nb c 2) fullShare (allStats m) (load_peer_sub c 1)) $$ Hs2; iintro Hs2
  -- the copy from the peer at distance 6: the wait brings its slot, the load reads it
  iapply (recv_step m K c (nb c 6) (nb_ne c 5) (insert (SemLoc.dma (recvS (nb c 2)), ()) (insert (SemLoc.dma (recvS (nb c 7)), ()) (insert (SemLoc.dma (recvS (nb c 1)), ()) W))) hq6 h6) $$ [Hc6 HO Ha6]
  · isplitr; · iexact Hrec
    isplitl [Hc6]; · iexact Hc6
    isplitl [HO]; · iexact HO
    iexact Ha6
  iintro ⟨HO, Ha6, Hs6⟩
  iapply (load_slot_step c (nb c 6) fullShare (allStats m) (load_peer_sub c 5)) $$ Hs6; iintro Hs6
  -- the copy from the peer at distance 3: the wait brings its slot, the load reads it
  iapply (recv_step m K c (nb c 3) (nb_ne c 2) (insert (SemLoc.dma (recvS (nb c 6)), ()) (insert (SemLoc.dma (recvS (nb c 2)), ()) (insert (SemLoc.dma (recvS (nb c 7)), ()) (insert (SemLoc.dma (recvS (nb c 1)), ()) W)))) hq3 h3) $$ [Hc3 HO Ha3]
  · isplitr; · iexact Hrec
    isplitl [Hc3]; · iexact Hc3
    isplitl [HO]; · iexact HO
    iexact Ha3
  iintro ⟨HO, Ha3, Hs3⟩
  iapply (load_slot_step c (nb c 3) fullShare (allStats m) (load_peer_sub c 2)) $$ Hs3; iintro Hs3
  -- the copy from the peer at distance 5: the wait brings its slot, the load reads it
  iapply (recv_step m K c (nb c 5) (nb_ne c 4) (insert (SemLoc.dma (recvS (nb c 3)), ()) (insert (SemLoc.dma (recvS (nb c 6)), ()) (insert (SemLoc.dma (recvS (nb c 2)), ()) (insert (SemLoc.dma (recvS (nb c 7)), ()) (insert (SemLoc.dma (recvS (nb c 1)), ()) W))))) hq5 h5) $$ [Hc5 HO Ha5]
  · isplitr; · iexact Hrec
    isplitl [Hc5]; · iexact Hc5
    isplitl [HO]; · iexact HO
    iexact Ha5
  iintro ⟨HO, Ha5, Hs5⟩
  iapply (load_slot_step c (nb c 5) fullShare (allStats m) (load_peer_sub c 4)) $$ Hs5; iintro Hs5
  -- the copy from the peer at distance 4: the wait brings its slot, the load reads it
  iapply (recv_step m K c (nb c 4) (nb_ne c 3) (insert (SemLoc.dma (recvS (nb c 5)), ()) (insert (SemLoc.dma (recvS (nb c 3)), ()) (insert (SemLoc.dma (recvS (nb c 6)), ()) (insert (SemLoc.dma (recvS (nb c 2)), ()) (insert (SemLoc.dma (recvS (nb c 7)), ()) (insert (SemLoc.dma (recvS (nb c 1)), ()) W)))))) hq4 h4) $$ [Hc4 HO Ha4]
  · isplitr; · iexact Hrec
    isplitl [Hc4]; · iexact Hc4
    isplitl [HO]; · iexact HO
    iexact Ha4
  iintro ⟨HO, Ha4, Hs4⟩
  iapply (load_slot_step c (nb c 4) fullShare (allStats m) (load_peer_sub c 3)) $$ Hs4; iintro Hs4
  -- the result: computed from what was read, stored over the staging buffer whole
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  iapply Hk $$ %(insert (SemLoc.dma (recvS (nb c 4)), ()) (insert (SemLoc.dma (recvS (nb c 5)), ()) (insert (SemLoc.dma (recvS (nb c 3)), ()) (insert (SemLoc.dma (recvS (nb c 6)), ()) (insert (SemLoc.dma (recvS (nb c 2)), ()) (insert (SemLoc.dma (recvS (nb c 7)), ()) (insert (SemLoc.dma (recvS (nb c 1)), ()) W)))))))
  rw [bigSep_fin7 (fun j : Fin 7 => (atPos ER (recvCell c (nb c (j.val + 1))) 1 ∅ 0 : sProp 𝕄)),
    bigSep_fin7 (fun j : Fin 7 => (slotPts c (nb c (j.val + 1)) fullShare (allStats m) : sProp 𝕄))]
  isplitl [HO]; · iexact HO
  isplitl [Ha1 Ha2 Ha3 Ha4 Ha5 Ha6 Ha7]
  · isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  isplitl [Hown]; · iexact Hown
  isplitl [Hs1 Hs2 Hs3 Hs4 Hs5 Hs6 Hs7]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  isplitl [Hg]
  · iexists _; isplitr; · (ipureintro; rfl)
    iexact Hg
  isplitl [Hb]
  · iexists _; isplitr; · (ipureintro; rfl)
    iexact Hb
  iexists _
  isplitr
  rotate_left
  · iexact Hout
  · ipureintro; rfl

/-- info: 'Cert.KernelIdeal.Proto.mid_steps' depends on axioms: [propext, Classical.choice, Quot.sound] -/
#guard_msgs in #print axioms mid_steps

end Cert.KernelIdeal.Proto

end
-- ==== Proof.BodyTail.lean ====
/-
  The end of one device's run of the kernel body: the seven waits for its own copies' completion, and the return.

  Each wait on a send cell brings back the read share of the device's own slot that was lent to that copy, moves the
  cell to its next round, and is recorded in the set of cells waited on. After the seven waits the share kept for the
  device's own load and the seven read shares add up to the full share of the own slot again. Every one of the fifteen
  own cells has then spent its one round (the receive cell numbered by the device itself never had one), so all close
  and their counters stand at zero. The own slot and the seven peers' slots, all held in full, are the whole exchange
  array. With the four staged blocks unchanged this is the body's postcondition; nothing is owed, and every wait is
  in the recorded set.
-/
import proofs.«900544_g7700000000000545_dist_layernorm_colshard_i_m512_n256_v7x_i8_f32_1_alg».proof.Proof.Steps
import proofs.«900544_g7700000000000545_dist_layernorm_colshard_i_m512_n256_v7x_i8_f32_1_alg».proof.Proof.BodyAux

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## The own slot whole again -/

/-- The share kept for the own load and the seven read shares lent to the copies are the full share of the own slot. -/
theorem own_join (c : Dev nD) :
    iprop(slotPts c c keptShare (allStats m)
        ∗ slotPts c c (sendShare 0) (allStats m) ∗ slotPts c c (sendShare 1) (allStats m) ∗ slotPts c c (sendShare 2) (allStats m)
        ∗ slotPts c c (sendShare 3) (allStats m) ∗ slotPts c c (sendShare 4) (allStats m) ∗ slotPts c c (sendShare 5) (allStats m)
        ∗ slotPts c c (sendShare 6) (allStats m))
      ⊢ (slotPts c c fullShare (allStats m) : sProp 𝕄) := by
  unfold slotPts
  rw [← bigSep_fin7 (fun j : Fin 7 =>
    ((slotM c).view.loc (c : Thread nD τ) ↦[(slotM c).view.set]{sendShare j} allStats m : sProp 𝕄))]
  exact Transfers.pointsTo_toks_join fullShare 7

/-! ## The seven send waits and the return -/

theorem tail_steps (K : Dev nD × Fin 16 → ℕ) (c : Dev nD) (W : Waits sig Unit)
    {s3 d3 s2 d2 s4 d4 s1 d1 s5 d5 s0 d0 s6 d6 : Memref sig .tc .vmem S2x512 .f32}
    {hs3 : s3.view.WordExact} {hd3 : d3.view.WordExact} {hs2 : s2.view.WordExact} {hd2 : d2.view.WordExact}
    {hs4 : s4.view.WordExact} {hd4 : d4.view.WordExact} {hs1 : s1.view.WordExact} {hd1 : d1.view.WordExact}
    {hs5 : s5.view.WordExact} {hd5 : d5.view.WordExact} {hs0 : s0.view.WordExact} {hd0 : d0.view.WordExact}
    {hs6 : s6.view.WordExact} {hd6 : d6.view.WordExact}
    (h3 : d3.view.dmaCredit = N) (h2 : d2.view.dmaCredit = N) (h4 : d4.view.dmaCredit = N) (h1 : d1.view.dmaCredit = N)
    (h5 : d5.view.dmaCredit = N) (h0 : d0.view.dmaCredit = N) (h6 : d6.view.dmaCredit = N)
    (Kt : PUnit → sProp 𝕄) :
    iprop(records m K
      ∗ owes (c : Thread nD τ) 0 W
      ∗ (bigSep Finset.univ fun j : Fin 7 => cred (tallyAt (sendCell c j) () N))
      ∗ (bigSep Finset.univ fun j : Fin 7 => atPos ER (sendCell c j) 0 ∅ 0)
      ∗ (bigSep Finset.univ fun j : Fin 7 => atPos ER (recvCell c (nb c (j.val + 1))) 1 ∅ 0)
      ∗ atPos ER (recvCell c c) 0 ∅ 0
      ∗ slotPts c c keptShare (allStats m)
      ∗ (bigSep Finset.univ fun j : Fin 7 => slotPts c (nb c (j.val + 1)) fullShare (allStats m))
      ∗ stg c cc0_stg0_0 (xstg m c) ∗ stg c cc0_stg1_0 (gstg m c) ∗ stg c cc0_stg2_0 (bstg m c) ∗ stg c cc0_stg3_0 (outAt m c)
      ∗ (bodyPost m c -∗ Kt ⟨⟩))
    ⊢ wp frame (wpE (defs₀ (F := F)) 𝒱₀ (c : Thread nD τ) none) Set.univ
        (.op (.waitDma2 (sendS 3) s3 d3 hs3 hd3) fun _ => .op (.waitDma2 (sendS 2) s2 d2 hs2 hd2) fun _ =>
         .op (.waitDma2 (sendS 4) s4 d4 hs4 hd4) fun _ => .op (.waitDma2 (sendS 1) s1 d1 hs1 hd1) fun _ =>
         .op (.waitDma2 (sendS 5) s5 d5 hs5 hd5) fun _ => .op (.waitDma2 (sendS 0) s0 d0 hs0 hd0) fun _ =>
         .op (.waitDma2 (sendS 6) s6 d6 hs6 hd6) fun _ => .ret ⟨⟩) Kt := by
  rw [bigSep_fin7 (fun j : Fin 7 => (cred (tallyAt (sendCell c j) () N) : sProp 𝕄)),
    bigSep_fin7 (fun j : Fin 7 => (atPos ER (sendCell c j) 0 ∅ 0 : sProp 𝕄))]
  iintro ⟨#Hrec, HO, ⟨Hc0, Hc1, Hc2, Hc3, Hc4, Hc5, Hc6⟩, ⟨Ha0, Ha1, Ha2, Ha3, Ha4, Ha5, Ha6⟩, HatR, HatSelf, Hkept, Hpeers,
    Hx, Hg, Hb, Hout, Hk⟩
  -- the copy to ring distance 4 (send cell 3) is complete
  iapply (wsend_step m K c 3 W rfl h3) $$ [Hc3 HO Ha3]
  · isplitr; · iexact Hrec
    isplitl [Hc3]; · iexact Hc3
    isplitl [HO]; · iexact HO
    iexact Ha3
  iintro ⟨HO, Ha3, Hsh3⟩
  -- distance 3 (send cell 2)
  iapply (wsend_step m K c 2 (insert (SemLoc.dma (sendS 3), ()) W) rfl h2) $$ [Hc2 HO Ha2]
  · isplitr; · iexact Hrec
    isplitl [Hc2]; · iexact Hc2
    isplitl [HO]; · iexact HO
    iexact Ha2
  iintro ⟨HO, Ha2, Hsh2⟩
  -- distance 5 (send cell 4)
  iapply (wsend_step m K c 4 (insert (SemLoc.dma (sendS 2), ()) (insert (SemLoc.dma (sendS 3), ()) W)) rfl h4) $$ [Hc4 HO Ha4]
  · isplitr; · iexact Hrec
    isplitl [Hc4]; · iexact Hc4
    isplitl [HO]; · iexact HO
    iexact Ha4
  iintro ⟨HO, Ha4, Hsh4⟩
  -- distance 2 (send cell 1)
  iapply (wsend_step m K c 1 (insert (SemLoc.dma (sendS 4), ()) (insert (SemLoc.dma (sendS 2), ()) (insert (SemLoc.dma (sendS 3), ()) W))) rfl h1) $$ [Hc1 HO Ha1]
  · isplitr; · iexact Hrec
    isplitl [Hc1]; · iexact Hc1
    isplitl [HO]; · iexact HO
    iexact Ha1
  iintro ⟨HO, Ha1, Hsh1⟩
  -- distance 6 (send cell 5)
  iapply (wsend_step m K c 5 (insert (SemLoc.dma (sendS 1), ()) (insert (SemLoc.dma (sendS 4), ()) (insert (SemLoc.dma (sendS 2), ()) (insert (SemLoc.dma (sendS 3), ()) W)))) rfl h5) $$ [Hc5 HO Ha5]
  · isplitr; · iexact Hrec
    isplitl [Hc5]; · iexact Hc5
    isplitl [HO]; · iexact HO
    iexact Ha5
  iintro ⟨HO, Ha5, Hsh5⟩
  -- distance 1 (send cell 0)
  iapply (wsend_step m K c 0 (insert (SemLoc.dma (sendS 5), ()) (insert (SemLoc.dma (sendS 1), ()) (insert (SemLoc.dma (sendS 4), ()) (insert (SemLoc.dma (sendS 2), ()) (insert (SemLoc.dma (sendS 3), ()) W))))) rfl h0) $$ [Hc0 HO Ha0]
  · isplitr; · iexact Hrec
    isplitl [Hc0]; · iexact Hc0
    isplitl [HO]; · iexact HO
    iexact Ha0
  iintro ⟨HO, Ha0, Hsh0⟩
  -- distance 7 (send cell 6)
  iapply (wsend_step m K c 6 (insert (SemLoc.dma (sendS 0), ()) (insert (SemLoc.dma (sendS 5), ()) (insert (SemLoc.dma (sendS 1), ()) (insert (SemLoc.dma (sendS 4), ()) (insert (SemLoc.dma (sendS 2), ()) (insert (SemLoc.dma (sendS 3), ()) W)))))) rfl h6) $$ [Hc6 HO Ha6]
  · isplitr; · iexact Hrec
    isplitl [Hc6]; · iexact Hc6
    isplitl [HO]; · iexact HO
    iexact Ha6
  iintro ⟨HO, Ha6, Hsh6⟩
  -- the own slot in full: the kept share and the seven read shares
  ihave Hown := (own_join m c) $$ [Hkept Hsh0 Hsh1 Hsh2 Hsh3 Hsh4 Hsh5 Hsh6]
  · isplitl [Hkept]; · iexact Hkept
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  -- the fifteen own cells close
  imod (close_all m K c) $$ [Ha0 Ha1 Ha2 Ha3 Ha4 Ha5 Ha6 HatR HatSelf] with Hsems
  · isplitr; · iexact Hrec
    isplitl [Ha0 Ha1 Ha2 Ha3 Ha4 Ha5 Ha6]
    · rw [bigSep_fin7 (fun j : Fin 7 => (atPos ER (sendCell c j) 1 ∅ 0 : sProp 𝕄))]
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iexact Ha6
    isplitl [HatR]; · iexact HatR
    iexact HatSelf
  -- the exchange array whole: the own slot and the seven peers' slots
  ihave Hscr := (scr_join c (allStats m) (fun _ => allStats m)) $$ [Hown Hpeers]
  · isplitl [Hown]; · iexact Hown
    iexact Hpeers
  -- the return
  rw [wp_ret]; imodintro
  iapply Hk
  unfold bodyPost Φ₁ scrAny Dat.owesAt Pipeline.owesWithin
  rw [show (dats m 0 c).owed t₀.succ = 0 from rfl]
  isplitl [Hscr Hsems]
  · isplitl [Hscr]; · iexact Hscr
    iexact Hsems
  isplitl [HO]
  · iexists (insert (SemLoc.dma (sendS 6), ()) (insert (SemLoc.dma (sendS 0), ()) (insert (SemLoc.dma (sendS 5), ()) (insert (SemLoc.dma (sendS 1), ()) (insert (SemLoc.dma (sendS 4), ()) (insert (SemLoc.dma (sendS 2), ()) (insert (SemLoc.dma (sendS 3), ()) W)))))))
    isplitr; · ipureintro; exact fun _ _ => Or.inl trivial
    iexact HO
  isplitl [Hx]; · iexact Hx
  isplitl [Hg]; · iexact Hg
  isplitl [Hb]; · iexact Hb
  iexact Hout

/-- info: 'Cert.KernelIdeal.Proto.tail_steps' depends on axioms: [propext, Classical.choice, Quot.sound] -/
#guard_msgs in #print axioms tail_steps

end Cert.KernelIdeal.Proto

end
-- ==== Proof.Body.lean ====
/-
  One device's run of the kernel body, from what the launch hands it to what it hands back.

  In program order: the seven entry signals, each handing the addressed peer the slot it will fill; the device's own two rows
  of statistics stored in its slot; the wait for the seven peers' signals, which brings the seven destination slots; the seven
  copies of the own slot, each lent a read share of it; the own slot and, after each receive wait, the peer's slot read and
  added; the normalised block stored; the seven send waits, which bring the read shares back; the fifteen own cells closed.
-/
import proofs.«900544_g7700000000000545_dist_layernorm_colshard_i_m512_n256_v7x_i8_f32_1_alg».proof.Proof.BodyFront
import proofs.«900544_g7700000000000545_dist_layernorm_colshard_i_m512_n256_v7x_i8_f32_1_alg».proof.Proof.BodySend
import proofs.«900544_g7700000000000545_dist_layernorm_colshard_i_m512_n256_v7x_i8_f32_1_alg».proof.Proof.BodyMid
import proofs.«900544_g7700000000000545_dist_layernorm_colshard_i_m512_n256_v7x_i8_f32_1_alg».proof.Proof.BodyTail

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## What the device holds between the four stretches of the body -/

/-- What the later stretches need and the first two do not touch. -/
def restA (c : Dev nD) : sProp 𝕄 :=
  iprop((bigSep Finset.univ fun j : Fin 7 => dutyTok ER (sendCell c j) 0 (0 : Fin 7))
    ∗ (bigSep Finset.univ fun j : Fin 7 => dutyTok ER (recvCell (nb c (j.val + 1)) c) 0 (0 : Fin 7))
    ∗ (bigSep Finset.univ fun j : Fin 7 => cred (tallyAt (recvCell c (nb c (j.val + 1))) () N))
    ∗ (bigSep Finset.univ fun j : Fin 7 => atPos ER (sendCell c j) 0 ∅ 0)
    ∗ (bigSep Finset.univ fun j : Fin 7 => atPos ER (recvCell c (nb c (j.val + 1))) 0 ∅ 0)
    ∗ atPos ER (recvCell c c) 0 ∅ 0
    ∗ stg c cc0_stg1_0 (gstg m c) ∗ stg c cc0_stg2_0 (bstg m c)
    ∗ (∃ f : Buf (Elt F) ((c : Thread nD τ).loc cc0_stg3_0), ((c : Thread nD τ).loc cc0_stg3_0) ↦{fullShare} f))

/-- After the barrier wait: the own slot filled, the seven peers' slots in hand, the seven copies owed. -/
def mid1 (K : Dev nD × Fin 16 → ℕ) (c : Dev nD) (W : Waits sig Unit) : sProp 𝕄 :=
  iprop(records m K
    ∗ owes (c : Thread nD τ) (O₇ c) (insert (SemLoc.reg barS, ()) W)
    ∗ slotPts c c fullShare (allStats m)
    ∗ (bigSep Finset.univ fun j : Fin 7 => iprop(∃ f, slotPts (F := F) (nb c (j.val + 1)) c fullShare f))
    ∗ stg c cc0_stg0_0 (xstg m c)
    ∗ restA m c)

/-- After the seven copies: nothing owed, the seven send credits, the share of the own slot kept for the load. -/
def mid2 (K : Dev nD × Fin 16 → ℕ) (c : Dev nD) (W : Waits sig Unit) : sProp 𝕄 :=
  iprop(records m K
    ∗ owes (c : Thread nD τ) 0 (insert (SemLoc.reg barS, ()) W)
    ∗ (bigSep Finset.univ fun j : Fin 7 => cred (tallyAt (sendCell c j) () N))
    ∗ slotPts c c keptShare (allStats m)
    ∗ stg c cc0_stg0_0 (xstg m c)
    ∗ (bigSep Finset.univ fun j : Fin 7 => cred (tallyAt (recvCell c (nb c (j.val + 1))) () N))
    ∗ (bigSep Finset.univ fun j : Fin 7 => atPos ER (sendCell c j) 0 ∅ 0)
    ∗ (bigSep Finset.univ fun j : Fin 7 => atPos ER (recvCell c (nb c (j.val + 1))) 0 ∅ 0)
    ∗ atPos ER (recvCell c c) 0 ∅ 0
    ∗ stg c cc0_stg1_0 (gstg m c) ∗ stg c cc0_stg2_0 (bstg m c)
    ∗ (∃ f : Buf (Elt F) ((c : Thread nD τ).loc cc0_stg3_0), ((c : Thread nD τ).loc cc0_stg3_0) ↦{fullShare} f))

/-- After the result's store: every slot in, the result staged, the seven copies' completions still to be waited for. -/
def mid3 (K : Dev nD × Fin 16 → ℕ) (c : Dev nD) (W : Waits sig Unit) : sProp 𝕄 :=
  iprop(records m K
    ∗ owes (c : Thread nD τ) 0 W
    ∗ (bigSep Finset.univ fun j : Fin 7 => cred (tallyAt (sendCell c j) () N))
    ∗ (bigSep Finset.univ fun j : Fin 7 => atPos ER (sendCell c j) 0 ∅ 0)
    ∗ (bigSep Finset.univ fun j : Fin 7 => atPos ER (recvCell c (nb c (j.val + 1))) 1 ∅ 0)
    ∗ atPos ER (recvCell c c) 0 ∅ 0
    ∗ slotPts c c keptShare (allStats m)
    ∗ (bigSep Finset.univ fun j : Fin 7 => slotPts c (nb c (j.val + 1)) fullShare (allStats m))
    ∗ stg c cc0_stg0_0 (xstg m c) ∗ stg c cc0_stg1_0 (gstg m c) ∗ stg c cc0_stg2_0 (bstg m c) ∗ stg c cc0_stg3_0 (outAt m c))

/-- A copy of a 2 × 512 slot carries the same credit wherever the slot lies. -/
theorem credit_any (b : Memref sig .tc .vmem S2x512 .f32) : b.view.dmaCredit = N := rfl

/-! ## The four stretches, each against any continuation and any frame -/

/-- The seven entry signals, the own statistics stored, the wait for the seven peers. -/
theorem stageA (K : Dev nD × Fin 16 → ℕ) (c : Dev nD)
      {t1 t2 t3 t4 t5 t6 t7 : Dev nD} (e1 : t1 = nb c 1) (e2 : t2 = nb c 2) (e3 : t3 = nb c 3) (e4 : t4 = nb c 4)
      (e5 : t5 = nb c 5) (e6 : t6 = nb c 6) (e7 : t7 = nb c 7)
      {hlx : (xM : Memref sig .tc .vmem S512x256 .f32).view.LoadsAt rX.toLoadRect}
      {hl1 : (scrM : Memref sig .tc .vmem S8x2x512 .f32).view.LoadsAt (r1 c).toLoadRect} {hl2 : scrM.view.LoadsAt (r2 c).toLoadRect}
      {hx1 : (scrM.access (r1 c)).Stores Finset.univ} {hm1 : (Finset.univ : Finset (r1 c).shape.Idx) = Finset.univ ∨ ∀ a, (r1 c).stride a = 1}
      {hx2 : (scrM.access (r2 c)).Stores Finset.univ} {hm2 : (Finset.univ : Finset (r2 c).shape.Idx) = Finset.univ ∨ ∀ a, (r2 c).stride a = 1}
      {α : Type} {k : Vec F S512x256 .f32 → Prog (TpuEff nD τ sig (Elt F) Λ₀ .tc) α} {Q : α → sProp 𝕄} {P : sProp 𝕄}
      (h : ∀ W : Waits sig Unit, iprop(mid1 m K c W ∗ P) ⊢ wp frame (wpE (defs₀ (F := F)) 𝒱₀ (c : Thread nD τ) none) Set.univ (k (xv m c)) Q) :
      iprop(bodyPre m K c ∗ P) ⊢ wp frame (wpE (defs₀ (F := F)) 𝒱₀ (c : Thread nD τ) none) Set.univ
          (.op (.semSignal (t1 : Thread nD τ) barS 1) fun _ => .op (.semSignal (t2 : Thread nD τ) barS 1) fun _ =>
           .op (.semSignal (t3 : Thread nD τ) barS 1) fun _ => .op (.semSignal (t4 : Thread nD τ) barS 1) fun _ =>
           .op (.semSignal (t5 : Thread nD τ) barS 1) fun _ => .op (.semSignal (t6 : Thread nD τ) barS 1) fun _ =>
           .op (.semSignal (t7 : Thread nD τ) barS 1) fun _ =>
           .op (.load xM rX.toLoadRect hlx) fun x =>
           .op (.load scrM (r1 c).toLoadRect hl1) fun _ => .op (.store scrM (r1 c) (k0_pay2 x) Finset.univ hx1 hm1) fun _ =>
           .op (.load scrM (r2 c).toLoadRect hl2) fun _ => .op (.store scrM (r2 c) (k0_pay3 x) Finset.univ hx2 hm2) fun _ =>
           .op (.semWait barS 7) fun _ => k x) Q := by
  subst e1 e2 e3 e4 e5 e6 e7
  unfold bodyPre ghost linear payToks launchCreds scrAny
  iintro ⟨⟨⟨⟨#Hrec, Hats, HtB, HtR, HtS⟩, ⟨HcB, HcR⟩, #Hlev, ⟨%f0, Hscr⟩⟩,
    Ho, ⟨%d0, %g0, %hg0, Hx⟩, ⟨%d1, %g1, %hg1, Hg⟩, ⟨%d2, %g2, %hg2, Hb⟩, ⟨%d3, %g3, %hg3, Hout⟩⟩, HP⟩
  unfold Dat.owesAt Pipeline.owesWithin
  icases Ho with ⟨%W, %hW, HO⟩
  have hO₀ : (dats m 0 c).owed t₀.castSucc = O₀ c := rfl
  have hx0 : g0 = xstg m c := hg0.trans (before_x m c d0)
  have hx1 : g1 = gstg m c := hg1.trans (before_g m c d1)
  have hx2 : g2 = bstg m c := hg2.trans (before_b m c d2)
  subst hx0 hx1 hx2
  ihave Hats := (atPos_cells (F := F) c) $$ Hats
  icases Hats with ⟨HatB, HatS, HatR, HatRc⟩
  iapply (front_steps m K c W f0)
  isplitr; · iexact Hrec
  isplitr; · iexact Hlev
  isplitl [HO]; · rw [hO₀]; iexact HO
  isplitl [HtB]; · iexact HtB
  isplitl [HcB]; · iexact HcB
  isplitl [HatB]; · iexact HatB
  isplitl [Hscr]; · iexact Hscr
  isplitl [Hx]; · iexists _; isplitr; · (ipureintro; rfl)
                  iexact Hx
  iintro ⟨HO, HatB, Hown, Hdst, Hx⟩
  iapply (h W)
  isplitr [HP]
  · unfold mid1 restA
    isplitr; · iexact Hrec
    isplitl [HO]; · iexact HO
    isplitl [Hown]; · iexact Hown
    isplitl [Hdst]; · iexact Hdst
    isplitl [Hx]; · iexact Hx
    isplitl [HtS]; · iexact HtS
    isplitl [HtR]; · iexact HtR
    isplitl [HcR]; · iexact HcR
    isplitl [HatS]; · iexact HatS
    isplitl [HatR]; · iexact HatR
    isplitl [HatRc]; · iexact HatRc
    isplitl [Hg]; · iexists _; isplitr; · (ipureintro; rfl)
                    iexact Hg
    isplitl [Hb]; · iexists _; isplitr; · (ipureintro; rfl)
                    iexact Hb
    iexists g3; iexact Hout
  · iexact HP

/-- The seven copies of the own slot. -/
theorem stageB (K : Dev nD × Fin 16 → ℕ) (c : Dev nD) (W : Waits sig Unit)
      {n4 n3 n5 n2 n6 n1 n7 : Dev nD} (e4 : n4 = nb c 4) (e3 : n3 = nb c 3) (e5 : n5 = nb c 5) (e2 : n2 = nb c 2) (e6 : n6 = nb c 6) (e1 : n1 = nb c 1) (e7 : n7 = nb c 7)
      {sS3 sS2 sS4 sS1 sS5 sS0 sS6 : DmaSem sig} (hS3 : sS3 = sendS 3) (hS2 : sS2 = sendS 2) (hS4 : sS4 = sendS 4) (hS1 : sS1 = sendS 1) (hS5 : sS5 = sendS 5) (hS0 : sS0 = sendS 0) (hS6 : sS6 = sendS 6)
      {sR3 sR2 sR4 sR1 sR5 sR0 sR6 : DmaSem sig} (hR3 : sR3 = recvS c) (hR2 : sR2 = recvS c) (hR4 : sR4 = recvS c) (hR1 : sR1 = recvS c) (hR5 : sR5 = recvS c) (hR0 : sR0 = recvS c) (hR6 : sR6 = recvS c)
      {hc3 : (slotM c : Memref sig (Dev.tc n4 : Thread nD τ).2.kind .vmem S2x512 .f32).view.ref.isScScratch = false}
      {hc2 : (slotM c : Memref sig (Dev.tc n3 : Thread nD τ).2.kind .vmem S2x512 .f32).view.ref.isScScratch = false}
      {hc4 : (slotM c : Memref sig (Dev.tc n5 : Thread nD τ).2.kind .vmem S2x512 .f32).view.ref.isScScratch = false}
      {hc1 : (slotM c : Memref sig (Dev.tc n2 : Thread nD τ).2.kind .vmem S2x512 .f32).view.ref.isScScratch = false}
      {hc5 : (slotM c : Memref sig (Dev.tc n6 : Thread nD τ).2.kind .vmem S2x512 .f32).view.ref.isScScratch = false}
      {hc0 : (slotM c : Memref sig (Dev.tc n1 : Thread nD τ).2.kind .vmem S2x512 .f32).view.ref.isScScratch = false}
      {hc6 : (slotM c : Memref sig (Dev.tc n7 : Thread nD τ).2.kind .vmem S2x512 .f32).view.ref.isScScratch = false}
      {hs3 hd3 hs2 hd2 hs4 hd4 hs1 hd1 hs5 hd5 hs0 hd0 hs6 hd6 : (slotM c : Memref sig .tc .vmem S2x512 .f32).view.WordExact}
      {ht3 : DmaTarget.Typed .vmem (.dma sR3) (.remote (Dev.tc n4 : Thread nD τ) (slotM c : Memref sig .tc .vmem S2x512 .f32) (.dma sS3) hc3)}
      {ht2 : DmaTarget.Typed .vmem (.dma sR2) (.remote (Dev.tc n3 : Thread nD τ) (slotM c : Memref sig .tc .vmem S2x512 .f32) (.dma sS2) hc2)}
      {ht4 : DmaTarget.Typed .vmem (.dma sR4) (.remote (Dev.tc n5 : Thread nD τ) (slotM c : Memref sig .tc .vmem S2x512 .f32) (.dma sS4) hc4)}
      {ht1 : DmaTarget.Typed .vmem (.dma sR1) (.remote (Dev.tc n2 : Thread nD τ) (slotM c : Memref sig .tc .vmem S2x512 .f32) (.dma sS1) hc1)}
      {ht5 : DmaTarget.Typed .vmem (.dma sR5) (.remote (Dev.tc n6 : Thread nD τ) (slotM c : Memref sig .tc .vmem S2x512 .f32) (.dma sS5) hc5)}
      {ht0 : DmaTarget.Typed .vmem (.dma sR0) (.remote (Dev.tc n1 : Thread nD τ) (slotM c : Memref sig .tc .vmem S2x512 .f32) (.dma sS0) hc0)}
      {ht6 : DmaTarget.Typed .vmem (.dma sR6) (.remote (Dev.tc n7 : Thread nD τ) (slotM c : Memref sig .tc .vmem S2x512 .f32) (.dma sS6) hc6)}
      {α : Type} {k : PUnit → Prog (TpuEff nD τ sig (Elt F) Λ₀ .tc) α} {Q : α → sProp 𝕄} {P : sProp 𝕄}
      (h : iprop(mid2 m K c W ∗ P) ⊢ wp frame (wpE (defs₀ (F := F)) 𝒱₀ (c : Thread nD τ) none) Set.univ (k ⟨⟩) Q) :
      iprop(mid1 m K c W ∗ P) ⊢ wp frame (wpE (defs₀ (F := F)) 𝒱₀ (c : Thread nD τ) none) Set.univ
          (.op (.enqueueDma (slotM c) (.remote (Dev.tc n4 : Thread nD τ) (slotM c) (.dma sS3) hc3) (.dma sR3) hs3 hd3 ht3) fun _ =>
           .op (.enqueueDma (slotM c) (.remote (Dev.tc n3 : Thread nD τ) (slotM c) (.dma sS2) hc2) (.dma sR2) hs2 hd2 ht2) fun _ =>
           .op (.enqueueDma (slotM c) (.remote (Dev.tc n5 : Thread nD τ) (slotM c) (.dma sS4) hc4) (.dma sR4) hs4 hd4 ht4) fun _ =>
           .op (.enqueueDma (slotM c) (.remote (Dev.tc n2 : Thread nD τ) (slotM c) (.dma sS1) hc1) (.dma sR1) hs1 hd1 ht1) fun _ =>
           .op (.enqueueDma (slotM c) (.remote (Dev.tc n6 : Thread nD τ) (slotM c) (.dma sS5) hc5) (.dma sR5) hs5 hd5 ht5) fun _ =>
           .op (.enqueueDma (slotM c) (.remote (Dev.tc n1 : Thread nD τ) (slotM c) (.dma sS0) hc0) (.dma sR0) hs0 hd0 ht0) fun _ =>
           .op (.enqueueDma (slotM c) (.remote (Dev.tc n7 : Thread nD τ) (slotM c) (.dma sS6) hc6) (.dma sR6) hs6 hd6 ht6) k) Q := by
  unfold mid1 restA
  iintro ⟨⟨#Hrec, HO, Hown, Hdst, Hx, HtS, HtR, HcR, HatS, HatR, HatRc, Hg, Hb, Hout⟩, HP⟩
  iapply (sends_steps m K c (insert (SemLoc.reg barS, ()) W) e4 e3 e5 e2 e6 e1 e7 hS3 hS2 hS4 hS1 hS5 hS0 hS6 hR3 hR2 hR4 hR1 hR5 hR0 hR6)
  isplitr; · iexact Hrec
  isplitl [HO]; · iexact HO
  isplitl [Hown]; · iexact Hown
  isplitl [Hdst]; · iexact Hdst
  isplitl [HtS]; · iexact HtS
  isplitl [HtR]; · iexact HtR
  iintro ⟨HO, HcS, Hkept⟩
  iapply h
  isplitr [HP]
  · unfold mid2
    isplitr; · iexact Hrec
    isplitl [HO]; · iexact HO
    isplitl [HcS]; · iexact HcS
    isplitl [Hkept]; · iexact Hkept
    isplitl [Hx]; · iexact Hx
    isplitl [HcR]; · iexact HcR
    isplitl [HatS]; · iexact HatS
    isplitl [HatR]; · iexact HatR
    isplitl [HatRc]; · iexact HatRc
    isplitl [Hg]; · iexact Hg
    isplitl [Hb]; · iexact Hb
    iexact Hout
  · iexact HP

/-- The operand loads, the seven receive waits with the loads of the slots they bring, the result's store. -/
theorem stageC (K : Dev nD × Fin 16 → ℕ) (c : Dev nD) (W : Waits sig Unit) (v33 : FVec F S512x256 .f32) (hv : v33 = k0_pay1 (xv m c))
      {q1 q7 q2 q6 q3 q5 q4 : DmaSem sig}
      (hq1 : q1 = recvS (nb c 1)) (hq7 : q7 = recvS (nb c 7)) (hq2 : q2 = recvS (nb c 2)) (hq6 : q6 = recvS (nb c 6))
      (hq3 : q3 = recvS (nb c 3)) (hq5 : q5 = recvS (nb c 5)) (hq4 : q4 = recvS (nb c 4))
      {a1 b1 a7 b7 a2 b2 a6 b6 a3 b3 a5 b5 a4 b4 : Memref sig .tc .vmem S2x512 .f32}
      {ha1 : a1.view.WordExact} {hb1 : b1.view.WordExact} {ha7 : a7.view.WordExact} {hb7 : b7.view.WordExact}
      {ha2 : a2.view.WordExact} {hb2 : b2.view.WordExact} {ha6 : a6.view.WordExact} {hb6 : b6.view.WordExact}
      {ha3 : a3.view.WordExact} {hb3 : b3.view.WordExact} {ha5 : a5.view.WordExact} {hb5 : b5.view.WordExact}
      {ha4 : a4.view.WordExact} {hb4 : b4.view.WordExact}
      {hlg : (gM : Memref sig .tc .vmem S256 .f32).view.LoadsAt rV.toLoadRect} {hlb : (bM : Memref sig .tc .vmem S256 .f32).view.LoadsAt rV.toLoadRect}
      {hlo : (scrM : Memref sig .tc .vmem S8x2x512 .f32).view.LoadsAt (rOwn c).toLoadRect}
      {hl0 : scrM.view.LoadsAt (rPeer c 0).toLoadRect} {hl6 : scrM.view.LoadsAt (rPeer c 6).toLoadRect} {hl1 : scrM.view.LoadsAt (rPeer c 1).toLoadRect}
      {hl5 : scrM.view.LoadsAt (rPeer c 5).toLoadRect} {hl2 : scrM.view.LoadsAt (rPeer c 2).toLoadRect} {hl4 : scrM.view.LoadsAt (rPeer c 4).toLoadRect}
      {hl3 : scrM.view.LoadsAt (rPeer c 3).toLoadRect}
      {hlout : (oM : Memref sig .tc .vmem S512x256 .f32).view.LoadsAt rX.toLoadRect}
      {hx : (oM.access rX).Stores Finset.univ} {hm : (Finset.univ : Finset rX.shape.Idx) = Finset.univ ∨ ∀ a, rX.stride a = 1}
      {α : Type} {k : PUnit → Prog (TpuEff nD τ sig (Elt F) Λ₀ .tc) α} {Q : α → sProp 𝕄} {P : sProp 𝕄}
      (h : ∀ W' : Waits sig Unit, iprop(mid3 m K c W' ∗ P) ⊢ wp frame (wpE (defs₀ (F := F)) 𝒱₀ (c : Thread nD τ) none) Set.univ (k ⟨⟩) Q) :
      iprop(mid2 m K c W ∗ P) ⊢ wp frame (wpE (defs₀ (F := F)) 𝒱₀ (c : Thread nD τ) none) Set.univ
          (.op (.load gM rV.toLoadRect hlg) fun xg => .op (.load bM rV.toLoadRect hlb) fun xb =>
           .op (.load scrM (rOwn c).toLoadRect hlo) fun x14 =>
           .op (.waitDma2 q1 a1 b1 ha1 hb1) fun _ => .op (.load scrM (rPeer c 0).toLoadRect hl0) fun x16 =>
           .op (.waitDma2 q7 a7 b7 ha7 hb7) fun _ => .op (.load scrM (rPeer c 6).toLoadRect hl6) fun x18 =>
           .op (.waitDma2 q2 a2 b2 ha2 hb2) fun _ => .op (.load scrM (rPeer c 1).toLoadRect hl1) fun x20 =>
           .op (.waitDma2 q6 a6 b6 ha6 hb6) fun _ => .op (.load scrM (rPeer c 5).toLoadRect hl5) fun x22 =>
           .op (.waitDma2 q3 a3 b3 ha3 hb3) fun _ => .op (.load scrM (rPeer c 2).toLoadRect hl2) fun x24 =>
           .op (.waitDma2 q5 a5 b5 ha5 hb5) fun _ => .op (.load scrM (rPeer c 4).toLoadRect hl4) fun x26 =>
           .op (.waitDma2 q4 a4 b4 ha4 hb4) fun _ => .op (.load scrM (rPeer c 3).toLoadRect hl3) fun x28 =>
           .op (.load oM rX.toLoadRect hlout) fun _ =>
           .op (.store oM rX (k0_pay12 (k0_pay10 (k0_pay4 xg) (k0_pay6 v33 xg) (k0_pay9 (k0_pay8 (k0_pay7 x14 x16) x18 x20) x22 x24) x26 x28)
                  (k0_pay11 (k0_pay5 xb))) Finset.univ hx hm) k) Q := by
  unfold mid2
  iintro ⟨⟨#Hrec, HO, HcS, Hkept, Hx, HcR, HatS, HatR, HatRc, Hg, Hb, Hout⟩, HP⟩
  iapply (mid_steps m K c (insert (SemLoc.reg barS, ()) W) v33 hv hq1 hq7 hq2 hq6 hq3 hq5 hq4 (credit_any b1) (credit_any b7) (credit_any b2) (credit_any b6) (credit_any b3) (credit_any b5) (credit_any b4))
  isplitr; · iexact Hrec
  isplitl [HO]; · iexact HO
  isplitl [HcR]; · iexact HcR
  isplitl [HatR]; · iexact HatR
  isplitl [Hkept]; · iexact Hkept
  isplitl [Hg]; · iexact Hg
  isplitl [Hb]; · iexact Hb
  isplitl [Hout]; · iexact Hout
  iintro %W2 ⟨HO, HatR, Hkept, Hslots, Hg, Hb, Hout⟩
  iapply (h W2)
  isplitr [HP]
  · unfold mid3
    isplitr; · iexact Hrec
    isplitl [HO]; · iexact HO
    isplitl [HcS]; · iexact HcS
    isplitl [HatS]; · iexact HatS
    isplitl [HatR]; · iexact HatR
    isplitl [HatRc]; · iexact HatRc
    isplitl [Hkept]; · iexact Hkept
    isplitl [Hslots]; · iexact Hslots
    isplitl [Hx]; · iexact Hx
    isplitl [Hg]; · iexact Hg
    isplitl [Hb]; · iexact Hb
    iexact Hout
  · iexact HP

/-- The seven send waits, the read shares rejoined, the fifteen own cells closed, the scratch array whole again. -/
theorem stageD (K : Dev nD × Fin 16 → ℕ) (c : Dev nD) (W : Waits sig Unit)
      {u3 u2 u4 u1 u5 u0 u6 : DmaSem sig} (g3 : u3 = sendS 3) (g2 : u2 = sendS 2) (g4 : u4 = sendS 4) (g1 : u1 = sendS 1)
      (g5 : u5 = sendS 5) (g0 : u0 = sendS 0) (g6 : u6 = sendS 6)
      {s3 d3 s2 d2 s4 d4 s1 d1 s5 d5 s0 d0 s6 d6 : Memref sig .tc .vmem S2x512 .f32}
      {hs3 : s3.view.WordExact} {hd3 : d3.view.WordExact} {hs2 : s2.view.WordExact} {hd2 : d2.view.WordExact}
      {hs4 : s4.view.WordExact} {hd4 : d4.view.WordExact} {hs1 : s1.view.WordExact} {hd1 : d1.view.WordExact}
      {hs5 : s5.view.WordExact} {hd5 : d5.view.WordExact} {hs0 : s0.view.WordExact} {hd0 : d0.view.WordExact}
      {hs6 : s6.view.WordExact} {hd6 : d6.view.WordExact}
      (Kt : PUnit → sProp 𝕄) :
      iprop(mid3 m K c W ∗ (bodyPost m c -∗ Kt ⟨⟩)) ⊢ wp frame (wpE (defs₀ (F := F)) 𝒱₀ (c : Thread nD τ) none) Set.univ
          (.op (.waitDma2 u3 s3 d3 hs3 hd3) fun _ => .op (.waitDma2 u2 s2 d2 hs2 hd2) fun _ =>
           .op (.waitDma2 u4 s4 d4 hs4 hd4) fun _ => .op (.waitDma2 u1 s1 d1 hs1 hd1) fun _ =>
           .op (.waitDma2 u5 s5 d5 hs5 hd5) fun _ => .op (.waitDma2 u0 s0 d0 hs0 hd0) fun _ =>
           .op (.waitDma2 u6 s6 d6 hs6 hd6) fun _ => .ret ⟨⟩) Kt := by
  subst g3 g2 g4 g1 g5 g0 g6
  unfold mid3
  iintro ⟨⟨#Hrec, HO, HcS, HatS, HatR, HatRc, Hkept, Hslots, Hx, Hg, Hb, Hout⟩, Hk⟩
  iapply (tail_steps m K c W (credit_any d3) (credit_any d2) (credit_any d4) (credit_any d1) (credit_any d5) (credit_any d0) (credit_any d6) Kt)
  isplitr; · iexact Hrec
  isplitl [HO]; · iexact HO
  isplitl [HcS]; · iexact HcS
  isplitl [HatS]; · iexact HatS
  isplitl [HatR]; · iexact HatR
  isplitl [HatRc]; · iexact HatRc
  isplitl [Hkept]; · iexact Hkept
  isplitl [Hslots]; · iexact Hslots
  isplitl [Hx]; · iexact Hx
  isplitl [Hg]; · iexact Hg
  isplitl [Hb]; · iexact Hb
  isplitl [Hout]; · iexact Hout
  iexact Hk

/-! ## The body -/

set_option maxHeartbeats 1600000 in
/-- The body on device `c`, from `bodyPre` to `bodyPost`: its four stretches in program order. -/
theorem sound_body (K : Dev nD × Fin 16 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  refine stageA m K c (dev1_eq c) (dev2_eq c) (dev3_eq c) (dev4_eq c) (dev5_eq c) (dev6_eq c) (dev7_eq c) (fun W => ?_)
  refine stageB m K c W (dev8_eq c) (dev9_eq c) (dev10_eq c) (dev11_eq c) (dev12_eq c) (dev13_eq c) (dev14_eq c)
    send_sem_3 send_sem_2 send_sem_4 send_sem_1 send_sem_5 send_sem_0 send_sem_6
    (recv_sem_own c) (recv_sem_own c) (recv_sem_own c) (recv_sem_own c) (recv_sem_own c) (recv_sem_own c) (recv_sem_own c) ?_
  refine stageC m K c W _ rfl (recv_sem_nb c 0) (recv_sem_nb c 6) (recv_sem_nb c 1) (recv_sem_nb c 5) (recv_sem_nb c 2) (recv_sem_nb c 4)
    (recv_sem_nb c 3) (fun W2 => ?_)
  exact stageD m K c W2 send_sem_3 send_sem_2 send_sem_4 send_sem_1 send_sem_5 send_sem_0 send_sem_6 Kt

/-- info: 'Cert.KernelIdeal.Proto.sound_body' depends on axioms: [propext, Classical.choice, Quot.sound] -/
#guard_msgs in #print axioms sound_body

end Cert.KernelIdeal.Proto

end
-- ==== Proof.Launch.lean ====
/-
  The launch of the statistics exchange: from one device's body to the run of the whole eight-device program.

  Every device's sixteen semaphore cells are funded at once: each cell in its launch state with round 0 reached, its owner's
  position, and one token per (cell, duty name). The counters at zero turn each launch state into the cell's invariant; the
  invariants and the reached-round facts of ALL devices are persistent and shared. The tokens are then dealt to the devices that
  PAY the duties: duty j of a barrier cell goes to the device the owner lies j + 1 after, the duty of the receive cell for
  sender s goes to s, the duty of a send cell stays with its owner. Going j + 1 steps round the ring is a bijection of the
  devices, so each of these deals is a reindexing of one product over the devices; tokens nobody needs are dropped.
-/
import proofs.«900544_g7700000000000545_dist_layernorm_colshard_i_m512_n256_v7x_i8_f32_1_alg».proof.Proof.Body
import proofs.«900544_g7700000000000545_dist_layernorm_colshard_i_m512_n256_v7x_i8_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)
variable (ρ : Dev nD → PrngReg)

/-! ## The body obligation: the library's form of one device's body lemma -/

theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

/-- A whole staging buffer held at contents `X` is its points-to at a buffer equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at its one point: the invariant before it, what the device owes, the four staging buffers. -/
def bodyPre' (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

set_option maxRecDepth 8000 in
/-- The library's body obligation on device `c`: the body lemma, its precondition regrouped. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hcr, Hlev⟩, Hscr⟩, Ho, Hx, Hga, Hbe, Hout⟩
  iapply (sound_body m K c fun _ => bodyPost m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hga]; · iexact Hga
    isplitl [Hbe]; · iexact Hbe
    iexact Hout
  · iintro H; iexact H

/-! ## The launch: cells, tokens, and what the launch element deals each device -/

theorem ownSemFacts : Pipeline.OwnSemFacts cfg0.spec osem := by decide

theorem share_eq (c : Dev nD) (w : Fin cfg0.W) : (dats m 0 c).share w = fullShare := by unfold Dat.share; split <;> rfl

/-- A cell's semaphore determines its number among a device's sixteen. -/
theorem csem_injective : Function.Injective csem := by decide

theorem kcell_injective : Function.Injective (kcell : Dev nD × Fin 16 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- The exchange's cells: sixteen per device. -/
def ringCells : Finset (GSem nD τ sig) := Finset.univ.map ⟨kcell, kcell_injective⟩

/-- One token per cell and duty name, all of round 0. -/
abbrev tokOf (x : Dev nD × Fin 16 × Fin 7) : GSem nD τ sig × ℕ × Fin 7 := (kcell (x.1, x.2.1), 0, x.2.2)

theorem tokOf_injective : Function.Injective (tokOf : Dev nD × Fin 16 × Fin 7 → GSem nD τ sig × ℕ × Fin 7) := by
  rintro ⟨c, k, d⟩ ⟨c', k', d'⟩ h
  have h1 : (c, k) = (c', k') := kcell_injective (congrArg (fun x : GSem nD τ sig × ℕ × Fin 7 => x.1) h)
  have h2 : d = d' := congrArg (fun x : GSem nD τ sig × ℕ × Fin 7 => x.2.2) h
  obtain ⟨rfl, rfl⟩ := Prod.mk.inj h1
  subst h2; rfl

def ringToks : Finset (GSem nD τ sig × ℕ × Fin 7) := Finset.univ.map ⟨tokOf, tokOf_injective⟩

/-- The launch element: the pipeline's cells and tokens, and the exchange's. -/
def u₀ : UU :=
  (initOf (Pipeline.cells cfgs cellOf_inj) (Pipeline.launchToks cfgs cellOf_inj), initOf ringCells ringToks)

/-- The token of duty `kd.2` of device `c`'s cell number `kd.1`. -/
abbrev tokAt (c : Dev nD) (kd : Fin 16 × Fin 7) : sProp 𝕄 := dutyTok ER (kcell (c, kd.1)) 0 kd.2

/-- The tokens minted on device `c`'s own cells: every duty name of every cell. -/
def ownToks (c : Dev nD) : sProp 𝕄 := bigSep Finset.univ fun k : Fin 16 => bigSep Finset.univ fun d : Fin 7 => tokAt (F := F) c (k, d)

/-- What the launch element deals device `c`: its sixteen cells' launch states, positions and reached-round facts, and the
    tokens minted on its cells. -/
def G (c : Dev nD) : sProp 𝕄 :=
  iprop((bigSep Finset.univ fun k : Fin 16 => roundState ER (Rd m) (kcell (c, k)) 0)
    ∗ (bigSep Finset.univ fun k : Fin 16 => iprop(atPos ER (kcell (c, k)) 0 ∅ 0 ∗ reached ER (kcell (c, k)) 0)) ∗ ownToks c)

/-- What the global step makes of it: the device's ghost state, under some naming of the invariants. -/
def G' (c : Dev nD) : sProp 𝕄 := iprop(∃ K, ghost m K c)

/-- Funding the exchange's cells: the products over cells and over tokens, regrouped by device. -/
theorem fund : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 16 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The counters at zero: fifteen own semaphores and the barrier semaphore -/

theorem bigSep_fin16_succ (Φ : Fin 16 → sProp 𝕄) :
    bigSep Finset.univ Φ = iprop(Φ 0 ∗ bigSep Finset.univ fun i : Fin 15 => Φ i.succ) := by
  rw [bigSep_univ_at Φ 0, show Finset.univ.erase (0 : Fin 16) = (Finset.univ : Finset (Fin 15)).map ⟨Fin.succ, Fin.succ_injective _⟩ from by decide,
    bigSep_map]
  rfl

/-- Cell number `i + 1` is the own semaphore number `i`. -/
theorem csem_succ : ∀ i : Fin 15, csem i.succ = osem i := by decide

/-- The own semaphores at zero, one by one. -/
theorem ownSems0_eq (c : Dev nD) : (Pipeline.ownSems0 (Ix := Unit) (Name := ℕ) (U := UU) (Lvl := ℕ) (Val := Elt F) (τ := τ) osem c : sProp 𝕄)
    = bigSep Finset.univ fun i : Fin 15 => semVal ((c : Thread nD τ), osem i) 0 := rfl

/-- The barrier semaphore is the one semaphore the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 16 => semVal (kcell (c, k)) 0 : sProp 𝕄) := by
  have h : (fun i : Fin 15 => (semVal (kcell (c, i.succ)) 0 : sProp 𝕄)) = fun i => semVal ((c : Thread nD τ), osem i) 0 :=
    funext fun i => by show semVal ((c : Thread nD τ), csem i.succ) 0 = _; rw [csem_succ]
  rw [ownSems0_eq, unscopedSems0_eq, bigSep_fin16_succ, h]
  iintro ⟨HS, HB⟩
  isplitl [HB]; · iexact HB
  iexact HS

/-- Each of a device's sixteen cells, its counter at zero and its launch state, becomes the cell's invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 16 => iprop(∃ κ : ℕ, cellInv ER (Rd m) κ (kcell (c, k))))
          ∗ (bigSep Finset.univ fun k : Fin 16 => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 16 => semVal (kcell (c, k)) 0) ∗ bigSep Finset.univ fun k : Fin 16 => roundState ER (Rd m) (kcell (c, k)) 0)
      ⊢ (|={Set.univ}=> bigSep Finset.univ fun k : Fin 16 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt around the ring -/

/-- Of the tokens minted on a device's cells, the ones somebody pays with: every duty of its barrier cell, duty 0 of each send
    cell, duty 0 of each receive cell. -/
abbrev pick : Fin 7 ⊕ (Fin 7 ⊕ Dev nD) → Fin 16 × Fin 7
  | .inl d => ((0 : Fin 16), d)
  | .inr (.inl j) => (⟨j.val + 1, by omega⟩, (0 : Fin 7))
  | .inr (.inr s) => (⟨s.val + 8, by have h := s.isLt; change s.val < 8 at h; omega⟩, (0 : Fin 7))

theorem pick_injective : Function.Injective pick := by decide

theorem own_split (c : Dev nD) : (ownToks c : sProp 𝕄) ⊢ iprop((bigSep Finset.univ fun d : Fin 7 => dutyTok ER (barCell c) 0 d)
    ∗ (bigSep Finset.univ fun j : Fin 7 => dutyTok ER (sendCell c j) 0 (0 : Fin 7))
    ∗ (bigSep Finset.univ fun s : Dev nD => dutyTok ER (recvCell c s) 0 (0 : Fin 7))) := by
  unfold ownToks
  rw [← bigSep_univ_prod (tokAt (F := F) c)]
  refine (bigSep_subset (Finset.subset_univ (Finset.univ.map ⟨pick, pick_injective⟩))).trans ?_
  rw [bigSep_map, bigSep_univ_sum, bigSep_univ_sum]
  refine sep_mono (Entails.of_eq rfl) (sep_mono (Entails.of_eq (bigSep_congr fun j _ => ?_)) (Entails.of_eq (bigSep_congr fun s _ => ?_)))
  · show dutyTok ER (kcell (c, ⟨j.val + 1, _⟩)) 0 (0 : Fin 7) = _
    rw [kcell_send]
  · show dutyTok ER (kcell (c, ⟨s.val + 8, _⟩)) 0 (0 : Fin 7) = _
    rw [kcell_recv]

/-- Going back `7 - j` steps from `p` reaches seven different devices. -/
theorem back_injective (p : Dev nD) : Function.Injective fun j : Fin 7 => nb p (7 - j.val) := by revert p; decide

/-- Of a product over all devices, the seven factors at the devices `7 - j` steps after `p`. -/
theorem recv_pick (p : Dev nD) (Φ : Dev nD → sProp 𝕄) : bigSep Finset.univ Φ ⊢ bigSep Finset.univ fun j : Fin 7 => Φ (nb p (7 - j.val)) := by
  have h := bigSep_subset (Φ := Φ) (Finset.subset_univ (Finset.univ.map ⟨fun j : Fin 7 => nb p (7 - j.val), back_injective p⟩))
  rw [bigSep_map] at h
  exact h

/-- A barrier cell's token `j` goes to the device the owner lies `j + 1` after; -/
theorem bar_around : (bigSep Finset.univ fun c : Dev nD => bigSep Finset.univ fun d : Fin 7 => (dutyTok ER (barCell c) 0 d : sProp 𝕄))
    = bigSep Finset.univ fun c : Dev nD => bigSep Finset.univ fun j : Fin 7 => dutyTok ER (barCell (nb c (j.val + 1))) 0 j :=
  (bigSep_univ_comm (fun (c : Dev nD) (d : Fin 7) => (dutyTok ER (barCell c) 0 d : sProp 𝕄))).trans
    ((bigSep_congr fun j _ => bigSep_univ_equiv (ring j) (fun c : Dev nD => (dutyTok ER (barCell c) 0 j : sProp 𝕄))).trans
      (bigSep_univ_comm (fun (c : Dev nD) (j : Fin 7) => (dutyTok ER (barCell (nb c (j.val + 1))) 0 j : sProp 𝕄))).symm)

/-- the token of the receive cell for sender `s` goes to `s`. -/
theorem recv_around : (bigSep Finset.univ fun p : Dev nD => bigSep Finset.univ fun s : Dev nD => (dutyTok ER (recvCell p s) 0 (0 : Fin 7) : sProp 𝕄))
    ⊢ bigSep Finset.univ fun c : Dev nD => bigSep Finset.univ fun j : Fin 7 => dutyTok ER (recvCell (nb c (j.val + 1)) c) 0 (0 : Fin 7) := by
  have heq : (bigSep Finset.univ fun p : Dev nD => bigSep Finset.univ fun j : Fin 7 => (dutyTok ER (recvCell p (nb p (7 - j.val))) 0 (0 : Fin 7) : sProp 𝕄))
      = bigSep Finset.univ fun c : Dev nD => bigSep Finset.univ fun j : Fin 7 => dutyTok ER (recvCell (nb c (j.val + 1)) c) 0 (0 : Fin 7) := by
    refine (bigSep_univ_comm (fun (p : Dev nD) (j : Fin 7) => (dutyTok ER (recvCell p (nb p (7 - j.val))) 0 (0 : Fin 7) : sProp 𝕄))).trans ?_
    refine Eq.trans ?_ (bigSep_univ_comm (fun (c : Dev nD) (j : Fin 7) => (dutyTok ER (recvCell (nb c (j.val + 1)) c) 0 (0 : Fin 7) : sProp 𝕄))).symm
    refine bigSep_congr fun j _ => ?_
    refine (bigSep_univ_equiv (ring j) (fun p : Dev nD => (dutyTok ER (recvCell p (nb p (7 - j.val))) 0 (0 : Fin 7) : sProp 𝕄))).trans ?_
    refine bigSep_congr fun c _ => ?_
    show dutyTok ER (recvCell (nb c (j.val + 1)) (nb (nb c (j.val + 1)) (7 - j.val))) 0 (0 : Fin 7) = _
    rw [nb_nb]
  rw [← heq]
  exact bigSep_mono fun p _ => recv_pick p fun s => dutyTok ER (recvCell p s) 0 (0 : Fin 7)

/-- The three deals at once: barrier tokens, receive tokens, and the send tokens that stay where they are. -/
theorem toks_deal :
    iprop((bigSep Finset.univ fun c : Dev nD => bigSep Finset.univ fun d : Fin 7 => dutyTok ER (barCell c) 0 d)
      ∗ (bigSep Finset.univ fun c : Dev nD => bigSep Finset.univ fun j : Fin 7 => dutyTok ER (sendCell c j) 0 (0 : Fin 7))
      ∗ (bigSep Finset.univ fun c : Dev nD => bigSep Finset.univ fun s : Dev nD => dutyTok ER (recvCell c s) 0 (0 : Fin 7)))
    ⊢ (iprop((bigSep Finset.univ fun c : Dev nD => bigSep Finset.univ fun j : Fin 7 => dutyTok ER (barCell (nb c (j.val + 1))) 0 j)
      ∗ (bigSep Finset.univ fun c : Dev nD => bigSep Finset.univ fun j : Fin 7 => dutyTok ER (recvCell (nb c (j.val + 1)) c) 0 (0 : Fin 7))
      ∗ (bigSep Finset.univ fun c : Dev nD => bigSep Finset.univ fun j : Fin 7 => dutyTok ER (sendCell c j) 0 (0 : Fin 7))) : sProp 𝕄) := by
  rw [bar_around]
  iintro ⟨HA, HS, HR⟩
  isplitl [HA]; · iexact HA
  isplitl [HR]
  · iapply (recv_around (F := F)); iexact HR
  iexact HS

/-- The tokens minted on each device's cells, dealt to the devices that pay the duties. -/
theorem toks_around : (bigSep Finset.univ fun c : Dev nD => (ownToks c : sProp 𝕄)) ⊢ bigSep Finset.univ fun c : Dev nD => payToks c := by
  refine (bigSep_mono fun c _ => own_split (F := F) c).trans ?_
  unfold payToks
  rw [bigSep_sep', bigSep_sep', bigSep_sep', bigSep_sep']
  exact toks_deal (F := F)

theorem ghost_intro (K : Dev nD × Fin 16 → ℕ) (c : Dev nD) : iprop(records m K ∗ linear c) ⊢ G' m c := by
  unfold G' ghost
  iintro H; iexists K; iexact H

/-- All devices' invariants and reached-round facts, shared; each device's positions and the tokens it pays with. -/
theorem regroup :
    (bigSep Finset.univ fun c : Dev nD => iprop((bigSep Finset.univ fun k : Fin 16 => iprop(∃ κ : ℕ, cellInv ER (Rd m) κ (kcell (c, k))))
          ∗ (bigSep Finset.univ fun k : Fin 16 => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Fin 16 => iprop(∃ κ : ℕ, cellInv ER (Rd m) κ (kcell ck))),
    bigSep_congr (s := Finset.univ) (fun (c : Dev nD) _ => bigSep_sep' Finset.univ (fun k : Fin 16 => (atPos ER (kcell (c, k)) 0 ∅ 0 : sProp 𝕄)) (fun k => reached ER (kcell (c, k)) 0)),
    bigSep_sep', ← bigSep_univ_prod (fun ck : Dev nD × Fin 16 => (reached ER (kcell ck) 0 : sProp 𝕄))]
  iintro ⟨HI, ⟨Hat, #HR⟩, Htok⟩
  ihave HK := (BI.bigSep_exists_pi Finset.univ (fun (ck : Dev nD × Fin 16) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 16 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' launchCreds
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scrAny
  iintro ⟨Hr, Hz⟩
  isplitr; · iempintro
  isplitl [Hz]; · iexact Hz
  iexact Hr

/-- The pipeline's four staging semaphores are below the send semaphores. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the eight devices, for any float values, from any memory with every counter at zero: every weakly fair execution of the
    program terminates, and in every final state each device's four windowed arrays hold the computed contents. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The three input arrays hold after the run what they held. -/
theorem finalA_x (c : Dev nD) : finalA m c (0 : Fin 4) = m ((c : Thread nD τ).loc main_arg0) :=
  (dats (F := F) m 0 c).arrAt_in (0 : Fin 4) rfl _
theorem finalA_g (c : Dev nD) : finalA m c (1 : Fin 4) = m ((c : Thread nD τ).loc main_arg1) :=
  (dats (F := F) m 0 c).arrAt_in (1 : Fin 4) rfl _
theorem finalA_b (c : Dev nD) : finalA m c (2 : Fin 4) = m ((c : Thread nD τ).loc main_arg2) :=
  (dats (F := F) m 0 c).arrAt_in (2 : Fin 4) rfl _

/-- The output array holds the block the body left in its staging buffer: the one write-back covers the whole array. -/
theorem finalA_out (c : Dev nD) : finalA m c (3 : Fin 4) = outAt m c := by
  unfold finalA
  show (dats m 0 c).arrAt (3 : Fin 4) (t₀.val + 1) = _
  rw [Dat.arrAt_succ, if_pos (flush0_3 t₀)]
  exact Memref.write_access_unit_zero_univ (Elt F) main_v1 (funext fun a => Nat.zero_mul _) _ _ _

theorem kernel_run : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) (s₀ m ρ)).mono
    (fun r h c => ⟨(h c (3 : Fin 4)).trans (finalA_out m c), (h c (0 : Fin 4)).trans (finalA_x m c),
      (h c (1 : Fin 4)).trans (finalA_g m c), (h c (2 : Fin 4)).trans (finalA_b m c)⟩) (run_main m ρ)

/-- info: 'Cert.KernelIdeal.Proto.kernel_run' depends on axioms: [propext, Classical.choice, Quot.sound] -/
#guard_msgs in #print axioms kernel_run

end Cert.KernelIdeal.Proto

end
-- ==== Proof.Bits.ProtoBase.lean ====
/-
  Layer normalisation over columns cut across eight devices: the exchange of the per-device row sums.

  Every device holds 256 of the 2048 columns. It computes, for each of the 512 rows, the sum of its columns and the sum of
  their squares (two rows of 512 numbers, "its statistics"), stores them in slot `c` of an 8-slot scratch array, and sends
  that slot to slot `c` of the scratch array of each of the seven other devices. A device adds the eight slots it ends up
  holding. Before any copy is sent, every device tells each of the seven others, on the barrier semaphore, that it has
  entered the kernel; that signal is also what hands the sender the right to write the slot it will fill.

  This file fixes the vocabulary of that exchange: the ring arithmetic, the semaphore cells, the slot regions of the scratch
  array and what they hold, and the schedule of duties: per barrier cell seven unit signals, one from each peer, each carrying
  the peer's slot for this device; per send cell and per receive cell one copy of a slot's credit.
-/
import proofs.«900544_g7700000000000545_dist_layernorm_colshard_i_m512_n256_v7x_i8_f32_1_alg».proof.Proof.Gen.Kernel
import proofs.«900544_g7700000000000545_dist_layernorm_colshard_i_m512_n256_v7x_i8_f32_1_alg».proof.Proof.Gen.Kernel.Skeleton
import proofs.«900544_g7700000000000545_dist_layernorm_colshard_i_m512_n256_v7x_i8_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra (one duty per round) and the exchange's (seven) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

/-- The device at ring distance `d` after `c`. -/
def nb (c : Dev nD) (d : ℕ) : Dev nD := ⟨(c.val + d) % 8, Nat.mod_lt _ (by decide)⟩

theorem nb_nb (c : Dev nD) : ∀ j : Fin 7, nb (nb c (j.val + 1)) (7 - j.val) = c := by revert c; decide
theorem nb_nb' (c : Dev nD) : ∀ j : Fin 7, nb (nb c (7 - j.val)) (j.val + 1) = c := by revert c; decide
theorem nb_ne (c : Dev nD) : ∀ j : Fin 7, nb c (j.val + 1) ≠ c := by revert c; decide
theorem nb_inj (c : Dev nD) : ∀ i j : Fin 7, nb c (i.val + 1) = nb c (j.val + 1) → i = j := by revert c; decide

/-- Going `d` steps round the ring is a bijection of the devices. -/
def ring (j : Fin 7) : Dev nD ≃ Dev nD :=
  ⟨fun c => nb c (j.val + 1), fun c => nb c (7 - j.val), fun c => nb_nb c j, fun c => nb_nb' c j⟩

/-- The kernel's device chains: the seven signals go to distances 1 … 7, the seven copies to distances 4, 3, 5, 2, 6, 1, 7. -/
theorem dev1_eq (c : Dev nD) : (⟨k0_dev1 c, k0_dev1_lt c⟩ : Dev nD) = nb c 1 := Fin.ext (k0_dev1_eq c)
theorem dev2_eq (c : Dev nD) : (⟨k0_dev2 c, k0_dev2_lt c⟩ : Dev nD) = nb c 2 := Fin.ext (k0_dev2_eq c)
theorem dev3_eq (c : Dev nD) : (⟨k0_dev3 c, k0_dev3_lt c⟩ : Dev nD) = nb c 3 := Fin.ext (k0_dev3_eq c)
theorem dev4_eq (c : Dev nD) : (⟨k0_dev4 c, k0_dev4_lt c⟩ : Dev nD) = nb c 4 := Fin.ext (k0_dev4_eq c)
theorem dev5_eq (c : Dev nD) : (⟨k0_dev5 c, k0_dev5_lt c⟩ : Dev nD) = nb c 5 := Fin.ext (k0_dev5_eq c)
theorem dev6_eq (c : Dev nD) : (⟨k0_dev6 c, k0_dev6_lt c⟩ : Dev nD) = nb c 6 := Fin.ext (k0_dev6_eq c)
theorem dev7_eq (c : Dev nD) : (⟨k0_dev7 c, k0_dev7_lt c⟩ : Dev nD) = nb c 7 := Fin.ext (k0_dev7_eq c)
theorem dev8_eq (c : Dev nD) : (⟨k0_dev8 c, k0_dev8_lt c⟩ : Dev nD) = nb c 4 := Fin.ext (k0_dev8_eq c)
theorem dev9_eq (c : Dev nD) : (⟨k0_dev9 c, k0_dev9_lt c⟩ : Dev nD) = nb c 3 := Fin.ext (k0_dev9_eq c)
theorem dev10_eq (c : Dev nD) : (⟨k0_dev10 c, k0_dev10_lt c⟩ : Dev nD) = nb c 5 := Fin.ext (k0_dev10_eq c)
theorem dev11_eq (c : Dev nD) : (⟨k0_dev11 c, k0_dev11_lt c⟩ : Dev nD) = nb c 2 := Fin.ext (k0_dev11_eq c)
theorem dev12_eq (c : Dev nD) : (⟨k0_dev12 c, k0_dev12_lt c⟩ : Dev nD) = nb c 6 := Fin.ext (k0_dev12_eq c)
theorem dev13_eq (c : Dev nD) : (⟨k0_dev13 c, k0_dev13_lt c⟩ : Dev nD) = nb c 1 := Fin.ext (k0_dev13_eq c)
theorem dev14_eq (c : Dev nD) : (⟨k0_dev14 c, k0_dev14_lt c⟩ : Dev nD) = nb c 7 := Fin.ext (k0_dev14_eq c)

/-! ## The semaphores and their cells -/

/-- The runtime's barrier semaphore of collective id 0. -/
abbrev barS : Sem sig := (SemArray.scalar (sig.barrier 0 rfl) : Sems sig S_).sem
/-- The send semaphore of the copy to distance `j + 1`, and the receive semaphore for the copy from device `s`. -/
def sendS (j : Fin 7) : DmaSem sig := ⟨4 + j.val, by have := j.isLt; show 4 + j.val < 19; omega⟩
def recvS (s : Dev nD) : DmaSem sig := ⟨11 + s.val, by have h := s.isLt; show 11 + s.val < 19; change s.val < 8 at h; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (s : Dev nD) : GSem nD τ sig := ((c : Thread nD τ), .dma (recvS s))

/-- The semaphore views the body names are these cells' semaphores. -/
theorem send_sem_0 : ((cc0_scratch1.slice (Rect.unit (s := S7) ![0] S1.size inb_S7_S1_0)).squeeze S_ squeezes_S1_S_).sem = sendS 0 := by decide
theorem send_sem_1 : ((cc0_scratch1.slice (Rect.unit (s := S7) ![1] S1.size inb_S7_S1_1)).squeeze S_ squeezes_S1_S_).sem = sendS 1 := by decide
theorem send_sem_2 : ((cc0_scratch1.slice (Rect.unit (s := S7) ![2] S1.size inb_S7_S1_2)).squeeze S_ squeezes_S1_S_).sem = sendS 2 := by decide
theorem send_sem_3 : ((cc0_scratch1.slice (Rect.unit (s := S7) ![3] S1.size inb_S7_S1_3)).squeeze S_ squeezes_S1_S_).sem = sendS 3 := by decide
theorem send_sem_4 : ((cc0_scratch1.slice (Rect.unit (s := S7) ![4] S1.size inb_S7_S1_4)).squeeze S_ squeezes_S1_S_).sem = sendS 4 := by decide
theorem send_sem_5 : ((cc0_scratch1.slice (Rect.unit (s := S7) ![5] S1.size inb_S7_S1_5)).squeeze S_ squeezes_S1_S_).sem = sendS 5 := by decide
theorem send_sem_6 : ((cc0_scratch1.slice (Rect.unit (s := S7) ![6] S1.size inb_S7_S1_6)).squeeze S_ squeezes_S1_S_).sem = sendS 6 := by decide
theorem recv_sem_own : ∀ c : Dev nD, ((cc0_scratch2.slice (Rect.unit (s := S8) (k0_off3 c) S1.size (k0_off3_inb c))).squeeze S_ squeezes_S1_S_).sem = recvS c := by decide
theorem recv_sem_nb : ∀ (c : Dev nD) (r : Fin 7), ((cc0_scratch2.slice (Rect.unit (s := S8) (k0_off6 c (BitVec.ofNat 32 (1 + r.val))) S1.size (k0_off6_inb c r))).squeeze S_ squeezes_S1_S_).sem = recvS (nb c (r.val + 1)) := by decide

/-- The kernel's OWN (scoped) semaphores as the launch indexes them: the seven send semaphores, then the eight receive ones; -/
def osem : Fin 15 → SemLoc sig := fun i => if h : i.val < 7 then .dma (sendS ⟨i.val, h⟩) else .dma (recvS ⟨i.val - 7, by have := i.isLt; show i.val - 7 < 8; omega⟩)
/-- all sixteen cells of a device as this proof indexes them: the barrier, then the own ones. -/
def csem : Fin 16 → SemLoc sig := fun i => if h : i.val = 0 then .reg barS else osem ⟨i.val - 1, by have := i.isLt; omega⟩
abbrev kcell (ck : Dev nD × Fin 16) : GSem nD τ sig := ((ck.1 : Thread nD τ), csem ck.2)

/-! ## The scratch array, its slots, and what they hold -/

abbrev scrM : Memref sig .tc .vmem S8x2x512 .f32 := Memref.whole cc0_scratch0
abbrev xM : Memref sig .tc .vmem S512x256 .f32 := Memref.whole cc0_stg0_0
abbrev gM : Memref sig .tc .vmem S256 .f32 := Memref.whole cc0_stg1_0
abbrev bM : Memref sig .tc .vmem S256 .f32 := Memref.whole cc0_stg2_0
abbrev oM : Memref sig .tc .vmem S512x256 .f32 := Memref.whole cc0_stg3_0

/-- Slot `s` of the scratch array as the copies address it: a 2 × 512 view. -/
abbrev slotM (s : Dev nD) : Memref sig .tc .vmem S2x512 .f32 :=
  (scrM.slice (Rect.unit (s := S8x2x512) (k0_off4 s) S1x2x512.size (k0_off4_inb s)) (fun _ => rfl)).squeeze S2x512 squeezes_S1x2x512_S2x512

/-- The credit of one slot's copy. -/
abbrev N : ℕ := (slotM (0 : Dev nD)).view.dmaCredit

/-- Device `c`'s block of `x`, and of the scale and the shift, as the pipeline stages them. -/
def xstg (c : Dev nD) : (cc0_stg0_0 : Ref sig .tc).ty.Contents (Elt F) :=
  (win0_0.blk (0 : Fin 1)).view.read (Elt F) (m ((c : Thread nD τ).loc main_arg0))
def gstg (c : Dev nD) : (cc0_stg1_0 : Ref sig .tc).ty.Contents (Elt F) :=
  (win0_1.blk (0 : Fin 1)).view.read (Elt F) (m ((c : Thread nD τ).loc main_arg1))
def bstg (c : Dev nD) : (cc0_stg2_0 : Ref sig .tc).ty.Contents (Elt F) :=
  (win0_2.blk (0 : Fin 1)).view.read (Elt F) (m ((c : Thread nD τ).loc main_arg2))

/-! ## What the slots hold -/

/-- The whole-block rectangles of the staged operands. -/
abbrev rX : Rect S512x256 := Rect.unit (s := S512x256) ![0, 0] S512x256.size inb_S512x256_S512x256_0_0
abbrev rV : Rect S256 := Rect.unit (s := S256) ![0] S256.size inb_S256_S256_0
/-- The two rows of slot `s`: the row sums, the row sums of squares. -/
abbrev r1 (s : Dev nD) : Rect S8x2x512 := Rect.unit (s := S8x2x512) (k0_off1 s) S1x1x512.size (k0_off1_inb s)
abbrev r2 (s : Dev nD) : Rect S8x2x512 := Rect.unit (s := S8x2x512) (k0_off2 s) S1x1x512.size (k0_off2_inb s)
/-- Slot `s` whole, as the loads address it: a device's own slot, and the slot of the peer at distance `r + 1`. -/
abbrev rOwn (s : Dev nD) : Rect S8x2x512 := Rect.unit (s := S8x2x512) (k0_off5 s) S1x2x512.size (k0_off5_inb s)
abbrev rPeer (c : Dev nD) (r : Fin 7) : Rect S8x2x512 :=
  Rect.unit (s := S8x2x512) (k0_off8 c (BitVec.ofNat 32 (1 + r.val))) S1x2x512.size (k0_off8_inb c r)

/-- Device `s`'s block of `x` as its load returns it. -/
def xv (s : Dev nD) : Vec F S512x256 .f32 := (xM : Memref sig .tc .vmem S512x256 .f32).view.readAt (Elt F) rX.toLoadRect (xstg m s)

/-- The scratch array after device `s` has stored its two rows of statistics over contents `f`. -/
def ownStats (s : Dev nD) (f : (cc0_scratch0 : Ref sig .tc).ty.Contents (Elt F)) : (cc0_scratch0 : Ref sig .tc).ty.Contents (Elt F) :=
  ((scrM : Memref sig .tc .vmem S8x2x512 .f32).access (r2 s) : View sig .tc _ _ _).write (Elt F)
    (((scrM : Memref sig .tc .vmem S8x2x512 .f32).access (r1 s) : View sig .tc _ _ _).write (Elt F) f (k0_pay2 (xv m s)) Finset.univ)
    (k0_pay3 (xv m s)) Finset.univ

/-- The scratch array every device ends up holding: slot `s` holds device `s`'s two rows of statistics. The same function
    on every device. (Over any contents: a slot's two rows cover it.) -/
def allStats [∀ e, Nonempty (Elt F e)] : (cc0_scratch0 : Ref sig .tc).ty.Contents (Elt F) :=
  fun i => ownStats m (⟨(i (0 : Fin 3)).val, (i (0 : Fin 3)).isLt⟩ : Dev nD) (fun _ => Classical.arbitrary _) i

/-- Device `c` holds the elements of slot `s` of its scratch array, at share `q` and contents `f`. -/
def slotPts (c s : Dev nD) (q : PosShare TreeShare) (f : Buf (Elt F) ((slotM s).view.loc (c : Thread nD τ))) : sProp 𝕄 :=
  (slotM s).view.loc (c : Thread nD τ) ↦[(slotM s).view.set]{q} f

/-! ## The kernel's result on a device, as one pure term of the launch memory -/

section Result
variable [∀ e, Nonempty (Elt F e)]

/-- What device `c`'s loads of its scale and shift return. -/
def gv (c : Dev nD) : Vec F S256 .f32 := (gM : Memref sig .tc .vmem S256 .f32).view.readAt (Elt F) rV.toLoadRect (gstg m c)
def bv (c : Dev nD) : Vec F S256 .f32 := (bM : Memref sig .tc .vmem S256 .f32).view.readAt (Elt F) rV.toLoadRect (bstg m c)
/-- What its loads of its own slot and of the slot of the peer at distance `r + 1` return, once all slots are in. -/
def ownRows (c : Dev nD) : Vec F S1x2x512 .f32 :=
  (scrM : Memref sig .tc .vmem S8x2x512 .f32).view.readAt (Elt F) (rOwn c).toLoadRect (allStats m)
def peerRows (c : Dev nD) (r : Fin 7) : Vec F S1x2x512 .f32 :=
  (scrM : Memref sig .tc .vmem S8x2x512 .f32).view.readAt (Elt F) (rPeer c r).toLoadRect (allStats m)

/-- The eight slots added in the kernel's order: own, then the peers at distances 1, 7, 2, 6, 3, 5 (4 is added inside the
    last payload). -/
def tot6 (c : Dev nD) : FVec F S2x512 .f32 :=
  k0_pay9 (k0_pay8 (k0_pay7 (ownRows m c) (peerRows m c 0)) (peerRows m c 6) (peerRows m c 1)) (peerRows m c 5) (peerRows m c 2)

/-- The block device `c` stores as its result. -/
def outAt (c : Dev nD) : (cc0_stg3_0 : Ref sig .tc).ty.Contents (Elt F) :=
  k0_pay12 (k0_pay10 (k0_pay4 (gv m c)) (k0_pay6 (k0_pay1 (xv m c)) (gv m c)) (tot6 m c) (peerRows m c 4) (peerRows m c 3))
    (k0_pay11 (k0_pay5 (bv m c)))

end Result

end Cert.Kernel.Proto

end
-- ==== Proof.Bits.ProtoSched.lean ====
/-
  The schedule of the statistics exchange among the eight devices, and what each device holds and owes at the kernel's entry.

  Cells. Device `c` owns sixteen semaphore cells: its barrier cell, seven send cells (one per copy it issues, to the peers at
  ring distances 1 … 7) and eight receive cells (one per possible sender; the one numbered `c` is never used).
  Duties, all in round 0. The barrier cell has seven unit duties: duty `j` is paid by the peer `p` with `c` at distance
  `j + 1` after it, and hands `c` slot `c` of `p`'s scratch array — the slot `c` will copy its statistics into. A send
  cell has one duty, the copy's credit, returning the read share of the source slot lent to that copy. The receive cell for
  sender `s` has one duty, the copy's credit, handing `c` slot `s` of its own array filled with `s`'s statistics.
  Levels: staging and send cells 0, barrier cells 1, receive cells 2; a device waits on its barrier cell while it still owes
  the seven copies, and on everything else owing nothing.
-/
import proofs.«900544_g7700000000000545_dist_layernorm_colshard_i_m512_n256_v7x_i8_f32_1_alg».proof.Proof.Bits.ProtoBase

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## Payloads -/

/-- The read share of its own slot a device lends to its copy number `j`. -/
abbrev sendShare (j : Fin 7) : PosShare TreeShare := Transfers.shareTok fullShare 7 j
/-- What it keeps for its own load. -/
abbrev keptShare : PosShare TreeShare := Transfers.shareDrop fullShare 7

/-- Duty `j` of `t`'s barrier cell: the payer is the device `t` lies `j + 1` after; it hands over its slot `t`. -/
def barPay (t : Dev nD) (j : Fin 7) : sProp 𝕄 := iprop(∃ f, slotPts (nb t (7 - j.val)) t fullShare f)
/-- The landing of `s`'s copy on `c`: slot `s` of `c`'s array holds `s`'s statistics. -/
def recvPay (c s : Dev nD) : sProp 𝕄 := slotPts c s fullShare (allStats m)
/-- The completion of `c`'s copy number `j`: the read share of its own slot comes back. -/
def sendPay (c : Dev nD) (j : Fin 7) : sProp 𝕄 := slotPts c c (sendShare j) (allStats m)

/-! ## The schedule -/

def rdDuties (g : GSem nD τ sig) (r : ℕ) : Finset (Fin 7) :=
  if r = 0 ∧ g.1.2 = .tc then
    (match g.2 with
      | .reg s => if s = barS then Finset.univ else ∅
      | .dma q => if 4 ≤ q.val ∧ (q.val < 11 ∨ q.val ≠ 11 + g.1.1.val) then {0} else ∅)
  else ∅

def rdAmount (g : GSem nD τ sig) : ℕ := match g.2 with | .reg _ => 1 | .dma _ => N

def rdPayload (g : GSem nD τ sig) (d : Fin 7) : sProp 𝕄 :=
  match g.2 with
  | .reg _ => barPay g.1.1 d
  | .dma q =>
    if h : q.val < 11 then (if h4 : 4 ≤ q.val then sendPay m g.1.1 ⟨q.val - 4, by omega⟩ else iprop(emp))
    else recvPay m g.1.1 (⟨q.val - 11, by have := q.isLt; show q.val - 11 < 8; change q.val < 19 at this; omega⟩ : Dev nD)

theorem N_pos : 0 < N := View.dmaCredit_pos _ (by decide)

def Rd : Rounds.Schedule (GSem nD τ sig) (Fin 7) 𝕄 where
  duties := rdDuties
  unitless _ := False
  amount g _ _ := rdAmount g
  payload g _ d := rdPayload m g d
  amount_pos g _ _ _ := by
    unfold rdAmount
    split
    · exact Nat.one_pos
    · exact N_pos

instance Rd_payload_storable (g : GSem nD τ sig) (r : ℕ) (d : Fin 7) :
    BI.Storable (upEmb : UEmb _ 𝕄) ((Rd (F := F) m).payload g r d) := by
  show BI.Storable upEmb (rdPayload m g d)
  unfold rdPayload barPay recvPay sendPay slotPts
  (repeat' split) <;> infer_instance

/-! ## The tables, cell by cell -/

section Sched
variable (c : Dev nD)

theorem kcell_bar : kcell (c, (0 : Fin 16)) = barCell c := rfl
theorem kcell_send (j : Fin 7) : kcell (c, (⟨j.val + 1, by omega⟩ : Fin 16)) = sendCell c j := by
  show ((c : Thread nD τ), csem (⟨j.val + 1, _⟩ : Fin 16)) = ((c : Thread nD τ), SemLoc.dma (sendS j))
  refine congrArg (Prod.mk (c : Thread nD τ)) ?_
  unfold csem osem
  rw [dif_neg (Nat.succ_ne_zero j.val), dif_pos (show j.val + 1 - 1 < 7 from by have := j.isLt; omega)]
  exact congrArg SemLoc.dma (congrArg sendS (Fin.ext (show j.val + 1 - 1 = j.val from by omega)))
theorem kcell_recv (s : Dev nD) : kcell (c, (⟨s.val + 8, by have h := s.isLt; change s.val < 8 at h; omega⟩ : Fin 16)) = recvCell c s := by
  have hs : s.val < 8 := s.isLt
  show ((c : Thread nD τ), csem (⟨s.val + 8, _⟩ : Fin 16)) = ((c : Thread nD τ), SemLoc.dma (recvS s))
  refine congrArg (Prod.mk (c : Thread nD τ)) ?_
  unfold csem osem
  rw [dif_neg (show ¬ s.val + 8 = 0 from by omega), dif_neg (show ¬ s.val + 8 - 1 < 7 from by omega)]
  exact congrArg SemLoc.dma (congrArg recvS (Fin.ext (show s.val + 8 - 1 - 7 = s.val from by omega)))
theorem osem_send (j : Fin 7) : osem (⟨j.val, by omega⟩ : Fin 15) = .dma (sendS j) := by
  unfold osem
  rw [dif_pos (show j.val < 7 from j.isLt)]
theorem osem_recv (s : Dev nD) : osem (⟨s.val + 7, by have h := s.isLt; change s.val < 8 at h; omega⟩ : Fin 15) = .dma (recvS s) := by
  unfold osem
  rw [dif_neg (show ¬ s.val + 7 < 7 from by omega)]
  exact congrArg SemLoc.dma (congrArg recvS (Fin.ext (show s.val + 7 - 7 = s.val from by omega)))

theorem duties_bar : (Rd (F := F) m).duties (barCell c) 0 = Finset.univ := by
  show rdDuties (barCell c) 0 = Finset.univ
  unfold rdDuties
  rw [if_pos ⟨rfl, rfl⟩]
  exact if_pos rfl
theorem duties_send (j : Fin 7) : (Rd (F := F) m).duties (sendCell c j) 0 = {0} := by
  show rdDuties (sendCell c j) 0 = {0}
  unfold rdDuties
  rw [if_pos ⟨rfl, rfl⟩]
  exact if_pos ⟨show 4 ≤ 4 + j.val from Nat.le_add_right 4 _, Or.inl (show 4 + j.val < 11 from by have := j.isLt; omega)⟩
theorem duties_recv (s : Dev nD) (h : s ≠ c) : (Rd (F := F) m).duties (recvCell c s) 0 = {0} := by
  show rdDuties (recvCell c s) 0 = {0}
  unfold rdDuties
  rw [if_pos ⟨rfl, rfl⟩]
  exact if_pos ⟨show 4 ≤ 11 + s.val from by omega,
    Or.inr (show 11 + s.val ≠ 11 + c.val from fun h' => h (Fin.ext (Nat.add_left_cancel h')))⟩
theorem duties_recv_self : ∀ r, (Rd (F := F) m).duties (recvCell c c) r = ∅ := by
  intro r
  show rdDuties (recvCell c c) r = ∅
  unfold rdDuties
  by_cases hr : r = 0 ∧ (recvCell c c).1.2 = .tc
  · rw [if_pos hr]
    exact if_neg (show ¬ (4 ≤ 11 + c.val ∧ (11 + c.val < 11 ∨ 11 + c.val ≠ 11 + c.val)) from
      fun h => h.2.elim (fun h1 => absurd h1 (by omega)) (fun h2 => h2 rfl))
  · exact if_neg hr
theorem duties_later (g : GSem nD τ sig) : ∀ r, 1 ≤ r → (Rd (F := F) m).duties g r = ∅ := by
  intro r hr
  show rdDuties g r = ∅
  unfold rdDuties
  exact if_neg (fun h => by have := h.1; omega)

theorem amount_bar (d : Fin 7) : (Rd (F := F) m).amount (barCell c) 0 d = 1 := rfl
theorem amount_send (j : Fin 7) (d : Fin 7) : (Rd (F := F) m).amount (sendCell c j) 0 d = N := rfl
theorem amount_recv (s : Dev nD) (d : Fin 7) : (Rd (F := F) m).amount (recvCell c s) 0 d = N := rfl

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send (j : Fin 7) : (Rd (F := F) m).expect (sendCell c j) 0 = N := by
  unfold Schedule.expect Schedule.amountOf
  rw [duties_send, Finset.sum_singleton, amount_send]
theorem expect_recv (s : Dev nD) (h : s ≠ c) : (Rd (F := F) m).expect (recvCell c s) 0 = N := by
  unfold Schedule.expect Schedule.amountOf
  rw [duties_recv m c s h, Finset.sum_singleton, amount_recv]

theorem payload_bar (j : Fin 7) : (Rd (F := F) m).payload (barCell c) 0 j = barPay c j := rfl
theorem payload_send (j : Fin 7) (d : Fin 7) : (Rd (F := F) m).payload (sendCell c j) 0 d = sendPay m c j := by
  show rdPayload m (sendCell c j) d = sendPay m c j
  unfold rdPayload
  show (if h : (sendS j).val < 11 then (if h4 : 4 ≤ (sendS j).val then sendPay m c ⟨(sendS j).val - 4, by omega⟩ else iprop(emp))
    else recvPay m c _) = sendPay m c j
  rw [dif_pos (show (sendS j).val < 11 from (show 4 + j.val < 11 from by have := j.isLt; omega)),
    dif_pos (show 4 ≤ (sendS j).val from (show 4 ≤ 4 + j.val from Nat.le_add_right 4 _))]
  exact congrArg (sendPay m c) (Fin.ext (show 4 + j.val - 4 = j.val from by omega))
theorem payload_recv (s : Dev nD) (d : Fin 7) : (Rd (F := F) m).payload (recvCell c s) 0 d = recvPay m c s := by
  show rdPayload m (recvCell c s) d = recvPay m c s
  unfold rdPayload
  show (if h : (recvS s).val < 11 then (if h4 : 4 ≤ (recvS s).val then sendPay m c ⟨(recvS s).val - 4, by omega⟩ else iprop(emp))
    else recvPay m c _) = recvPay m c s
  rw [dif_neg (show ¬ (recvS s).val < 11 from (show ¬ 11 + s.val < 11 from by omega))]
  exact congrArg (recvPay m c) (Fin.ext (show 11 + s.val - 11 = s.val from by omega))

/-- The rest of the barrier cell's round, no duty taken: the seven peers' slots. -/
theorem rest_bar : bigSep ((Rd (F := F) m).duties (barCell c) 0 \ ∅) (fun d => (Rd (F := F) m).payload (barCell c) 0 d)
    = bigSep Finset.univ (fun j : Fin 7 => barPay (F := F) c j) := by
  rw [Finset.sdiff_empty, duties_bar]
  rfl
theorem rest_send (j : Fin 7) : bigSep ((Rd (F := F) m).duties (sendCell c j) 0 \ ∅) (fun d => (Rd (F := F) m).payload (sendCell c j) 0 d) = sendPay m c j := by
  rw [Finset.sdiff_empty, duties_send, bigSep_singleton, payload_send]
theorem rest_recv (s : Dev nD) (h : s ≠ c) : bigSep ((Rd (F := F) m).duties (recvCell c s) 0 \ ∅) (fun d => (Rd (F := F) m).payload (recvCell c s) 0 d) = recvPay m c s := by
  rw [Finset.sdiff_empty, duties_recv m c s h, bigSep_singleton, payload_recv]

end Sched

/-! ## What each device owes at launch; the levels -/

/-- The copy to distance `j + 1` credits that peer's receive cell for sender `c`; the signal to it, its barrier cell. -/
def owedCopy (c : Dev nD) (j : Fin 7) : CellTallies nD τ sig Unit := tallyAt (recvCell (nb c (j.val + 1)) c) () N
def owedSig (c : Dev nD) (j : Fin 7) : CellTallies nD τ sig Unit := tallyAt (barCell (nb c (j.val + 1))) () 1

/-- After the seven signals: the seven copies, summed so that the copies peel the last summand in the order the kernel
    issues them (distances 4, 3, 5, 2, 6, 1, 7). -/
def O₇ (c : Dev nD) : CellTallies nD τ sig Unit :=
  owedCopy c 6 + owedCopy c 0 + owedCopy c 5 + owedCopy c 1 + owedCopy c 4 + owedCopy c 2 + owedCopy c 3
/-- At launch: those and the seven signals, the first signal (distance 1) the last summand. -/
def O₀ (c : Dev nD) : CellTallies nD τ sig Unit :=
  O₇ c + owedSig c 6 + owedSig c 5 + owedSig c 4 + owedSig c 3 + owedSig c 2 + owedSig c 1 + owedSig c 0

def L (g : GSem nD τ sig) : Finset Unit := if g.1.2 = .tc then {()} else ∅
/-- barrier cells at 1, receive cells at 2, everything else (staging, send) at 0. -/
def lv (g : GSem nD τ sig) (_ : Unit) : ℕ := match g.2 with | .reg _ => 1 | .dma q => if 11 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- The seven copies, and the dues at launch, as sums over the ring distances (addition of tallies is commutative). -/
theorem O₇_eq_sum (c : Dev nD) : O₇ c = ∑ j : Fin 7, owedCopy c j := by
  rw [Fin.sum_univ_seven]; unfold O₇; ac_rfl

theorem O₀_eq_sum (c : Dev nD) : O₀ c = (∑ j : Fin 7, owedCopy c j) + ∑ j : Fin 7, owedSig c j := by
  rw [← O₇_eq_sum, Fin.sum_univ_seven]; unfold O₀; ac_rfl

/-- A positive entry of the seven copies' dues is one summand's: the receive cell, for sender `c`, of a peer. -/
theorem O₇_pos {c : Dev nD} {g : GSem nD τ sig} {u : Unit} (h : 0 < O₇ c g u) :
    ∃ j : Fin 7, g = recvCell (nb c (j.val + 1)) c := by
  rw [O₇_eq_sum] at h
  obtain ⟨j, _, hj⟩ := Pipeline.sum_pos_exists h
  exact ⟨j, (Pipeline.tallyAt_pos hj).1⟩

/-- A positive entry of the dues at launch is a copy's (a peer's receive cell) or a signal's (a peer's barrier cell). -/
theorem O₀_pos {c : Dev nD} {g : GSem nD τ sig} {u : Unit} (h : 0 < O₀ c g u) :
    (∃ j : Fin 7, g = recvCell (nb c (j.val + 1)) c) ∨ ∃ j : Fin 7, g = barCell (nb c (j.val + 1)) := by
  rw [O₀_eq_sum] at h
  rcases Pipeline.add_pos_cases h with h | h
  · obtain ⟨j, _, hj⟩ := Pipeline.sum_pos_exists h
    exact Or.inl ⟨j, (Pipeline.tallyAt_pos hj).1⟩
  · obtain ⟨j, _, hj⟩ := Pipeline.sum_pos_exists h
    exact Or.inr ⟨j, (Pipeline.tallyAt_pos hj).1⟩

/-- The levels of the three kinds of cell: a receive semaphore is numbered 11 or more, a send or staging one below 11. -/
theorem lv_bar (c : Dev nD) (u : Unit) : lv (barCell c) u = 1 := rfl
theorem lv_recv (c s : Dev nD) (u : Unit) : lv (recvCell c s) u = 2 := by
  unfold lv; exact if_pos (show 11 ≤ 11 + s.val from Nat.le_add_right 11 _)
theorem lv_low (c : Dev nD) (q : DmaSem sig) (hq : q.val < 11) (u : Unit) : lv ((c : Thread nD τ), .dma q) u = 0 := by
  unfold lv; exact if_neg (Nat.not_le.mpr hq)
theorem L_mem (c : Dev nD) (sm : SemLoc sig) (u : Unit) : u ∈ L ((c : Thread nD τ), sm) := by
  rw [L_tc]; exact Finset.mem_singleton_self _

/-- A wait on a staging or send cell (level 0) while owing everything or nothing. -/
theorem mayWait_low (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L_mem c _ _) (fun g u hg => ?_)
    rw [lv_low c q hq]
    rcases O₀_pos hg with ⟨j, rfl⟩ | ⟨j, rfl⟩
    · exact ⟨L_mem _ _ _, by rw [lv_recv]; decide⟩
    · exact ⟨L_mem _ _ _, by rw [lv_bar]; decide⟩
  · rw [MayWait_zero]; iintro -; iempintro
/-- At its barrier wait a device owes the seven copies only: receive cells, above its barrier cell. -/
theorem mayWait_bar (c : Dev nD) : (levAts L lv : sProp 𝕄) ⊢ MayWait (c : Thread nD τ) (.reg barS) () (O₇ c) := by
  refine Pipeline.mayWait_of_levAts (L_mem c _ _) (fun g u hg => ?_)
  obtain ⟨j, rfl⟩ := O₇_pos hg
  exact ⟨L_mem _ _ _, by rw [lv_recv]; exact (by decide : (1 : ℕ) < 2)⟩

/-! ### The launch credit: the dues summed over the payers -/

/-- What the dues of all devices come to on device `c`'s cells: seven units on its barrier cell (one signal from each peer)
    and one copy's credit on the receive cell of each peer. -/
def dealt (c : Dev nD) : CellTallies nD τ sig Unit :=
  tallyAt (barCell c) () 7 + ∑ j : Fin 7, tallyAt (recvCell c (nb c (j.val + 1))) () N

/-- Those tallies sit on `c`'s own cells only. -/
theorem dealt_own (d : Dev nD) (g : GSem nD τ sig) (h : dealt d g ≠ 0) : g.1 = (d : Thread nD τ) := by
  by_contra hne
  apply h
  unfold dealt
  rw [Pi.add_apply, Finset.sum_apply, tallyAt_ne_cell (fun e => hne (by rw [e])), zero_add]
  exact Finset.sum_eq_zero fun j _ => tallyAt_ne_cell (fun e => hne (by rw [e])) _ _

/-- Seven unit tallies on one cell are one tally of seven. -/
theorem seven_units (g : GSem nD τ sig) : (7 • tallyAt g () 1 : CellTallies nD τ sig Unit) = tallyAt g () 7 := by
  funext g'
  refine Finsupp.ext fun u => ?_
  rw [Pi.smul_apply, Finsupp.smul_apply, tallyAt_apply, tallyAt_apply, smul_eq_mul]
  by_cases hc : g' = g ∧ u = ()
  · rw [if_pos hc, if_pos hc]
  · rw [if_neg hc, if_neg hc]

/-- The signals at distance `j + 1`, summed over the senders: going `j + 1` round the ring is a bijection, so every device's
    barrier cell gets exactly one. -/
theorem sum_sig (j : Fin 7) :
    (∑ d : Dev nD, owedSig d j) = ∑ d : Dev nD, (tallyAt (barCell d) () 1 : CellTallies nD τ sig Unit) :=
  Equiv.sum_comp (ring j) (fun d => (tallyAt (barCell d) () 1 : CellTallies nD τ sig Unit))

/-- The copies to distance `j + 1`, summed over the senders: device `d` gets the one from the peer `7 - j` after it (that
    peer's distance-`j + 1` neighbour is `d`), on the receive cell numbered by that peer. -/
theorem sum_copy (j : Fin 7) :
    (∑ d : Dev nD, owedCopy d j)
      = ∑ d : Dev nD, (tallyAt (recvCell d (nb d (7 - j.val))) () N : CellTallies nD τ sig Unit) := by
  rw [← Equiv.sum_comp (ring j) (fun d => (tallyAt (recvCell d (nb d (7 - j.val))) () N : CellTallies nD τ sig Unit))]
  refine Finset.sum_congr rfl fun d _ => ?_
  show tallyAt (recvCell (nb d (j.val + 1)) d) () N
    = tallyAt (recvCell (nb d (j.val + 1)) (nb (nb d (j.val + 1)) (7 - j.val))) () N
  rw [nb_nb]

/-- All dues of all devices are, device by device, what each is dealt. -/
theorem sum_O₀ : (∑ d : Dev nD, O₀ d) = ∑ d : Dev nD, dealt d := by
  have hsig : (∑ d : Dev nD, ∑ j : Fin 7, owedSig d j)
      = ∑ d : Dev nD, (tallyAt (barCell d) () 7 : CellTallies nD τ sig Unit) := by
    rw [Finset.sum_comm, Finset.sum_congr rfl fun j _ => sum_sig j, Finset.sum_comm]
    refine Finset.sum_congr rfl fun d _ => ?_
    rw [Finset.sum_const, Finset.card_univ, Fintype.card_fin]
    exact seven_units _
  have hcopy : (∑ d : Dev nD, ∑ j : Fin 7, owedCopy d j)
      = ∑ d : Dev nD, ∑ j : Fin 7, (tallyAt (recvCell d (nb d (j.val + 1))) () N : CellTallies nD τ sig Unit) := by
    rw [Finset.sum_comm, Finset.sum_congr rfl fun j _ => sum_copy j, Finset.sum_comm]
    refine Finset.sum_congr rfl fun d _ => ?_
    -- the distances 7 - j, j = 0 … 6, are the distances j' + 1 in the opposite order
    rw [← Equiv.sum_comp Fin.revPerm (fun j : Fin 7 => (tallyAt (recvCell d (nb d (j.val + 1))) () N : CellTallies nD τ sig Unit))]
    refine Finset.sum_congr rfl fun j _ => ?_
    have hj : (Fin.revPerm j).val + 1 = 7 - j.val := by
      rw [Fin.revPerm_apply, Fin.val_rev]; have := j.isLt; omega
    rw [hj]
  rw [Finset.sum_congr rfl fun d _ => O₀_eq_sum d, Finset.sum_add_distrib, hsig, hcopy]
  unfold dealt
  rw [Finset.sum_add_distrib, add_comm]

/-- The launch deals device `c` the credit of the waits others pay: seven units on its barrier cell and one copy's credit
    on each receive cell a peer fills. -/
theorem creds (c : Dev nD) :
    (Pipeline.launchCred O₀ c : sProp 𝕄) ⊢ iprop(cred (tallyAt (barCell c) () 7)
      ∗ bigSep Finset.univ (fun j : Fin 7 => cred (tallyAt (recvCell c (nb c (j.val + 1))) () N))) := by
  rw [Pipeline.launchCred_of_sum O₀ dealt sum_O₀ dealt_own c]
  unfold dealt
  refine (cred_add _ _).1.trans (Entails.of_eq ?_)
  rw [Pipeline.cred_finsetSum]

/-! ## The ghost state of a device; the pipeline's proof data -/

/-- Every cell's invariant, under the names the launch allocated them at, and that round 0 of every cell is reached. -/
def records (K : Dev nD × Fin 16 → ℕ) : sProp 𝕄 :=
  iprop((bigSep Finset.univ fun ck : Dev nD × Fin 16 => cellInv ER (Rd m) (K ck) (kcell ck))
    ∗ bigSep Finset.univ fun ck : Dev nD × Fin 16 => reached ER (kcell ck) 0)

instance records_persistent (K : Dev nD × Fin 16 → ℕ) : BI.Persistent (records (F := F) m K) := by unfold records; infer_instance

/-- The tokens of the duties device `c` pays: a barrier duty and a receive duty of each peer, its own seven send duties. -/
def payToks (c : Dev nD) : sProp 𝕄 :=
  iprop((bigSep Finset.univ fun j : Fin 7 => dutyTok ER (barCell (nb c (j.val + 1))) 0 j)
    ∗ (bigSep Finset.univ fun j : Fin 7 => dutyTok ER (recvCell (nb c (j.val + 1)) c) 0 (0 : Fin 7))
    ∗ (bigSep Finset.univ fun j : Fin 7 => dutyTok ER (sendCell c j) 0 (0 : Fin 7)))
/-- What stays with device `c`: its positions on its sixteen cells, and those tokens. -/
def linear (c : Dev nD) : sProp 𝕄 :=
  iprop((bigSep Finset.univ fun k : Fin 16 => atPos ER (kcell (c, k)) 0 ∅ 0) ∗ payToks c)

def ghost (K : Dev nD × Fin 16 → ℕ) (c : Dev nD) : sProp 𝕄 := iprop(records m K ∗ linear c)

/-- The credit the launch deals device `c`. -/
def launchCreds (c : Dev nD) : sProp 𝕄 :=
  iprop(cred (tallyAt (barCell c) () 7) ∗ bigSep Finset.univ (fun j : Fin 7 => cred (tallyAt (recvCell c (nb c (j.val + 1))) () N)))

def start (c : Dev nD) : sProp 𝕄 := iprop((∃ K, ghost m K c) ∗ launchCreds c ∗ levAts L lv)

def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrAny c)
/-- After the point: the scratch array whole, the fifteen own semaphores at zero (the barrier cell is the runtime's). -/
def Φ₁ (c : Dev nD) : sProp 𝕄 := iprop(scrAny c ∗ bigSep Finset.univ fun i : Fin 15 => semVal ((c : Thread nD τ), osem i) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => bstg m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre- and postcondition on device `c` -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 16 → ℕ) (c : Dev nD) : sProp 𝕄 :=
  iprop((ghost m K c ∗ launchCreds c ∗ levAts L lv ∗ scrAny c)
    ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

def bodyPost (c : Dev nD) : sProp 𝕄 :=
  iprop(Φ₁ c ∗ (dats m 0 c).owesAt () t₀.succ ∗ stg c cc0_stg0_0 (xstg m c) ∗ stg c cc0_stg1_0 (gstg m c)
    ∗ stg c cc0_stg2_0 (bstg m c) ∗ stg c cc0_stg3_0 (outAt m c))

/-- info: 'Cert.Kernel.Proto.mayWait_low' depends on axioms: [propext, Classical.choice, Quot.sound] -/
#guard_msgs in #print axioms mayWait_low

/-- info: 'Cert.Kernel.Proto.mayWait_bar' depends on axioms: [propext, Classical.choice, Quot.sound] -/
#guard_msgs in #print axioms mayWait_bar

/-- info: 'Cert.Kernel.Proto.creds' depends on axioms: [propext, Classical.choice, Quot.sound] -/
#guard_msgs in #print axioms creds

end Cert.Kernel.Proto

end
-- ==== Proof.Bits.Geom.lean ====
/-
  The geometry of the 8-slot scratch array: an 8 × 2 × 512 array whose slot `s` is the 2 × 512 elements of first
  coordinate `s`.

  * An element belongs to slot `s` exactly when its first coordinate is `s`; so different slots are disjoint, and the eight
    slots — a device's own and those of the seven peers round the ring — are the whole array.
  * Every access of the body to the scratch array (the two row loads and stores, the load of a whole slot) goes through a
    unit-stride rectangle whose first coordinate is pinned to one slot index, hence stays inside that slot.
  * A store leaves its payload at every element it touches, whatever was there before: the two row stores of device `s`
    cover slot `s`, so after them the slot holds device `s`'s statistics; and a copy of slot `s` onto slot `s` of another
    array leaves there what the source held there.
  * Ownership of the whole array splits into ownership of the eight slots and joins back from it.
-/
import proofs.«900544_g7700000000000545_dist_layernorm_colshard_i_m512_n256_v7x_i8_f32_1_alg».proof.Proof.Bits.ProtoBase
import Idealize.ShloMosaic.Lib.Pipeline.Value
import Idealize.ShloMosaic.Rules.PointsTo

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A slot as a set of elements -/

/-- The elements under slot `s`'s view are those of the rectangle it is cut by: squeezing the unit axis away re-indexes
    the same elements, and a rectangle of the whole array sits at itself. -/
theorem slot_set (s : Dev nD) :
    (slotM s).view.set = (Rect.unit (s := S8x2x512) (k0_off4 s) S1x2x512.size (k0_off4_inb s)).set := by
  show (((View.whole cc0_scratch0 : View sig .tc _ _ _).slice
      (Rect.unit (s := S8x2x512) (k0_off4 s) S1x2x512.size (k0_off4_inb s))).reshape S2x512 _).set = _
  rw [View.set_reshape, View.set_slice_whole]

/-- The second coordinate of an index of the scratch array is 0 or 1. -/
theorem idx_lt1 (i : S8x2x512.Idx) : (i 1).val < 2 := (i 1).isLt
/-- The third coordinate is below 512. -/
theorem idx_lt2 (i : S8x2x512.Idx) : (i 2).val < 512 := (i 2).isLt

/-- Membership in a unit-stride rectangle of the scratch array, one coordinate at a time. -/
theorem mem_unit3 {off size : Fin 3 → ℕ} {inb : ∀ a, off a + size a ≤ S8x2x512.size a} (i : S8x2x512.Idx) :
    i ∈ (Rect.unit (s := S8x2x512) off size inb).set ↔
      (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

/-- slot s is the elements whose first coordinate is s -/
theorem mem_slot (s : Dev nD) (i : S8x2x512.Idx) : i ∈ (slotM s).view.set ↔ (i 0).val = s.val := by
  rw [slot_set, mem_unit3, k0_off4_eq]
  have h1 := idx_lt1 i
  have h2 := idx_lt2 i
  show (s.val ≤ (i 0).val ∧ (i 0).val < s.val + 1) ∧ (0 ≤ (i 1).val ∧ (i 1).val < 0 + 2) ∧ (0 ≤ (i 2).val ∧ (i 2).val < 0 + 512) ↔ _
  omega

/-- Two different slots share no element: an element's first coordinate names its slot. -/
theorem slot_disjoint (s s' : Dev nD) (h : s ≠ s') : Disjoint (slotM s).view.set (slotM s').view.set :=
  Finset.disjoint_left.mpr fun i h1 h2 => h (Fin.ext (((mem_slot s i).1 h1).symm.trans ((mem_slot s' i).1 h2)))

/-! ## The footprints of the body's accesses -/

/-- A unit-stride rectangle whose first coordinate is pinned to `s` lies in slot `s`. -/
theorem unit_sub_slot (s : Dev nD) {off size : Fin 3 → ℕ} (inb : ∀ a, off a + size a ≤ S8x2x512.size a)
    (h0 : off 0 = s.val) (h1 : size 0 = 1) :
    (Rect.unit (s := S8x2x512) off size inb).set ⊆ (slotM s).view.set := by
  intro i hi
  have := ((mem_unit3 i).1 hi).1
  rw [mem_slot]; omega

/-- Through the whole array an index set sits at itself. -/
theorem setOn_scr (M : Finset S8x2x512.Idx) : (scrM : Memref sig .tc .vmem S8x2x512 .f32).view.setOn M = M :=
  Finset.map_refl

/-- A store through a rectangle of the whole array touches the rectangle's elements. -/
theorem setOn_access_scr (r : Rect S8x2x512) :
    ((scrM : Memref sig .tc .vmem S8x2x512 .f32).access r).setOn Finset.univ = r.set :=
  View.set_slice_whole cc0_scratch0 r

/-- the footprints of the body's loads and stores of the scratch array lie in one slot -/
theorem load_r1_sub (s : Dev nD) : (scrM : Memref sig .tc .vmem S8x2x512 .f32).view.setOn (r1 s).toLoadRect.set ⊆ (slotM s).view.set := by
  rw [setOn_scr]; exact unit_sub_slot s _ (congrFun (k0_off1_eq s) 0) rfl
theorem load_r2_sub (s : Dev nD) : scrM.view.setOn (r2 s).toLoadRect.set ⊆ (slotM s).view.set := by
  rw [setOn_scr]; exact unit_sub_slot s _ (congrFun (k0_off2_eq s) 0) rfl
theorem store_r1_sub (s : Dev nD) : ((scrM : Memref sig .tc .vmem S8x2x512 .f32).access (r1 s)).setOn Finset.univ ⊆ (slotM s).view.set := by
  rw [setOn_access_scr]; exact unit_sub_slot s _ (congrFun (k0_off1_eq s) 0) rfl
theorem store_r2_sub (s : Dev nD) : (scrM.access (r2 s)).setOn Finset.univ ⊆ (slotM s).view.set := by
  rw [setOn_access_scr]; exact unit_sub_slot s _ (congrFun (k0_off2_eq s) 0) rfl
theorem load_own_sub (s : Dev nD) : scrM.view.setOn (rOwn s).toLoadRect.set ⊆ (slotM s).view.set := by
  rw [setOn_scr]; exact unit_sub_slot s _ (congrFun (k0_off5_eq s) 0) rfl
theorem load_peer_sub (c : Dev nD) (r : Fin 7) : scrM.view.setOn (rPeer c r).toLoadRect.set ⊆ (by exact (slotM (nb c (r.val + 1))).view.set : Finset S8x2x512.Idx) := by
  rw [setOn_scr]
  refine unit_sub_slot (nb c (r.val + 1)) _ ((congrFun (k0_off8_eq c r) 0).trans ?_) rfl
  show (c.val + r.val + 1) % 8 = (c.val + (r.val + 1)) % 8
  rw [Nat.add_assoc]

/-! ## What a copy lands, and what the two row stores leave -/

/-- a copy of slot s into slot s of another array leaves there what the source held there -/
theorem landing_eq (s : Dev nD) (fd fs : (cc0_scratch0 : Ref sig .tc).ty.Contents (Elt F)) : ∀ i ∈ (slotM s).view.set, (slotM s).view.write (Elt F) fd ((slotM s).view.read (Elt F) fs) Finset.univ i = fs i := by
  intro i hi
  obtain ⟨y, rfl⟩ := View.exists_emb_of_mem_set _ hi
  rw [View.write_emb_of_mem _ _ (Finset.mem_univ y), View.read_apply, cast_cast, cast_eq]

/-- The first row store of device `s` touches the elements `(s, 0, ·)`. -/
theorem mem_row1 (s : Dev nD) (i : S8x2x512.Idx) :
    i ∈ ((scrM : Memref sig .tc .vmem S8x2x512 .f32).access (r1 s)).setOn Finset.univ ↔ (i 0).val = s.val ∧ (i 1).val = 0 := by
  rw [setOn_access_scr, mem_unit3, k0_off1_eq]
  have h2 := idx_lt2 i
  show (s.val ≤ (i 0).val ∧ (i 0).val < s.val + 1) ∧ (0 ≤ (i 1).val ∧ (i 1).val < 0 + 1) ∧ (0 ≤ (i 2).val ∧ (i 2).val < 0 + 512) ↔ _
  omega

/-- The second row store touches the elements `(s, 1, ·)`. -/
theorem mem_row2 (s : Dev nD) (i : S8x2x512.Idx) :
    i ∈ ((scrM : Memref sig .tc .vmem S8x2x512 .f32).access (r2 s)).setOn Finset.univ ↔ (i 0).val = s.val ∧ (i 1).val = 1 := by
  rw [setOn_access_scr, mem_unit3, k0_off2_eq]
  have h2 := idx_lt2 i
  show (s.val ≤ (i 0).val ∧ (i 0).val < s.val + 1) ∧ (1 ≤ (i 1).val ∧ (i 1).val < 1 + 1) ∧ (0 ≤ (i 2).val ∧ (i 2).val < 0 + 512) ↔ _
  omega

/-- On slot `s` the array after device `s`'s two row stores does not depend on what it held before: the two rows
    cover the slot, and a store leaves its payload at every element it touches. -/
theorem ownStats_indep (s : Dev nD) (f f' : (cc0_scratch0 : Ref sig .tc).ty.Contents (Elt F)) :
    ∀ i ∈ (slotM s).view.set, ownStats m s f i = ownStats m s f' i := by
  intro i hi
  have h0 := (mem_slot s i).1 hi
  unfold ownStats
  by_cases hr2 : i ∈ ((scrM : Memref sig .tc .vmem S8x2x512 .f32).access (r2 s)).setOn Finset.univ
  · obtain ⟨y, -, rfl⟩ := Finset.mem_map.mp hr2
    rw [View.write_emb_of_mem _ _ (Finset.mem_univ y), View.write_emb_of_mem _ _ (Finset.mem_univ y)]
  · rw [View.write_of_not_mem _ _ _ hr2, View.write_of_not_mem _ _ _ hr2]
    have hr1 : i ∈ ((scrM : Memref sig .tc .vmem S8x2x512 .f32).access (r1 s)).setOn Finset.univ := by
      rw [mem_row1]
      rw [mem_row2] at hr2
      have := idx_lt1 i
      omega
    obtain ⟨y, -, rfl⟩ := Finset.mem_map.mp hr1
    rw [View.write_emb_of_mem _ _ (Finset.mem_univ y), View.write_emb_of_mem _ _ (Finset.mem_univ y)]

/-- after its two row stores device s's slot holds its statistics, whatever the array held before -/
theorem ownStats_eq [∀ e, Nonempty (Elt F e)] (s : Dev nD) (f : (cc0_scratch0 : Ref sig .tc).ty.Contents (Elt F)) : ∀ i ∈ (slotM s).view.set, ownStats m s f i = allStats m i := by
  intro i hi
  have hs : (⟨(i (0 : Fin 3)).val, (i (0 : Fin 3)).isLt⟩ : Dev nD) = s := Fin.ext ((mem_slot s i).1 hi)
  show ownStats m s f i = ownStats m (⟨(i (0 : Fin 3)).val, (i (0 : Fin 3)).isLt⟩ : Dev nD) (fun _ => Classical.arbitrary _) i
  rw [hs]
  exact ownStats_indep m s f _ i hi

/-! ## The array whole is its eight slots -/

/-- Slot `s` as a set of indices of the scratch array. -/
abbrev slotSet (s : Dev nD) : Finset S8x2x512.Idx := (slotM s).view.set

/-- Every device is `c` itself or one of its seven peers round the ring. -/
theorem dev_cases (c s : Dev nD) : s = c ∨ ∃ j : Fin 7, s = nb c (j.val + 1) := by revert c s; decide

/-- The eight slots cover the array: an element's first coordinate is a device, `c` or one of its peers. -/
theorem scr_cover (c : Dev nD) :
    (Finset.univ : Finset S8x2x512.Idx) = slotSet c ∪ Finset.univ.biUnion (fun j : Fin 7 => slotSet (nb c (j.val + 1))) := by
  ext i
  simp only [Finset.mem_univ, Finset.mem_union, Finset.mem_biUnion, true_and, true_iff]
  rcases dev_cases c (⟨(i (0 : Fin 3)).val, (i (0 : Fin 3)).isLt⟩ : Dev nD) with h | ⟨j, h⟩
  · left; exact (mem_slot c i).2 (congrArg Fin.val h)
  · right; exact ⟨j, (mem_slot _ i).2 (congrArg Fin.val h)⟩

/-- A device's own slot is disjoint from its peers' slots, -/
theorem own_disjoint_peers (c : Dev nD) :
    Disjoint (slotSet c) (Finset.univ.biUnion fun j : Fin 7 => slotSet (nb c (j.val + 1))) :=
  (Finset.disjoint_biUnion_right _ _ _).mpr fun j _ => slot_disjoint _ _ (nb_ne c j).symm

/-- and the peers' slots from one another: different ring distances name different devices. -/
theorem peers_disjoint (c : Dev nD) : ∀ j ∈ (Finset.univ : Finset (Fin 7)), ∀ j' ∈ (Finset.univ : Finset (Fin 7)), j ≠ j' →
    Disjoint (slotSet (nb c (j.val + 1))) (slotSet (nb c (j'.val + 1))) :=
  fun j _ j' _ hne => slot_disjoint _ _ fun e => hne (nb_inj c j j' e)

/-- Ownership of all elements is ownership of the union of the eight slots. -/
theorem whole_eq_union (c : Dev nD) (f : Buf (Elt F) ((c : Thread nD τ).loc cc0_scratch0)) :
    ((((c : Thread nD τ).loc cc0_scratch0) ↦{fullShare} f : sProp 𝕄))
      = (((c : Thread nD τ).loc cc0_scratch0) ↦[slotSet c ∪ Finset.univ.biUnion fun j : Fin 7 => slotSet (nb c (j.val + 1))]{fullShare} f) :=
  congrArg (fun I => ((((c : Thread nD τ).loc cc0_scratch0) ↦[I]{fullShare} f : sProp 𝕄))) (scr_cover c)

/-- the array whole is its eight slots: device c's own and the seven peers' -/
theorem scr_split (c : Dev nD) (f : Buf (Elt F) ((c : Thread nD τ).loc cc0_scratch0)) :
    ((((c : Thread nD τ).loc cc0_scratch0) ↦{fullShare} f : sProp 𝕄)) ⊢ iprop(slotPts c c fullShare f ∗ bigSep Finset.univ (fun j : Fin 7 => slotPts c (nb c (j.val + 1)) fullShare f)) := by
  rw [whole_eq_union]
  refine (pointsTo_union (own_disjoint_peers c)).1.trans (sep_mono_right (Entails.of_eq ?_))
  exact pointsTo_biUnion Finset.univ _ (peers_disjoint c)

/-- A device's own slot at one contents and its peers' slots, together, at another: the whole array at some contents. -/
theorem join_own_peers (c : Dev nD) (f0 g : Buf (Elt F) ((c : Thread nD τ).loc cc0_scratch0)) :
    iprop((((c : Thread nD τ).loc cc0_scratch0) ↦[slotSet c]{fullShare} f0)
        ∗ (((c : Thread nD τ).loc cc0_scratch0) ↦[Finset.univ.biUnion fun j : Fin 7 => slotSet (nb c (j.val + 1))]{fullShare} g))
      ⊢ (∃ f, (((c : Thread nD τ).loc cc0_scratch0) ↦{fullShare} f) : sProp 𝕄) :=
  (pointsTo_join (own_disjoint_peers c)).trans
    ((Entails.of_eq (whole_eq_union c _).symm).trans (exists_intro (Φ := fun f => ((((c : Thread nD τ).loc cc0_scratch0) ↦{fullShare} f : sProp 𝕄))) _))

/-- The seven peers' slots, each at its own contents, are their union at some contents. -/
theorem join_peers (c : Dev nD) (f0 : Buf (Elt F) ((c : Thread nD τ).loc cc0_scratch0)) (fs : Fin 7 → Buf (Elt F) ((c : Thread nD τ).loc cc0_scratch0)) :
    bigSep Finset.univ (fun j : Fin 7 => (((c : Thread nD τ).loc cc0_scratch0) ↦[slotSet (nb c (j.val + 1))]{fullShare} fs j : sProp 𝕄))
      ⊢ (∃ g, (((c : Thread nD τ).loc cc0_scratch0) ↦[Finset.univ.biUnion fun j : Fin 7 => slotSet (nb c (j.val + 1))]{fullShare} g) : sProp 𝕄) := by
  iintro H
  ihave H' := (pointsTo_biUnion_join Finset.univ (fun j : Fin 7 => slotSet (nb c (j.val + 1))) fs f0 (peers_disjoint c)) $$ H
  icases H' with ⟨%g, %hg, HS⟩
  iexists g
  iexact HS

/-- Conversely the eight slots, each at its own contents, join to the array whole at some contents. -/
theorem scr_join (c : Dev nD) (f0 : Buf (Elt F) ((c : Thread nD τ).loc cc0_scratch0)) (fs : Fin 7 → Buf (Elt F) ((c : Thread nD τ).loc cc0_scratch0)) :
    iprop(slotPts c c fullShare f0 ∗ bigSep Finset.univ (fun j : Fin 7 => slotPts c (nb c (j.val + 1)) fullShare (fs j))) ⊢ (∃ f, (((c : Thread nD τ).loc cc0_scratch0) ↦{fullShare} f) : sProp 𝕄) := by
  unfold slotPts
  refine (sep_mono_right (join_peers c f0 fs)).trans ?_
  exact sep_exists_left.1.trans (exists_elim fun g => join_own_peers c f0 g)

/-- info: 'Cert.Kernel.Proto.mem_slot' depends on axioms: [propext, Classical.choice, Quot.sound] -/
#guard_msgs in #print axioms mem_slot

/-- info: 'Cert.Kernel.Proto.slot_disjoint' depends on axioms: [propext, Classical.choice, Quot.sound] -/
#guard_msgs in #print axioms slot_disjoint

/-- info: 'Cert.Kernel.Proto.load_r1_sub' depends on axioms: [propext, Classical.choice, Quot.sound] -/
#guard_msgs in #print axioms load_r1_sub

/-- info: 'Cert.Kernel.Proto.load_r2_sub' depends on axioms: [propext, Classical.choice, Quot.sound] -/
#guard_msgs in #print axioms load_r2_sub

/-- info: 'Cert.Kernel.Proto.store_r1_sub' depends on axioms: [propext, Classical.choice, Quot.sound] -/
#guard_msgs in #print axioms store_r1_sub

/-- info: 'Cert.Kernel.Proto.store_r2_sub' depends on axioms: [propext, Classical.choice, Quot.sound] -/
#guard_msgs in #print axioms store_r2_sub

/-- info: 'Cert.Kernel.Proto.load_own_sub' depends on axioms: [propext, Classical.choice, Quot.sound] -/
#guard_msgs in #print axioms load_own_sub

/-- info: 'Cert.Kernel.Proto.load_peer_sub' depends on axioms: [propext, Classical.choice, Quot.sound] -/
#guard_msgs in #print axioms load_peer_sub

/-- info: 'Cert.Kernel.Proto.ownStats_eq' depends on axioms: [propext, Classical.choice, Quot.sound] -/
#guard_msgs in #print axioms ownStats_eq

/-- info: 'Cert.Kernel.Proto.landing_eq' depends on axioms: [propext, Classical.choice, Quot.sound] -/
#guard_msgs in #print axioms landing_eq

/-- info: 'Cert.Kernel.Proto.scr_split' depends on axioms: [propext, Classical.choice, Quot.sound] -/
#guard_msgs in #print axioms scr_split

/-- info: 'Cert.Kernel.Proto.scr_join' depends on axioms: [propext, Classical.choice, Quot.sound] -/
#guard_msgs in #print axioms scr_join

end Cert.Kernel.Proto

end
-- ==== Proof.Bits.Steps.lean ====
/-
  The remote steps of one device's run of the kernel body, one lemma per kind of step, at a symbolic device and ring distance.

  A signal pays one unit duty of a peer's barrier cell and hands over a slot; the barrier wait takes the seven slots the
  peers handed over; a copy of the own slot pays the send cell's duty with the read share lent to it and the peer's receive
  duty with the slot written; a receive wait brings a slot filled with its sender's statistics; a send wait brings a read
  share back; a cell whose one round is spent is closed and its counter is the device's again.
-/
import proofs.«900544_g7700000000000545_dist_layernorm_colshard_i_m512_n256_v7x_i8_f32_1_alg».proof.Proof.Bits.ProtoSched
import proofs.«900544_g7700000000000545_dist_layernorm_colshard_i_m512_n256_v7x_i8_f32_1_alg».proof.Proof.Bits.Geom

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## Opening the iterated conjunctions -/

omit [FloatOps F] [∀ e, Nonempty (Elt F e)] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] [∀ e, Nonempty (Elt F e)] in
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem inv_at (K : Dev nD × Fin 16 → ℕ) (ck : Dev nD × Fin 16) :
    (bigSep Finset.univ fun ck : Dev nD × Fin 16 => (cellInv ER (Rd m) (K ck) (kcell ck) : sProp 𝕄)) ⊢ cellInv ER (Rd m) (K ck) (kcell ck) :=
  bigSep_elim (Finset.mem_univ ck)
omit [FloatOps F] [∀ e, Nonempty (Elt F e)] in
theorem reached_at (ck : Dev nD × Fin 16) :
    (bigSep Finset.univ fun ck : Dev nD × Fin 16 => (reached ER (kcell ck) 0 : sProp 𝕄)) ⊢ reached ER (kcell ck) 0 :=
  bigSep_elim (Finset.mem_univ ck)

/-! ## The steps -/

/-- The entry signal to the peer `t` at distance `j + 1`: it pays duty `j` of `t`'s barrier cell and hands over slot `t`. -/
theorem signal_step (K : Dev nD × Fin 16 → ℕ) (c : Dev nD) (j : Fin 7) (t : Dev nD) (ht : t = nb c (j.val + 1))
    (O₁ O : CellTallies nD τ sig Unit) (hO : O₁ = O + tallyAt (barCell t) () 1) (W : Waits sig Unit)
    {α : Type} {k : PUnit → Prog (TpuEff nD τ sig (Elt F) Λ₀ .tc) α} {Q : α → sProp 𝕄} :
    iprop(records m K ∗ owes (c : Thread nD τ) O₁ W ∗ dutyTok ER (barCell t) 0 j ∗ (∃ f, slotPts (F := F) c t fullShare f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (t : Thread nD τ) barS 1) k) Q) := by
  subst ht
  unfold records
  iintro ⟨⟨#HI, #HR⟩, HO, Htok, Hpay⟩
  iapply (Rounds.wp_signal 𝒱₀ ER (Rd m) (c : Thread nD τ) none (dst := (nb c (j.val + 1) : Thread nD τ)) (κ := K (nb c (j.val + 1), 0))
      (d := j) (by rw [duties_bar]; exact Finset.mem_univ _) (amount_bar m (nb c (j.val + 1)) j) () O hO)
  isplitr; · iapply (inv_at m K (nb c (j.val + 1), 0)); iexact HI
  isplitl [HO]; · iexact HO
  isplitl [Htok]; · iexact Htok
  isplitl [Hpay]
  · rw [payload_bar]; unfold barPay; rw [nb_nb c j]; iexact Hpay
  · iapply (reached_at (F := F) (nb c (j.val + 1), 0)); iexact HR

/-- The wait for the seven peers' signals, owing the seven copies: the seven destination slots come with it. -/
theorem bar_wait_step (K : Dev nD × Fin 16 → ℕ) (c : Dev nD) (W : Waits sig Unit)
    {α : Type} {k : PUnit → Prog (TpuEff nD τ sig (Elt F) Λ₀ .tc) α} {Q : α → sProp 𝕄} :
    iprop(records m K ∗ levAts L lv ∗ cred (tallyAt (barCell c) () 7) ∗ owes (c : Thread nD τ) (O₇ c) W ∗ atPos ER (barCell c) 0 ∅ 0)
      ⊢ iprop(((owes (c : Thread nD τ) (O₇ c) (insert (SemLoc.reg barS, ()) W) ∗ atPos ER (barCell c) 1 ∅ 0
              ∗ bigSep Finset.univ (fun j : Fin 7 => barPay (F := F) c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold records
  iintro ⟨⟨#HI, #HR⟩, #Hlev, Hc, HO, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := O₇ c) (W := W) (R := 0) (m := 0) (T := ∅)
      (by rw [expect_bar])) $$ [Hc HO Hat]
  · isplitr; · iapply (inv_at m K (c, 0)); iexact HI
    isplitl [Hc]; · iexact Hc
    isplitl [HO]; · iexact HO
    isplitr; · iapply (mayWait_bar (F := F) c); iexact Hlev
    iexact Hat
  iintro ⟨HO, Hat, -, Hpay⟩
  iapply Hk
  isplitl [HO]; · iexact HO
  isplitl [Hat]; · iexact Hat
  iapply (Entails.of_eq (rest_bar m c)); iexact Hpay

/-- The copy of the own slot to the peer at distance `j + 1` (`n` as the program computes it): the read share `j` of the own slot
    is lent until the send wait, the peer's slot `c` is written and handed to the peer with its receive cell's credit. -/
theorem send_step (K : Dev nD × Fin 16 → ℕ) (c : Dev nD) (j : Fin 7) (n : Dev nD) (hn : n = nb c (j.val + 1))
    {sS sR : DmaSem sig} (hsS : sS = sendS j) (hsR : sR = recvS c)
    {hsc : (slotM c : Memref sig (Dev.tc n : Thread nD τ).2.kind .vmem S2x512 .f32).view.ref.isScScratch = false}
    {hsrc : (slotM c : Memref sig .tc .vmem S2x512 .f32).view.WordExact} {hdst : (slotM c : Memref sig .tc .vmem S2x512 .f32).view.WordExact}
    {hsem : DmaTarget.Typed .vmem (.dma sR) (.remote (Dev.tc n : Thread nD τ) (slotM c : Memref sig .tc .vmem S2x512 .f32) (.dma sS) hsc)}
    {α : Type} {Q : α → sProp 𝕄} {k : PUnit → Prog (TpuEff nD τ sig (Elt F) Λ₀ .tc) α}
    (fd : Buf (Elt F) ((slotM c : Memref sig .tc .vmem S2x512 .f32).view.loc (nb c (j.val + 1) : Thread nD τ)))
    (O₁ O : CellTallies nD τ sig Unit) (hO : O₁ = O + tallyAt (recvCell (nb c (j.val + 1)) c) () N) (W : Waits sig Unit) :
    iprop(records m K ∗ slotPts c c (sendShare j) (allStats m) ∗ slotPts (nb c (j.val + 1)) c fullShare fd
        ∗ owes (c : Thread nD τ) O₁ W ∗ dutyTok ER (sendCell c j) 0 (0 : Fin 7) ∗ dutyTok ER (recvCell (nb c (j.val + 1)) c) 0 (0 : Fin 7))
      ⊢ iprop(((cred (tallyAt (sendCell c j) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma sS) hsc) (.dma sR) hsrc hdst hsem) k) Q) := by
  subst hn hsS hsR
  unfold records slotPts
  iintro ⟨⟨#HI, #HR⟩, Hsrc, Hdst, HO, Ht1, Ht2⟩
  iapply (Rounds.wp_send_pointsTo 𝒱₀ ER (Rd m) (c : Thread nD τ) none (c' := (nb c (j.val + 1) : Thread nD τ))
    (src := slotM c) (dst := slotM c) (q := sendShare j) (fs := allStats m)
    (κ₁ := K (c, ⟨j.val + 1, by omega⟩)) (κ₂ := K (nb c (j.val + 1), ⟨c.val + 8, by have h := c.isLt; change c.val < 8 at h; omega⟩))
    (r₁ := 0) (r₂ := 0) (d₁ := (0 : Fin 7)) (d₂ := (0 : Fin 7)) (fd := fd)
    (by rw [duties_send]; exact Finset.mem_singleton_self _)
    (by rw [duties_recv m (nb c (j.val + 1)) c (nb_ne c j).symm]; exact Finset.mem_singleton_self _)
    () () N rfl (amount_send m c j 0) (amount_recv m (nb c (j.val + 1)) c 0) O hO (W := W)
    (by rw [payload_send]; unfold sendPay slotPts; exact BI.Entails.refl _)
    (by rw [payload_recv]; unfold recvPay slotPts
        exact Entails.of_eq (pointsTo_congr (landing_eq c fd (allStats m)))))
  isplitr; · (ihave H := (inv_at m K (c, ⟨j.val + 1, by omega⟩)) $$ HI); rw [kcell_send]; iexact H
  isplitr; · (ihave H := (inv_at m K (nb c (j.val + 1), ⟨c.val + 8, by have h := c.isLt; change c.val < 8 at h; omega⟩)) $$ HI); rw [kcell_recv]; iexact H
  isplitl [Hsrc]; · iexact Hsrc
  isplitl [Hdst]; · iexact Hdst
  isplitl [HO]; · iexact HO
  isplitl [Ht1]; · iexact Ht1
  isplitr; · (ihave H := (reached_at (F := F) (c, ⟨j.val + 1, by omega⟩)) $$ HR); rw [kcell_send]; iexact H
  isplitl [Ht2]; · iexact Ht2
  (ihave H := (reached_at (F := F) (nb c (j.val + 1), ⟨c.val + 8, by have h := c.isLt; change c.val < 8 at h; omega⟩)) $$ HR); rw [kcell_recv]; iexact H

/-- The wait for the copy from the peer `s`: slot `s` comes filled with `s`'s statistics. -/
theorem recv_step (K : Dev nD × Fin 16 → ℕ) (c s : Dev nD) (hs : s ≠ c) (W : Waits sig Unit)
    {sR : DmaSem sig} (hsR : sR = recvS s)
    {sp sp' : Space} {sh sh' : Shape} {e e' : EltTy} {κ' : Kind}
    {src : Memref sig (c : Thread nD τ).2.kind sp' sh' e'} {dst : Memref sig κ' sp sh e} {hsrc : src.view.WordExact} {hdst : dst.view.WordExact}
    (hN : dst.view.dmaCredit = N)
    {α : Type} {k : PUnit → Prog (TpuEff nD τ sig (Elt F) Λ₀ .tc) α} {Q : α → sProp 𝕄} :
    iprop(records m K ∗ cred (tallyAt (recvCell c s) () N) ∗ owes (c : Thread nD τ) 0 W ∗ atPos ER (recvCell c s) 0 ∅ 0)
      ⊢ iprop(((owes (c : Thread nD τ) 0 (insert (SemLoc.dma (recvS s), ()) W) ∗ atPos ER (recvCell c s) 1 ∅ 0
              ∗ slotPts c s fullShare (allStats m))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hsR
  unfold records
  iintro ⟨⟨#HI, #HR⟩, Hc, HO, Hat⟩ Hk
  iapply (Rounds.wp_wait_rest_token 𝒱₀ ER (Rd m) (c : Thread nD τ) none
      (κ := K (c, ⟨s.val + 8, by have h := s.isLt; change s.val < 8 at h; omega⟩))
      (wpE_waitDma2_eq 𝒱₀ (c : Thread nD τ) none Set.univ) (Set.mem_univ _) () (O := 0) (W := W) (R := 0) (m := 0) (T := ∅)
      (by rw [Nat.zero_add, hN, expect_recv m c s hs])) $$ [Hc HO Hat]
  · isplitr
    · (ihave H := (inv_at m K (c, ⟨s.val + 8, by have h := s.isLt; change s.val < 8 at h; omega⟩)) $$ HI); rw [kcell_recv]; iexact H
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_recv m c s hs)) $$ Hpay
  unfold recvPay
  iexact Hp

/-- The wait for the completion of the copy number `j`: the read share lent to it comes back. -/
theorem wsend_step (K : Dev nD × Fin 16 → ℕ) (c : Dev nD) (j : Fin 7) (W : Waits sig Unit)
    {sS : DmaSem sig} (hsS : sS = sendS j)
    {sp sp' : Space} {sh sh' : Shape} {e e' : EltTy} {κ' : Kind}
    {src : Memref sig (c : Thread nD τ).2.kind sp' sh' e'} {dst : Memref sig κ' sp sh e} {hsrc : src.view.WordExact} {hdst : dst.view.WordExact}
    (hN : dst.view.dmaCredit = N)
    {α : Type} {k : PUnit → Prog (TpuEff nD τ sig (Elt F) Λ₀ .tc) α} {Q : α → sProp 𝕄} :
    iprop(records m K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0
              ∗ slotPts c c (sendShare j) (allStats m))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  unfold records
  iintro ⟨⟨#HI, #HR⟩, Hc, HO, Hat⟩ Hk
  iapply (Rounds.wp_wait_rest_token 𝒱₀ ER (Rd m) (c : Thread nD τ) none (κ := K (c, ⟨j.val + 1, by omega⟩))
      (wpE_waitDma2_eq 𝒱₀ (c : Thread nD τ) none Set.univ) (Set.mem_univ _) () (O := 0) (W := W) (R := 0) (m := 0) (T := ∅)
      (by rw [Nat.zero_add, hN, expect_send m c j])) $$ [Hc HO Hat]
  · isplitr
    · (ihave H := (inv_at m K (c, ⟨j.val + 1, by omega⟩)) $$ HI); rw [kcell_send]; iexact H
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_send m c j)) $$ Hpay
  unfold sendPay
  iexact Hp

/-- A send cell, and a receive cell a peer filled, after their one round: closed, the counter at zero the device's again. -/
theorem close_send (K : Dev nD × Fin 16 → ℕ) (c : Dev nD) (j : Fin 7) :
    iprop(records m K ∗ atPos ER (sendCell c j) 1 ∅ 0) ⊢ (|={Set.univ}=> semVal (sendCell c j) 0 : sProp 𝕄) := by
  unfold records
  iintro ⟨⟨#HI, -⟩, Hat⟩
  iapply (Rounds.cell_close ER (Rd m) (Set.mem_univ (K (c, ⟨j.val + 1, by omega⟩))) (fun h => h) (R := 0 + 1) (duties_later m (sendCell c j)))
  isplitr
  · (ihave H := (inv_at m K (c, ⟨j.val + 1, by omega⟩)) $$ HI); rw [kcell_send]; iexact H
  iexact Hat
theorem close_recv (K : Dev nD × Fin 16 → ℕ) (c s : Dev nD) :
    iprop(records m K ∗ atPos ER (recvCell c s) 1 ∅ 0) ⊢ (|={Set.univ}=> semVal (recvCell c s) 0 : sProp 𝕄) := by
  unfold records
  iintro ⟨⟨#HI, -⟩, Hat⟩
  iapply (Rounds.cell_close ER (Rd m) (Set.mem_univ (K (c, ⟨s.val + 8, by have h := s.isLt; change s.val < 8 at h; omega⟩))) (fun h => h) (R := 0 + 1) (duties_later m (recvCell c s)))
  isplitr
  · (ihave H := (inv_at m K (c, ⟨s.val + 8, by have h := s.isLt; change s.val < 8 at h; omega⟩)) $$ HI); rw [kcell_recv]; iexact H
  iexact Hat
/-- The receive cell numbered by the device itself has no duty at all: it closes where it stands. -/
theorem close_recv_self (K : Dev nD × Fin 16 → ℕ) (c : Dev nD) :
    iprop(records m K ∗ atPos ER (recvCell c c) 0 ∅ 0) ⊢ (|={Set.univ}=> semVal (recvCell c c) 0 : sProp 𝕄) := by
  unfold records
  iintro ⟨⟨#HI, -⟩, Hat⟩
  iapply (Rounds.cell_close ER (Rd m) (Set.mem_univ (K (c, ⟨c.val + 8, by have h := c.isLt; change c.val < 8 at h; omega⟩))) (fun h => h) (R := 0) (fun r _ => duties_recv_self m c r))
  isplitr
  · (ihave H := (inv_at m K (c, ⟨c.val + 8, by have h := c.isLt; change c.val < 8 at h; omega⟩)) $$ HI); rw [kcell_recv]; iexact H
  iexact Hat

end Cert.Kernel.Proto

end
-- ==== Proof.Bits.BodyAux.lean ====
/-
  Small facts the two ends of the body lemma need.

  What the pipeline leaves in the input windows' staging buffers; what a whole-block store leaves; and the bookkeeping of a
  device's sixteen semaphore cells: the barrier cell, the seven send cells, and the eight receive cells, which are the one
  numbered by the device itself (never used) and those of its seven peers, each peer being at exactly one ring distance 1 … 7.
  With that, the positions the launch hands a device are named cell by cell, and at the end the fifteen own cells are closed
  together: each send cell and each peer's receive cell after its one round, the device's own receive cell where it stands.
-/
import proofs.«900544_g7700000000000545_dist_layernorm_colshard_i_m512_n256_v7x_i8_f32_1_alg».proof.Proof.Bits.Steps
import proofs.«900544_g7700000000000545_dist_layernorm_colshard_i_m512_n256_v7x_i8_f32_1_alg».proof.Proof.Gen.Kernel.Points

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## The staged inputs and the stored result -/

/-- What the pipeline leaves in the three input windows' staging buffers before the one point: the device's blocks (every
    input window is fetched at every point, and a fetch fills the buffer with the array's block). -/
theorem before_x (c : Dev nD) (d) : (dats m 0 c).before (0 : Fin 4) t₀ d = xstg m c := by
  unfold Dat.before; rw [if_pos (fetch0_0 t₀)]; rfl
theorem before_g (c : Dev nD) (d) : (dats m 0 c).before (1 : Fin 4) t₀ d = gstg m c := by
  unfold Dat.before; rw [if_pos (fetch0_1 t₀)]; rfl
theorem before_b (c : Dev nD) (d) : (dats m 0 c).before (2 : Fin 4) t₀ d = bstg m c := by
  unfold Dat.before; rw [if_pos (fetch0_2 t₀)]; rfl

theorem off00 : (![0, 0] : Fin 2 → Nat) = fun _ => 0 := funext fun a => by fin_cases a <;> rfl

/-- A store of a whole block through the whole-block rectangle leaves exactly the stored value. -/
theorem write_out (f w : (cc0_stg3_0 : Ref sig .tc).ty.Contents (Elt F)) :
    ((oM : Memref sig .tc .vmem S512x256 .f32).access rX : View sig .tc _ _ _).write (Elt F) f w Finset.univ = w :=
  Memref.write_access_unit_zero_univ (Elt F) cc0_stg3_0 off00 _ f w

/-! ## Sixteen cells: one, seven and eight; eight devices: one and seven -/

/-- Every device other than `c` is at exactly one ring distance 1 … 7 from it. -/
theorem peers_iff : ∀ c s : Dev nD, s ≠ c ↔ ∃ j : Fin 7, nb c (j.val + 1) = s := by decide

/-- The peer at distance `j + 1`, as an embedding of the distances into the devices. -/
def peerEmb (c : Dev nD) : Fin 7 ↪ Dev nD := ⟨fun j => nb c (j.val + 1), fun i j h => nb_inj c i j h⟩

/-- The devices other than `c` are its seven peers. -/
theorem erase_eq_peers (c : Dev nD) : (Finset.univ : Finset (Dev nD)).erase c = Finset.univ.map (peerEmb c) := by
  ext s
  rw [Finset.mem_erase, Finset.mem_map]
  constructor
  · rintro ⟨hs, -⟩
    obtain ⟨j, hj⟩ := (peers_iff c s).mp hs
    exact ⟨j, Finset.mem_univ _, hj⟩
  · rintro ⟨j, -, rfl⟩
    exact ⟨nb_ne c j, Finset.mem_univ _⟩

omit [FloatOps F] [∀ e, Nonempty (Elt F e)] in
/-- A conjunction over the eight devices is device `c`'s conjunct and its seven peers'. -/
theorem bigSep_dev (c : Dev nD) (Ψ : Dev nD → sProp 𝕄) :
    bigSep Finset.univ Ψ = iprop(Ψ c ∗ bigSep Finset.univ fun j : Fin 7 => Ψ (nb c (j.val + 1))) := by
  rw [bigSep_univ_at Ψ c, erase_eq_peers, bigSep_map]
  rfl

/-- The fifteen own semaphores, numbered as the seven send ones followed by the eight receive ones. -/
abbrev e15 : Fin 7 ⊕ Fin 8 ≃ Fin 15 := finSumFinEquiv
/-- The sixteen cells, numbered as the barrier cell followed by the fifteen own ones. -/
abbrev e16 : Fin 1 ⊕ Fin 15 ≃ Fin 16 := finSumFinEquiv

theorem osem_inl (j : Fin 7) : osem (e15 (.inl j)) = .dma (sendS j) :=
  (congrArg osem (Fin.ext rfl)).trans (osem_send j)
theorem osem_inr (s : Dev nD) : osem (e15 (.inr s)) = .dma (recvS s) :=
  (congrArg osem (Fin.ext (Nat.add_comm 7 s.val))).trans (osem_recv s)

/-- Cell `i + 1` of a device is its own semaphore `i`. -/
theorem csem_inr (i : Fin 15) : csem (e16 (.inr i)) = osem i := by
  unfold csem
  rw [dif_neg (show ¬ (e16 (.inr i)).val = 0 from fun h => by
    have h' : 1 + i.val = 0 := h
    omega)]
  exact congrArg osem (Fin.ext (show 1 + i.val - 1 = i.val from by omega))

omit [FloatOps F] [∀ e, Nonempty (Elt F e)] in
/-- A conjunction over the fifteen own semaphores: over the seven send ones and over the eight receive ones. -/
theorem own15 (Ψ : SemLoc sig → sProp 𝕄) :
    (bigSep Finset.univ fun i : Fin 15 => Ψ (osem i))
      = iprop((bigSep Finset.univ fun j : Fin 7 => Ψ (.dma (sendS j))) ∗ bigSep Finset.univ fun s : Dev nD => Ψ (.dma (recvS s))) := by
  rw [bigSep_univ_equiv e15 (fun i : Fin 15 => Ψ (osem i)), bigSep_univ_sum]
  exact congrArg₂ BI.sep (bigSep_congr fun j _ => congrArg Ψ (osem_inl j)) (bigSep_congr fun s _ => congrArg Ψ (osem_inr s))

omit [FloatOps F] [∀ e, Nonempty (Elt F e)] in
/-- A conjunction over a device's sixteen cells: the barrier cell, the seven send cells, the eight receive cells. -/
theorem all16 (c : Dev nD) (Ψ : GSem nD τ sig → sProp 𝕄) :
    (bigSep Finset.univ fun k : Fin 16 => Ψ (kcell (c, k)))
      = iprop(Ψ (barCell c) ∗ (bigSep Finset.univ fun j : Fin 7 => Ψ (sendCell c j)) ∗ bigSep Finset.univ fun s : Dev nD => Ψ (recvCell c s)) := by
  rw [bigSep_univ_equiv e16 (fun k : Fin 16 => Ψ (kcell (c, k))), bigSep_univ_sum, bigSep_univ_of_subsingleton (0 : Fin 1)]
  refine congrArg₂ BI.sep rfl ?_
  refine Eq.trans (bigSep_congr fun i _ => ?_) (own15 fun sm => Ψ ((c : Thread nD τ), sm))
  exact congrArg (fun sm => Ψ ((c : Thread nD τ), sm)) (csem_inr i)

/-! ## The positions at the start, the closing at the end -/

/-- The device's positions on its sixteen cells, named: the barrier cell, the seven send cells, the eight receive cells as
    its own and its peers'. -/
theorem atPos_cells (c : Dev nD) :
    (bigSep Finset.univ fun k : Fin 16 => (atPos ER (kcell (c, k)) 0 ∅ 0 : sProp 𝕄))
      ⊢ iprop(atPos ER (barCell c) 0 ∅ 0 ∗ (bigSep Finset.univ fun j : Fin 7 => atPos ER (sendCell c j) 0 ∅ 0)
          ∗ (bigSep Finset.univ fun j : Fin 7 => atPos ER (recvCell c (nb c (j.val + 1))) 0 ∅ 0) ∗ atPos ER (recvCell c c) 0 ∅ 0) := by
  rw [all16 c (fun g => (atPos ER g 0 ∅ 0 : sProp 𝕄)), bigSep_dev c (fun s => (atPos ER (recvCell c s) 0 ∅ 0 : sProp 𝕄))]
  iintro ⟨Hb, HS, Hself, HR⟩
  isplitl [Hb]; · iexact Hb
  isplitl [HS]; · iexact HS
  isplitl [HR]; · iexact HR
  iexact Hself

/-- The fifteen own cells closed at once: seven send cells and the seven receive cells the peers filled after their round,
    the receive cell numbered `c` where it stands. The record of the cells' invariants is persistent, so it serves every
    cell; the fifteen updates are at the same mask and combine into one. -/
theorem close_all (K : Dev nD × Fin 16 → ℕ) (c : Dev nD) :
    iprop(records m K ∗ (bigSep Finset.univ fun j : Fin 7 => atPos ER (sendCell c j) 1 ∅ 0)
        ∗ (bigSep Finset.univ fun j : Fin 7 => atPos ER (recvCell c (nb c (j.val + 1))) 1 ∅ 0) ∗ atPos ER (recvCell c c) 0 ∅ 0)
      ⊢ (|={Set.univ}=> bigSep Finset.univ fun i : Fin 15 => semVal ((c : Thread nD τ), osem i) 0 : sProp 𝕄) := by
  rw [own15 (fun sm => (semVal ((c : Thread nD τ), sm) 0 : sProp 𝕄)), bigSep_dev c (fun s => (semVal (recvCell c s) 0 : sProp 𝕄))]
  have hS : iprop(records m K ∗ bigSep Finset.univ fun j : Fin 7 => atPos ER (sendCell c j) 1 ∅ 0)
      ⊢ (|={Set.univ}=> bigSep Finset.univ fun j : Fin 7 => semVal (sendCell c j) 0 : sProp 𝕄) :=
    (bigSep_with_persistent fun j _ => close_send m K c j).trans (bigSep_fupd _ _)
  have hR : iprop(records m K ∗ bigSep Finset.univ fun j : Fin 7 => atPos ER (recvCell c (nb c (j.val + 1))) 1 ∅ 0)
      ⊢ (|={Set.univ}=> bigSep Finset.univ fun j : Fin 7 => semVal (recvCell c (nb c (j.val + 1))) 0 : sProp 𝕄) :=
    (bigSep_with_persistent fun j _ => close_recv m K c (nb c (j.val + 1))).trans (bigSep_fupd _ _)
  iintro ⟨#Hrec, HS, HR, Hself⟩
  iapply fupd_sep
  isplitl [HS]
  · iapply hS; isplitr; · iexact Hrec
    iexact HS
  iapply fupd_sep
  isplitl [Hself]
  · iapply (close_recv_self m K c); isplitr; · iexact Hrec
    iexact Hself
  · iapply hR; isplitr; · iexact Hrec
    iexact HR

/-- info: 'Cert.Kernel.Proto.before_x' depends on axioms: [propext, Classical.choice, Quot.sound] -/
#guard_msgs in #print axioms before_x

/-- info: 'Cert.Kernel.Proto.write_out' depends on axioms: [propext, Classical.choice, Quot.sound] -/
#guard_msgs in #print axioms write_out

/-- info: 'Cert.Kernel.Proto.atPos_cells' depends on axioms: [propext, Classical.choice, Quot.sound] -/
#guard_msgs in #print axioms atPos_cells

/-- info: 'Cert.Kernel.Proto.close_all' depends on axioms: [propext, Classical.choice, Quot.sound] -/
#guard_msgs in #print axioms close_all

end Cert.Kernel.Proto

end
-- ==== Proof.Bits.BodyFront.lean ====
/-
  The front of one device's run of the kernel body: from the launch state to the barrier wait.

  The device tells each of its seven peers, on the peer's barrier cell, that it has entered; each signal also hands the peer
  the slot of this device's scratch array that the peer will fill. It then reads its block of x and stores the two rows of
  statistics of that block — the row sums and the row sums of squares — into its own slot: the two rows cover the slot, so
  afterwards the slot holds the device's statistics whatever the array held before. Last it waits for the seven peers'
  signals, which bring, from each peer, slot `c` of that peer's array: the destinations of the seven copies to come.
  The barrier cell's seven duties are numbered by the payer's distance counted backwards, so they arrive in the order of
  distances 7, 6, …, 1; listed by distance 1, …, 7 they are the same seven slots in the opposite order.
-/
import proofs.«900544_g7700000000000545_dist_layernorm_colshard_i_m512_n256_v7x_i8_f32_1_alg».proof.Proof.Bits.Steps
import proofs.«900544_g7700000000000545_dist_layernorm_colshard_i_m512_n256_v7x_i8_f32_1_alg».proof.Proof.Bits.BodyAux

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## Opening and closing a conjunction over the seven ring distances -/

omit [FloatOps F] [∀ e, Nonempty (Elt F e)] in
theorem bigSep7_elim (Φ : Fin 7 → sProp 𝕄) : bigSep Finset.univ Φ ⊢ iprop(Φ 0 ∗ Φ 1 ∗ Φ 2 ∗ Φ 3 ∗ Φ 4 ∗ Φ 5 ∗ Φ 6) := Entails.of_eq (bigSep_fin7 Φ)
omit [FloatOps F] [∀ e, Nonempty (Elt F e)] in
theorem bigSep7_intro (Φ : Fin 7 → sProp 𝕄) : iprop(Φ 0 ∗ Φ 1 ∗ Φ 2 ∗ Φ 3 ∗ Φ 4 ∗ Φ 5 ∗ Φ 6) ⊢ bigSep Finset.univ Φ := Entails.of_eq (bigSep_fin7 Φ).symm

/-- What the barrier wait brings, listed by the payer's ring distance: duty `j` of the barrier cell is paid by the peer at
    distance `7 - j`, so the seven duties in order are the peers at distances 7, 6, …, 1; the same seven slots in the
    opposite order. -/
theorem peers_rev (c : Dev nD) : bigSep Finset.univ (fun j : Fin 7 => barPay (F := F) c j)
    ⊢ bigSep Finset.univ fun j : Fin 7 => iprop(∃ f, slotPts (F := F) (nb c (j.val + 1)) c fullShare f) := by
  rw [bigSep_fin7, bigSep_fin7]
  unfold barPay
  show iprop((∃ f, slotPts (F := F) (nb c ((6 : Fin 7).val + 1)) c fullShare f) ∗ (∃ f, slotPts (F := F) (nb c ((5 : Fin 7).val + 1)) c fullShare f) ∗ (∃ f, slotPts (F := F) (nb c ((4 : Fin 7).val + 1)) c fullShare f) ∗ (∃ f, slotPts (F := F) (nb c ((3 : Fin 7).val + 1)) c fullShare f) ∗ (∃ f, slotPts (F := F) (nb c ((2 : Fin 7).val + 1)) c fullShare f) ∗ (∃ f, slotPts (F := F) (nb c ((1 : Fin 7).val + 1)) c fullShare f) ∗ (∃ f, slotPts (F := F) (nb c ((0 : Fin 7).val + 1)) c fullShare f))
    ⊢ iprop((∃ f, slotPts (F := F) (nb c ((0 : Fin 7).val + 1)) c fullShare f) ∗ (∃ f, slotPts (F := F) (nb c ((1 : Fin 7).val + 1)) c fullShare f) ∗ (∃ f, slotPts (F := F) (nb c ((2 : Fin 7).val + 1)) c fullShare f) ∗ (∃ f, slotPts (F := F) (nb c ((3 : Fin 7).val + 1)) c fullShare f) ∗ (∃ f, slotPts (F := F) (nb c ((4 : Fin 7).val + 1)) c fullShare f) ∗ (∃ f, slotPts (F := F) (nb c ((5 : Fin 7).val + 1)) c fullShare f) ∗ (∃ f, slotPts (F := F) (nb c ((6 : Fin 7).val + 1)) c fullShare f))
  iintro ⟨H6, H5, H4, H3, H2, H1, H0⟩
  isplitl [H0]; · iexact H0
  isplitl [H1]; · iexact H1
  isplitl [H2]; · iexact H2
  isplitl [H3]; · iexact H3
  isplitl [H4]; · iexact H4
  isplitl [H5]; · iexact H5
  iexact H6

/-- After the two row stores the device's own slot holds its statistics, whatever the array held before. -/
theorem own_after_stores (c : Dev nD) (f0 : (cc0_scratch0 : Ref sig .tc).ty.Contents (Elt F)) :
    ((((scrM : Memref sig .tc .vmem S8x2x512 .f32).access (r2 c) : View sig .tc _ _ _).loc (c : Thread nD τ) ↦[(slotM c).view.set]{fullShare}
        ((scrM.access (r2 c) : View sig .tc _ _ _).write (Elt F) ((scrM.access (r1 c) : View sig .tc _ _ _).write (Elt F) f0
            (k0_pay2 ((xM : Memref sig .tc .vmem S512x256 .f32).view.readAt (Elt F) rX.toLoadRect (xstg m c))) Finset.univ)
          (k0_pay3 ((xM : Memref sig .tc .vmem S512x256 .f32).view.readAt (Elt F) rX.toLoadRect (xstg m c))) Finset.univ)) : sProp 𝕄)
      ⊢ slotPts c c fullShare (allStats m) := by
  unfold slotPts; exact Entails.of_eq (pointsTo_congr (ownStats_eq m c f0))

/-- The seven entry signals; the load of the device's block of x; for each of the two rows of statistics a load of the
    slot's row and the store of the row; the barrier wait; then any continuation of the loaded block. -/
theorem front_steps (K : Dev nD × Fin 16 → ℕ) (c : Dev nD) (W : Waits sig Unit) (f0 : Buf (Elt F) ((c : Thread nD τ).loc cc0_scratch0))
    {hlx : (xM : Memref sig .tc .vmem S512x256 .f32).view.LoadsAt rX.toLoadRect}
    {hl1 : (scrM : Memref sig .tc .vmem S8x2x512 .f32).view.LoadsAt (r1 c).toLoadRect} {hl2 : scrM.view.LoadsAt (r2 c).toLoadRect}
    {hx1 : (scrM.access (r1 c)).Stores Finset.univ} {hm1 : (Finset.univ : Finset (r1 c).shape.Idx) = Finset.univ ∨ ∀ a, (r1 c).stride a = 1}
    {hx2 : (scrM.access (r2 c)).Stores Finset.univ} {hm2 : (Finset.univ : Finset (r2 c).shape.Idx) = Finset.univ ∨ ∀ a, (r2 c).stride a = 1}
    {α : Type} {k : Vec F S512x256 .f32 → Prog (TpuEff nD τ sig (Elt F) Λ₀ .tc) α} {Q : α → sProp 𝕄} :
    iprop(records m K ∗ levAts L lv
      ∗ owes (c : Thread nD τ) (O₀ c) W
      ∗ (bigSep Finset.univ fun j : Fin 7 => dutyTok ER (barCell (nb c (j.val + 1))) 0 j)
      ∗ cred (tallyAt (barCell c) () 7) ∗ atPos ER (barCell c) 0 ∅ 0
      ∗ (((c : Thread nD τ).loc cc0_scratch0) ↦{fullShare} f0)
      ∗ stg c cc0_stg0_0 (xstg m c)
      ∗ ((owes (c : Thread nD τ) (O₇ c) (insert (SemLoc.reg barS, ()) W) ∗ atPos ER (barCell c) 1 ∅ 0
            ∗ slotPts c c fullShare (allStats m)
            ∗ (bigSep Finset.univ fun j : Fin 7 => iprop(∃ f, slotPts (F := F) (nb c (j.val + 1)) c fullShare f))
            ∗ stg c cc0_stg0_0 (xstg m c))
          -∗ wp frame (wpE (defs₀ (F := F)) 𝒱₀ (c : Thread nD τ) none) Set.univ (k (xv m c)) Q))
    ⊢ wp frame (wpE (defs₀ (F := F)) 𝒱₀ (c : Thread nD τ) none) Set.univ
        (.op (.semSignal (nb c 1 : Thread nD τ) barS 1) fun _ => .op (.semSignal (nb c 2 : Thread nD τ) barS 1) fun _ =>
         .op (.semSignal (nb c 3 : Thread nD τ) barS 1) fun _ => .op (.semSignal (nb c 4 : Thread nD τ) barS 1) fun _ =>
         .op (.semSignal (nb c 5 : Thread nD τ) barS 1) fun _ => .op (.semSignal (nb c 6 : Thread nD τ) barS 1) fun _ =>
         .op (.semSignal (nb c 7 : Thread nD τ) barS 1) fun _ =>
         .op (.load xM rX.toLoadRect hlx) fun x =>
         .op (.load scrM (r1 c).toLoadRect hl1) fun _ => .op (.store scrM (r1 c) (k0_pay2 x) Finset.univ hx1 hm1) fun _ =>
         .op (.load scrM (r2 c).toLoadRect hl2) fun _ => .op (.store scrM (r2 c) (k0_pay3 x) Finset.univ hx2 hm2) fun _ =>
         .op (.semWait barS 7) fun _ => k x) Q := by
  unfold xv
  iintro ⟨#Hrec, #Hlev, HO, HtB, HcB, HatB, Hscr, Hx, Hk⟩
  ihave HtB' := (bigSep7_elim _) $$ HtB
  icases HtB' with ⟨HtB0, HtB1, HtB2, HtB3, HtB4, HtB5, HtB6⟩
  -- the scratch array whole as the own slot and the seven peers' slots
  ihave Hs := (scr_split c f0) $$ Hscr
  icases Hs with ⟨Hown, Hs⟩
  ihave Hs' := (bigSep7_elim _) $$ Hs
  icases Hs' with ⟨Hs0, Hs1, Hs2, Hs3, Hs4, Hs5, Hs6⟩
  icases Hx with ⟨%g0, %hg0, Hx⟩; subst hg0
  -- the seven entry signals, each handing the peer the slot it will fill
  iapply (signal_step m K c 0 (nb c 1) rfl (O₀ c) _ rfl W) $$ [HO HtB0 Hs0]
  · isplitr; · iexact Hrec
    isplitl [HO]; · iexact HO
    isplitl [HtB0]; · iexact HtB0
    iexists f0; iexact Hs0
  iintro HO
  iapply (signal_step m K c 1 (nb c 2) rfl _ _ rfl W) $$ [HO HtB1 Hs1]
  · isplitr; · iexact Hrec
    isplitl [HO]; · iexact HO
    isplitl [HtB1]; · iexact HtB1
    iexists f0; iexact Hs1
  iintro HO
  iapply (signal_step m K c 2 (nb c 3) rfl _ _ rfl W) $$ [HO HtB2 Hs2]
  · isplitr; · iexact Hrec
    isplitl [HO]; · iexact HO
    isplitl [HtB2]; · iexact HtB2
    iexists f0; iexact Hs2
  iintro HO
  iapply (signal_step m K c 3 (nb c 4) rfl _ _ rfl W) $$ [HO HtB3 Hs3]
  · isplitr; · iexact Hrec
    isplitl [HO]; · iexact HO
    isplitl [HtB3]; · iexact HtB3
    iexists f0; iexact Hs3
  iintro HO
  iapply (signal_step m K c 4 (nb c 5) rfl _ _ rfl W) $$ [HO HtB4 Hs4]
  · isplitr; · iexact Hrec
    isplitl [HO]; · iexact HO
    isplitl [HtB4]; · iexact HtB4
    iexists f0; iexact Hs4
  iintro HO
  iapply (signal_step m K c 5 (nb c 6) rfl _ _ rfl W) $$ [HO HtB5 Hs5]
  · isplitr; · iexact Hrec
    isplitl [HO]; · iexact HO
    isplitl [HtB5]; · iexact HtB5
    iexists f0; iexact Hs5
  iintro HO
  iapply (signal_step m K c 6 (nb c 7) rfl _ _ rfl W) $$ [HO HtB6 Hs6]
  · isplitr; · iexact Hrec
    isplitl [HO]; · iexact HO
    isplitl [HtB6]; · iexact HtB6
    iexists f0; iexact Hs6
  iintro HO
  -- the device's block of x; its two rows of statistics stored in its own slot
  iapply (wp_load 𝒱₀ (c : Thread nD τ) none Set.univ (m := xM) (Finset.subset_univ _)) $$ Hx; iintro Hx
  unfold slotPts
  iapply (wp_load 𝒱₀ (c : Thread nD τ) none Set.univ (m := scrM) (load_r1_sub c)) $$ Hown; iintro Hown
  iapply (wp_store 𝒱₀ (c : Thread nD τ) none Set.univ (m := scrM) (r := r1 c) (Mk := Finset.univ) (store_r1_sub c)) $$ Hown; iintro Hown
  iapply (wp_load 𝒱₀ (c : Thread nD τ) none Set.univ (m := scrM) (load_r2_sub c)) $$ Hown; iintro Hown
  iapply (wp_store 𝒱₀ (c : Thread nD τ) none Set.univ (m := scrM) (r := r2 c) (Mk := Finset.univ) (store_r2_sub c)) $$ Hown; iintro Hown
  ihave Hown := (own_after_stores m c f0) $$ Hown
  -- the wait for the seven peers: their slots for this device's statistics come with it
  iapply (bar_wait_step m K c W) $$ [HcB HO HatB]
  · isplitr; · iexact Hrec
    isplitr; · iexact Hlev
    isplitl [HcB]; · iexact HcB
    isplitl [HO]; · iexact HO
    iexact HatB
  iintro ⟨HO, HatB, Hd⟩
  ihave Hd := (peers_rev c) $$ Hd
  iapply Hk
  isplitl [HO]; · iexact HO
  isplitl [HatB]; · iexact HatB
  isplitl [Hown]; · unfold slotPts; iexact Hown
  isplitl [Hd]; · unfold slotPts; iexact Hd
  iexists _; isplitr; · (ipureintro; rfl)
  iexact Hx

/-- info: 'Cert.Kernel.Proto.front_steps' depends on axioms: [propext, Classical.choice, Quot.sound] -/
#guard_msgs in #print axioms front_steps

/-- info: 'Cert.Kernel.Proto.peers_rev' depends on axioms: [propext, Classical.choice, Quot.sound] -/
#guard_msgs in #print axioms peers_rev

/-- info: 'Cert.Kernel.Proto.own_after_stores' depends on axioms: [propext, Classical.choice, Quot.sound] -/
#guard_msgs in #print axioms own_after_stores

end Cert.Kernel.Proto

end
-- ==== Proof.Bits.BodySend.lean ====
/-
  The seven copies of a device's own slot of statistics to its seven peers.

  The device holds its own slot in full, filled with its statistics, and — handed over by the peers at the barrier —
  slot `c` of each peer's exchange array. It owes the seven copies. It splits the full share of its own slot into a share
  it keeps for its own later load and seven read shares, one lent to each copy until that copy's completion is waited
  for. The copy to the peer at ring distance `j + 1` pays the one duty of send cell `j` with read share `j`, and the one
  duty of that peer's receive cell for sender `c` with the peer's slot `c` now holding `c`'s statistics; it leaves the
  credit of send cell `j` for the later wait and takes that copy off what is owed. The copies go out to distances
  4, 3, 5, 2, 6, 1, 7 in that order, and what is owed is the sum written so that each copy removes the last summand;
  after the seventh nothing is owed.
-/
import proofs.«900544_g7700000000000545_dist_layernorm_colshard_i_m512_n256_v7x_i8_f32_1_alg».proof.Proof.Bits.Steps

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## The own slot split for the seven copies -/

/-- The full share of the own slot is the share kept for the own load and the seven read shares lent to the copies. -/
theorem ownSlot_split (c : Dev nD) :
    (slotPts c c fullShare (allStats m) : sProp 𝕄)
      ⊢ iprop(slotPts c c keptShare (allStats m)
        ∗ slotPts c c (sendShare 0) (allStats m) ∗ slotPts c c (sendShare 1) (allStats m) ∗ slotPts c c (sendShare 2) (allStats m)
        ∗ slotPts c c (sendShare 3) (allStats m) ∗ slotPts c c (sendShare 4) (allStats m) ∗ slotPts c c (sendShare 5) (allStats m)
        ∗ slotPts c c (sendShare 6) (allStats m)) := by
  unfold slotPts
  rw [← bigSep_fin7 (fun j : Fin 7 =>
    ((slotM c).view.loc (c : Thread nD τ) ↦[(slotM c).view.set]{sendShare j} allStats m : sProp 𝕄))]
  exact Transfers.pointsTo_toks_split fullShare 7

/-! ## The seven copies -/

theorem sends_steps (K : Dev nD × Fin 16 → ℕ) (c : Dev nD) (W : Waits sig Unit)
    {n4 n3 n5 n2 n6 n1 n7 : Dev nD} (e4 : n4 = nb c 4) (e3 : n3 = nb c 3) (e5 : n5 = nb c 5) (e2 : n2 = nb c 2) (e6 : n6 = nb c 6) (e1 : n1 = nb c 1) (e7 : n7 = nb c 7)
    {sS3 sS2 sS4 sS1 sS5 sS0 sS6 : DmaSem sig} (hS3 : sS3 = sendS 3) (hS2 : sS2 = sendS 2) (hS4 : sS4 = sendS 4) (hS1 : sS1 = sendS 1) (hS5 : sS5 = sendS 5) (hS0 : sS0 = sendS 0) (hS6 : sS6 = sendS 6)
    {sR3 sR2 sR4 sR1 sR5 sR0 sR6 : DmaSem sig} (hR3 : sR3 = recvS c) (hR2 : sR2 = recvS c) (hR4 : sR4 = recvS c) (hR1 : sR1 = recvS c) (hR5 : sR5 = recvS c) (hR0 : sR0 = recvS c) (hR6 : sR6 = recvS c)
    {hc3 : (slotM c : Memref sig (Dev.tc n4 : Thread nD τ).2.kind .vmem S2x512 .f32).view.ref.isScScratch = false}
    {hc2 : (slotM c : Memref sig (Dev.tc n3 : Thread nD τ).2.kind .vmem S2x512 .f32).view.ref.isScScratch = false}
    {hc4 : (slotM c : Memref sig (Dev.tc n5 : Thread nD τ).2.kind .vmem S2x512 .f32).view.ref.isScScratch = false}
    {hc1 : (slotM c : Memref sig (Dev.tc n2 : Thread nD τ).2.kind .vmem S2x512 .f32).view.ref.isScScratch = false}
    {hc5 : (slotM c : Memref sig (Dev.tc n6 : Thread nD τ).2.kind .vmem S2x512 .f32).view.ref.isScScratch = false}
    {hc0 : (slotM c : Memref sig (Dev.tc n1 : Thread nD τ).2.kind .vmem S2x512 .f32).view.ref.isScScratch = false}
    {hc6 : (slotM c : Memref sig (Dev.tc n7 : Thread nD τ).2.kind .vmem S2x512 .f32).view.ref.isScScratch = false}
    {hs3 hd3 hs2 hd2 hs4 hd4 hs1 hd1 hs5 hd5 hs0 hd0 hs6 hd6 : (slotM c : Memref sig .tc .vmem S2x512 .f32).view.WordExact}
    {ht3 : DmaTarget.Typed .vmem (.dma sR3) (.remote (Dev.tc n4 : Thread nD τ) (slotM c : Memref sig .tc .vmem S2x512 .f32) (.dma sS3) hc3)}
    {ht2 : DmaTarget.Typed .vmem (.dma sR2) (.remote (Dev.tc n3 : Thread nD τ) (slotM c : Memref sig .tc .vmem S2x512 .f32) (.dma sS2) hc2)}
    {ht4 : DmaTarget.Typed .vmem (.dma sR4) (.remote (Dev.tc n5 : Thread nD τ) (slotM c : Memref sig .tc .vmem S2x512 .f32) (.dma sS4) hc4)}
    {ht1 : DmaTarget.Typed .vmem (.dma sR1) (.remote (Dev.tc n2 : Thread nD τ) (slotM c : Memref sig .tc .vmem S2x512 .f32) (.dma sS1) hc1)}
    {ht5 : DmaTarget.Typed .vmem (.dma sR5) (.remote (Dev.tc n6 : Thread nD τ) (slotM c : Memref sig .tc .vmem S2x512 .f32) (.dma sS5) hc5)}
    {ht0 : DmaTarget.Typed .vmem (.dma sR0) (.remote (Dev.tc n1 : Thread nD τ) (slotM c : Memref sig .tc .vmem S2x512 .f32) (.dma sS0) hc0)}
    {ht6 : DmaTarget.Typed .vmem (.dma sR6) (.remote (Dev.tc n7 : Thread nD τ) (slotM c : Memref sig .tc .vmem S2x512 .f32) (.dma sS6) hc6)}
    {α : Type} {k : PUnit → Prog (TpuEff nD τ sig (Elt F) Λ₀ .tc) α} {Q : α → sProp 𝕄} :
    iprop(records m K
      ∗ owes (c : Thread nD τ) (O₇ c) W
      ∗ slotPts c c fullShare (allStats m)
      ∗ (bigSep Finset.univ fun j : Fin 7 => iprop(∃ f, slotPts (F := F) (nb c (j.val + 1)) c fullShare f))
      ∗ (bigSep Finset.univ fun j : Fin 7 => dutyTok ER (sendCell c j) 0 (0 : Fin 7))
      ∗ (bigSep Finset.univ fun j : Fin 7 => dutyTok ER (recvCell (nb c (j.val + 1)) c) 0 (0 : Fin 7))
      ∗ ((owes (c : Thread nD τ) 0 W ∗ (bigSep Finset.univ fun j : Fin 7 => cred (tallyAt (sendCell c j) () N)) ∗ slotPts c c keptShare (allStats m))
          -∗ wp frame (wpE (defs₀ (F := F)) 𝒱₀ (c : Thread nD τ) none) Set.univ (k ⟨⟩) Q))
    ⊢ wp frame (wpE (defs₀ (F := F)) 𝒱₀ (c : Thread nD τ) none) Set.univ
        (.op (.enqueueDma (slotM c) (.remote (Dev.tc n4 : Thread nD τ) (slotM c) (.dma sS3) hc3) (.dma sR3) hs3 hd3 ht3) fun _ =>
         .op (.enqueueDma (slotM c) (.remote (Dev.tc n3 : Thread nD τ) (slotM c) (.dma sS2) hc2) (.dma sR2) hs2 hd2 ht2) fun _ =>
         .op (.enqueueDma (slotM c) (.remote (Dev.tc n5 : Thread nD τ) (slotM c) (.dma sS4) hc4) (.dma sR4) hs4 hd4 ht4) fun _ =>
         .op (.enqueueDma (slotM c) (.remote (Dev.tc n2 : Thread nD τ) (slotM c) (.dma sS1) hc1) (.dma sR1) hs1 hd1 ht1) fun _ =>
         .op (.enqueueDma (slotM c) (.remote (Dev.tc n6 : Thread nD τ) (slotM c) (.dma sS5) hc5) (.dma sR5) hs5 hd5 ht5) fun _ =>
         .op (.enqueueDma (slotM c) (.remote (Dev.tc n1 : Thread nD τ) (slotM c) (.dma sS0) hc0) (.dma sR0) hs0 hd0 ht0) fun _ =>
         .op (.enqueueDma (slotM c) (.remote (Dev.tc n7 : Thread nD τ) (slotM c) (.dma sS6) hc6) (.dma sR6) hs6 hd6 ht6) k) Q := by
  rw [bigSep_fin7 (fun j : Fin 7 => (iprop(∃ f, slotPts (F := F) (nb c (j.val + 1)) c fullShare f) : sProp 𝕄)),
    bigSep_fin7 (fun j : Fin 7 => (dutyTok ER (sendCell c j) 0 (0 : Fin 7) : sProp 𝕄)),
    bigSep_fin7 (fun j : Fin 7 => (dutyTok ER (recvCell (nb c (j.val + 1)) c) 0 (0 : Fin 7) : sProp 𝕄)),
    bigSep_fin7 (fun j : Fin 7 => (cred (tallyAt (sendCell c j) () N) : sProp 𝕄))]
  iintro ⟨#Hrec, HO, Hown, ⟨⟨%fd0, Hd0⟩, ⟨%fd1, Hd1⟩, ⟨%fd2, Hd2⟩, ⟨%fd3, Hd3⟩, ⟨%fd4, Hd4⟩, ⟨%fd5, Hd5⟩, ⟨%fd6, Hd6⟩⟩,
    ⟨HtS0, HtS1, HtS2, HtS3, HtS4, HtS5, HtS6⟩, ⟨HtR0, HtR1, HtR2, HtR3, HtR4, HtR5, HtR6⟩, Hk⟩
  -- the share kept, and the seven read shares
  ihave Hsh := (ownSlot_split m c) $$ Hown
  icases Hsh with ⟨Hkept, Hsh0, Hsh1, Hsh2, Hsh3, Hsh4, Hsh5, Hsh6⟩
  -- the copy to ring distance 4 (send cell 3)
  iapply (send_step m K c 3 n4 e4 hS3 hR3 fd3 (O₇ c) (owedCopy c 6 + owedCopy c 0 + owedCopy c 5 + owedCopy c 1 + owedCopy c 4 + owedCopy c 2) rfl W) $$ [Hsh3 Hd3 HO HtS3 HtR3]
  · isplitr; · iexact Hrec
    isplitl [Hsh3]; · iexact Hsh3
    isplitl [Hd3]; · iexact Hd3
    isplitl [HO]; · iexact HO
    isplitl [HtS3]; · iexact HtS3
    iexact HtR3
  iintro ⟨HcS3, HO⟩
  -- the copy to ring distance 3 (send cell 2)
  iapply (send_step m K c 2 n3 e3 hS2 hR2 fd2 (owedCopy c 6 + owedCopy c 0 + owedCopy c 5 + owedCopy c 1 + owedCopy c 4 + owedCopy c 2) (owedCopy c 6 + owedCopy c 0 + owedCopy c 5 + owedCopy c 1 + owedCopy c 4) rfl W) $$ [Hsh2 Hd2 HO HtS2 HtR2]
  · isplitr; · iexact Hrec
    isplitl [Hsh2]; · iexact Hsh2
    isplitl [Hd2]; · iexact Hd2
    isplitl [HO]; · iexact HO
    isplitl [HtS2]; · iexact HtS2
    iexact HtR2
  iintro ⟨HcS2, HO⟩
  -- the copy to ring distance 5 (send cell 4)
  iapply (send_step m K c 4 n5 e5 hS4 hR4 fd4 (owedCopy c 6 + owedCopy c 0 + owedCopy c 5 + owedCopy c 1 + owedCopy c 4) (owedCopy c 6 + owedCopy c 0 + owedCopy c 5 + owedCopy c 1) rfl W) $$ [Hsh4 Hd4 HO HtS4 HtR4]
  · isplitr; · iexact Hrec
    isplitl [Hsh4]; · iexact Hsh4
    isplitl [Hd4]; · iexact Hd4
    isplitl [HO]; · iexact HO
    isplitl [HtS4]; · iexact HtS4
    iexact HtR4
  iintro ⟨HcS4, HO⟩
  -- the copy to ring distance 2 (send cell 1)
  iapply (send_step m K c 1 n2 e2 hS1 hR1 fd1 (owedCopy c 6 + owedCopy c 0 + owedCopy c 5 + owedCopy c 1) (owedCopy c 6 + owedCopy c 0 + owedCopy c 5) rfl W) $$ [Hsh1 Hd1 HO HtS1 HtR1]
  · isplitr; · iexact Hrec
    isplitl [Hsh1]; · iexact Hsh1
    isplitl [Hd1]; · iexact Hd1
    isplitl [HO]; · iexact HO
    isplitl [HtS1]; · iexact HtS1
    iexact HtR1
  iintro ⟨HcS1, HO⟩
  -- the copy to ring distance 6 (send cell 5)
  iapply (send_step m K c 5 n6 e6 hS5 hR5 fd5 (owedCopy c 6 + owedCopy c 0 + owedCopy c 5) (owedCopy c 6 + owedCopy c 0) rfl W) $$ [Hsh5 Hd5 HO HtS5 HtR5]
  · isplitr; · iexact Hrec
    isplitl [Hsh5]; · iexact Hsh5
    isplitl [Hd5]; · iexact Hd5
    isplitl [HO]; · iexact HO
    isplitl [HtS5]; · iexact HtS5
    iexact HtR5
  iintro ⟨HcS5, HO⟩
  -- the copy to ring distance 1 (send cell 0)
  iapply (send_step m K c 0 n1 e1 hS0 hR0 fd0 (owedCopy c 6 + owedCopy c 0) (owedCopy c 6) rfl W) $$ [Hsh0 Hd0 HO HtS0 HtR0]
  · isplitr; · iexact Hrec
    isplitl [Hsh0]; · iexact Hsh0
    isplitl [Hd0]; · iexact Hd0
    isplitl [HO]; · iexact HO
    isplitl [HtS0]; · iexact HtS0
    iexact HtR0
  iintro ⟨HcS0, HO⟩
  -- the copy to ring distance 7 (send cell 6)
  iapply (send_step m K c 6 n7 e7 hS6 hR6 fd6 (owedCopy c 6) 0 (zero_add _).symm W) $$ [Hsh6 Hd6 HO HtS6 HtR6]
  · isplitr; · iexact Hrec
    isplitl [Hsh6]; · iexact Hsh6
    isplitl [Hd6]; · iexact Hd6
    isplitl [HO]; · iexact HO
    isplitl [HtS6]; · iexact HtS6
    iexact HtR6
  iintro ⟨HcS6, HO⟩
  -- nothing is owed; the seven send credits and the kept share go on
  iapply Hk
  isplitl [HO]; · iexact HO
  isplitr [Hkept]
  · isplitl [HcS0]; · iexact HcS0
    isplitl [HcS1]; · iexact HcS1
    isplitl [HcS2]; · iexact HcS2
    isplitl [HcS3]; · iexact HcS3
    isplitl [HcS4]; · iexact HcS4
    isplitl [HcS5]; · iexact HcS5
    iexact HcS6
  iexact Hkept

/-- info: 'Cert.Kernel.Proto.sends_steps' depends on axioms: [propext, Classical.choice, Quot.sound] -/
#guard_msgs in #print axioms sends_steps

end Cert.Kernel.Proto

end
-- ==== Proof.Bits.BodyMid.lean ====
/-
  The middle of one device's run of the kernel body: from the staged scale and shift to the stored result.

  The device reads its block of the scale and of the shift and its own slot of statistics; then, for the peers at ring
  distances 1, 7, 2, 6, 3, 5, 4 in turn, it waits for that peer's copy — which brings the peer's slot, filled with the
  peer's statistics — and reads the slot; finally it stores the normalised block over its result staging buffer.
  Every value read is, by definition, the one the closed form of the result names (the scale and shift as staged, the
  eight slots of the array every device ends up holding), so what is stored is that closed form. The receive cells advance
  one round each, the wait set grows by the seven receive semaphores, and every share held on entry is held on exit,
  together with the seven peers' slots.
-/
import proofs.«900544_g7700000000000545_dist_layernorm_colshard_i_m512_n256_v7x_i8_f32_1_alg».proof.Proof.Bits.Steps
import proofs.«900544_g7700000000000545_dist_layernorm_colshard_i_m512_n256_v7x_i8_f32_1_alg».proof.Proof.Bits.BodyAux

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-- A load of the scratch array at coordinates inside slot `s`, by a device holding any share of that slot: the program
    continues at what the coordinates read off the slot's contents, the share kept. -/
theorem load_slot_step (c s : Dev nD) (q : PosShare TreeShare) (f : Buf (Elt F) ((slotM s).view.loc (c : Thread nD τ)))
    {r : LoadRect S8x2x512} (hsub : (scrM : Memref sig .tc .vmem S8x2x512 .f32).view.setOn r.set ⊆ (slotM s).view.set)
    {hl : (scrM : Memref sig .tc .vmem S8x2x512 .f32).view.LoadsAt r}
    {α : Type} {k : (r.shape.Idx → Elt F .f32) → Prog (TpuEff nD τ sig (Elt F) Λ₀ .tc) α} {Q : α → sProp 𝕄} :
    slotPts c s q f
      ⊢ iprop((slotPts c s q f -∗ wp frame (wpE (defs₀ (F := F)) 𝒱₀ (c : Thread nD τ) none) Set.univ
            (k ((scrM : Memref sig .tc .vmem S8x2x512 .f32).view.readAt (Elt F) r f)) Q)
          -∗ wp frame (wpE (defs₀ (F := F)) 𝒱₀ (c : Thread nD τ) none) Set.univ (.op (.load scrM r hl) k) Q) := by
  unfold slotPts
  exact wp_load 𝒱₀ (c : Thread nD τ) none Set.univ (m := scrM) hsub

/-- The loads of the scale, the shift and the own slot; seven times a receive wait and the load of the slot it brings;
    the store of the result; then any continuation. -/
theorem mid_steps (K : Dev nD × Fin 16 → ℕ) (c : Dev nD) (W : Waits sig Unit) (v33 : FVec F S512x256 .f32) (hv : v33 = k0_pay1 (xv m c))
    {q1 q7 q2 q6 q3 q5 q4 : DmaSem sig}
    (hq1 : q1 = recvS (nb c 1)) (hq7 : q7 = recvS (nb c 7)) (hq2 : q2 = recvS (nb c 2)) (hq6 : q6 = recvS (nb c 6))
    (hq3 : q3 = recvS (nb c 3)) (hq5 : q5 = recvS (nb c 5)) (hq4 : q4 = recvS (nb c 4))
    {a1 b1 a7 b7 a2 b2 a6 b6 a3 b3 a5 b5 a4 b4 : Memref sig .tc .vmem S2x512 .f32}
    {ha1 : a1.view.WordExact} {hb1 : b1.view.WordExact} {ha7 : a7.view.WordExact} {hb7 : b7.view.WordExact}
    {ha2 : a2.view.WordExact} {hb2 : b2.view.WordExact} {ha6 : a6.view.WordExact} {hb6 : b6.view.WordExact}
    {ha3 : a3.view.WordExact} {hb3 : b3.view.WordExact} {ha5 : a5.view.WordExact} {hb5 : b5.view.WordExact}
    {ha4 : a4.view.WordExact} {hb4 : b4.view.WordExact}
    (h1 : b1.view.dmaCredit = N) (h7 : b7.view.dmaCredit = N) (h2 : b2.view.dmaCredit = N) (h6 : b6.view.dmaCredit = N)
    (h3 : b3.view.dmaCredit = N) (h5 : b5.view.dmaCredit = N) (h4 : b4.view.dmaCredit = N)
    {hlg : (gM : Memref sig .tc .vmem S256 .f32).view.LoadsAt rV.toLoadRect} {hlb : (bM : Memref sig .tc .vmem S256 .f32).view.LoadsAt rV.toLoadRect}
    {hlo : (scrM : Memref sig .tc .vmem S8x2x512 .f32).view.LoadsAt (rOwn c).toLoadRect}
    {hl0 : scrM.view.LoadsAt (rPeer c 0).toLoadRect} {hl6 : scrM.view.LoadsAt (rPeer c 6).toLoadRect} {hl1 : scrM.view.LoadsAt (rPeer c 1).toLoadRect}
    {hl5 : scrM.view.LoadsAt (rPeer c 5).toLoadRect} {hl2 : scrM.view.LoadsAt (rPeer c 2).toLoadRect} {hl4 : scrM.view.LoadsAt (rPeer c 4).toLoadRect}
    {hl3 : scrM.view.LoadsAt (rPeer c 3).toLoadRect}
    {hlout : (oM : Memref sig .tc .vmem S512x256 .f32).view.LoadsAt rX.toLoadRect}
    {hx : (oM.access rX).Stores Finset.univ} {hm : (Finset.univ : Finset rX.shape.Idx) = Finset.univ ∨ ∀ a, rX.stride a = 1}
    {α : Type} {k : PUnit → Prog (TpuEff nD τ sig (Elt F) Λ₀ .tc) α} {Q : α → sProp 𝕄} :
    iprop(records m K
      ∗ owes (c : Thread nD τ) 0 W
      ∗ (bigSep Finset.univ fun j : Fin 7 => cred (tallyAt (recvCell c (nb c (j.val + 1))) () N))
      ∗ (bigSep Finset.univ fun j : Fin 7 => atPos ER (recvCell c (nb c (j.val + 1))) 0 ∅ 0)
      ∗ slotPts c c keptShare (allStats m)
      ∗ stg c cc0_stg1_0 (gstg m c) ∗ stg c cc0_stg2_0 (bstg m c)
      ∗ (∃ f : Buf (Elt F) ((c : Thread nD τ).loc cc0_stg3_0), ((c : Thread nD τ).loc cc0_stg3_0) ↦{fullShare} f)
      ∗ (∀ W' : Waits sig Unit, iprop(owes (c : Thread nD τ) 0 W'
            ∗ (bigSep Finset.univ fun j : Fin 7 => atPos ER (recvCell c (nb c (j.val + 1))) 1 ∅ 0)
            ∗ slotPts c c keptShare (allStats m)
            ∗ (bigSep Finset.univ fun j : Fin 7 => slotPts c (nb c (j.val + 1)) fullShare (allStats m))
            ∗ stg c cc0_stg1_0 (gstg m c) ∗ stg c cc0_stg2_0 (bstg m c) ∗ stg c cc0_stg3_0 (outAt m c))
          -∗ wp frame (wpE (defs₀ (F := F)) 𝒱₀ (c : Thread nD τ) none) Set.univ (k ⟨⟩) Q))
    ⊢ wp frame (wpE (defs₀ (F := F)) 𝒱₀ (c : Thread nD τ) none) Set.univ
        (.op (.load gM rV.toLoadRect hlg) fun xg => .op (.load bM rV.toLoadRect hlb) fun xb =>
         .op (.load scrM (rOwn c).toLoadRect hlo) fun x14 =>
         .op (.waitDma2 q1 a1 b1 ha1 hb1) fun _ => .op (.load scrM (rPeer c 0).toLoadRect hl0) fun x16 =>
         .op (.waitDma2 q7 a7 b7 ha7 hb7) fun _ => .op (.load scrM (rPeer c 6).toLoadRect hl6) fun x18 =>
         .op (.waitDma2 q2 a2 b2 ha2 hb2) fun _ => .op (.load scrM (rPeer c 1).toLoadRect hl1) fun x20 =>
         .op (.waitDma2 q6 a6 b6 ha6 hb6) fun _ => .op (.load scrM (rPeer c 5).toLoadRect hl5) fun x22 =>
         .op (.waitDma2 q3 a3 b3 ha3 hb3) fun _ => .op (.load scrM (rPeer c 2).toLoadRect hl2) fun x24 =>
         .op (.waitDma2 q5 a5 b5 ha5 hb5) fun _ => .op (.load scrM (rPeer c 4).toLoadRect hl4) fun x26 =>
         .op (.waitDma2 q4 a4 b4 ha4 hb4) fun _ => .op (.load scrM (rPeer c 3).toLoadRect hl3) fun x28 =>
         .op (.load oM rX.toLoadRect hlout) fun _ =>
         .op (.store oM rX (k0_pay12 (k0_pay10 (k0_pay4 xg) (k0_pay6 v33 xg) (k0_pay9 (k0_pay8 (k0_pay7 x14 x16) x18 x20) x22 x24) x26 x28)
                (k0_pay11 (k0_pay5 xb))) Finset.univ hx hm) k) Q := by
  subst hv
  rw [bigSep_fin7 (fun j : Fin 7 => (cred (tallyAt (recvCell c (nb c (j.val + 1))) () N) : sProp 𝕄)),
    bigSep_fin7 (fun j : Fin 7 => (atPos ER (recvCell c (nb c (j.val + 1))) 0 ∅ 0 : sProp 𝕄))]
  iintro ⟨#Hrec, HO, ⟨Hc1, Hc2, Hc3, Hc4, Hc5, Hc6, Hc7⟩, ⟨Ha1, Ha2, Ha3, Ha4, Ha5, Ha6, Ha7⟩, Hown, Hg, Hb, ⟨%fo, Hout⟩, Hk⟩
  icases Hg with ⟨%g1, %hg1, Hg⟩; subst hg1
  icases Hb with ⟨%b1, %hb1, Hb⟩; subst hb1
  -- the scale, the shift, the own slot
  iapply (wp_load 𝒱₀ (c : Thread nD τ) none Set.univ (m := gM) (Finset.subset_univ _)) $$ Hg; iintro Hg
  iapply (wp_load 𝒱₀ (c : Thread nD τ) none Set.univ (m := bM) (Finset.subset_univ _)) $$ Hb; iintro Hb
  iapply (load_slot_step c c keptShare (allStats m) (load_own_sub c)) $$ Hown; iintro Hown
  -- the copy from the peer at distance 1: the wait brings its slot, the load reads it
  iapply (recv_step m K c (nb c 1) (nb_ne c 0) W hq1 h1) $$ [Hc1 HO Ha1]
  · isplitr; · iexact Hrec
    isplitl [Hc1]; · iexact Hc1
    isplitl [HO]; · iexact HO
    iexact Ha1
  iintro ⟨HO, Ha1, Hs1⟩
  iapply (load_slot_step c (nb c 1) fullShare (allStats m) (load_peer_sub c 0)) $$ Hs1; iintro Hs1
  -- the copy from the peer at distance 7: the wait brings its slot, the load reads it
  iapply (recv_step m K c (nb c 7) (nb_ne c 6) (insert (SemLoc.dma (recvS (nb c 1)), ()) W) hq7 h7) $$ [Hc7 HO Ha7]
  · isplitr; · iexact Hrec
    isplitl [Hc7]; · iexact Hc7
    isplitl [HO]; · iexact HO
    iexact Ha7
  iintro ⟨HO, Ha7, Hs7⟩
  iapply (load_slot_step c (nb c 7) fullShare (allStats m) (load_peer_sub c 6)) $$ Hs7; iintro Hs7
  -- the copy from the peer at distance 2: the wait brings its slot, the load reads it
  iapply (recv_step m K c (nb c 2) (nb_ne c 1) (insert (SemLoc.dma (recvS (nb c 7)), ()) (insert (SemLoc.dma (recvS (nb c 1)), ()) W)) hq2 h2) $$ [Hc2 HO Ha2]
  · isplitr; · iexact Hrec
    isplitl [Hc2]; · iexact Hc2
    isplitl [HO]; · iexact HO
    iexact Ha2
  iintro ⟨HO, Ha2, Hs2⟩
  iapply (load_slot_step c (nb c 2) fullShare (allStats m) (load_peer_sub c 1)) $$ Hs2; iintro Hs2
  -- the copy from the peer at distance 6: the wait brings its slot, the load reads it
  iapply (recv_step m K c (nb c 6) (nb_ne c 5) (insert (SemLoc.dma (recvS (nb c 2)), ()) (insert (SemLoc.dma (recvS (nb c 7)), ()) (insert (SemLoc.dma (recvS (nb c 1)), ()) W))) hq6 h6) $$ [Hc6 HO Ha6]
  · isplitr; · iexact Hrec
    isplitl [Hc6]; · iexact Hc6
    isplitl [HO]; · iexact HO
    iexact Ha6
  iintro ⟨HO, Ha6, Hs6⟩
  iapply (load_slot_step c (nb c 6) fullShare (allStats m) (load_peer_sub c 5)) $$ Hs6; iintro Hs6
  -- the copy from the peer at distance 3: the wait brings its slot, the load reads it
  iapply (recv_step m K c (nb c 3) (nb_ne c 2) (insert (SemLoc.dma (recvS (nb c 6)), ()) (insert (SemLoc.dma (recvS (nb c 2)), ()) (insert (SemLoc.dma (recvS (nb c 7)), ()) (insert (SemLoc.dma (recvS (nb c 1)), ()) W)))) hq3 h3) $$ [Hc3 HO Ha3]
  · isplitr; · iexact Hrec
    isplitl [Hc3]; · iexact Hc3
    isplitl [HO]; · iexact HO
    iexact Ha3
  iintro ⟨HO, Ha3, Hs3⟩
  iapply (load_slot_step c (nb c 3) fullShare (allStats m) (load_peer_sub c 2)) $$ Hs3; iintro Hs3
  -- the copy from the peer at distance 5: the wait brings its slot, the load reads it
  iapply (recv_step m K c (nb c 5) (nb_ne c 4) (insert (SemLoc.dma (recvS (nb c 3)), ()) (insert (SemLoc.dma (recvS (nb c 6)), ()) (insert (SemLoc.dma (recvS (nb c 2)), ()) (insert (SemLoc.dma (recvS (nb c 7)), ()) (insert (SemLoc.dma (recvS (nb c 1)), ()) W))))) hq5 h5) $$ [Hc5 HO Ha5]
  · isplitr; · iexact Hrec
    isplitl [Hc5]; · iexact Hc5
    isplitl [HO]; · iexact HO
    iexact Ha5
  iintro ⟨HO, Ha5, Hs5⟩
  iapply (load_slot_step c (nb c 5) fullShare (allStats m) (load_peer_sub c 4)) $$ Hs5; iintro Hs5
  -- the copy from the peer at distance 4: the wait brings its slot, the load reads it
  iapply (recv_step m K c (nb c 4) (nb_ne c 3) (insert (SemLoc.dma (recvS (nb c 5)), ()) (insert (SemLoc.dma (recvS (nb c 3)), ()) (insert (SemLoc.dma (recvS (nb c 6)), ()) (insert (SemLoc.dma (recvS (nb c 2)), ()) (insert (SemLoc.dma (recvS (nb c 7)), ()) (insert (SemLoc.dma (recvS (nb c 1)), ()) W)))))) hq4 h4) $$ [Hc4 HO Ha4]
  · isplitr; · iexact Hrec
    isplitl [Hc4]; · iexact Hc4
    isplitl [HO]; · iexact HO
    iexact Ha4
  iintro ⟨HO, Ha4, Hs4⟩
  iapply (load_slot_step c (nb c 4) fullShare (allStats m) (load_peer_sub c 3)) $$ Hs4; iintro Hs4
  -- the result: computed from what was read, stored over the staging buffer whole
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  iapply Hk $$ %(insert (SemLoc.dma (recvS (nb c 4)), ()) (insert (SemLoc.dma (recvS (nb c 5)), ()) (insert (SemLoc.dma (recvS (nb c 3)), ()) (insert (SemLoc.dma (recvS (nb c 6)), ()) (insert (SemLoc.dma (recvS (nb c 2)), ()) (insert (SemLoc.dma (recvS (nb c 7)), ()) (insert (SemLoc.dma (recvS (nb c 1)), ()) W)))))))
  rw [bigSep_fin7 (fun j : Fin 7 => (atPos ER (recvCell c (nb c (j.val + 1))) 1 ∅ 0 : sProp 𝕄)),
    bigSep_fin7 (fun j : Fin 7 => (slotPts c (nb c (j.val + 1)) fullShare (allStats m) : sProp 𝕄))]
  isplitl [HO]; · iexact HO
  isplitl [Ha1 Ha2 Ha3 Ha4 Ha5 Ha6 Ha7]
  · isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  isplitl [Hown]; · iexact Hown
  isplitl [Hs1 Hs2 Hs3 Hs4 Hs5 Hs6 Hs7]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  isplitl [Hg]
  · iexists _; isplitr; · (ipureintro; rfl)
    iexact Hg
  isplitl [Hb]
  · iexists _; isplitr; · (ipureintro; rfl)
    iexact Hb
  iexists _
  isplitr
  rotate_left
  · iexact Hout
  · ipureintro; rfl

/-- info: 'Cert.Kernel.Proto.mid_steps' depends on axioms: [propext, Classical.choice, Quot.sound] -/
#guard_msgs in #print axioms mid_steps

end Cert.Kernel.Proto

end
-- ==== Proof.Bits.BodyTail.lean ====
/-
  The end of one device's run of the kernel body: the seven waits for its own copies' completion, and the return.

  Each wait on a send cell brings back the read share of the device's own slot that was lent to that copy, moves the
  cell to its next round, and is recorded in the set of cells waited on. After the seven waits the share kept for the
  device's own load and the seven read shares add up to the full share of the own slot again. Every one of the fifteen
  own cells has then spent its one round (the receive cell numbered by the device itself never had one), so all close
  and their counters stand at zero. The own slot and the seven peers' slots, all held in full, are the whole exchange
  array. With the four staged blocks unchanged this is the body's postcondition; nothing is owed, and every wait is
  in the recorded set.
-/
import proofs.«900544_g7700000000000545_dist_layernorm_colshard_i_m512_n256_v7x_i8_f32_1_alg».proof.Proof.Bits.Steps
import proofs.«900544_g7700000000000545_dist_layernorm_colshard_i_m512_n256_v7x_i8_f32_1_alg».proof.Proof.Bits.BodyAux

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## The own slot whole again -/

/-- The share kept for the own load and the seven read shares lent to the copies are the full share of the own slot. -/
theorem own_join (c : Dev nD) :
    iprop(slotPts c c keptShare (allStats m)
        ∗ slotPts c c (sendShare 0) (allStats m) ∗ slotPts c c (sendShare 1) (allStats m) ∗ slotPts c c (sendShare 2) (allStats m)
        ∗ slotPts c c (sendShare 3) (allStats m) ∗ slotPts c c (sendShare 4) (allStats m) ∗ slotPts c c (sendShare 5) (allStats m)
        ∗ slotPts c c (sendShare 6) (allStats m))
      ⊢ (slotPts c c fullShare (allStats m) : sProp 𝕄) := by
  unfold slotPts
  rw [← bigSep_fin7 (fun j : Fin 7 =>
    ((slotM c).view.loc (c : Thread nD τ) ↦[(slotM c).view.set]{sendShare j} allStats m : sProp 𝕄))]
  exact Transfers.pointsTo_toks_join fullShare 7

/-! ## The seven send waits and the return -/

theorem tail_steps (K : Dev nD × Fin 16 → ℕ) (c : Dev nD) (W : Waits sig Unit)
    {s3 d3 s2 d2 s4 d4 s1 d1 s5 d5 s0 d0 s6 d6 : Memref sig .tc .vmem S2x512 .f32}
    {hs3 : s3.view.WordExact} {hd3 : d3.view.WordExact} {hs2 : s2.view.WordExact} {hd2 : d2.view.WordExact}
    {hs4 : s4.view.WordExact} {hd4 : d4.view.WordExact} {hs1 : s1.view.WordExact} {hd1 : d1.view.WordExact}
    {hs5 : s5.view.WordExact} {hd5 : d5.view.WordExact} {hs0 : s0.view.WordExact} {hd0 : d0.view.WordExact}
    {hs6 : s6.view.WordExact} {hd6 : d6.view.WordExact}
    (h3 : d3.view.dmaCredit = N) (h2 : d2.view.dmaCredit = N) (h4 : d4.view.dmaCredit = N) (h1 : d1.view.dmaCredit = N)
    (h5 : d5.view.dmaCredit = N) (h0 : d0.view.dmaCredit = N) (h6 : d6.view.dmaCredit = N)
    (Kt : PUnit → sProp 𝕄) :
    iprop(records m K
      ∗ owes (c : Thread nD τ) 0 W
      ∗ (bigSep Finset.univ fun j : Fin 7 => cred (tallyAt (sendCell c j) () N))
      ∗ (bigSep Finset.univ fun j : Fin 7 => atPos ER (sendCell c j) 0 ∅ 0)
      ∗ (bigSep Finset.univ fun j : Fin 7 => atPos ER (recvCell c (nb c (j.val + 1))) 1 ∅ 0)
      ∗ atPos ER (recvCell c c) 0 ∅ 0
      ∗ slotPts c c keptShare (allStats m)
      ∗ (bigSep Finset.univ fun j : Fin 7 => slotPts c (nb c (j.val + 1)) fullShare (allStats m))
      ∗ stg c cc0_stg0_0 (xstg m c) ∗ stg c cc0_stg1_0 (gstg m c) ∗ stg c cc0_stg2_0 (bstg m c) ∗ stg c cc0_stg3_0 (outAt m c)
      ∗ (bodyPost m c -∗ Kt ⟨⟩))
    ⊢ wp frame (wpE (defs₀ (F := F)) 𝒱₀ (c : Thread nD τ) none) Set.univ
        (.op (.waitDma2 (sendS 3) s3 d3 hs3 hd3) fun _ => .op (.waitDma2 (sendS 2) s2 d2 hs2 hd2) fun _ =>
         .op (.waitDma2 (sendS 4) s4 d4 hs4 hd4) fun _ => .op (.waitDma2 (sendS 1) s1 d1 hs1 hd1) fun _ =>
         .op (.waitDma2 (sendS 5) s5 d5 hs5 hd5) fun _ => .op (.waitDma2 (sendS 0) s0 d0 hs0 hd0) fun _ =>
         .op (.waitDma2 (sendS 6) s6 d6 hs6 hd6) fun _ => .ret ⟨⟩) Kt := by
  rw [bigSep_fin7 (fun j : Fin 7 => (cred (tallyAt (sendCell c j) () N) : sProp 𝕄)),
    bigSep_fin7 (fun j : Fin 7 => (atPos ER (sendCell c j) 0 ∅ 0 : sProp 𝕄))]
  iintro ⟨#Hrec, HO, ⟨Hc0, Hc1, Hc2, Hc3, Hc4, Hc5, Hc6⟩, ⟨Ha0, Ha1, Ha2, Ha3, Ha4, Ha5, Ha6⟩, HatR, HatSelf, Hkept, Hpeers,
    Hx, Hg, Hb, Hout, Hk⟩
  -- the copy to ring distance 4 (send cell 3) is complete
  iapply (wsend_step m K c 3 W rfl h3) $$ [Hc3 HO Ha3]
  · isplitr; · iexact Hrec
    isplitl [Hc3]; · iexact Hc3
    isplitl [HO]; · iexact HO
    iexact Ha3
  iintro ⟨HO, Ha3, Hsh3⟩
  -- distance 3 (send cell 2)
  iapply (wsend_step m K c 2 (insert (SemLoc.dma (sendS 3), ()) W) rfl h2) $$ [Hc2 HO Ha2]
  · isplitr; · iexact Hrec
    isplitl [Hc2]; · iexact Hc2
    isplitl [HO]; · iexact HO
    iexact Ha2
  iintro ⟨HO, Ha2, Hsh2⟩
  -- distance 5 (send cell 4)
  iapply (wsend_step m K c 4 (insert (SemLoc.dma (sendS 2), ()) (insert (SemLoc.dma (sendS 3), ()) W)) rfl h4) $$ [Hc4 HO Ha4]
  · isplitr; · iexact Hrec
    isplitl [Hc4]; · iexact Hc4
    isplitl [HO]; · iexact HO
    iexact Ha4
  iintro ⟨HO, Ha4, Hsh4⟩
  -- distance 2 (send cell 1)
  iapply (wsend_step m K c 1 (insert (SemLoc.dma (sendS 4), ()) (insert (SemLoc.dma (sendS 2), ()) (insert (SemLoc.dma (sendS 3), ()) W))) rfl h1) $$ [Hc1 HO Ha1]
  · isplitr; · iexact Hrec
    isplitl [Hc1]; · iexact Hc1
    isplitl [HO]; · iexact HO
    iexact Ha1
  iintro ⟨HO, Ha1, Hsh1⟩
  -- distance 6 (send cell 5)
  iapply (wsend_step m K c 5 (insert (SemLoc.dma (sendS 1), ()) (insert (SemLoc.dma (sendS 4), ()) (insert (SemLoc.dma (sendS 2), ()) (insert (SemLoc.dma (sendS 3), ()) W)))) rfl h5) $$ [Hc5 HO Ha5]
  · isplitr; · iexact Hrec
    isplitl [Hc5]; · iexact Hc5
    isplitl [HO]; · iexact HO
    iexact Ha5
  iintro ⟨HO, Ha5, Hsh5⟩
  -- distance 1 (send cell 0)
  iapply (wsend_step m K c 0 (insert (SemLoc.dma (sendS 5), ()) (insert (SemLoc.dma (sendS 1), ()) (insert (SemLoc.dma (sendS 4), ()) (insert (SemLoc.dma (sendS 2), ()) (insert (SemLoc.dma (sendS 3), ()) W))))) rfl h0) $$ [Hc0 HO Ha0]
  · isplitr; · iexact Hrec
    isplitl [Hc0]; · iexact Hc0
    isplitl [HO]; · iexact HO
    iexact Ha0
  iintro ⟨HO, Ha0, Hsh0⟩
  -- distance 7 (send cell 6)
  iapply (wsend_step m K c 6 (insert (SemLoc.dma (sendS 0), ()) (insert (SemLoc.dma (sendS 5), ()) (insert (SemLoc.dma (sendS 1), ()) (insert (SemLoc.dma (sendS 4), ()) (insert (SemLoc.dma (sendS 2), ()) (insert (SemLoc.dma (sendS 3), ()) W)))))) rfl h6) $$ [Hc6 HO Ha6]
  · isplitr; · iexact Hrec
    isplitl [Hc6]; · iexact Hc6
    isplitl [HO]; · iexact HO
    iexact Ha6
  iintro ⟨HO, Ha6, Hsh6⟩
  -- the own slot in full: the kept share and the seven read shares
  ihave Hown := (own_join m c) $$ [Hkept Hsh0 Hsh1 Hsh2 Hsh3 Hsh4 Hsh5 Hsh6]
  · isplitl [Hkept]; · iexact Hkept
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  -- the fifteen own cells close
  imod (close_all m K c) $$ [Ha0 Ha1 Ha2 Ha3 Ha4 Ha5 Ha6 HatR HatSelf] with Hsems
  · isplitr; · iexact Hrec
    isplitl [Ha0 Ha1 Ha2 Ha3 Ha4 Ha5 Ha6]
    · rw [bigSep_fin7 (fun j : Fin 7 => (atPos ER (sendCell c j) 1 ∅ 0 : sProp 𝕄))]
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iexact Ha6
    isplitl [HatR]; · iexact HatR
    iexact HatSelf
  -- the exchange array whole: the own slot and the seven peers' slots
  ihave Hscr := (scr_join c (allStats m) (fun _ => allStats m)) $$ [Hown Hpeers]
  · isplitl [Hown]; · iexact Hown
    iexact Hpeers
  -- the return
  rw [wp_ret]; imodintro
  iapply Hk
  unfold bodyPost Φ₁ scrAny Dat.owesAt Pipeline.owesWithin
  rw [show (dats m 0 c).owed t₀.succ = 0 from rfl]
  isplitl [Hscr Hsems]
  · isplitl [Hscr]; · iexact Hscr
    iexact Hsems
  isplitl [HO]
  · iexists (insert (SemLoc.dma (sendS 6), ()) (insert (SemLoc.dma (sendS 0), ()) (insert (SemLoc.dma (sendS 5), ()) (insert (SemLoc.dma (sendS 1), ()) (insert (SemLoc.dma (sendS 4), ()) (insert (SemLoc.dma (sendS 2), ()) (insert (SemLoc.dma (sendS 3), ()) W)))))))
    isplitr; · ipureintro; exact fun _ _ => Or.inl trivial
    iexact HO
  isplitl [Hx]; · iexact Hx
  isplitl [Hg]; · iexact Hg
  isplitl [Hb]; · iexact Hb
  iexact Hout

/-- info: 'Cert.Kernel.Proto.tail_steps' depends on axioms: [propext, Classical.choice, Quot.sound] -/
#guard_msgs in #print axioms tail_steps

end Cert.Kernel.Proto

end
-- ==== Proof.Bits.Body.lean ====
/-
  One device's run of the kernel body, from what the launch hands it to what it hands back.

  In program order: the seven entry signals, each handing the addressed peer the slot it will fill; the device's own two rows
  of statistics stored in its slot; the wait for the seven peers' signals, which brings the seven destination slots; the seven
  copies of the own slot, each lent a read share of it; the own slot and, after each receive wait, the peer's slot read and
  added; the normalised block stored; the seven send waits, which bring the read shares back; the fifteen own cells closed.
-/
import proofs.«900544_g7700000000000545_dist_layernorm_colshard_i_m512_n256_v7x_i8_f32_1_alg».proof.Proof.Bits.BodyFront
import proofs.«900544_g7700000000000545_dist_layernorm_colshard_i_m512_n256_v7x_i8_f32_1_alg».proof.Proof.Bits.BodySend
import proofs.«900544_g7700000000000545_dist_layernorm_colshard_i_m512_n256_v7x_i8_f32_1_alg».proof.Proof.Bits.BodyMid
import proofs.«900544_g7700000000000545_dist_layernorm_colshard_i_m512_n256_v7x_i8_f32_1_alg».proof.Proof.Bits.BodyTail

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## What the device holds between the four stretches of the body -/

/-- What the later stretches need and the first two do not touch. -/
def restA (c : Dev nD) : sProp 𝕄 :=
  iprop((bigSep Finset.univ fun j : Fin 7 => dutyTok ER (sendCell c j) 0 (0 : Fin 7))
    ∗ (bigSep Finset.univ fun j : Fin 7 => dutyTok ER (recvCell (nb c (j.val + 1)) c) 0 (0 : Fin 7))
    ∗ (bigSep Finset.univ fun j : Fin 7 => cred (tallyAt (recvCell c (nb c (j.val + 1))) () N))
    ∗ (bigSep Finset.univ fun j : Fin 7 => atPos ER (sendCell c j) 0 ∅ 0)
    ∗ (bigSep Finset.univ fun j : Fin 7 => atPos ER (recvCell c (nb c (j.val + 1))) 0 ∅ 0)
    ∗ atPos ER (recvCell c c) 0 ∅ 0
    ∗ stg c cc0_stg1_0 (gstg m c) ∗ stg c cc0_stg2_0 (bstg m c)
    ∗ (∃ f : Buf (Elt F) ((c : Thread nD τ).loc cc0_stg3_0), ((c : Thread nD τ).loc cc0_stg3_0) ↦{fullShare} f))

/-- After the barrier wait: the own slot filled, the seven peers' slots in hand, the seven copies owed. -/
def mid1 (K : Dev nD × Fin 16 → ℕ) (c : Dev nD) (W : Waits sig Unit) : sProp 𝕄 :=
  iprop(records m K
    ∗ owes (c : Thread nD τ) (O₇ c) (insert (SemLoc.reg barS, ()) W)
    ∗ slotPts c c fullShare (allStats m)
    ∗ (bigSep Finset.univ fun j : Fin 7 => iprop(∃ f, slotPts (F := F) (nb c (j.val + 1)) c fullShare f))
    ∗ stg c cc0_stg0_0 (xstg m c)
    ∗ restA m c)

/-- After the seven copies: nothing owed, the seven send credits, the share of the own slot kept for the load. -/
def mid2 (K : Dev nD × Fin 16 → ℕ) (c : Dev nD) (W : Waits sig Unit) : sProp 𝕄 :=
  iprop(records m K
    ∗ owes (c : Thread nD τ) 0 (insert (SemLoc.reg barS, ()) W)
    ∗ (bigSep Finset.univ fun j : Fin 7 => cred (tallyAt (sendCell c j) () N))
    ∗ slotPts c c keptShare (allStats m)
    ∗ stg c cc0_stg0_0 (xstg m c)
    ∗ (bigSep Finset.univ fun j : Fin 7 => cred (tallyAt (recvCell c (nb c (j.val + 1))) () N))
    ∗ (bigSep Finset.univ fun j : Fin 7 => atPos ER (sendCell c j) 0 ∅ 0)
    ∗ (bigSep Finset.univ fun j : Fin 7 => atPos ER (recvCell c (nb c (j.val + 1))) 0 ∅ 0)
    ∗ atPos ER (recvCell c c) 0 ∅ 0
    ∗ stg c cc0_stg1_0 (gstg m c) ∗ stg c cc0_stg2_0 (bstg m c)
    ∗ (∃ f : Buf (Elt F) ((c : Thread nD τ).loc cc0_stg3_0), ((c : Thread nD τ).loc cc0_stg3_0) ↦{fullShare} f))

/-- After the result's store: every slot in, the result staged, the seven copies' completions still to be waited for. -/
def mid3 (K : Dev nD × Fin 16 → ℕ) (c : Dev nD) (W : Waits sig Unit) : sProp 𝕄 :=
  iprop(records m K
    ∗ owes (c : Thread nD τ) 0 W
    ∗ (bigSep Finset.univ fun j : Fin 7 => cred (tallyAt (sendCell c j) () N))
    ∗ (bigSep Finset.univ fun j : Fin 7 => atPos ER (sendCell c j) 0 ∅ 0)
    ∗ (bigSep Finset.univ fun j : Fin 7 => atPos ER (recvCell c (nb c (j.val + 1))) 1 ∅ 0)
    ∗ atPos ER (recvCell c c) 0 ∅ 0
    ∗ slotPts c c keptShare (allStats m)
    ∗ (bigSep Finset.univ fun j : Fin 7 => slotPts c (nb c (j.val + 1)) fullShare (allStats m))
    ∗ stg c cc0_stg0_0 (xstg m c) ∗ stg c cc0_stg1_0 (gstg m c) ∗ stg c cc0_stg2_0 (bstg m c) ∗ stg c cc0_stg3_0 (outAt m c))

/-- A copy of a 2 × 512 slot carries the same credit wherever the slot lies. -/
theorem credit_any (b : Memref sig .tc .vmem S2x512 .f32) : b.view.dmaCredit = N := rfl

/-! ## The four stretches, each against any continuation and any frame -/

/-- The seven entry signals, the own statistics stored, the wait for the seven peers. -/
theorem stageA (K : Dev nD × Fin 16 → ℕ) (c : Dev nD)
      {t1 t2 t3 t4 t5 t6 t7 : Dev nD} (e1 : t1 = nb c 1) (e2 : t2 = nb c 2) (e3 : t3 = nb c 3) (e4 : t4 = nb c 4)
      (e5 : t5 = nb c 5) (e6 : t6 = nb c 6) (e7 : t7 = nb c 7)
      {hlx : (xM : Memref sig .tc .vmem S512x256 .f32).view.LoadsAt rX.toLoadRect}
      {hl1 : (scrM : Memref sig .tc .vmem S8x2x512 .f32).view.LoadsAt (r1 c).toLoadRect} {hl2 : scrM.view.LoadsAt (r2 c).toLoadRect}
      {hx1 : (scrM.access (r1 c)).Stores Finset.univ} {hm1 : (Finset.univ : Finset (r1 c).shape.Idx) = Finset.univ ∨ ∀ a, (r1 c).stride a = 1}
      {hx2 : (scrM.access (r2 c)).Stores Finset.univ} {hm2 : (Finset.univ : Finset (r2 c).shape.Idx) = Finset.univ ∨ ∀ a, (r2 c).stride a = 1}
      {α : Type} {k : Vec F S512x256 .f32 → Prog (TpuEff nD τ sig (Elt F) Λ₀ .tc) α} {Q : α → sProp 𝕄} {P : sProp 𝕄}
      (h : ∀ W : Waits sig Unit, iprop(mid1 m K c W ∗ P) ⊢ wp frame (wpE (defs₀ (F := F)) 𝒱₀ (c : Thread nD τ) none) Set.univ (k (xv m c)) Q) :
      iprop(bodyPre m K c ∗ P) ⊢ wp frame (wpE (defs₀ (F := F)) 𝒱₀ (c : Thread nD τ) none) Set.univ
          (.op (.semSignal (t1 : Thread nD τ) barS 1) fun _ => .op (.semSignal (t2 : Thread nD τ) barS 1) fun _ =>
           .op (.semSignal (t3 : Thread nD τ) barS 1) fun _ => .op (.semSignal (t4 : Thread nD τ) barS 1) fun _ =>
           .op (.semSignal (t5 : Thread nD τ) barS 1) fun _ => .op (.semSignal (t6 : Thread nD τ) barS 1) fun _ =>
           .op (.semSignal (t7 : Thread nD τ) barS 1) fun _ =>
           .op (.load xM rX.toLoadRect hlx) fun x =>
           .op (.load scrM (r1 c).toLoadRect hl1) fun _ => .op (.store scrM (r1 c) (k0_pay2 x) Finset.univ hx1 hm1) fun _ =>
           .op (.load scrM (r2 c).toLoadRect hl2) fun _ => .op (.store scrM (r2 c) (k0_pay3 x) Finset.univ hx2 hm2) fun _ =>
           .op (.semWait barS 7) fun _ => k x) Q := by
  subst e1 e2 e3 e4 e5 e6 e7
  unfold bodyPre ghost linear payToks launchCreds scrAny
  iintro ⟨⟨⟨⟨#Hrec, Hats, HtB, HtR, HtS⟩, ⟨HcB, HcR⟩, #Hlev, ⟨%f0, Hscr⟩⟩,
    Ho, ⟨%d0, %g0, %hg0, Hx⟩, ⟨%d1, %g1, %hg1, Hg⟩, ⟨%d2, %g2, %hg2, Hb⟩, ⟨%d3, %g3, %hg3, Hout⟩⟩, HP⟩
  unfold Dat.owesAt Pipeline.owesWithin
  icases Ho with ⟨%W, %hW, HO⟩
  have hO₀ : (dats m 0 c).owed t₀.castSucc = O₀ c := rfl
  have hx0 : g0 = xstg m c := hg0.trans (before_x m c d0)
  have hx1 : g1 = gstg m c := hg1.trans (before_g m c d1)
  have hx2 : g2 = bstg m c := hg2.trans (before_b m c d2)
  subst hx0 hx1 hx2
  ihave Hats := (atPos_cells (F := F) c) $$ Hats
  icases Hats with ⟨HatB, HatS, HatR, HatRc⟩
  iapply (front_steps m K c W f0)
  isplitr; · iexact Hrec
  isplitr; · iexact Hlev
  isplitl [HO]; · rw [hO₀]; iexact HO
  isplitl [HtB]; · iexact HtB
  isplitl [HcB]; · iexact HcB
  isplitl [HatB]; · iexact HatB
  isplitl [Hscr]; · iexact Hscr
  isplitl [Hx]; · iexists _; isplitr; · (ipureintro; rfl)
                  iexact Hx
  iintro ⟨HO, HatB, Hown, Hdst, Hx⟩
  iapply (h W)
  isplitr [HP]
  · unfold mid1 restA
    isplitr; · iexact Hrec
    isplitl [HO]; · iexact HO
    isplitl [Hown]; · iexact Hown
    isplitl [Hdst]; · iexact Hdst
    isplitl [Hx]; · iexact Hx
    isplitl [HtS]; · iexact HtS
    isplitl [HtR]; · iexact HtR
    isplitl [HcR]; · iexact HcR
    isplitl [HatS]; · iexact HatS
    isplitl [HatR]; · iexact HatR
    isplitl [HatRc]; · iexact HatRc
    isplitl [Hg]; · iexists _; isplitr; · (ipureintro; rfl)
                    iexact Hg
    isplitl [Hb]; · iexists _; isplitr; · (ipureintro; rfl)
                    iexact Hb
    iexists g3; iexact Hout
  · iexact HP

/-- The seven copies of the own slot. -/
theorem stageB (K : Dev nD × Fin 16 → ℕ) (c : Dev nD) (W : Waits sig Unit)
      {n4 n3 n5 n2 n6 n1 n7 : Dev nD} (e4 : n4 = nb c 4) (e3 : n3 = nb c 3) (e5 : n5 = nb c 5) (e2 : n2 = nb c 2) (e6 : n6 = nb c 6) (e1 : n1 = nb c 1) (e7 : n7 = nb c 7)
      {sS3 sS2 sS4 sS1 sS5 sS0 sS6 : DmaSem sig} (hS3 : sS3 = sendS 3) (hS2 : sS2 = sendS 2) (hS4 : sS4 = sendS 4) (hS1 : sS1 = sendS 1) (hS5 : sS5 = sendS 5) (hS0 : sS0 = sendS 0) (hS6 : sS6 = sendS 6)
      {sR3 sR2 sR4 sR1 sR5 sR0 sR6 : DmaSem sig} (hR3 : sR3 = recvS c) (hR2 : sR2 = recvS c) (hR4 : sR4 = recvS c) (hR1 : sR1 = recvS c) (hR5 : sR5 = recvS c) (hR0 : sR0 = recvS c) (hR6 : sR6 = recvS c)
      {hc3 : (slotM c : Memref sig (Dev.tc n4 : Thread nD τ).2.kind .vmem S2x512 .f32).view.ref.isScScratch = false}
      {hc2 : (slotM c : Memref sig (Dev.tc n3 : Thread nD τ).2.kind .vmem S2x512 .f32).view.ref.isScScratch = false}
      {hc4 : (slotM c : Memref sig (Dev.tc n5 : Thread nD τ).2.kind .vmem S2x512 .f32).view.ref.isScScratch = false}
      {hc1 : (slotM c : Memref sig (Dev.tc n2 : Thread nD τ).2.kind .vmem S2x512 .f32).view.ref.isScScratch = false}
      {hc5 : (slotM c : Memref sig (Dev.tc n6 : Thread nD τ).2.kind .vmem S2x512 .f32).view.ref.isScScratch = false}
      {hc0 : (slotM c : Memref sig (Dev.tc n1 : Thread nD τ).2.kind .vmem S2x512 .f32).view.ref.isScScratch = false}
      {hc6 : (slotM c : Memref sig (Dev.tc n7 : Thread nD τ).2.kind .vmem S2x512 .f32).view.ref.isScScratch = false}
      {hs3 hd3 hs2 hd2 hs4 hd4 hs1 hd1 hs5 hd5 hs0 hd0 hs6 hd6 : (slotM c : Memref sig .tc .vmem S2x512 .f32).view.WordExact}
      {ht3 : DmaTarget.Typed .vmem (.dma sR3) (.remote (Dev.tc n4 : Thread nD τ) (slotM c : Memref sig .tc .vmem S2x512 .f32) (.dma sS3) hc3)}
      {ht2 : DmaTarget.Typed .vmem (.dma sR2) (.remote (Dev.tc n3 : Thread nD τ) (slotM c : Memref sig .tc .vmem S2x512 .f32) (.dma sS2) hc2)}
      {ht4 : DmaTarget.Typed .vmem (.dma sR4) (.remote (Dev.tc n5 : Thread nD τ) (slotM c : Memref sig .tc .vmem S2x512 .f32) (.dma sS4) hc4)}
      {ht1 : DmaTarget.Typed .vmem (.dma sR1) (.remote (Dev.tc n2 : Thread nD τ) (slotM c : Memref sig .tc .vmem S2x512 .f32) (.dma sS1) hc1)}
      {ht5 : DmaTarget.Typed .vmem (.dma sR5) (.remote (Dev.tc n6 : Thread nD τ) (slotM c : Memref sig .tc .vmem S2x512 .f32) (.dma sS5) hc5)}
      {ht0 : DmaTarget.Typed .vmem (.dma sR0) (.remote (Dev.tc n1 : Thread nD τ) (slotM c : Memref sig .tc .vmem S2x512 .f32) (.dma sS0) hc0)}
      {ht6 : DmaTarget.Typed .vmem (.dma sR6) (.remote (Dev.tc n7 : Thread nD τ) (slotM c : Memref sig .tc .vmem S2x512 .f32) (.dma sS6) hc6)}
      {α : Type} {k : PUnit → Prog (TpuEff nD τ sig (Elt F) Λ₀ .tc) α} {Q : α → sProp 𝕄} {P : sProp 𝕄}
      (h : iprop(mid2 m K c W ∗ P) ⊢ wp frame (wpE (defs₀ (F := F)) 𝒱₀ (c : Thread nD τ) none) Set.univ (k ⟨⟩) Q) :
      iprop(mid1 m K c W ∗ P) ⊢ wp frame (wpE (defs₀ (F := F)) 𝒱₀ (c : Thread nD τ) none) Set.univ
          (.op (.enqueueDma (slotM c) (.remote (Dev.tc n4 : Thread nD τ) (slotM c) (.dma sS3) hc3) (.dma sR3) hs3 hd3 ht3) fun _ =>
           .op (.enqueueDma (slotM c) (.remote (Dev.tc n3 : Thread nD τ) (slotM c) (.dma sS2) hc2) (.dma sR2) hs2 hd2 ht2) fun _ =>
           .op (.enqueueDma (slotM c) (.remote (Dev.tc n5 : Thread nD τ) (slotM c) (.dma sS4) hc4) (.dma sR4) hs4 hd4 ht4) fun _ =>
           .op (.enqueueDma (slotM c) (.remote (Dev.tc n2 : Thread nD τ) (slotM c) (.dma sS1) hc1) (.dma sR1) hs1 hd1 ht1) fun _ =>
           .op (.enqueueDma (slotM c) (.remote (Dev.tc n6 : Thread nD τ) (slotM c) (.dma sS5) hc5) (.dma sR5) hs5 hd5 ht5) fun _ =>
           .op (.enqueueDma (slotM c) (.remote (Dev.tc n1 : Thread nD τ) (slotM c) (.dma sS0) hc0) (.dma sR0) hs0 hd0 ht0) fun _ =>
           .op (.enqueueDma (slotM c) (.remote (Dev.tc n7 : Thread nD τ) (slotM c) (.dma sS6) hc6) (.dma sR6) hs6 hd6 ht6) k) Q := by
  unfold mid1 restA
  iintro ⟨⟨#Hrec, HO, Hown, Hdst, Hx, HtS, HtR, HcR, HatS, HatR, HatRc, Hg, Hb, Hout⟩, HP⟩
  iapply (sends_steps m K c (insert (SemLoc.reg barS, ()) W) e4 e3 e5 e2 e6 e1 e7 hS3 hS2 hS4 hS1 hS5 hS0 hS6 hR3 hR2 hR4 hR1 hR5 hR0 hR6)
  isplitr; · iexact Hrec
  isplitl [HO]; · iexact HO
  isplitl [Hown]; · iexact Hown
  isplitl [Hdst]; · iexact Hdst
  isplitl [HtS]; · iexact HtS
  isplitl [HtR]; · iexact HtR
  iintro ⟨HO, HcS, Hkept⟩
  iapply h
  isplitr [HP]
  · unfold mid2
    isplitr; · iexact Hrec
    isplitl [HO]; · iexact HO
    isplitl [HcS]; · iexact HcS
    isplitl [Hkept]; · iexact Hkept
    isplitl [Hx]; · iexact Hx
    isplitl [HcR]; · iexact HcR
    isplitl [HatS]; · iexact HatS
    isplitl [HatR]; · iexact HatR
    isplitl [HatRc]; · iexact HatRc
    isplitl [Hg]; · iexact Hg
    isplitl [Hb]; · iexact Hb
    iexact Hout
  · iexact HP

/-- The operand loads, the seven receive waits with the loads of the slots they bring, the result's store. -/
theorem stageC (K : Dev nD × Fin 16 → ℕ) (c : Dev nD) (W : Waits sig Unit) (v33 : FVec F S512x256 .f32) (hv : v33 = k0_pay1 (xv m c))
      {q1 q7 q2 q6 q3 q5 q4 : DmaSem sig}
      (hq1 : q1 = recvS (nb c 1)) (hq7 : q7 = recvS (nb c 7)) (hq2 : q2 = recvS (nb c 2)) (hq6 : q6 = recvS (nb c 6))
      (hq3 : q3 = recvS (nb c 3)) (hq5 : q5 = recvS (nb c 5)) (hq4 : q4 = recvS (nb c 4))
      {a1 b1 a7 b7 a2 b2 a6 b6 a3 b3 a5 b5 a4 b4 : Memref sig .tc .vmem S2x512 .f32}
      {ha1 : a1.view.WordExact} {hb1 : b1.view.WordExact} {ha7 : a7.view.WordExact} {hb7 : b7.view.WordExact}
      {ha2 : a2.view.WordExact} {hb2 : b2.view.WordExact} {ha6 : a6.view.WordExact} {hb6 : b6.view.WordExact}
      {ha3 : a3.view.WordExact} {hb3 : b3.view.WordExact} {ha5 : a5.view.WordExact} {hb5 : b5.view.WordExact}
      {ha4 : a4.view.WordExact} {hb4 : b4.view.WordExact}
      {hlg : (gM : Memref sig .tc .vmem S256 .f32).view.LoadsAt rV.toLoadRect} {hlb : (bM : Memref sig .tc .vmem S256 .f32).view.LoadsAt rV.toLoadRect}
      {hlo : (scrM : Memref sig .tc .vmem S8x2x512 .f32).view.LoadsAt (rOwn c).toLoadRect}
      {hl0 : scrM.view.LoadsAt (rPeer c 0).toLoadRect} {hl6 : scrM.view.LoadsAt (rPeer c 6).toLoadRect} {hl1 : scrM.view.LoadsAt (rPeer c 1).toLoadRect}
      {hl5 : scrM.view.LoadsAt (rPeer c 5).toLoadRect} {hl2 : scrM.view.LoadsAt (rPeer c 2).toLoadRect} {hl4 : scrM.view.LoadsAt (rPeer c 4).toLoadRect}
      {hl3 : scrM.view.LoadsAt (rPeer c 3).toLoadRect}
      {hlout : (oM : Memref sig .tc .vmem S512x256 .f32).view.LoadsAt rX.toLoadRect}
      {hx : (oM.access rX).Stores Finset.univ} {hm : (Finset.univ : Finset rX.shape.Idx) = Finset.univ ∨ ∀ a, rX.stride a = 1}
      {α : Type} {k : PUnit → Prog (TpuEff nD τ sig (Elt F) Λ₀ .tc) α} {Q : α → sProp 𝕄} {P : sProp 𝕄}
      (h : ∀ W' : Waits sig Unit, iprop(mid3 m K c W' ∗ P) ⊢ wp frame (wpE (defs₀ (F := F)) 𝒱₀ (c : Thread nD τ) none) Set.univ (k ⟨⟩) Q) :
      iprop(mid2 m K c W ∗ P) ⊢ wp frame (wpE (defs₀ (F := F)) 𝒱₀ (c : Thread nD τ) none) Set.univ
          (.op (.load gM rV.toLoadRect hlg) fun xg => .op (.load bM rV.toLoadRect hlb) fun xb =>
           .op (.load scrM (rOwn c).toLoadRect hlo) fun x14 =>
           .op (.waitDma2 q1 a1 b1 ha1 hb1) fun _ => .op (.load scrM (rPeer c 0).toLoadRect hl0) fun x16 =>
           .op (.waitDma2 q7 a7 b7 ha7 hb7) fun _ => .op (.load scrM (rPeer c 6).toLoadRect hl6) fun x18 =>
           .op (.waitDma2 q2 a2 b2 ha2 hb2) fun _ => .op (.load scrM (rPeer c 1).toLoadRect hl1) fun x20 =>
           .op (.waitDma2 q6 a6 b6 ha6 hb6) fun _ => .op (.load scrM (rPeer c 5).toLoadRect hl5) fun x22 =>
           .op (.waitDma2 q3 a3 b3 ha3 hb3) fun _ => .op (.load scrM (rPeer c 2).toLoadRect hl2) fun x24 =>
           .op (.waitDma2 q5 a5 b5 ha5 hb5) fun _ => .op (.load scrM (rPeer c 4).toLoadRect hl4) fun x26 =>
           .op (.waitDma2 q4 a4 b4 ha4 hb4) fun _ => .op (.load scrM (rPeer c 3).toLoadRect hl3) fun x28 =>
           .op (.load oM rX.toLoadRect hlout) fun _ =>
           .op (.store oM rX (k0_pay12 (k0_pay10 (k0_pay4 xg) (k0_pay6 v33 xg) (k0_pay9 (k0_pay8 (k0_pay7 x14 x16) x18 x20) x22 x24) x26 x28)
                  (k0_pay11 (k0_pay5 xb))) Finset.univ hx hm) k) Q := by
  unfold mid2
  iintro ⟨⟨#Hrec, HO, HcS, Hkept, Hx, HcR, HatS, HatR, HatRc, Hg, Hb, Hout⟩, HP⟩
  iapply (mid_steps m K c (insert (SemLoc.reg barS, ()) W) v33 hv hq1 hq7 hq2 hq6 hq3 hq5 hq4 (credit_any b1) (credit_any b7) (credit_any b2) (credit_any b6) (credit_any b3) (credit_any b5) (credit_any b4))
  isplitr; · iexact Hrec
  isplitl [HO]; · iexact HO
  isplitl [HcR]; · iexact HcR
  isplitl [HatR]; · iexact HatR
  isplitl [Hkept]; · iexact Hkept
  isplitl [Hg]; · iexact Hg
  isplitl [Hb]; · iexact Hb
  isplitl [Hout]; · iexact Hout
  iintro %W2 ⟨HO, HatR, Hkept, Hslots, Hg, Hb, Hout⟩
  iapply (h W2)
  isplitr [HP]
  · unfold mid3
    isplitr; · iexact Hrec
    isplitl [HO]; · iexact HO
    isplitl [HcS]; · iexact HcS
    isplitl [HatS]; · iexact HatS
    isplitl [HatR]; · iexact HatR
    isplitl [HatRc]; · iexact HatRc
    isplitl [Hkept]; · iexact Hkept
    isplitl [Hslots]; · iexact Hslots
    isplitl [Hx]; · iexact Hx
    isplitl [Hg]; · iexact Hg
    isplitl [Hb]; · iexact Hb
    iexact Hout
  · iexact HP

/-- The seven send waits, the read shares rejoined, the fifteen own cells closed, the scratch array whole again. -/
theorem stageD (K : Dev nD × Fin 16 → ℕ) (c : Dev nD) (W : Waits sig Unit)
      {u3 u2 u4 u1 u5 u0 u6 : DmaSem sig} (g3 : u3 = sendS 3) (g2 : u2 = sendS 2) (g4 : u4 = sendS 4) (g1 : u1 = sendS 1)
      (g5 : u5 = sendS 5) (g0 : u0 = sendS 0) (g6 : u6 = sendS 6)
      {s3 d3 s2 d2 s4 d4 s1 d1 s5 d5 s0 d0 s6 d6 : Memref sig .tc .vmem S2x512 .f32}
      {hs3 : s3.view.WordExact} {hd3 : d3.view.WordExact} {hs2 : s2.view.WordExact} {hd2 : d2.view.WordExact}
      {hs4 : s4.view.WordExact} {hd4 : d4.view.WordExact} {hs1 : s1.view.WordExact} {hd1 : d1.view.WordExact}
      {hs5 : s5.view.WordExact} {hd5 : d5.view.WordExact} {hs0 : s0.view.WordExact} {hd0 : d0.view.WordExact}
      {hs6 : s6.view.WordExact} {hd6 : d6.view.WordExact}
      (Kt : PUnit → sProp 𝕄) :
      iprop(mid3 m K c W ∗ (bodyPost m c -∗ Kt ⟨⟩)) ⊢ wp frame (wpE (defs₀ (F := F)) 𝒱₀ (c : Thread nD τ) none) Set.univ
          (.op (.waitDma2 u3 s3 d3 hs3 hd3) fun _ => .op (.waitDma2 u2 s2 d2 hs2 hd2) fun _ =>
           .op (.waitDma2 u4 s4 d4 hs4 hd4) fun _ => .op (.waitDma2 u1 s1 d1 hs1 hd1) fun _ =>
           .op (.waitDma2 u5 s5 d5 hs5 hd5) fun _ => .op (.waitDma2 u0 s0 d0 hs0 hd0) fun _ =>
           .op (.waitDma2 u6 s6 d6 hs6 hd6) fun _ => .ret ⟨⟩) Kt := by
  subst g3 g2 g4 g1 g5 g0 g6
  unfold mid3
  iintro ⟨⟨#Hrec, HO, HcS, HatS, HatR, HatRc, Hkept, Hslots, Hx, Hg, Hb, Hout⟩, Hk⟩
  iapply (tail_steps m K c W (credit_any d3) (credit_any d2) (credit_any d4) (credit_any d1) (credit_any d5) (credit_any d0) (credit_any d6) Kt)
  isplitr; · iexact Hrec
  isplitl [HO]; · iexact HO
  isplitl [HcS]; · iexact HcS
  isplitl [HatS]; · iexact HatS
  isplitl [HatR]; · iexact HatR
  isplitl [HatRc]; · iexact HatRc
  isplitl [Hkept]; · iexact Hkept
  isplitl [Hslots]; · iexact Hslots
  isplitl [Hx]; · iexact Hx
  isplitl [Hg]; · iexact Hg
  isplitl [Hb]; · iexact Hb
  isplitl [Hout]; · iexact Hout
  iexact Hk

/-! ## The body -/

set_option maxHeartbeats 1600000 in
/-- The body on device `c`, from `bodyPre` to `bodyPost`: its four stretches in program order. -/
theorem sound_body (K : Dev nD × Fin 16 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  refine stageA m K c (dev1_eq c) (dev2_eq c) (dev3_eq c) (dev4_eq c) (dev5_eq c) (dev6_eq c) (dev7_eq c) (fun W => ?_)
  refine stageB m K c W (dev8_eq c) (dev9_eq c) (dev10_eq c) (dev11_eq c) (dev12_eq c) (dev13_eq c) (dev14_eq c)
    send_sem_3 send_sem_2 send_sem_4 send_sem_1 send_sem_5 send_sem_0 send_sem_6
    (recv_sem_own c) (recv_sem_own c) (recv_sem_own c) (recv_sem_own c) (recv_sem_own c) (recv_sem_own c) (recv_sem_own c) ?_
  refine stageC m K c W _ rfl (recv_sem_nb c 0) (recv_sem_nb c 6) (recv_sem_nb c 1) (recv_sem_nb c 5) (recv_sem_nb c 2) (recv_sem_nb c 4)
    (recv_sem_nb c 3) (fun W2 => ?_)
  exact stageD m K c W2 send_sem_3 send_sem_2 send_sem_4 send_sem_1 send_sem_5 send_sem_0 send_sem_6 Kt

/-- info: 'Cert.Kernel.Proto.sound_body' depends on axioms: [propext, Classical.choice, Quot.sound] -/
#guard_msgs in #print axioms sound_body

end Cert.Kernel.Proto

end
-- ==== Proof.Bits.Launch.lean ====
/-
  The launch of the statistics exchange: from one device's body to the run of the whole eight-device program.

  Every device's sixteen semaphore cells are funded at once: each cell in its launch state with round 0 reached, its owner's
  position, and one token per (cell, duty name). The counters at zero turn each launch state into the cell's invariant; the
  invariants and the reached-round facts of ALL devices are persistent and shared. The tokens are then dealt to the devices that
  PAY the duties: duty j of a barrier cell goes to the device the owner lies j + 1 after, the duty of the receive cell for
  sender s goes to s, the duty of a send cell stays with its owner. Going j + 1 steps round the ring is a bijection of the
  devices, so each of these deals is a reindexing of one product over the devices; tokens nobody needs are dropped.
-/
import proofs.«900544_g7700000000000545_dist_layernorm_colshard_i_m512_n256_v7x_i8_f32_1_alg».proof.Proof.Bits.Body
import proofs.«900544_g7700000000000545_dist_layernorm_colshard_i_m512_n256_v7x_i8_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)
variable (ρ : Dev nD → PrngReg)

/-! ## The body obligation: the library's form of one device's body lemma -/

theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

/-- A whole staging buffer held at contents `X` is its points-to at a buffer equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at its one point: the invariant before it, what the device owes, the four staging buffers. -/
def bodyPre' (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

set_option maxRecDepth 8000 in
/-- The library's body obligation on device `c`: the body lemma, its precondition regrouped. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hcr, Hlev⟩, Hscr⟩, Ho, Hx, Hga, Hbe, Hout⟩
  iapply (sound_body m K c fun _ => bodyPost m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hga]; · iexact Hga
    isplitl [Hbe]; · iexact Hbe
    iexact Hout
  · iintro H; iexact H

/-! ## The launch: cells, tokens, and what the launch element deals each device -/

theorem ownSemFacts : Pipeline.OwnSemFacts cfg0.spec osem := by decide

theorem share_eq (c : Dev nD) (w : Fin cfg0.W) : (dats m 0 c).share w = fullShare := by unfold Dat.share; split <;> rfl

/-- A cell's semaphore determines its number among a device's sixteen. -/
theorem csem_injective : Function.Injective csem := by decide

theorem kcell_injective : Function.Injective (kcell : Dev nD × Fin 16 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- The exchange's cells: sixteen per device. -/
def ringCells : Finset (GSem nD τ sig) := Finset.univ.map ⟨kcell, kcell_injective⟩

/-- One token per cell and duty name, all of round 0. -/
abbrev tokOf (x : Dev nD × Fin 16 × Fin 7) : GSem nD τ sig × ℕ × Fin 7 := (kcell (x.1, x.2.1), 0, x.2.2)

theorem tokOf_injective : Function.Injective (tokOf : Dev nD × Fin 16 × Fin 7 → GSem nD τ sig × ℕ × Fin 7) := by
  rintro ⟨c, k, d⟩ ⟨c', k', d'⟩ h
  have h1 : (c, k) = (c', k') := kcell_injective (congrArg (fun x : GSem nD τ sig × ℕ × Fin 7 => x.1) h)
  have h2 : d = d' := congrArg (fun x : GSem nD τ sig × ℕ × Fin 7 => x.2.2) h
  obtain ⟨rfl, rfl⟩ := Prod.mk.inj h1
  subst h2; rfl

def ringToks : Finset (GSem nD τ sig × ℕ × Fin 7) := Finset.univ.map ⟨tokOf, tokOf_injective⟩

/-- The launch element: the pipeline's cells and tokens, and the exchange's. -/
def u₀ : UU :=
  (initOf (Pipeline.cells cfgs cellOf_inj) (Pipeline.launchToks cfgs cellOf_inj), initOf ringCells ringToks)

/-- The token of duty `kd.2` of device `c`'s cell number `kd.1`. -/
abbrev tokAt (c : Dev nD) (kd : Fin 16 × Fin 7) : sProp 𝕄 := dutyTok ER (kcell (c, kd.1)) 0 kd.2

/-- The tokens minted on device `c`'s own cells: every duty name of every cell. -/
def ownToks (c : Dev nD) : sProp 𝕄 := bigSep Finset.univ fun k : Fin 16 => bigSep Finset.univ fun d : Fin 7 => tokAt (F := F) c (k, d)

/-- What the launch element deals device `c`: its sixteen cells' launch states, positions and reached-round facts, and the
    tokens minted on its cells. -/
def G (c : Dev nD) : sProp 𝕄 :=
  iprop((bigSep Finset.univ fun k : Fin 16 => roundState ER (Rd m) (kcell (c, k)) 0)
    ∗ (bigSep Finset.univ fun k : Fin 16 => iprop(atPos ER (kcell (c, k)) 0 ∅ 0 ∗ reached ER (kcell (c, k)) 0)) ∗ ownToks c)

/-- What the global step makes of it: the device's ghost state, under some naming of the invariants. -/
def G' (c : Dev nD) : sProp 𝕄 := iprop(∃ K, ghost m K c)

/-- Funding the exchange's cells: the products over cells and over tokens, regrouped by device. -/
theorem fund : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 16 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The counters at zero: fifteen own semaphores and the barrier semaphore -/

theorem bigSep_fin16_succ (Φ : Fin 16 → sProp 𝕄) :
    bigSep Finset.univ Φ = iprop(Φ 0 ∗ bigSep Finset.univ fun i : Fin 15 => Φ i.succ) := by
  rw [bigSep_univ_at Φ 0, show Finset.univ.erase (0 : Fin 16) = (Finset.univ : Finset (Fin 15)).map ⟨Fin.succ, Fin.succ_injective _⟩ from by decide,
    bigSep_map]
  rfl

/-- Cell number `i + 1` is the own semaphore number `i`. -/
theorem csem_succ : ∀ i : Fin 15, csem i.succ = osem i := by decide

/-- The own semaphores at zero, one by one. -/
theorem ownSems0_eq (c : Dev nD) : (Pipeline.ownSems0 (Ix := Unit) (Name := ℕ) (U := UU) (Lvl := ℕ) (Val := Elt F) (τ := τ) osem c : sProp 𝕄)
    = bigSep Finset.univ fun i : Fin 15 => semVal ((c : Thread nD τ), osem i) 0 := rfl

/-- The barrier semaphore is the one semaphore the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 16 => semVal (kcell (c, k)) 0 : sProp 𝕄) := by
  have h : (fun i : Fin 15 => (semVal (kcell (c, i.succ)) 0 : sProp 𝕄)) = fun i => semVal ((c : Thread nD τ), osem i) 0 :=
    funext fun i => by show semVal ((c : Thread nD τ), csem i.succ) 0 = _; rw [csem_succ]
  rw [ownSems0_eq, unscopedSems0_eq, bigSep_fin16_succ, h]
  iintro ⟨HS, HB⟩
  isplitl [HB]; · iexact HB
  iexact HS

/-- Each of a device's sixteen cells, its counter at zero and its launch state, becomes the cell's invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 16 => iprop(∃ κ : ℕ, cellInv ER (Rd m) κ (kcell (c, k))))
          ∗ (bigSep Finset.univ fun k : Fin 16 => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 16 => semVal (kcell (c, k)) 0) ∗ bigSep Finset.univ fun k : Fin 16 => roundState ER (Rd m) (kcell (c, k)) 0)
      ⊢ (|={Set.univ}=> bigSep Finset.univ fun k : Fin 16 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt around the ring -/

/-- Of the tokens minted on a device's cells, the ones somebody pays with: every duty of its barrier cell, duty 0 of each send
    cell, duty 0 of each receive cell. -/
abbrev pick : Fin 7 ⊕ (Fin 7 ⊕ Dev nD) → Fin 16 × Fin 7
  | .inl d => ((0 : Fin 16), d)
  | .inr (.inl j) => (⟨j.val + 1, by omega⟩, (0 : Fin 7))
  | .inr (.inr s) => (⟨s.val + 8, by have h := s.isLt; change s.val < 8 at h; omega⟩, (0 : Fin 7))

theorem pick_injective : Function.Injective pick := by decide

theorem own_split (c : Dev nD) : (ownToks c : sProp 𝕄) ⊢ iprop((bigSep Finset.univ fun d : Fin 7 => dutyTok ER (barCell c) 0 d)
    ∗ (bigSep Finset.univ fun j : Fin 7 => dutyTok ER (sendCell c j) 0 (0 : Fin 7))
    ∗ (bigSep Finset.univ fun s : Dev nD => dutyTok ER (recvCell c s) 0 (0 : Fin 7))) := by
  unfold ownToks
  rw [← bigSep_univ_prod (tokAt (F := F) c)]
  refine (bigSep_subset (Finset.subset_univ (Finset.univ.map ⟨pick, pick_injective⟩))).trans ?_
  rw [bigSep_map, bigSep_univ_sum, bigSep_univ_sum]
  refine sep_mono (Entails.of_eq rfl) (sep_mono (Entails.of_eq (bigSep_congr fun j _ => ?_)) (Entails.of_eq (bigSep_congr fun s _ => ?_)))
  · show dutyTok ER (kcell (c, ⟨j.val + 1, _⟩)) 0 (0 : Fin 7) = _
    rw [kcell_send]
  · show dutyTok ER (kcell (c, ⟨s.val + 8, _⟩)) 0 (0 : Fin 7) = _
    rw [kcell_recv]

/-- Going back `7 - j` steps from `p` reaches seven different devices. -/
theorem back_injective (p : Dev nD) : Function.Injective fun j : Fin 7 => nb p (7 - j.val) := by revert p; decide

/-- Of a product over all devices, the seven factors at the devices `7 - j` steps after `p`. -/
theorem recv_pick (p : Dev nD) (Φ : Dev nD → sProp 𝕄) : bigSep Finset.univ Φ ⊢ bigSep Finset.univ fun j : Fin 7 => Φ (nb p (7 - j.val)) := by
  have h := bigSep_subset (Φ := Φ) (Finset.subset_univ (Finset.univ.map ⟨fun j : Fin 7 => nb p (7 - j.val), back_injective p⟩))
  rw [bigSep_map] at h
  exact h

/-- A barrier cell's token `j` goes to the device the owner lies `j + 1` after; -/
theorem bar_around : (bigSep Finset.univ fun c : Dev nD => bigSep Finset.univ fun d : Fin 7 => (dutyTok ER (barCell c) 0 d : sProp 𝕄))
    = bigSep Finset.univ fun c : Dev nD => bigSep Finset.univ fun j : Fin 7 => dutyTok ER (barCell (nb c (j.val + 1))) 0 j :=
  (bigSep_univ_comm (fun (c : Dev nD) (d : Fin 7) => (dutyTok ER (barCell c) 0 d : sProp 𝕄))).trans
    ((bigSep_congr fun j _ => bigSep_univ_equiv (ring j) (fun c : Dev nD => (dutyTok ER (barCell c) 0 j : sProp 𝕄))).trans
      (bigSep_univ_comm (fun (c : Dev nD) (j : Fin 7) => (dutyTok ER (barCell (nb c (j.val + 1))) 0 j : sProp 𝕄))).symm)

/-- the token of the receive cell for sender `s` goes to `s`. -/
theorem recv_around : (bigSep Finset.univ fun p : Dev nD => bigSep Finset.univ fun s : Dev nD => (dutyTok ER (recvCell p s) 0 (0 : Fin 7) : sProp 𝕄))
    ⊢ bigSep Finset.univ fun c : Dev nD => bigSep Finset.univ fun j : Fin 7 => dutyTok ER (recvCell (nb c (j.val + 1)) c) 0 (0 : Fin 7) := by
  have heq : (bigSep Finset.univ fun p : Dev nD => bigSep Finset.univ fun j : Fin 7 => (dutyTok ER (recvCell p (nb p (7 - j.val))) 0 (0 : Fin 7) : sProp 𝕄))
      = bigSep Finset.univ fun c : Dev nD => bigSep Finset.univ fun j : Fin 7 => dutyTok ER (recvCell (nb c (j.val + 1)) c) 0 (0 : Fin 7) := by
    refine (bigSep_univ_comm (fun (p : Dev nD) (j : Fin 7) => (dutyTok ER (recvCell p (nb p (7 - j.val))) 0 (0 : Fin 7) : sProp 𝕄))).trans ?_
    refine Eq.trans ?_ (bigSep_univ_comm (fun (c : Dev nD) (j : Fin 7) => (dutyTok ER (recvCell (nb c (j.val + 1)) c) 0 (0 : Fin 7) : sProp 𝕄))).symm
    refine bigSep_congr fun j _ => ?_
    refine (bigSep_univ_equiv (ring j) (fun p : Dev nD => (dutyTok ER (recvCell p (nb p (7 - j.val))) 0 (0 : Fin 7) : sProp 𝕄))).trans ?_
    refine bigSep_congr fun c _ => ?_
    show dutyTok ER (recvCell (nb c (j.val + 1)) (nb (nb c (j.val + 1)) (7 - j.val))) 0 (0 : Fin 7) = _
    rw [nb_nb]
  rw [← heq]
  exact bigSep_mono fun p _ => recv_pick p fun s => dutyTok ER (recvCell p s) 0 (0 : Fin 7)

/-- The three deals at once: barrier tokens, receive tokens, and the send tokens that stay where they are. -/
theorem toks_deal :
    iprop((bigSep Finset.univ fun c : Dev nD => bigSep Finset.univ fun d : Fin 7 => dutyTok ER (barCell c) 0 d)
      ∗ (bigSep Finset.univ fun c : Dev nD => bigSep Finset.univ fun j : Fin 7 => dutyTok ER (sendCell c j) 0 (0 : Fin 7))
      ∗ (bigSep Finset.univ fun c : Dev nD => bigSep Finset.univ fun s : Dev nD => dutyTok ER (recvCell c s) 0 (0 : Fin 7)))
    ⊢ (iprop((bigSep Finset.univ fun c : Dev nD => bigSep Finset.univ fun j : Fin 7 => dutyTok ER (barCell (nb c (j.val + 1))) 0 j)
      ∗ (bigSep Finset.univ fun c : Dev nD => bigSep Finset.univ fun j : Fin 7 => dutyTok ER (recvCell (nb c (j.val + 1)) c) 0 (0 : Fin 7))
      ∗ (bigSep Finset.univ fun c : Dev nD => bigSep Finset.univ fun j : Fin 7 => dutyTok ER (sendCell c j) 0 (0 : Fin 7))) : sProp 𝕄) := by
  rw [bar_around]
  iintro ⟨HA, HS, HR⟩
  isplitl [HA]; · iexact HA
  isplitl [HR]
  · iapply (recv_around (F := F)); iexact HR
  iexact HS

/-- The tokens minted on each device's cells, dealt to the devices that pay the duties. -/
theorem toks_around : (bigSep Finset.univ fun c : Dev nD => (ownToks c : sProp 𝕄)) ⊢ bigSep Finset.univ fun c : Dev nD => payToks c := by
  refine (bigSep_mono fun c _ => own_split (F := F) c).trans ?_
  unfold payToks
  rw [bigSep_sep', bigSep_sep', bigSep_sep', bigSep_sep']
  exact toks_deal (F := F)

theorem ghost_intro (K : Dev nD × Fin 16 → ℕ) (c : Dev nD) : iprop(records m K ∗ linear c) ⊢ G' m c := by
  unfold G' ghost
  iintro H; iexists K; iexact H

/-- All devices' invariants and reached-round facts, shared; each device's positions and the tokens it pays with. -/
theorem regroup :
    (bigSep Finset.univ fun c : Dev nD => iprop((bigSep Finset.univ fun k : Fin 16 => iprop(∃ κ : ℕ, cellInv ER (Rd m) κ (kcell (c, k))))
          ∗ (bigSep Finset.univ fun k : Fin 16 => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Fin 16 => iprop(∃ κ : ℕ, cellInv ER (Rd m) κ (kcell ck))),
    bigSep_congr (s := Finset.univ) (fun (c : Dev nD) _ => bigSep_sep' Finset.univ (fun k : Fin 16 => (atPos ER (kcell (c, k)) 0 ∅ 0 : sProp 𝕄)) (fun k => reached ER (kcell (c, k)) 0)),
    bigSep_sep', ← bigSep_univ_prod (fun ck : Dev nD × Fin 16 => (reached ER (kcell ck) 0 : sProp 𝕄))]
  iintro ⟨HI, ⟨Hat, #HR⟩, Htok⟩
  ihave HK := (BI.bigSep_exists_pi Finset.univ (fun (ck : Dev nD × Fin 16) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 16 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' launchCreds
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scrAny
  iintro ⟨Hr, Hz⟩
  isplitr; · iempintro
  isplitl [Hz]; · iexact Hz
  iexact Hr

/-- The pipeline's four staging semaphores are below the send semaphores. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the eight devices, for any float values, from any memory with every counter at zero: every weakly fair execution of the
    program terminates, and in every final state each device's four windowed arrays hold the computed contents. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The three input arrays hold after the run what they held. -/
theorem finalA_x (c : Dev nD) : finalA m c (0 : Fin 4) = m ((c : Thread nD τ).loc main_arg0) :=
  (dats (F := F) m 0 c).arrAt_in (0 : Fin 4) rfl _
theorem finalA_g (c : Dev nD) : finalA m c (1 : Fin 4) = m ((c : Thread nD τ).loc main_arg1) :=
  (dats (F := F) m 0 c).arrAt_in (1 : Fin 4) rfl _
theorem finalA_b (c : Dev nD) : finalA m c (2 : Fin 4) = m ((c : Thread nD τ).loc main_arg2) :=
  (dats (F := F) m 0 c).arrAt_in (2 : Fin 4) rfl _

/-- The output array holds the block the body left in its staging buffer: the one write-back covers the whole array. -/
theorem finalA_out (c : Dev nD) : finalA m c (3 : Fin 4) = outAt m c := by
  unfold finalA
  show (dats m 0 c).arrAt (3 : Fin 4) (t₀.val + 1) = _
  rw [Dat.arrAt_succ, if_pos (flush0_3 t₀)]
  exact Memref.write_access_unit_zero_univ (Elt F) main_v1 (funext fun a => Nat.zero_mul _) _ _ _

theorem kernel_run : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) (s₀ m ρ)).mono
    (fun r h c => ⟨(h c (3 : Fin 4)).trans (finalA_out m c), (h c (0 : Fin 4)).trans (finalA_x m c),
      (h c (1 : Fin 4)).trans (finalA_g m c), (h c (2 : Fin 4)).trans (finalA_b m c)⟩) (run_main m ρ)

/-- info: 'Cert.Kernel.Proto.kernel_run' depends on axioms: [propext, Classical.choice, Quot.sound] -/
#guard_msgs in #print axioms kernel_run

end Cert.Kernel.Proto

end
-- ==== Proof.RefRun.lean ====
/-
  The one-device layer-normalisation reference as a straight line of host tensor operations, and what it
  leaves in memory.

  The program's entry point is a sequence of host tensor operations, one of which is a call of the variance
  function, which in turn calls the three-operation `where` function. A call means the callee's operations on
  the call's own buffers, so the entry point is one list of forty-four operations over the buffers the
  signature declares. A straight line of such operations, from any memory, ends with every buffer holding the
  fold of the operations' pure functions over the launch contents; read at the result buffer that fold is the
  term `result` below of the three argument arrays, and read at an argument buffer it is the argument itself,
  since no operation writes an argument.
-/
import proofs.«900544_g7700000000000545_dist_layernorm_colshard_i_m512_n256_v7x_i8_f32_1_alg».proof.ReferenceIdeal
import proofs.«900544_g7700000000000545_dist_layernorm_colshard_i_m512_n256_v7x_i8_f32_1_alg».proof.Proof.Gen.ReferenceIdeal
import Idealize.ShloMosaic.Lib.StableHlo
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The result as a pure term -/

/-- The row sums of a 512 × 2048 array (added to the zero literal), as a column: shape 512 × 1. -/
def rowSum (y : (⟨S512x2048, .f32⟩ : BufTy).Contents (Elt F)) : (⟨S512x1, .f32⟩ : BufTy).Contents (Elt F) :=
  broadcastInDim S512x1 ![0] bcast_S512_S512x1_0
    (Host.reduceAdd y (constant S_ .f32 0x00000000#32) reducesTo_S512x2048_S512_d1 h_S_)

/-- The row means: the row sums divided by the literal 2048, as a column. -/
def mean (x : (⟨S512x2048, .f32⟩ : BufTy).Contents (Elt F)) : (⟨S512x1, .f32⟩ : BufTy).Contents (Elt F) :=
  Host.divf (rowSum x) (broadcastInDim S512x1 ![] bcast_S_S512x1 (constant S_ .f32 0x45000000#32))

/-- Every entry less its row's mean. -/
def centred (x : (⟨S512x2048, .f32⟩ : BufTy).Contents (Elt F)) : (⟨S512x2048, .f32⟩ : BufTy).Contents (Elt F) :=
  subf x (broadcastInDim S512x2048 ![0, 1] bcast_S512x1_S512x2048_0_1 (mean x))

/-- The variance's divisor: the literal 2048 less the integer zero converted to a float (a scalar). -/
def count : (⟨S_, .f32⟩ : BufTy).Contents (Elt F) :=
  subf (constant S_ .f32 0x45000000#32) (sitofp .f32 (constantI S_ 32 0#32))

/-- The row variances, as a column: where the divisor is positive, the row sums of the squared centred
    entries divided by it; elsewhere the not-a-number literal. -/
def var (x : (⟨S512x2048, .f32⟩ : BufTy).Contents (Elt F)) : (⟨S512x1, .f32⟩ : BufTy).Contents (Elt F) :=
  select (broadcastInDim S512x1 ![] bcast_S_S512x1 (cmpf .ogt (count (F := F)) (constant S_ .f32 0x00000000#32)))
    (Host.divf (rowSum (mulf (centred x) (centred x))) (broadcastInDim S512x1 ![] bcast_S_S512x1 (count (F := F))))
    (broadcastInDim S512x1 ![] bcast_S_S512x1 (id (constant S_ .f32 0x7FC00000#32)))

/-- the reference's result as ONE pure term of its three argument arrays: the composition of @main's operations
    with the variance function and the `where` function inlined -/
def result (x : (⟨S512x2048, .f32⟩ : BufTy).Contents (Elt F)) (g b : (⟨S2048, .f32⟩ : BufTy).Contents (Elt F)) :
    (⟨S512x2048, .f32⟩ : BufTy).Contents (Elt F) :=
  addf
    (Host.divf
      (mulf (broadcastInDim S512x2048 ![0, 1] bcast_S1x2048_S512x2048_0_1 (broadcastInDim S1x2048 ![1] bcast_S2048_S1x2048_1 g))
        (centred x))
      (broadcastInDim S512x2048 ![0, 1] bcast_S512x1_S512x2048_0_1
        (Host.sqrt (addf (var x) (broadcastInDim S512x1 ![] bcast_S_S512x1 (constant S_ .f32 0x3727C5AC#32))))))
    (broadcastInDim S512x2048 ![0, 1] bcast_S1x2048_S512x2048_0_1 (broadcastInDim S1x2048 ![1] bcast_S2048_S1x2048_1 b))

/-! ## The program as a list of operations -/

/-- The entry point's operations in order, the calls unfolded: seven of its own (the first mean), the variance
    function's twenty into its call's buffers, the `where` function's three into its call's, then the entry point's
    remaining fourteen. -/
abbrev ops : List (HloOp τ sig (Elt F)) :=
  [ nullary main_cst (constant S_ .f32 0x00000000#32),
    binary main_arg0 main_cst main_v0 (fun x v => Host.reduceAdd x v reducesTo_S512x2048_S512_d1 h_S_),
    unary main_v0 main_v1 (broadcastInDim S512x1 ![0] bcast_S512_S512x1_0),
    nullary main_cst_0 (constant S_ .f32 0x45000000#32),
    unary main_cst_0 main_v2 (broadcastInDim S512x1 ![] bcast_S_S512x1),
    binary main_v1 main_v2 main_v3 Host.divf,
    nullary main_c (constantI S_ 32 0#32),
    TRef.nullary main_call0.cst (constant S_ .f32 0x00000000#32),
    TRef.binary (.of main_arg0) main_call0.cst main_call0.v0 (fun x v => Host.reduceAdd x v reducesTo_S512x2048_S512_d1 h_S_),
    TRef.unary main_call0.v0 main_call0.v1 (broadcastInDim S512x1 ![0] bcast_S512_S512x1_0),
    TRef.nullary main_call0.cst_0 (constant S_ .f32 0x45000000#32),
    TRef.unary main_call0.cst_0 main_call0.v2 (broadcastInDim S512x1 ![] bcast_S_S512x1),
    TRef.binary main_call0.v1 main_call0.v2 main_call0.v3 Host.divf,
    TRef.unary main_call0.v3 main_call0.v4 (broadcastInDim S512x2048 ![0, 1] bcast_S512x1_S512x2048_0_1),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x45000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S512x2048_S512_d1 h_S_),
    TRef.unary main_call0.v9 main_call0.v10 (broadcastInDim S512x1 ![0] bcast_S512_S512x1_0),
    TRef.unary main_call0.v8 main_call0.v11 (broadcastInDim S512x1 ![] bcast_S_S512x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S512x1 ![] bcast_S_S512x1),
    TRef.ternary main_call0.v13 main_call0.v12 main_call0.call0.v1 main_call0.call0.v2
      (fun p a b => select (broadcastInDim S512x1 ![] bcast_S_S512x1 p) a b),
    unary main_v3 main_v5 (broadcastInDim S512x2048 ![0, 1] bcast_S512x1_S512x2048_0_1),
    binary main_arg0 main_v5 main_v6 subf,
    unary main_arg1 main_v7 (broadcastInDim S1x2048 ![1] bcast_S2048_S1x2048_1),
    unary main_v7 main_v8 (broadcastInDim S512x2048 ![0, 1] bcast_S1x2048_S512x2048_0_1),
    binary main_v8 main_v6 main_v9 mulf,
    nullary main_cst_1 (constant S_ .f32 0x3727C5AC#32),
    unary main_cst_1 main_v10 (broadcastInDim S512x1 ![] bcast_S_S512x1),
    binary main_v4 main_v10 main_v11 addf,
    unary main_v11 main_v12 Host.sqrt,
    unary main_v12 main_v13 (broadcastInDim S512x2048 ![0, 1] bcast_S512x1_S512x2048_0_1),
    binary main_v9 main_v13 main_v14 Host.divf,
    unary main_arg2 main_v15 (broadcastInDim S1x2048 ![1] bcast_S2048_S1x2048_1),
    unary main_v15 main_v16 (broadcastInDim S512x2048 ![0, 1] bcast_S1x2048_S512x2048_0_1),
    binary main_v14 main_v16 main_v17 addf ]

set_option maxRecDepth 2048 in
/-- The entry point is that straight line: with the two functions' bodies unfolded at their calls, both sides are
    one chain of single-operation steps once sequencing is re-associated. -/
theorem main_eq (c : Dev nD) : main (F := F) c = seq ops := by
  simp only [main, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Read at the result buffer, the fold of the forty-four operations is `result` of the launch contents of the
    three argument buffers: each operation's value at its own buffer is its function of its operands' values,
    every other buffer keeps what it held, and the typed references' transports are identities at these buffers. -/
theorem out_eq (V : Valuation τ sig (Elt F)) :
    after ops V (main_v17 : DevRef τ sig)
      = result (V (main_arg0 : DevRef τ sig)) (V (main_arg1 : DevRef τ sig)) (V (main_arg2 : DevRef τ sig)) := by
  after_results_simp
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-- No operation writes the third argument's buffer. -/
theorem arg2_eq (V : Valuation τ sig (Elt F)) :
    after ops V (main_arg2 : DevRef τ sig) = V (main_arg2 : DevRef τ sig) := by
  after_results_simp

/-- Every operation touches TensorCore references only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub ..⟩

/-- On every device, for any float values, from any memory with zero counters: every weakly fair execution of the
    entry point terminates with the result buffer at `result` of the three arguments' launch contents and the three
    argument buffers unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v17) = result (m ((c.tc : Thread nD τ).loc main_arg0)) (m ((c.tc : Thread nD τ).loc main_arg1)) (m ((c.tc : Thread nD τ).loc main_arg2))
      ∧ (r.2.mem ((c.tc : Thread nD τ).loc main_arg0) = m ((c.tc : Thread nD τ).loc main_arg0)
         ∧ r.2.mem ((c.tc : Thread nD τ).loc main_arg1) = m ((c.tc : Thread nD τ).loc main_arg1)
         ∧ r.2.mem ((c.tc : Thread nD τ).loc main_arg2) = m ((c.tc : Thread nD τ).loc main_arg2))) :=
  (θ_run defs _ _).mono (fun _ h c => ⟨(h c main_v17).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

/-- info: 'Cert.ReferenceIdeal.RefRun.run' depends on axioms: [propext, Classical.choice, Quot.sound] -/
#guard_msgs in #print axioms run

end Cert.ReferenceIdeal.RefRun

end
-- ==== Proof.LnSpec.lean ====
/-
  Row-wise layer normalisation over a 512 × 2048 array whose 2048 columns lie in 8 blocks of 256, one per device.
  Two readings of one function, both over the extended reals:
  * the one-device reading: the row mean `μ = (∑ x) / 2048`, the centred second moment `σ² = (∑ (x - μ)²) / 2048`,
    and `γ · (x - μ) / √(σ² + ε) + β`;
  * the eight-device reading on device `c`: every device contributes the sums of its own 256 columns and of their squares,
    device `c` adds the eight contributions in the order `c, c+1, c+7, c+2, c+6, c+3, c+5, c+4` (indices mod 8), forms
    `μ = S₁ / 2048`, `σ² = S₂ / 2048 - μ²`, `ρ = 1 / √(σ² + ε)` and `(x · γ) · ρ - (μ · ρ) · γ + β`.
  On finite inputs the two agree: sums over the eight blocks in any order are the sum over all columns, the two forms of the
  variance are equal in a field and non-negative, and for a positive real `v`, `t / √v = t · (1 / √v)`.
-/
import Idealize.ShloMosaic.PureOps.Ideal
import Idealize.ShloMosaic.PureOps.Ideal.Laws

noncomputable section

namespace Cert.LnSpec

open Idealize.ShloMosaic

/-- The float literal `2048.0`, the divisor of both programs. -/
def nCols : EReal := Ideal.ofBits .f32 0x45000000#32
/-- The float literal nearest `1e-5`, added to the variance by both programs. -/
def eps : EReal := Ideal.ofBits .f32 0x3727C5AC#32

/-- Device `c`'s neighbour at ring distance `d`. -/
def nb (c : Fin 8) (d : Nat) : Fin 8 := ⟨(c.val + d) % 8, Nat.mod_lt _ (by decide)⟩

/-- Column `j` of device `d`'s block is column `d · 256 + j` of the whole array. -/
def col (d : Fin 8) (j : Fin 256) : Fin 2048 := ⟨d.val * 256 + j.val, by have := d.isLt; have := j.isLt; omega⟩

variable (x : Fin 512 → Fin 2048 → EReal) (g b : Fin 2048 → EReal)

/-! ### The one-device reading -/

def rMean (r : Fin 512) : EReal := Ideal.div (∑ j, x r j) nCols
def rVar (r : Fin 512) : EReal := Ideal.div (∑ j, (x r j - rMean x r) * (x r j - rMean x r)) nCols
def rOut (r : Fin 512) (k : Fin 2048) : EReal :=
  Ideal.div (g k * (x r k - rMean x r)) (Ideal.sqrt (rVar x r + eps)) + b k

/-! ### The eight-device reading -/

/-- Device `d`'s two contributions for row `r`: the sum of its columns and of their squares. -/
def part1 (d : Fin 8) (r : Fin 512) : EReal := ∑ j : Fin 256, x r (col d j)
def part2 (d : Fin 8) (r : Fin 512) : EReal := ∑ j : Fin 256, x r (col d j) * x r (col d j)

/-- The eight contributions added in device `c`'s order. -/
def tot (p : Fin 8 → Fin 512 → EReal) (c : Fin 8) (r : Fin 512) : EReal :=
  p c r + p (nb c 1) r + p (nb c 7) r + p (nb c 2) r + p (nb c 6) r + p (nb c 3) r + p (nb c 5) r + p (nb c 4) r

def kMean (c : Fin 8) (r : Fin 512) : EReal := Ideal.div (tot (part1 x) c r) nCols
def kVar (c : Fin 8) (r : Fin 512) : EReal := Ideal.div (tot (part2 x) c r) nCols - kMean x c r * kMean x c r
def kRstd (c : Fin 8) (r : Fin 512) : EReal := Ideal.rsqrt (kVar x c r + eps)
def kOut (c : Fin 8) (r : Fin 512) (k : Fin 2048) : EReal :=
  x r k * g k * kRstd x c r - kMean x c r * kRstd x c r * g k + b k

end Cert.LnSpec

end
-- ==== Proof.KValue.lean ====
/-
  The result block a device stores, read at one index, over the extended reals.

  Every device holds 256 of the 2048 columns of a 512 × 2048 array `x`, and the matching 256 entries of a scale and a
  shift. The stored block is one pure term over the values the device's loads return. Read at row `r` and local column
  `j` it is the eight-device reading of layer normalisation at row `r` and column `c · 256 + j` of the arrays assembled
  from the eight devices' blocks:
  * a lane sum over the 256 local columns of a row is a finite sum; the two rows of statistics a device writes into
    its slot of the exchange array are its sum of the row and its sum of the row's squares;
  * a load of a slot reads those two rows back, because the two stored rows cover the slot;
  * the eight slots are added in the order own, then ring distances 1, 7, 2, 6, 3, 5, 4;
  * the rest is pointwise: division by the literal 2048, the variance as second moment minus squared mean, the
    reciprocal square root after adding the small constant, and `(x · γ) · ρ - (μ · ρ) · γ + β`, where a row quantity
    is spread over the columns and a column quantity over the rows by unit-axis casts and broadcasts.
-/
import proofs.«900544_g7700000000000545_dist_layernorm_colshard_i_m512_n256_v7x_i8_f32_1_alg».proof.Proof.ProtoBase
import proofs.«900544_g7700000000000545_dist_layernorm_colshard_i_m512_n256_v7x_i8_f32_1_alg».proof.Proof.LnSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Proto
open Idealize.ShloMosaic.ValueIdx

/-! ## Unit axes added on the right, and a column spread over the columns -/

section Layout
variable {α : Type}

/-- An `[a]` array cast to `[a, 1]` reads, at `(i, u)`, the operand at `i`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The reciprocal square root of a vector, read at an index, is that of the element. -/
theorem rsqrt_apply {s : Shape} {φ : FTy} (a : FVec Ideal s φ) (i : s.Idx) : rsqrt a i = Ideal.rsqrt (a i) := rfl

/-! ## The payloads at an index -/

/-- A cast to the same shape changes nothing. -/
theorem pay1_eq (v : Vec Ideal S512x256 .f32) : k0_pay1 v = v := by
  unfold k0_pay1; exact shapeCast_self v _
theorem pay4_eq (v : Vec Ideal S256 .f32) : k0_pay4 v = v := by
  unfold k0_pay4; exact shapeCast_self v _
theorem pay5_eq (v : Vec Ideal S256 .f32) : k0_pay5 v = v := by
  unfold k0_pay5; exact shapeCast_self v _

/-- The lane sum of a 512 × 256 block, at row `r`, is the sum over the row's 256 columns. -/
theorem rowSum_apply (v : FVec Ideal S512x256 .f32) (r : Fin 512) :
    multiReduction (F := Ideal) .add [1] S512 v 0x00000000#32 reduces_S512x256_S512 (.inl rfl) rfl (ix1 r)
      = ∑ j : Fin 256, v (ix2 r j) := by
  refine (Ideal.multiReduction_add_single v 0x00000000#32 reduces_S512x256_S512 (.inl rfl) rfl (ix1 r)).trans ?_
  refine Finset.sum_congr rfl fun j _ => congrArg v ?_
  funext c
  apply Fin.ext
  match c with
  | ⟨0, _⟩ => rfl
  | ⟨1, _⟩ => rfl

/-- The first row of statistics: the sums of the rows. -/
theorem pay2_apply (v : Vec Ideal S512x256 .f32) (u w : Fin 1) (r : Fin 512) :
    k0_pay2 v (ix3 u w r) = ∑ j : Fin 256, v (ix2 r j) := by
  unfold k0_pay2
  refine (shapeCast_a_11a_apply _ _ u w r).trans ((rowSum_apply (k0_pay1 v) r).trans ?_)
  rw [pay1_eq]

/-- The second row of statistics: the sums of the rows' squares. -/
theorem pay3_apply (v : Vec Ideal S512x256 .f32) (u w : Fin 1) (r : Fin 512) :
    k0_pay3 v (ix3 u w r) = ∑ j : Fin 256, v (ix2 r j) * v (ix2 r j) := by
  unfold k0_pay3
  refine (shapeCast_a_11a_apply _ _ u w r).trans ((rowSum_apply (mulf (k0_pay1 v) (k0_pay1 v)) r).trans ?_)
  rw [pay1_eq]
  rfl

/-- The block times the scale, the scale spread over the rows. -/
theorem pay6_apply (v33 : FVec Ideal S512x256 .f32) (v129 : Vec Ideal S256 .f32) (r : Fin 512) (j : Fin 256) :
    k0_pay6 v33 v129 (ix2 r j) = v33 (ix2 r j) * v129 (ix1 j) := by
  unfold k0_pay6
  simp only [mulf_apply, broadcastTo_1b_ab_apply, shapeCast_a_1a_apply, pay4_eq]

/-- Two slots added. -/
theorem pay7_apply (v137 v150 : Vec Ideal S1x2x512 .f32) (k : Fin 2) (r : Fin 512) :
    k0_pay7 v137 v150 (ix2 k r) = v137 (ix3 (0 : Fin 1) k r) + v150 (ix3 (0 : Fin 1) k r) := by
  unfold k0_pay7
  simp only [addf_apply, shapeCast_1ab_ab_apply]

/-- Two more slots added to a running total. -/
theorem pay8_apply (v152 : FVec Ideal S2x512 .f32) (v164 v178 : Vec Ideal S1x2x512 .f32) (k : Fin 2) (r : Fin 512) :
    k0_pay8 v152 v164 v178 (ix2 k r) = v152 (ix2 k r) + v164 (ix3 (0 : Fin 1) k r) + v178 (ix3 (0 : Fin 1) k r) := by
  unfold k0_pay8
  simp only [addf_apply, shapeCast_1ab_ab_apply]

theorem pay9_apply (v180 : FVec Ideal S2x512 .f32) (v192 v206 : Vec Ideal S1x2x512 .f32) (k : Fin 2) (r : Fin 512) :
    k0_pay9 v180 v192 v206 (ix2 k r) = v180 (ix2 k r) + v192 (ix3 (0 : Fin 1) k r) + v206 (ix3 (0 : Fin 1) k r) := by
  unfold k0_pay9
  simp only [addf_apply, shapeCast_1ab_ab_apply]

/-- The shift with a unit axis in front. -/
theorem pay11_apply (v132 : FVec Ideal S256 .f32) (u : Fin 1) (j : Fin 256) : k0_pay11 v132 (ix2 u j) = v132 (ix1 j) := by
  unfold k0_pay11
  exact shapeCast_a_1a_apply _ _ u j

/-- The shift, spread over the rows, added. -/
theorem pay12_apply (v259 : FVec Ideal S512x256 .f32) (v260 : FVec Ideal S1x256 .f32) (r : Fin 512) (j : Fin 256) :
    k0_pay12 v259 v260 (ix2 r j) = v259 (ix2 r j) + v260 (ix2 (0 : Fin 1) j) := by
  unfold k0_pay12
  simp only [addf_apply, broadcastTo_1b_ab_apply]

/-- The mean, the variance and the reciprocal standard deviation from a row's two totals. -/
def meanOf (s1 : EReal) : EReal := Ideal.div s1 Cert.LnSpec.nCols
def varOf (s1 s2 : EReal) : EReal := Ideal.div s2 Cert.LnSpec.nCols - meanOf s1 * meanOf s1
def rstdOf (s1 s2 : EReal) : EReal := Ideal.rsqrt (varOf s1 s2 + Cert.LnSpec.eps)

/-- The normalisation step: with `S k` the running total plus the last two slots on statistics row `k`, the result at
    `(r, j)` is `(x · γ) · ρ - (μ · ρ) · γ`, `μ` and `ρ` the mean and reciprocal standard deviation from `S 0` and `S 1`. -/
theorem pay10_apply (v130 : FVec Ideal S256 .f32) (v135 : FVec Ideal S512x256 .f32) (v208 : FVec Ideal S2x512 .f32)
    (v220 v234 : Vec Ideal S1x2x512 .f32) (r : Fin 512) (j : Fin 256) :
    k0_pay10 v130 v135 v208 v220 v234 (ix2 r j)
      = v135 (ix2 r j)
          * rstdOf (v208 (ix2 (0 : Fin 2) r) + v220 (ix3 (0 : Fin 1) (0 : Fin 2) r) + v234 (ix3 (0 : Fin 1) (0 : Fin 2) r))
              (v208 (ix2 (1 : Fin 2) r) + v220 (ix3 (0 : Fin 1) (1 : Fin 2) r) + v234 (ix3 (0 : Fin 1) (1 : Fin 2) r))
        - meanOf (v208 (ix2 (0 : Fin 2) r) + v220 (ix3 (0 : Fin 1) (0 : Fin 2) r) + v234 (ix3 (0 : Fin 1) (0 : Fin 2) r))
          * rstdOf (v208 (ix2 (0 : Fin 2) r) + v220 (ix3 (0 : Fin 1) (0 : Fin 2) r) + v234 (ix3 (0 : Fin 1) (0 : Fin 2) r))
              (v208 (ix2 (1 : Fin 2) r) + v220 (ix3 (0 : Fin 1) (1 : Fin 2) r) + v234 (ix3 (0 : Fin 1) (1 : Fin 2) r))
          * v130 (ix1 j) := by
  unfold k0_pay10
  simp only [subf_apply, mulf_apply, addf_apply, divf_apply, rsqrt_apply, broadcast_apply, broadcastTo_a1_ab_apply,
    shapeCast_a_a1_apply, broadcastTo_1b_ab_apply, shapeCast_a_1a_apply, shapeCast_1a_a_apply, slice2_axis0_eq,
    shapeCast_1ab_ab_apply]
  rfl

/-! ## The arrays assembled from the eight devices' blocks -/

/-- The whole 512 × 2048 array assembled from the eight devices' blocks: column `k` is local column `k % 256` of device
    `k / 256`. -/
def wholeX (m : (ℓ : Loc nD τ sig) → Buf (Elt Ideal) ℓ) : Fin 512 → Fin 2048 → EReal :=
  fun r k => m (((⟨k.val / 256, by have := k.isLt; show k.val / 256 < 8; omega⟩ : Dev nD) : Thread nD τ).loc main_arg0)
    (ValueIdx.ix2 r (⟨k.val % 256, Nat.mod_lt _ (by decide)⟩ : Fin 256))
/-- The whole scale, assembled likewise. -/
def wholeG (m : (ℓ : Loc nD τ sig) → Buf (Elt Ideal) ℓ) : Fin 2048 → EReal :=
  fun k => m (((⟨k.val / 256, by have := k.isLt; show k.val / 256 < 8; omega⟩ : Dev nD) : Thread nD τ).loc main_arg1)
    (ValueIdx.ix1 (⟨k.val % 256, Nat.mod_lt _ (by decide)⟩ : Fin 256))
/-- The whole shift, assembled likewise. -/
def wholeB (m : (ℓ : Loc nD τ sig) → Buf (Elt Ideal) ℓ) : Fin 2048 → EReal :=
  fun k => m (((⟨k.val / 256, by have := k.isLt; show k.val / 256 < 8; omega⟩ : Dev nD) : Thread nD τ).loc main_arg2)
    (ValueIdx.ix1 (⟨k.val % 256, Nat.mod_lt _ (by decide)⟩ : Fin 256))

/-- Column `d · 256 + j` has quotient `d` and remainder `j` by 256. -/
theorem col_div (d : Dev nD) (j : Fin 256) :
    (⟨(Cert.LnSpec.col d j).val / 256, by have := (Cert.LnSpec.col d j).isLt; show (Cert.LnSpec.col d j).val / 256 < 8; omega⟩ : Dev nD) = d :=
  Fin.ext (by have := j.isLt; show (d.val * 256 + j.val) / 256 = d.val; omega)
theorem col_mod (d : Dev nD) (j : Fin 256) :
    (⟨(Cert.LnSpec.col d j).val % 256, Nat.mod_lt _ (by decide)⟩ : Fin 256) = j :=
  Fin.ext (by have := j.isLt; show (d.val * 256 + j.val) % 256 = j.val; omega)

/-- The assembled arrays at column `d · 256 + j` are device `d`'s blocks at local column `j`. -/
theorem wholeX_col (m : (ℓ : Loc nD τ sig) → Buf (Elt Ideal) ℓ) (d : Dev nD) (r : Fin 512) (j : Fin 256) :
    wholeX m r (Cert.LnSpec.col d j) = m ((d : Thread nD τ).loc main_arg0) (ValueIdx.ix2 r j) := by
  have key : ∀ (d' : Dev nD) (j' : Fin 256), d' = d → j' = j →
      (m ((d' : Thread nD τ).loc main_arg0) (ValueIdx.ix2 r j') : EReal) = m ((d : Thread nD τ).loc main_arg0) (ValueIdx.ix2 r j) := by
    intro d' j' hd hj; subst hd; subst hj; rfl
  exact key _ _ (col_div d j) (col_mod d j)
theorem wholeG_col (m : (ℓ : Loc nD τ sig) → Buf (Elt Ideal) ℓ) (d : Dev nD) (j : Fin 256) :
    wholeG m (Cert.LnSpec.col d j) = m ((d : Thread nD τ).loc main_arg1) (ValueIdx.ix1 j) := by
  have key : ∀ (d' : Dev nD) (j' : Fin 256), d' = d → j' = j →
      (m ((d' : Thread nD τ).loc main_arg1) (ValueIdx.ix1 j') : EReal) = m ((d : Thread nD τ).loc main_arg1) (ValueIdx.ix1 j) := by
    intro d' j' hd hj; subst hd; subst hj; rfl
  exact key _ _ (col_div d j) (col_mod d j)
theorem wholeB_col (m : (ℓ : Loc nD τ sig) → Buf (Elt Ideal) ℓ) (d : Dev nD) (j : Fin 256) :
    wholeB m (Cert.LnSpec.col d j) = m ((d : Thread nD τ).loc main_arg2) (ValueIdx.ix1 j) := by
  have key : ∀ (d' : Dev nD) (j' : Fin 256), d' = d → j' = j →
      (m ((d' : Thread nD τ).loc main_arg2) (ValueIdx.ix1 j') : EReal) = m ((d : Thread nD τ).loc main_arg2) (ValueIdx.ix1 j) := by
    intro d' j' hd hj; subst hd; subst hj; rfl
  exact key _ _ (col_div d j) (col_mod d j)

/-! ## What the loads return, at an index -/

section Reads
variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a; rfl

/-- A load of a whole staged block, at zero offsets, reads the staged block. -/
theorem xv_eq (s : Dev nD) : xv (F := Ideal) m s = xstg m s :=
  Memref.readAt_unit_zero (Elt Ideal) cc0_stg0_0 zeros2 _ _
theorem gv_eq (c : Dev nD) : gv (F := Ideal) m c = gstg m c :=
  Memref.readAt_unit_zero (Elt Ideal) cc0_stg1_0 zeros1 _ _
theorem bv_eq (c : Dev nD) : bv (F := Ideal) m c = bstg m c :=
  Memref.readAt_unit_zero (Elt Ideal) cc0_stg2_0 zeros1 _ _

/-- The one window block of a device's `x` is its whole array: block index `0` on both axes, so local index
    `(r, j)` sits at `(0 · 512 + r, 0 · 256 + j)`. -/
theorem xblk_emb (r : Fin 512) (j : Fin 256) :
    (win0_0.blk (0 : Fin 1)).view.emb (ix2 r j) = ix2 r j := by
  have h0 : win0_0.index (0 : Fin 1) 0 = 0 := by decide
  have h1 : win0_0.index (0 : Fin 1) 1 = 0 := by decide
  funext a
  refine Fin.ext ?_
  match a with
  | ⟨0, _⟩ =>
    show win0_0.index (0 : Fin 1) 0 * 512 + 1 * r.val = r.val
    rw [h0, Nat.zero_mul, Nat.zero_add, Nat.one_mul]
  | ⟨1, _⟩ =>
    show win0_0.index (0 : Fin 1) 1 * 256 + 1 * j.val = j.val
    rw [h1, Nat.zero_mul, Nat.zero_add, Nat.one_mul]

/-- Likewise the scale's and the shift's one block: local index `j` sits at `0 · 256 + j`. -/
theorem gblk_emb (j : Fin 256) : (win0_1.blk (0 : Fin 1)).view.emb (ix1 j) = ix1 j := by
  have h0 : win0_1.index (0 : Fin 1) 0 = 0 := by decide
  funext a
  refine Fin.ext ?_
  match a with
  | ⟨0, _⟩ =>
    show win0_1.index (0 : Fin 1) 0 * 256 + 1 * j.val = j.val
    rw [h0, Nat.zero_mul, Nat.zero_add, Nat.one_mul]
theorem bblk_emb (j : Fin 256) : (win0_2.blk (0 : Fin 1)).view.emb (ix1 j) = ix1 j := by
  have h0 : win0_2.index (0 : Fin 1) 0 = 0 := by decide
  funext a
  refine Fin.ext ?_
  match a with
  | ⟨0, _⟩ =>
    show win0_2.index (0 : Fin 1) 0 * 256 + 1 * j.val = j.val
    rw [h0, Nat.zero_mul, Nat.zero_add, Nat.one_mul]

/-- So the staged blocks are the device's arrays in the launch memory. -/
theorem xstg_apply (s : Dev nD) (r : Fin 512) (j : Fin 256) :
    xstg (F := Ideal) m s (ix2 r j) = m ((s : Thread nD τ).loc main_arg0) (ix2 r j) := by
  unfold xstg
  refine (View.read_apply _ _).trans ?_
  show m ((s : Thread nD τ).loc main_arg0) ((win0_0.blk (0 : Fin 1)).view.emb (ix2 r j)) = _
  rw [xblk_emb]
theorem gstg_apply (c : Dev nD) (j : Fin 256) :
    gstg (F := Ideal) m c (ix1 j) = m ((c : Thread nD τ).loc main_arg1) (ix1 j) := by
  unfold gstg
  refine (View.read_apply _ _).trans ?_
  show m ((c : Thread nD τ).loc main_arg1) ((win0_1.blk (0 : Fin 1)).view.emb (ix1 j)) = _
  rw [gblk_emb]
theorem bstg_apply (c : Dev nD) (j : Fin 256) :
    bstg (F := Ideal) m c (ix1 j) = m ((c : Thread nD τ).loc main_arg2) (ix1 j) := by
  unfold bstg
  refine (View.read_apply _ _).trans ?_
  show m ((c : Thread nD τ).loc main_arg2) ((win0_2.blk (0 : Fin 1)).view.emb (ix1 j)) = _
  rw [bblk_emb]

/-! ## The exchange array: the two rows a device stores, and the loads of a slot -/

/-- Row `0` of slot `s`: the rectangle of the first store places `(0, 0, r)` at `(s, 0, r)`. -/
theorem r1_emb (s : Dev nD) (r : Fin 512) :
    ((scrM : Memref sig .tc .vmem S8x2x512 .f32).access (r1 s) : View sig .tc _ _ _).emb (ix3 (0 : Fin 1) (0 : Fin 1) r)
      = ix3 s (0 : Fin 2) r := by
  funext a
  refine Fin.ext ?_
  match a with
  | ⟨0, _⟩ => show k0_off1 s 0 + 1 * 0 = s.val; rw [k0_off1_eq]; rfl
  | ⟨1, _⟩ => show k0_off1 s 1 + 1 * 0 = 0; rw [k0_off1_eq]; rfl
  | ⟨2, _⟩ => show k0_off1 s 2 + 1 * r.val = r.val; rw [k0_off1_eq]; show 0 + 1 * r.val = r.val; omega

/-- Row `1` of slot `s`: the rectangle of the second store places `(0, 0, r)` at `(s, 1, r)`. -/
theorem r2_emb (s : Dev nD) (r : Fin 512) :
    ((scrM : Memref sig .tc .vmem S8x2x512 .f32).access (r2 s) : View sig .tc _ _ _).emb (ix3 (0 : Fin 1) (0 : Fin 1) r)
      = ix3 s (1 : Fin 2) r := by
  funext a
  refine Fin.ext ?_
  match a with
  | ⟨0, _⟩ => show k0_off2 s 0 + 1 * 0 = s.val; rw [k0_off2_eq]; rfl
  | ⟨1, _⟩ => show k0_off2 s 1 + 1 * 0 = 1; rw [k0_off2_eq]; rfl
  | ⟨2, _⟩ => show k0_off2 s 2 + 1 * r.val = r.val; rw [k0_off2_eq]; show 0 + 1 * r.val = r.val; omega

/-- Nothing of row `0` lies under the second store's rectangle: its middle coordinate there is `1 + _`. -/
theorem row0_not_mem_r2 (s : Dev nD) (r : Fin 512) :
    (ix3 s (0 : Fin 2) r : S8x2x512.Idx)
      ∉ ((scrM : Memref sig .tc .vmem S8x2x512 .f32).access (r2 s) : View sig .tc _ _ _).setOn Finset.univ := by
  intro h
  obtain ⟨y, -, hy⟩ := Finset.mem_map.mp h
  have h1 := congrArg (fun i : S8x2x512.Idx => (i 1).val) hy
  have h2 : k0_off2 s 1 + 1 * (y 1).val = 0 := h1
  rw [k0_off2_eq] at h2
  have h3 : 1 + 1 * (y 1).val = 0 := h2
  omega

/-- Slot `s` of the exchange array holds, on row `0`, device `s`'s row sums, -/
theorem allStats_row0 (s : Dev nD) (r : Fin 512) :
    (allStats (F := Ideal) m (ix3 s (0 : Fin 2) r) : EReal) = ∑ j : Fin 256, xv m s (ix2 r j) := by
  show ownStats m s _ (ix3 s (0 : Fin 2) r) = _
  unfold ownStats
  rw [View.write_of_not_mem _ _ _ (row0_not_mem_r2 s r), ← r1_emb s r, View.write_emb_of_mem _ _ (Finset.mem_univ _)]
  exact pay2_apply (xv m s) 0 0 r

/-- and on row `1` its row sums of squares. -/
theorem allStats_row1 (s : Dev nD) (r : Fin 512) :
    (allStats (F := Ideal) m (ix3 s (1 : Fin 2) r) : EReal) = ∑ j : Fin 256, xv m s (ix2 r j) * xv m s (ix2 r j) := by
  show ownStats m s _ (ix3 s (1 : Fin 2) r) = _
  unfold ownStats
  rw [← r2_emb s r, View.write_emb_of_mem _ _ (Finset.mem_univ _)]
  exact pay3_apply (xv m s) 0 0 r

/-- The load of a device's own slot places `(0, k, r)` at `(c, k, r)`. -/
theorem rOwn_idx (c : Dev nD) (k : Fin 2) (r : Fin 512) :
    (rOwn c).toLoadRect.idx (ix3 (0 : Fin 1) k r) = ix3 c k r := by
  funext a
  refine Fin.ext ?_
  match a with
  | ⟨0, _⟩ => show k0_off5 c 0 + 1 * 0 = c.val; rw [k0_off5_eq]; rfl
  | ⟨1, _⟩ => show k0_off5 c 1 + 1 * k.val = k.val; rw [k0_off5_eq]; show 0 + 1 * k.val = k.val; omega
  | ⟨2, _⟩ => show k0_off5 c 2 + 1 * r.val = r.val; rw [k0_off5_eq]; show 0 + 1 * r.val = r.val; omega

/-- The load of the slot of the peer at ring distance `q + 1` places `(0, k, r)` at `(c + q + 1 mod 8, k, r)`. -/
theorem rPeer_idx (c : Dev nD) (q : Fin 7) (k : Fin 2) (r : Fin 512) :
    (rPeer c q).toLoadRect.idx (ix3 (0 : Fin 1) k r) = ix3 (Proto.nb c (q.val + 1)) k r := by
  funext a
  refine Fin.ext ?_
  match a with
  | ⟨0, _⟩ =>
    show k0_off8 c (BitVec.ofNat 32 (1 + q.val)) 0 + 1 * 0 = (c.val + (q.val + 1)) % 8
    rw [k0_off8_eq]
    show (c.val + q.val + 1) % 8 + 1 * 0 = (c.val + (q.val + 1)) % 8
    omega
  | ⟨1, _⟩ =>
    show k0_off8 c (BitVec.ofNat 32 (1 + q.val)) 1 + 1 * k.val = k.val
    rw [k0_off8_eq]; show 0 + 1 * k.val = k.val; omega
  | ⟨2, _⟩ =>
    show k0_off8 c (BitVec.ofNat 32 (1 + q.val)) 2 + 1 * r.val = r.val
    rw [k0_off8_eq]; show 0 + 1 * r.val = r.val; omega

/-- What the load of the own slot returns, at an index. -/
theorem ownRows_apply (c : Dev nD) (k : Fin 2) (r : Fin 512) :
    ownRows (F := Ideal) m c (ix3 (0 : Fin 1) k r) = allStats m (ix3 c k r) := by
  have he : (scrM : Memref sig .tc .vmem S8x2x512 .f32).view.emb ((rOwn c).toLoadRect.idx (ix3 (0 : Fin 1) k r))
      = ix3 c k r := rOwn_idx c k r
  unfold ownRows
  refine (View.readAt_apply _ _ _).trans ((View.read_apply _ _).trans ?_)
  rw [he]
  exact cast_eq _ _

/-- What the load of a peer's slot returns, at an index. -/
theorem peerRows_apply (c : Dev nD) (q : Fin 7) (k : Fin 2) (r : Fin 512) :
    peerRows (F := Ideal) m c q (ix3 (0 : Fin 1) k r) = allStats m (ix3 (Proto.nb c (q.val + 1)) k r) := by
  have he : (scrM : Memref sig .tc .vmem S8x2x512 .f32).view.emb ((rPeer c q).toLoadRect.idx (ix3 (0 : Fin 1) k r))
      = ix3 (Proto.nb c (q.val + 1)) k r := rPeer_idx c q k r
  unfold peerRows
  refine (View.readAt_apply _ _ _).trans ((View.read_apply _ _).trans ?_)
  rw [he]
  exact cast_eq _ _

/-! ## The loads in terms of the assembled arrays -/

theorem xv_apply (s : Dev nD) (r : Fin 512) (j : Fin 256) :
    xv (F := Ideal) m s (ix2 r j) = wholeX m r (Cert.LnSpec.col s j) := by
  rw [xv_eq, xstg_apply, wholeX_col]
theorem gv_apply (c : Dev nD) (j : Fin 256) : gv (F := Ideal) m c (ix1 j) = wholeG m (Cert.LnSpec.col c j) := by
  rw [gv_eq, gstg_apply, wholeG_col]
theorem bv_apply (c : Dev nD) (j : Fin 256) : bv (F := Ideal) m c (ix1 j) = wholeB m (Cert.LnSpec.col c j) := by
  rw [bv_eq, bstg_apply, wholeB_col]

/-- Slot `s` holds device `s`'s two contributions: the sums of its 256 columns, and of their squares. -/
theorem slot_row0 (s : Dev nD) (r : Fin 512) :
    (allStats (F := Ideal) m (ix3 s (0 : Fin 2) r) : EReal) = Cert.LnSpec.part1 (wholeX m) s r :=
 by
  refine (allStats_row0 m s r).trans ?_
  unfold Cert.LnSpec.part1
  show (_ : EReal) = _
  exact Finset.sum_congr rfl fun j _ => xv_apply m s r j
theorem slot_row1 (s : Dev nD) (r : Fin 512) :
    (allStats (F := Ideal) m (ix3 s (1 : Fin 2) r) : EReal) = Cert.LnSpec.part2 (wholeX m) s r :=
 by
  refine (allStats_row1 m s r).trans ?_
  unfold Cert.LnSpec.part2
  show (_ : EReal) = _
  exact Finset.sum_congr rfl fun j _ => by rw [xv_apply]

/-- The eight slots as the kernel adds them — own, then ring distances 1, 7, 2, 6, 3, 5, 4 — are the eight
    contributions in device `c`'s order: on statistics row `0` the total of the row sums, -/
theorem total_row0 (c : Dev nD) (r : Fin 512) :
    tot6 (F := Ideal) m c (ix2 (0 : Fin 2) r) + peerRows m c 4 (ix3 (0 : Fin 1) (0 : Fin 2) r)
        + peerRows m c 3 (ix3 (0 : Fin 1) (0 : Fin 2) r)
      = Cert.LnSpec.tot (Cert.LnSpec.part1 (wholeX m)) c r := by
  unfold tot6
  simp only [pay9_apply, pay8_apply, pay7_apply, ownRows_apply, peerRows_apply, slot_row0]
  rfl

/-- and on row `1` the total of the row sums of squares. -/
theorem total_row1 (c : Dev nD) (r : Fin 512) :
    tot6 (F := Ideal) m c (ix2 (1 : Fin 2) r) + peerRows m c 4 (ix3 (0 : Fin 1) (1 : Fin 2) r)
        + peerRows m c 3 (ix3 (0 : Fin 1) (1 : Fin 2) r)
      = Cert.LnSpec.tot (Cert.LnSpec.part2 (wholeX m)) c r := by
  unfold tot6
  simp only [pay9_apply, pay8_apply, pay7_apply, ownRows_apply, peerRows_apply, slot_row1]
  rfl

end Reads

/-- The stored block at `(r, j)` is the eight-device reading at row `r`, column `c · 256 + j`. -/
theorem outAt_apply (m : (ℓ : Loc nD τ sig) → Buf (Elt Ideal) ℓ) (c : Dev nD) (r : Fin 512) (j : Fin 256) :
    outAt (F := Ideal) m c (ValueIdx.ix2 r j)
      = Cert.LnSpec.kOut (wholeX m) (wholeG m) (wholeB m) c r (Cert.LnSpec.col c j) := by
  unfold outAt
  rw [pay12_apply, pay10_apply, pay11_apply, pay6_apply, pay1_eq, pay4_eq, pay5_eq, total_row0, total_row1,
    xv_apply, gv_apply, bv_apply]
  rfl

/-- info: 'Cert.KernelIdeal.KValue.outAt_apply' depends on axioms: [propext, Classical.choice, Quot.sound] -/
#guard_msgs in #print axioms outAt_apply

end Cert.KernelIdeal.KValue

end
-- ==== Proof.Consts.lean ====
/-
  The float literals of this certificate's programs, as the extended reals their bit patterns denote.

  A 32-bit pattern with sign bit `s`, exponent field `e` and fraction field `f` denotes, for `0 < e < 255`, the real
  `(-1)^s · (2^23 + f) · 2^(e - 127 - 23)`, and for `e = 255`, `f = 0`, `s = 0` the extended real `+∞`.
  * `0x45000000`: `s = 0`, `e = 138`, `f = 0`, so `2^23 · 2^(-12) = 2^11 = 2048`.
  * `0x3727C5AC`: `s = 0`, `e = 110`, `f = 2606508`, so `(2^23 + 2606508) · 2^(-40) = 10995116 / 2^40`.
  * `0x7F800000`: `s = 0`, `e = 255`, `f = 0`, so `+∞`.
-/
import Idealize.ShloMosaic.PureOps.Ideal
import Mathlib.Tactic.NormNum

noncomputable section

namespace Cert.Consts

open Idealize.ShloMosaic

/-- `2048.0` denotes the real number `2048`. -/
theorem ofBits_2048 : Ideal.ofBits .f32 0x45000000#32 = ((2048 : ℝ) : EReal) := by
  simp [Ideal.ofBits, Ideal.ieee, -EReal.coe_mul]; norm_num

/-- The float nearest `1e-5` denotes the real number `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The all-ones exponent with zero fraction and sign denotes `+∞`. -/
theorem ofBits_inf : Ideal.ofBits .f32 0x7F800000#32 = (⊤ : EReal) := by
  simp [Ideal.ofBits, Ideal.ieee]

/-- info: 'Cert.Consts.ofBits_2048' depends on axioms: [propext, Classical.choice, Quot.sound] -/
#guard_msgs in #print axioms ofBits_2048
/-- info: 'Cert.Consts.ofBits_eps' depends on axioms: [propext, Classical.choice, Quot.sound] -/
#guard_msgs in #print axioms ofBits_eps
/-- info: 'Cert.Consts.ofBits_inf' depends on axioms: [propext, Classical.choice, Quot.sound] -/
#guard_msgs in #print axioms ofBits_inf

end Cert.Consts

end
-- ==== Proof.RefValue.lean ====
/-
  The layer-normalisation reference's result read at one entry, over the extended reals.

  At the ideal float values every operation is its textbook one, so the composed term of the reference's
  operations, read at row `r` and column `k`, is the one-device reading of layer normalisation at that entry:
  the host's row reduction from the zero literal is the plain sum of the row (`0 + s = s`), a quotient is the
  ideal division, the broadcasts of a column along the rows, of a row down the columns and of a scalar
  everywhere read the column's, the row's and the scalar's one value, and the variance's guard
  `2048 - 0 > 0` holds, so the select takes the quotient and never the not-a-number literal.
-/
import proofs.«900544_g7700000000000545_dist_layernorm_colshard_i_m512_n256_v7x_i8_f32_1_alg».proof.Proof.RefRun
import proofs.«900544_g7700000000000545_dist_layernorm_colshard_i_m512_n256_v7x_i8_f32_1_alg».proof.Proof.LnSpec
import proofs.«900544_g7700000000000545_dist_layernorm_colshard_i_m512_n256_v7x_i8_f32_1_alg».proof.Proof.Consts
import Idealize.ShloMosaic.Lib.ValueIdx
import Idealize.ShloMosaic.Lib.IdealHost
import Idealize.ShloMosaic.Lib.Pipeline.Value
import Idealize.ShloMosaic.PureOps.Ideal
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The literals -/

/-- The pattern `0x45000000` denotes the real number 2048: sign bit clear, exponent field 138 = 127 + 11, fraction 0,
    so `2 ^ 23 · 2 ^ (138 - 127 - 23) = 2 ^ 11`. -/
theorem ofBits_2048 : Ideal.ofBits .f32 0x45000000#32 = ((2048 : ℝ) : EReal) := Cert.Consts.ofBits_2048

/-- So the divisor literal is a positive extended real. -/
theorem nCols_pos : (0 : EReal) < Ideal.ofBits .f32 0x45000000#32 := by
  rw [ofBits_2048]; exact_mod_cast (by norm_num : (0 : ℝ) < 2048)

/-! ## The broadcasts read at an index -/

section Broadcasts
variable {α : Type}

/-- A column copied along the rows reads the column's entry of that row. -/
theorem bcCol_apply (v : S512x1.Idx → α) (r : Fin 512) (k : Fin 2048) :
    broadcastInDim S512x2048 ![0, 1] bcast_S512x1_S512x2048_0_1 v (ix2 r k) = v (ix2 r (0 : Fin 1)) :=
  broadcastInDim_apply _ _ v (ix2 r k) (ix2 r (0 : Fin 1)) fun a => match a with | ⟨0, _⟩ => rfl | ⟨1, _⟩ => rfl

/-- A one-row matrix copied down the rows reads the row's entry of that column. -/
theorem bcRow_apply (v : S1x2048.Idx → α) (r : Fin 512) (k : Fin 2048) :
    broadcastInDim S512x2048 ![0, 1] bcast_S1x2048_S512x2048_0_1 v (ix2 r k) = v (ix2 (0 : Fin 1) k) :=
  broadcastInDim_apply _ _ v (ix2 r k) (ix2 (0 : Fin 1) k) fun a => match a with | ⟨0, _⟩ => rfl | ⟨1, _⟩ => rfl

/-- A vector as a one-row matrix reads the vector's entry. -/
theorem bcVec_apply (g : S2048.Idx → α) (k : Fin 2048) :
    broadcastInDim S1x2048 ![1] bcast_S2048_S1x2048_1 g (ix2 (0 : Fin 1) k) = g (ix1 k) :=
  broadcastInDim_apply _ _ g (ix2 (0 : Fin 1) k) (ix1 k) fun a => match a with | ⟨0, _⟩ => rfl

/-- A vector as a one-column matrix reads the vector's entry. -/
theorem bcKeep_apply (w : S512.Idx → α) (r : Fin 512) :
    broadcastInDim S512x1 ![0] bcast_S512_S512x1_0 w (ix2 r (0 : Fin 1)) = w (ix1 r) :=
  broadcastInDim_apply _ _ w (ix2 r (0 : Fin 1)) (ix1 r) fun a => match a with | ⟨0, _⟩ => rfl

end Broadcasts

/-! ## The pieces of the result at an index -/

/-- The source index over row `r` with column `j` inserted is `(r, j)`. -/
theorem lift_row (h : S512x2048.Reduces [1] S512) (r : Fin 512) (j : Fin 2048) : h.lift (ix1 r) j = ix2 r j := by
  funext c
  match c with
  | ⟨0, _⟩ => rfl
  | ⟨1, _⟩ => rfl

/-- The row sums from the zero literal, as a column, read at row `r`: the plain sum of the row. -/
theorem rowSum_apply (y : (⟨S512x2048, .f32⟩ : BufTy).Contents (Elt Ideal)) (r : Fin 512) :
    RefRun.rowSum (F := Ideal) y (ix2 r (0 : Fin 1)) = ∑ j : Fin 2048, y (ix2 r j) := by
  have h : S512x2048.Reduces [1] S512 := by decide
  unfold RefRun.rowSum
  rw [bcKeep_apply, hostReduceAdd_apply, Ideal.hostReduceAdd_single _ h, constant_apply, Ideal.ofBits_zero_f32, zero_add]
  exact Finset.sum_congr rfl fun j _ => congrArg y (lift_row h r j)

/-- The row means read at row `r`: the one-device reading's mean of that row. -/
theorem mean_apply (x : (⟨S512x2048, .f32⟩ : BufTy).Contents (Elt Ideal)) (r : Fin 512) :
    RefRun.mean (F := Ideal) x (ix2 r (0 : Fin 1)) = Cert.LnSpec.rMean (fun r k => x (ix2 r k)) r := by
  unfold RefRun.mean Cert.LnSpec.rMean Cert.LnSpec.nCols
  rw [hostDivf_apply, rowSum_apply, broadcastInDim_scalar_apply, constant_apply]

/-- The centred entries read at `(r, k)`: the entry less its row's mean. -/
theorem centred_apply (x : (⟨S512x2048, .f32⟩ : BufTy).Contents (Elt Ideal)) (r : Fin 512) (k : Fin 2048) :
    RefRun.centred (F := Ideal) x (ix2 r k) = x (ix2 r k) - Cert.LnSpec.rMean (fun r k => x (ix2 r k)) r := by
  unfold RefRun.centred
  rw [subf_apply, bcCol_apply, mean_apply]

/-- The variance's divisor is the literal 2048: the integer zero converts to the float zero, and `a - 0 = a`. -/
theorem count_apply : RefRun.count (F := Ideal) ix0 = Ideal.ofBits .f32 0x45000000#32 := by
  unfold RefRun.count
  rw [subf_apply, constant_apply]
  show Ideal.ofBits .f32 0x45000000#32 - ((((0#32 : BitVec 32).toInt : ℤ) : ℝ) : EReal) = _
  simp

/-- The row variances read at row `r`: the guard `2048 > 0` holds, so the select takes the quotient, which is the
    one-device reading's variance of that row. -/
theorem var_apply (x : (⟨S512x2048, .f32⟩ : BufTy).Contents (Elt Ideal)) (r : Fin 512) :
    RefRun.var (F := Ideal) x (ix2 r (0 : Fin 1)) = Cert.LnSpec.rVar (fun r k => x (ix2 r k)) r := by
  have hc : FloatOps.cmpf (F := Ideal) .ogt (RefRun.count (F := Ideal) ix0) (Ideal.ofBits .f32 0x00000000#32) = 1#1 := by
    rw [count_apply, Ideal.ofBits_zero_f32, Ideal.cmpf_def]
    show BitVec.ofBool (decide ((0 : EReal) < Ideal.ofBits .f32 0x45000000#32)) = 1#1
    rw [decide_eq_true nCols_pos]; rfl
  unfold RefRun.var Cert.LnSpec.rVar Cert.LnSpec.nCols
  rw [select_apply, broadcastInDim_scalar_apply, cmpf_apply, constant_apply, hc, select_one, hostDivf_apply, rowSum_apply,
    broadcastInDim_scalar_apply, count_apply]
  refine congrArg (fun s => Ideal.div s _) (Finset.sum_congr rfl fun j _ => ?_)
  rw [mulf_apply, centred_apply]

/-- The host's square root at an index is the ideal instance's square root of the element. -/
theorem hostSqrt_apply {s : Shape} {φ : FTy} (a : FVec Ideal s φ) (i : s.Idx) : Host.sqrt a i = Ideal.sqrt (a i) := rfl

/-- THE RESULT AT AN ENTRY: the reference's composed term read at `(r, k)` is the one-device reading of layer
    normalisation there. -/
theorem result_apply (x : (⟨S512x2048, .f32⟩ : BufTy).Contents (Elt Ideal)) (g b : (⟨S2048, .f32⟩ : BufTy).Contents (Elt Ideal)) (r : Fin 512) (k : Fin 2048) :
    RefRun.result (F := Ideal) x g b (ValueIdx.ix2 r k)
      = Cert.LnSpec.rOut (fun r k => x (ValueIdx.ix2 r k)) (fun k => g (ValueIdx.ix1 k)) (fun k => b (ValueIdx.ix1 k)) r k := by
  unfold RefRun.result Cert.LnSpec.rOut Cert.LnSpec.eps
  rw [addf_apply, hostDivf_apply, mulf_apply, bcRow_apply, bcVec_apply, centred_apply, bcCol_apply, bcRow_apply, bcVec_apply]
  rw [hostSqrt_apply, addf_apply, var_apply, broadcastInDim_scalar_apply, constant_apply]

/-- info: 'Cert.ReferenceIdeal.RefValue.result_apply' depends on axioms: [propext, Classical.choice, Quot.sound] -/
#guard_msgs in #print axioms result_apply

end Cert.ReferenceIdeal.RefValue

end
-- ==== Proof.LnAlgebra.lean ====
/-
  On finite inputs the eight-device reading of row-wise layer normalisation equals the one-device reading.

  The argument has three parts.
  * Sums. Addition on the extended reals is commutative and associative, so the eight block contributions added in
    device `c`'s ring order are the sum over all eight devices (the order visits every device exactly once), and
    the block sums taken together are the sum over all 2048 columns, because `(d, j) ↦ d · 256 + j` is a bijection
    from `Fin 8 × Fin 256` onto `Fin 2048`. This part holds for every extended-real input.
  * Reals. When every input is the image of a real, so is every intermediate quantity: finite sums, products and
    differences of reals are real, and division by the real `2048 ≠ 0` is multiplication by `1 / 2048`. The centred
    second moment `(∑ (x - μ)²) / n` equals `(∑ x²) / n - μ²` when `μ = (∑ x) / n` and `n` is the number of
    terms, and it is non-negative as a sum of squares times a positive constant.
  * Roots. The added constant is a positive real, so `v = σ² + ε` is a positive real; there the square root is the
    real square root, which is positive, the reciprocal square root is its inverse, and division by it is
    multiplication by that inverse. Both readings are therefore `γ · (x - μ) · (√v)⁻¹ + β`.
-/
import proofs.«900544_g7700000000000545_dist_layernorm_colshard_i_m512_n256_v7x_i8_f32_1_alg».proof.Proof.LnSpec
import proofs.«900544_g7700000000000545_dist_layernorm_colshard_i_m512_n256_v7x_i8_f32_1_alg».proof.Proof.Consts
import Mathlib.Algebra.BigOperators.Fin
import Mathlib.Data.Fintype.BigOperators
import Mathlib.Tactic.Ring
import Mathlib.Tactic.Abel
import Mathlib.Tactic.NormNum
import Mathlib.Tactic.FinCases
import Mathlib.Tactic.Positivity
import Mathlib.Tactic.Linarith

noncomputable section

namespace Cert.LnSpec

open Idealize.ShloMosaic

/-! ### The two literals -/

/-- The divisor's pattern has sign `0`, exponent field `138` and significand field `0`: it denotes
    `2^23 · 2^(138 - 127 - 23) = 2^11 = 2048`. -/
theorem nCols_eq : nCols = ((2048 : ℝ) : EReal) := Cert.Consts.ofBits_2048

/-- The added constant's pattern has sign `0`, exponent field `110` and significand field `2606508`: it denotes
    `(2^23 + 2606508) · 2^(110 - 127 - 23) = 10995116 / 2^40`. -/
theorem eps_eq : eps = ((10995116 / 2 ^ 40 : ℝ) : EReal) := Cert.Consts.ofBits_eps

/-- The added constant is a positive real. -/
theorem eps_pos : ∃ e : ℝ, 0 < e ∧ eps = (e : EReal) :=
  ⟨10995116 / 2 ^ 40, by positivity, eps_eq⟩

/-! ### Sums over the blocks, for every extended-real input -/

/-- Ring distances `0, 1, 7, 2, 6, 3, 5, 4` from `c` reach every one of the eight devices exactly once, so the eight
    contributions added in that order are the sum over all devices. -/
theorem tot_eq_sum (p : Fin 8 → Fin 512 → EReal) (c : Fin 8) (r : Fin 512) :
    tot p c r = ∑ d, p d r := by
  rw [Fin.sum_univ_eight]
  unfold tot
  fin_cases c <;> simp [nb] <;> abel

/-- Column numbering by blocks: `(d, j) ↦ d · 256 + j` is a bijection, with inverse `k ↦ (k / 256, k % 256)`. -/
def colEquiv : Fin 8 × Fin 256 ≃ Fin 2048 where
  toFun p := col p.1 p.2
  invFun k := (⟨k.val / 256, by have := k.isLt; omega⟩, ⟨k.val % 256, by omega⟩)
  left_inv := by
    rintro ⟨d, j⟩
    have hd := d.isLt
    have hj := j.isLt
    refine Prod.ext (Fin.ext ?_) (Fin.ext ?_)
    · show (d.val * 256 + j.val) / 256 = d.val
      omega
    · show (d.val * 256 + j.val) % 256 = j.val
      omega
  right_inv := by
    intro k
    refine Fin.ext ?_
    show k.val / 256 * 256 + k.val % 256 = k.val
    omega

/-- The sums over the eight blocks of 256 columns, added together, are the sum over all 2048 columns. -/
theorem sum_blocks (f : Fin 2048 → EReal) : ∑ d : Fin 8, ∑ j : Fin 256, f (col d j) = ∑ k, f k :=
  (Fintype.sum_prod_type' (fun d j => f (col d j))).symm.trans
    (Fintype.sum_equiv colEquiv _ _ (fun _ => rfl))

/-- The first-moment contributions in device `c`'s order add up to the row sum. -/
theorem tot_part1 (X : Fin 512 → Fin 2048 → EReal) (c : Fin 8) (r : Fin 512) :
    tot (part1 X) c r = ∑ k, X r k := by
  rw [tot_eq_sum]
  exact sum_blocks (fun k => X r k)

/-- The second-moment contributions in device `c`'s order add up to the row's sum of squares. -/
theorem tot_part2 (X : Fin 512 → Fin 2048 → EReal) (c : Fin 8) (r : Fin 512) :
    tot (part2 X) c r = ∑ k, X r k * X r k := by
  rw [tot_eq_sum]
  exact sum_blocks (fun k => X r k * X r k)

/-- The two readings have the same mean, whatever the input. -/
theorem kMean_eq_rMean (X : Fin 512 → Fin 2048 → EReal) (c : Fin 8) (r : Fin 512) :
    kMean X c r = rMean X r := by
  rw [kMean, rMean, tot_part1]

/-! ### Real inputs: every quantity is the image of a real -/

/-- A finite sum of images of reals is the image of the real sum. -/
theorem sum_coe {ι : Type} (s : Finset ι) (f : ι → ℝ) :
    (∑ i ∈ s, ((f i : ℝ) : EReal)) = ((∑ i ∈ s, f i : ℝ) : EReal) := by
  classical
  refine Finset.induction_on s (by simp) (fun a t ha ih => ?_)
  rw [Finset.sum_insert ha, Finset.sum_insert ha, ih, EReal.coe_add]

/-- The real row mean. -/
def realMean (x : Fin 512 → Fin 2048 → ℝ) (r : Fin 512) : ℝ := (∑ k, x r k) * (1 / 2048)

/-- The real centred second moment of a row. -/
def realVar (x : Fin 512 → Fin 2048 → ℝ) (r : Fin 512) : ℝ :=
  (∑ k, (x r k - realMean x r) * (x r k - realMean x r)) * (1 / 2048)

theorem rMean_coe (x : Fin 512 → Fin 2048 → ℝ) (r : Fin 512) :
    rMean (fun r k => ((x r k : ℝ) : EReal)) r = ((realMean x r : ℝ) : EReal) := by
  simp only [rMean]
  rw [nCols_eq, Ideal.div_coe (by norm_num : (2048 : ℝ) ≠ 0), sum_coe, ← EReal.coe_mul]
  rfl

theorem rVar_coe (x : Fin 512 → Fin 2048 → ℝ) (r : Fin 512) :
    rVar (fun r k => ((x r k : ℝ) : EReal)) r = ((realVar x r : ℝ) : EReal) := by
  simp only [rVar, rMean_coe, ← EReal.coe_sub, ← EReal.coe_mul]
  rw [nCols_eq, Ideal.div_coe (by norm_num : (2048 : ℝ) ≠ 0), sum_coe, ← EReal.coe_mul]
  rfl

theorem kMean_coe (x : Fin 512 → Fin 2048 → ℝ) (c : Fin 8) (r : Fin 512) :
    kMean (fun r k => ((x r k : ℝ) : EReal)) c r = ((realMean x r : ℝ) : EReal) := by
  rw [kMean_eq_rMean, rMean_coe]

theorem kVar_coe (x : Fin 512 → Fin 2048 → ℝ) (c : Fin 8) (r : Fin 512) :
    kVar (fun r k => ((x r k : ℝ) : EReal)) c r
      = (((∑ k, x r k * x r k) * (1 / 2048) - realMean x r * realMean x r : ℝ) : EReal) := by
  simp only [kVar, kMean_coe, tot_part2, ← EReal.coe_mul]
  rw [nCols_eq, Ideal.div_coe (by norm_num : (2048 : ℝ) ≠ 0), sum_coe, ← EReal.coe_mul, ← EReal.coe_sub]

/-! ### The two forms of the variance -/

/-- With `μ = (∑ x) / n` over `n = 2048` terms, `(∑ x²) / n - μ² = (∑ (x - μ)²) / n`: expand the square, and
    `∑ μ = n · μ = ∑ x`. -/
theorem moment_eq_realVar (x : Fin 512 → Fin 2048 → ℝ) (r : Fin 512) :
    (∑ k, x r k * x r k) * (1 / 2048) - realMean x r * realMean x r = realVar x r := by
  have hS : ∑ k, x r k = 2048 * realMean x r := by unfold realMean; ring
  have hexp : ∀ k, (x r k - realMean x r) * (x r k - realMean x r)
      = x r k * x r k - 2 * realMean x r * x r k + realMean x r * realMean x r := fun k => by ring
  unfold realVar
  simp only [hexp]
  rw [Finset.sum_add_distrib, Finset.sum_sub_distrib, ← Finset.mul_sum, hS, Finset.sum_const, Finset.card_univ,
    Fintype.card_fin, nsmul_eq_mul]
  push_cast
  ring

/-- The centred second moment is a sum of squares times a positive constant. -/
theorem realVar_nonneg (x : Fin 512 → Fin 2048 → ℝ) (r : Fin 512) : 0 ≤ realVar x r :=
  mul_nonneg (Finset.sum_nonneg (fun _ _ => mul_self_nonneg _)) (by norm_num)

/-! ### The two readings agree -/

theorem kOut_eq_rOut (x : Fin 512 → Fin 2048 → ℝ) (g b : Fin 2048 → ℝ) (c : Fin 8) (r : Fin 512) (k : Fin 2048) :
    kOut (fun r k => ((x r k : ℝ) : EReal)) (fun k => ((g k : ℝ) : EReal)) (fun k => ((b k : ℝ) : EReal)) c r k
      = rOut (fun r k => ((x r k : ℝ) : EReal)) (fun k => ((g k : ℝ) : EReal)) (fun k => ((b k : ℝ) : EReal)) r k := by
  obtain ⟨e, he, hE⟩ := eps_pos
  have hw : 0 < realVar x r + e := by have := realVar_nonneg x r; linarith
  have hs : 0 < Real.sqrt (realVar x r + e) := Real.sqrt_pos.2 hw
  simp only [kOut, rOut, kRstd]
  rw [kVar_coe, moment_eq_realVar, rVar_coe, kMean_coe, rMean_coe, hE, ← EReal.coe_add, Ideal.sqrt_coe, Ideal.rsqrt_coe,
    if_neg (not_lt.2 hw.le), if_neg (not_lt.2 hw.le), if_neg hw.ne', Ideal.div_coe hs.ne']
  simp only [← EReal.coe_mul, ← EReal.coe_sub, ← EReal.coe_add]
  congr 1
  rw [one_div]
  ring

/-- info: 'Cert.LnSpec.kOut_eq_rOut' depends on axioms: [propext, Classical.choice, Quot.sound] -/
#guard_msgs in #print axioms kOut_eq_rOut

end Cert.LnSpec

end
-- ==== Proof.Finite.lean ====
/-
  From "every float input is finite" to "every entry is a real number".
  The precondition evaluates, on each device's three argument buffers, the conjunction of three tests
  "every entry x has |x| < +∞", each test a reduction by `and` of the one-bit comparisons, and says the result is 1.
  Over the extended reals |x| is max x (-x); it is +∞ at both infinities, so the strict comparison with +∞ holds
  exactly at the real numbers. A reduction by `and` that ends at 1 met a 1 at every index, and a conjunction that is 1
  has both operands 1: so every entry of the three buffers is a real number.
-/
import proofs.«900544_g7700000000000545_dist_layernorm_colshard_i_m512_n256_v7x_i8_f32_1_alg».proof.Defs
import proofs.«900544_g7700000000000545_dist_layernorm_colshard_i_m512_n256_v7x_i8_f32_1_alg».proof.Proof.Gen.Pre_finite_inputs_Kernel
import proofs.«900544_g7700000000000545_dist_layernorm_colshard_i_m512_n256_v7x_i8_f32_1_alg».proof.Proof.Consts
import Idealize.ShloMosaic.Lib.ValueIdx
import Idealize.ShloMosaic.Lib.ReduceAll

noncomputable section

namespace Cert.Finite

open Idealize.ShloMosaic Idealize.SL.Sem

/-- The shape of rank zero has exactly one index: there is no axis to give a coordinate on. -/
instance subsingleton_scalar_idx : Subsingleton Cert.Pre_finite_inputs_Kernel.S_.Idx :=
  ⟨fun a b => funext fun d => d.elim0⟩

/-- The pattern `0x7F800000` (sign 0, exponent all ones, fraction 0) denotes +∞. -/
theorem inf_pattern : Ideal.ofBits .f32 0x7F800000#32 = (⊤ : EReal) := Cert.Consts.ofBits_inf

/-- An extended real `x` with `max x (-x) < +∞` is a real number: at `x = +∞` the maximum is `x` itself, at
    `x = -∞` it is `-x = +∞`, and in both cases the strict comparison fails. -/
theorem real_of_abs_lt_inf (x : EReal)
    (h : Ideal.cmp .olt (max x (-x)) (Ideal.ofBits .f32 0x7F800000#32) = 1#1) : ∃ v : ℝ, x = ((v : ℝ) : EReal) := by
  rw [inf_pattern] at h
  induction x using EReal.rec with
  | bot => simp [Ideal.cmp] at h
  | coe v => exact ⟨v, rfl⟩
  | top => simp [Ideal.cmp] at h

/-- One test `all(|x| < +∞)` read back: if the reduction by `and` of the comparisons `|x i| < +∞` over all axes is 1,
    every `x i` is a real number. The reduction being 1 gives a 1 at every index; the comparison at index `i` is the
    scalar comparison of `max (x i) (-(x i))` with the broadcast constant, which is +∞ at every index. -/
theorem reals_of_all {s : Shape} (x : FVec Ideal s .f32)
    (hb : Cert.Pre_finite_inputs_Kernel.S_.BroadcastsInDim s (![] : Fin 0 → Fin s.rank))
    {axes : List (Fin s.rank)} (hr : s.ReducesTo axes Cert.Pre_finite_inputs_Kernel.S_)
    (hu : 0 < Cert.Pre_finite_inputs_Kernel.S_.numel)
    (e : Host.reduce IntOp.andi
          (cmpf .olt (Host.absf x)
            (broadcastInDim s ![] hb (constant (F := Ideal) Cert.Pre_finite_inputs_Kernel.S_ .f32 0x7F800000#32)))
          (constantI Cert.Pre_finite_inputs_Kernel.S_ 1 1#1) hr hu ValueIdx.ix0 = 1#1)
    (i : s.Idx) : ∃ v : ℝ, x i = ((v : ℝ) : EReal) :=
  real_of_abs_lt_inf (x i) (Host.reduce_andi_all _ _ hr hu ValueIdx.ix0 e i)

/-- On every device the three argument buffers hold real numbers only. The precondition at device `c`, read at the one
    index of its scalar result, is a conjunction of three `all` tests; each is read back by `reals_of_all`. -/
theorem reals_of_pre [hPre_finite_inputs_Kernel : Cert.Pre_finite_inputs_Kernel.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ v : ℝ, m ((c.tc : Thread Cert.KernelIdeal.nD Cert.KernelIdeal.τ).loc Cert.KernelIdeal.main_arg0) i = ((v : ℝ) : EReal))
    ∧ (∀ i, ∃ v : ℝ, m ((c.tc : Thread Cert.KernelIdeal.nD Cert.KernelIdeal.τ).loc Cert.KernelIdeal.main_arg1) i = ((v : ℝ) : EReal))
    ∧ (∀ i, ∃ v : ℝ, m ((c.tc : Thread Cert.KernelIdeal.nD Cert.KernelIdeal.τ).loc Cert.KernelIdeal.main_arg2) i = ((v : ℝ) : EReal)) := by
  have e := congrFun (h c) ValueIdx.ix0
  dsimp only [Cert.Pre_finite_inputs_Kernel.fn] at e
  obtain ⟨e01, e2⟩ := IntOp.andi_eq_one.1 e
  obtain ⟨e0, e1⟩ := IntOp.andi_eq_one.1 e01
  exact ⟨fun i => reals_of_all _ _ _ _ e0 i, fun i => reals_of_all _ _ _ _ e1 i, fun i => reals_of_all _ _ _ _ e2 i⟩

/-- info: 'Cert.Finite.reals_of_pre' depends on axioms: [propext, Classical.choice, Quot.sound] -/
#guard_msgs in #print axioms reals_of_pre

end Cert.Finite

end
-- ==== Proof.Bridge.lean ====
/-
  Device `c`'s result block is block `c` of the one-device reference's result.

  The eight devices hold the 2048 columns of the arrays in eight blocks of 256: entry `(r, j)` of device `d`'s block
  is entry `(r, d · 256 + j)` of the whole array, and every column `k` is `(k / 256) · 256 + k % 256`. So the whole
  arrays assembled from the devices' blocks are the reference's arguments, entry by entry. On finite inputs every
  entry is a real number, and there the eight-device reading of layer normalisation equals the one-device reading.
  The kernel's block at `(r, j)` is the eight-device reading at column `c · 256 + j`; block `c` of the reference's
  result at `(r, j)` is the one-device reading at the same column.
-/
import proofs.«900544_g7700000000000545_dist_layernorm_colshard_i_m512_n256_v7x_i8_f32_1_alg».proof.Defs
import proofs.«900544_g7700000000000545_dist_layernorm_colshard_i_m512_n256_v7x_i8_f32_1_alg».proof.Proof.KValue
import proofs.«900544_g7700000000000545_dist_layernorm_colshard_i_m512_n256_v7x_i8_f32_1_alg».proof.Proof.RefValue
import proofs.«900544_g7700000000000545_dist_layernorm_colshard_i_m512_n256_v7x_i8_f32_1_alg».proof.Proof.LnAlgebra
import proofs.«900544_g7700000000000545_dist_layernorm_colshard_i_m512_n256_v7x_i8_f32_1_alg».proof.Proof.Finite
import Idealize.ShloMosaic.Lib.Layout
import Idealize.ShloMosaic.Lib.ValueIdx

noncomputable section

namespace Cert.Bridge

open Idealize.ShloMosaic Idealize.SL.Sem Idealize.ShloMosaic.ValueIdx Idealize.ShloMosaic.TcCoe

/-! ## Blocks of columns, index by index -/

/-- Entry `(r, j)` of block `c` of a 512 × 2048 array cut into eight blocks of 256 columns is the array's entry
    `(r, c · 256 + j)`. -/
theorem idx_block2 (h : Layout.Tiles ⟨2, ![512, 256]⟩ ⟨2, ![512, 2048]⟩ 1 8) (c : Fin 8) (r : Fin 512) (j : Fin 256) :
    h.idx c (ix2 r j) = ix2 r (Cert.LnSpec.col c j) := by
  funext b
  match b with
  | ⟨0, _⟩ => exact Fin.ext rfl
  | ⟨1, _⟩ => exact Fin.ext rfl

/-- Entry `j` of block `c` of a vector of 2048 cut into eight blocks of 256 is the vector's entry `c · 256 + j`. -/
theorem idx_block1 (h : Layout.Tiles ⟨1, ![256]⟩ ⟨1, ![2048]⟩ 0 8) (c : Fin 8) (j : Fin 256) :
    h.idx c (ix1 j) = ix1 (Cert.LnSpec.col c j) := by
  funext b
  match b with
  | ⟨0, _⟩ => exact Fin.ext rfl

/-- The block that holds column `k`, and the column's place in it. -/
abbrev blockOf (k : Fin 2048) : Fin 8 := ⟨k.val / 256, by have := k.isLt; omega⟩
@[inherit_doc blockOf]
abbrev placeOf (k : Fin 2048) : Fin 256 := ⟨k.val % 256, Nat.mod_lt _ (by decide)⟩

/-- Every column is column `k % 256` of block `k / 256`. -/
theorem col_div_mod (k : Fin 2048) : Cert.LnSpec.col (blockOf k) (placeOf k) = k :=
  Fin.ext (by show k.val / 256 * 256 + k.val % 256 = k.val; omega)

/-! ## The bridge -/

/-- The statement over any three whole arrays of which the devices hold the blocks. -/
theorem out_eq_block_of [hPre_finite_inputs_Kernel : Cert.Pre_finite_inputs_Kernel.Facts]
    (m : (ℓ : Loc Cert.KernelIdeal.nD Cert.KernelIdeal.τ Cert.KernelIdeal.sig) → Buf (Elt Ideal) ℓ) (hpre : Cert.Pre_KernelIdeal m)
    (x' : (⟨2, ![512, 2048]⟩ : Shape).Idx → EReal) (g' b' : (⟨1, ![2048]⟩ : Shape).Idx → EReal)
    (hagree : ∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c x'
      ∧ m ((c.tc : Thread Cert.KernelIdeal.nD Cert.KernelIdeal.τ).loc Cert.KernelIdeal.main_arg1) = Layout.block ⟨1, ![256]⟩ ⟨1, ![2048]⟩ 0 8 c g'
      ∧ m ((c.tc : Thread Cert.KernelIdeal.nD Cert.KernelIdeal.τ).loc Cert.KernelIdeal.main_arg2) = Layout.block ⟨1, ![256]⟩ ⟨1, ![2048]⟩ 0 8 c b')
    (c : Dev Cert.KernelIdeal.nD) :
    Cert.KernelIdeal.Proto.outAt (F := Ideal) m c
      = Layout.block ⟨2, ![512, 256]⟩ ⟨2, ![512, 2048]⟩ 1 8 c (Cert.ReferenceIdeal.RefRun.result (F := Ideal) x' g' b') := by
  -- device `d`'s blocks, entry by entry, are the whole arrays' entries at column `d · 256 + j`
  have hX : ∀ (d : Dev Cert.KernelIdeal.nD) (r : Fin 512) (j : Fin 256),
      m ((d.tc : Thread Cert.KernelIdeal.nD Cert.KernelIdeal.τ).loc Cert.KernelIdeal.main_arg0) (ix2 r j) = x' (ix2 r (Cert.LnSpec.col d j)) := by
    intro d r j; rw [(hagree d).1, Layout.block_apply, idx_block2]
  have hG : ∀ (d : Dev Cert.KernelIdeal.nD) (j : Fin 256),
      m ((d.tc : Thread Cert.KernelIdeal.nD Cert.KernelIdeal.τ).loc Cert.KernelIdeal.main_arg1) (ix1 j) = g' (ix1 (Cert.LnSpec.col d j)) := by
    intro d j; rw [(hagree d).2.1, Layout.block_apply, idx_block1]
  have hB : ∀ (d : Dev Cert.KernelIdeal.nD) (j : Fin 256),
      m ((d.tc : Thread Cert.KernelIdeal.nD Cert.KernelIdeal.τ).loc Cert.KernelIdeal.main_arg2) (ix1 j) = b' (ix1 (Cert.LnSpec.col d j)) := by
    intro d j; rw [(hagree d).2.2, Layout.block_apply, idx_block1]
  -- so the arrays assembled from the blocks are the whole arrays
  have wX : Cert.KernelIdeal.KValue.wholeX m = fun r k => x' (ix2 r k) := by
    funext r k
    have e := Cert.KernelIdeal.KValue.wholeX_col m (blockOf k) r (placeOf k)
    rw [col_div_mod] at e
    rw [e, hX, col_div_mod]
  have wG : Cert.KernelIdeal.KValue.wholeG m = fun k => g' (ix1 k) := by
    funext k
    have e := Cert.KernelIdeal.KValue.wholeG_col m (blockOf k) (placeOf k)
    rw [col_div_mod] at e
    rw [e, hG, col_div_mod]
  have wB : Cert.KernelIdeal.KValue.wholeB m = fun k => b' (ix1 k) := by
    funext k
    have e := Cert.KernelIdeal.KValue.wholeB_col m (blockOf k) (placeOf k)
    rw [col_div_mod] at e
    rw [e, hB, col_div_mod]
  -- and every entry of the whole arrays is a real number, being an entry of some device's block
  have rX : ∀ (r : Fin 512) (k : Fin 2048), ∃ v : ℝ, x' (ix2 r k) = ((v : ℝ) : EReal) := by
    intro r k
    obtain ⟨v, hv⟩ := (Cert.Finite.reals_of_pre m hpre (blockOf k)).1
      (ix2 r (placeOf k))
    rw [hX, col_div_mod] at hv
    exact ⟨v, hv⟩
  have rG : ∀ k : Fin 2048, ∃ v : ℝ, g' (ix1 k) = ((v : ℝ) : EReal) := by
    intro k
    obtain ⟨v, hv⟩ := (Cert.Finite.reals_of_pre m hpre (blockOf k)).2.1
      (ix1 (placeOf k))
    rw [hG, col_div_mod] at hv
    exact ⟨v, hv⟩
  have rB : ∀ k : Fin 2048, ∃ v : ℝ, b' (ix1 k) = ((v : ℝ) : EReal) := by
    intro k
    obtain ⟨v, hv⟩ := (Cert.Finite.reals_of_pre m hpre (blockOf k)).2.2
      (ix1 (placeOf k))
    rw [hB, col_div_mod] at hv
    exact ⟨v, hv⟩
  choose x hx using rX
  choose g hg using rG
  choose b hb using rB
  have eX : (fun r k => x' (ix2 r k)) = fun r k => ((x r k : ℝ) : EReal) := funext fun r => funext fun k => hx r k
  have eG : (fun k => g' (ix1 k)) = fun k => ((g k : ℝ) : EReal) := funext hg
  have eB : (fun k => b' (ix1 k)) = fun k => ((b k : ℝ) : EReal) := funext hb
  -- both sides at entry `(r, j)`
  refine funext fun (i : (⟨2, ![512, 256]⟩ : Shape).Idx) => ?_
  obtain ⟨r, j, rfl⟩ : ∃ (r : Fin 512) (j : Fin 256), i = ix2 r j := ⟨i 0, i 1, eq_ix2 i⟩
  rw [Cert.KernelIdeal.KValue.outAt_apply, Layout.block_apply, idx_block2, Cert.ReferenceIdeal.RefValue.result_apply, wX, wG, wB,
    eX, eG, eB]
  exact Cert.LnSpec.kOut_eq_rOut x g b c r (Cert.LnSpec.col c j)

theorem out_eq_block [hPre_finite_inputs_Kernel : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![256]⟩ ⟨1, ![2048]⟩ 0 8 c (m' (((0 : Dev Cert.ReferenceIdeal.nD).tc : Thread Cert.ReferenceIdeal.nD Cert.ReferenceIdeal.τ).loc Cert.ReferenceIdeal.main_arg2)))
    (c : Dev Cert.KernelIdeal.nD) :
    Cert.KernelIdeal.Proto.outAt (F := Ideal) m c
      = Layout.block ⟨2, ![512, 256]⟩ ⟨2, ![512, 2048]⟩ 1 8 c
          (Cert.ReferenceIdeal.RefRun.result (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2))) :=
  out_eq_block_of m hpre _ _ _ hagree c

/-- info: 'Cert.Bridge.out_eq_block' depends on axioms: [propext, Classical.choice, Quot.sound] -/
#guard_msgs in #print axioms out_eq_block

end Cert.Bridge

end
-- ==== Proof.lean ====
/-
  Row-wise layer normalisation of a 512 × 2048 array whose 2048 columns lie on eight devices, 256 on each.

  What the kernel computes. Every device adds up, for each of the 512 rows, its own 256 entries and their squares, and
  sends the two sums to the seven other devices. Once all eight pairs have arrived a device adds them, always in the
  order own, +1, +7, +2, +6, +3, +5, +4 around the ring of eight, and has `S₁ = ∑ x` and `S₂ = ∑ x²` over the whole row.
  From them `μ = S₁ / 2048`, `σ² = S₂ / 2048 - μ²`, `ρ = 1 / √(σ² + ε)`, and for its own columns the device writes
  `(x · γ) · ρ - (μ · ρ) · γ + β`.

  Why this is the one-device layer normalisation `γ · (x - μ) / √(σ² + ε) + β`, `σ²` the centred second moment
  `(∑ (x - μ)²) / 2048`, when floats are read as extended reals with exact operations and the inputs are finite.
  The eight blocks partition the columns and addition of reals is commutative and associative, so the eight partial
  sums added in any order are the sums over all 2048 columns. With `μ` the mean of the row, the mean of the squares
  less `μ²` is the centred second moment, a non-negative real; `ε` is a positive real, so `v = σ² + ε` is a positive real,
  where the square root is the real one and `t / √v = t · (1 / √v)`. Expanding, both expressions are
  `γ · (x - μ) · (√v)⁻¹ + β`. Entry `(r, j)` of device `c`'s block is entry `(r, c · 256 + j)` of the whole array, for
  the arguments as for the result.

  The five statements proved: the kernel, read over machine words and read over the extended reals, and the one-device
  reference each run to the end from finite inputs and leave their arguments as they were; reading the kernel over the
  extended reals replaced no operation of it; and on every device the kernel's result is that device's block of the
  reference's result.
-/
import proofs.«900544_g7700000000000545_dist_layernorm_colshard_i_m512_n256_v7x_i8_f32_1_alg».proof.Defs
import proofs.«900544_g7700000000000545_dist_layernorm_colshard_i_m512_n256_v7x_i8_f32_1_alg».proof.Proof.Gen.Kernel
import proofs.«900544_g7700000000000545_dist_layernorm_colshard_i_m512_n256_v7x_i8_f32_1_alg».proof.Proof.Gen.Kernel.Skeleton
import proofs.«900544_g7700000000000545_dist_layernorm_colshard_i_m512_n256_v7x_i8_f32_1_alg».proof.Proof.Gen.Kernel.Launch
import proofs.«900544_g7700000000000545_dist_layernorm_colshard_i_m512_n256_v7x_i8_f32_1_alg».proof.Proof.Gen.Kernel.Points
import proofs.«900544_g7700000000000545_dist_layernorm_colshard_i_m512_n256_v7x_i8_f32_1_alg».proof.Proof.Gen.Kernel.Frame
import proofs.«900544_g7700000000000545_dist_layernorm_colshard_i_m512_n256_v7x_i8_f32_1_alg».proof.Proof.Gen.KernelIdeal
import proofs.«900544_g7700000000000545_dist_layernorm_colshard_i_m512_n256_v7x_i8_f32_1_alg».proof.Proof.Gen.KernelIdeal.Skeleton
import proofs.«900544_g7700000000000545_dist_layernorm_colshard_i_m512_n256_v7x_i8_f32_1_alg».proof.Proof.Gen.KernelIdeal.Launch
import proofs.«900544_g7700000000000545_dist_layernorm_colshard_i_m512_n256_v7x_i8_f32_1_alg».proof.Proof.Gen.KernelIdeal.Points
import proofs.«900544_g7700000000000545_dist_layernorm_colshard_i_m512_n256_v7x_i8_f32_1_alg».proof.Proof.Gen.KernelIdeal.Frame
import proofs.«900544_g7700000000000545_dist_layernorm_colshard_i_m512_n256_v7x_i8_f32_1_alg».proof.Proof.Gen.ReferenceIdeal
import proofs.«900544_g7700000000000545_dist_layernorm_colshard_i_m512_n256_v7x_i8_f32_1_alg».proof.Proof.Gen.Pre_finite_inputs_Kernel
import proofs.«900544_g7700000000000545_dist_layernorm_colshard_i_m512_n256_v7x_i8_f32_1_alg».proof.Proof.Gen.Pre_finite_inputs_ReferenceIdeal
import proofs.«900544_g7700000000000545_dist_layernorm_colshard_i_m512_n256_v7x_i8_f32_1_alg».proof.Proof.Launch
import proofs.«900544_g7700000000000545_dist_layernorm_colshard_i_m512_n256_v7x_i8_f32_1_alg».proof.Proof.Bits.Launch
import proofs.«900544_g7700000000000545_dist_layernorm_colshard_i_m512_n256_v7x_i8_f32_1_alg».proof.Proof.RefRun
import proofs.«900544_g7700000000000545_dist_layernorm_colshard_i_m512_n256_v7x_i8_f32_1_alg».proof.Proof.Bridge
import Idealize.ShloMosaic.Adequacy
import Idealize.ShloMosaic.Init

noncomputable section

namespace Cert.Proof

open Idealize.ShloMosaic Idealize.SL.Sem

/-- The kernel over machine words runs to the end from finite inputs, its arguments unchanged: its run with the result's
    value dropped. -/
theorem frame_Kernel [hKernel : Cert.Kernel.Facts] [hPre_finite_inputs_Kernel : Cert.Pre_finite_inputs_Kernel.Facts] :
    Cert.frame_Kernel :=
  fun m g _ => (θ_run (Cert.Kernel.defs (F := Bits)) _ _).mono (fun _ h c => (h c).2)
    (Cert.Kernel.Proto.kernel_run (F := Bits) m g)

/-- The same over the extended reals. -/
theorem frame_KernelIdeal [hKernelIdeal : Cert.KernelIdeal.Facts] [hPre_finite_inputs_Kernel : Cert.Pre_finite_inputs_Kernel.Facts] :
    Cert.frame_KernelIdeal :=
  fun m g _ => (θ_run (Cert.KernelIdeal.defs (F := Ideal)) _ _).mono (fun _ h c => (h c).2)
    (Cert.KernelIdeal.Proto.kernel_run (F := Ideal) m g)

/-- The one-device reference runs to the end from any memory, its arguments unchanged. -/
theorem frame_ReferenceIdeal [hReferenceIdeal : Cert.ReferenceIdeal.Facts]
    [hPre_finite_inputs_ReferenceIdeal : Cert.Pre_finite_inputs_ReferenceIdeal.Facts] : Cert.frame_ReferenceIdeal :=
  fun m g _ => (θ_run (Cert.ReferenceIdeal.defs (F := Ideal)) _ _).mono (fun _ h c => (h c).2)
    (Cert.ReferenceIdeal.RefRun.run (F := Ideal) m g)

/-- On every device the kernel's result is that device's block of the reference's result, the reference's result being
    the composed term of its operations at its three whole arrays; all arguments end unchanged. -/
theorem algebraic [hKernelIdeal : Cert.KernelIdeal.Facts] [hReferenceIdeal : Cert.ReferenceIdeal.Facts]
    [hPre_finite_inputs_Kernel : Cert.Pre_finite_inputs_Kernel.Facts] : Cert.algebraic_KernelIdeal_ReferenceIdeal :=
  fun m g m' g' hpre hagree =>
    ⟨Cert.ReferenceIdeal.RefRun.result (F := Ideal)
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2)),
      (θ_run (Cert.KernelIdeal.defs (F := Ideal)) _ _).mono
        (fun _ h c => ⟨(h c).1.trans (Cert.Bridge.out_eq_block m m' hpre hagree c), (h c).2⟩)
        (Cert.KernelIdeal.Proto.kernel_run (F := Ideal) m g),
      (θ_run (Cert.ReferenceIdeal.defs (F := Ideal)) _ _).mono (fun _ h => h 0)
        (Cert.ReferenceIdeal.RefRun.run (F := Ideal) m' g')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

/-- info: 'Cert.Proof.claim' depends on axioms: [propext, Classical.choice, Quot.sound] -/
#guard_msgs in #print axioms claim

end Cert.Proof

end
